-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v42) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v294) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S4x64x64 : Shape := ⟨3, ![4, 64, 64]⟩
abbrev S4x64 : Shape := ⟨2, ![4, 64]⟩
abbrev S192x64 : Shape := ⟨2, ![192, 64]⟩
abbrev S192 : Shape := ⟨1, ![192]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S4x64x64 : S_.BroadcastsInDim S4x64x64 (![] : Fin 0 → Fin S4x64x64.rank)
  reducesTo_S4x64x64_S_d0_1_2 : S4x64x64.ReducesTo [0, 1, 2] S_
  bcast_S_S4x64 : S_.BroadcastsInDim S4x64 (![] : Fin 0 → Fin S4x64.rank)
  reducesTo_S4x64_S_d0_1 : S4x64.ReducesTo [0, 1] S_
  bcast_S_S192x64 : S_.BroadcastsInDim S192x64 (![] : Fin 0 → Fin S192x64.rank)
  reducesTo_S192x64_S_d0_1 : S192x64.ReducesTo [0, 1] S_
  bcast_S_S192 : S_.BroadcastsInDim S192 (![] : Fin 0 → Fin S192.rank)
  reducesTo_S192_S_d0 : S192.ReducesTo [0] S_
  bcast_S_S800000 : S_.BroadcastsInDim S800000 (![] : Fin 0 → Fin S800000.rank)
  reducesTo_S800000_S_d0 : S800000.ReducesTo [0] S_

variable [Facts]

def fn_part2 {F : FTy → Type} [FloatOps F] (main_arg7 : IVec S800000 32) (main_arg9 : IVec S800000 32) (main_v33 : IVec S_ 1) : IVec S_ 1 :=
  let main_c_12 : IVec S_ 32 := constantI S_ 32 0#32
  let main_v34 : IVec S800000 32 := broadcastInDim S800000 ![] bcast_S_S800000 main_c_12
  let main_v35 : IVec S800000 1 := cmpi .sge main_arg7 main_v34
  let main_c_13 : IVec S_ 32 := constantI S_ 32 50000#32
  let main_v36 : IVec S800000 32 := broadcastInDim S800000 ![] bcast_S_S800000 main_c_13
  let main_v37 : IVec S800000 1 := cmpi .slt main_arg7 main_v36
  let main_v38 : IVec S800000 1 := andi main_v35 main_v37
  let main_c_14 : IVec S_ 1 := constantI S_ 1 1#1
  let main_v39 : IVec S_ 1 := (fun x v => Host.reduce IntOp.andi x v reducesTo_S800000_S_d0 h_S_) main_v38 main_c_14
  let main_v40 : IVec S_ 1 := andi main_v33 main_v39
  let main_c_15 : IVec S_ 32 := constantI S_ 32 0#32
  let main_v41 : IVec S800000 32 := broadcastInDim S800000 ![] bcast_S_S800000 main_c_15
  let main_v42 : IVec S800000 1 := cmpi .sge main_arg9 main_v41
  let main_c_16 : IVec S_ 32 := constantI S_ 32 4#32
  let main_v43 : IVec S800000 32 := broadcastInDim S800000 ![] bcast_S_S800000 main_c_16
  let main_v44 : IVec S800000 1 := cmpi .slt main_arg9 main_v43
  let main_v45 : IVec S800000 1 := andi main_v42 main_v44
  let main_c_17 : IVec S_ 1 := constantI S_ 1 1#1
  let main_v46 : IVec S_ 1 := (fun x v => Host.reduce IntOp.andi x v reducesTo_S800000_S_d0 h_S_) main_v45 main_c_17
  let main_v47 : IVec S_ 1 := andi main_v40 main_v46
  main_v47

def fn_part1 {F : FTy → Type} [FloatOps F] (main_arg4 : FVec F S192x64 .f32) (main_arg5 : FVec F S192 .f32) (main_arg6 : FVec F S192 .f32) (main_arg7 : IVec S800000 32) (main_arg9 : IVec S800000 32) (main_v13 : IVec S_ 1) (main_v16 : IVec S192x64 1) : IVec S_ 1 :=
  let main_c_5 : IVec S_ 1 := constantI S_ 1 1#1
  let main_v17 : IVec S_ 1 := (fun x v => Host.reduce IntOp.andi x v reducesTo_S192x64_S_d0_1 h_S_) main_v16 main_c_5
  let main_v18 : IVec S_ 1 := andi main_v13 main_v17
  let main_v19 : FVec F S192x64 .f32 := Host.absf main_arg4
  let main_cst_6 : FVec F S_ .f32 := constant S_ .f32 0x7F800000#32
  let main_v20 : FVec F S192x64 .f32 := broadcastInDim S192x64 ![] bcast_S_S192x64 main_cst_6
  let main_v21 : IVec S192x64 1 := cmpf .olt main_v19 main_v20
  let main_c_7 : IVec S_ 1 := constantI S_ 1 1#1
  let main_v22 : IVec S_ 1 := (fun x v => Host.reduce IntOp.andi x v reducesTo_S192x64_S_d0_1 h_S_) main_v21 main_c_7
  let main_v23 : IVec S_ 1 := andi main_v18 main_v22
  let main_v24 : FVec F S192 .f32 := Host.absf main_arg5
  let main_cst_8 : FVec F S_ .f32 := constant S_ .f32 0x7F800000#32
  let main_v25 : FVec F S192 .f32 := broadcastInDim S192 ![] bcast_S_S192 main_cst_8
  let main_v26 : IVec S192 1 := cmpf .olt main_v24 main_v25
  let main_c_9 : IVec S_ 1 := constantI S_ 1 1#1
  let main_v27 : IVec S_ 1 := (fun x v => Host.reduce IntOp.andi x v reducesTo_S192_S_d0 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg9 main_v33

def fn {F : FTy → Type} [FloatOps F] (main_arg0 : FVec F S50000x64 .f32) (main_arg1 : FVec F S4x64x64 .f32) (main_arg2 : FVec F S4x64 .f32) (main_arg3 : FVec F S192x64 .f32) (main_arg4 : FVec F S192x64 .f32) (main_arg5 : FVec F S192 .f32) (main_arg6 : FVec F S192 .f32) (main_arg7 : IVec S800000 32) (main_arg8 : IVec S800000 32) (main_arg9 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S4x64x64 .f32 := Host.absf main_arg1
  let main_cst_0 : FVec F S_ .f32 := constant S_ .f32 0x7F800000#32
  let main_v5 : FVec F S4x64x64 .f32 := broadcastInDim S4x64x64 ![] bcast_S_S4x64x64 main_cst_0
  let main_v6 : IVec S4x64x64 1 := cmpf .olt main_v4 main_v5
  let main_c_1 : IVec S_ 1 := constantI S_ 1 1#1
  let main_v7 : IVec S_ 1 := (fun x v => Host.reduce IntOp.andi x v reducesTo_S4x64x64_S_d0_1_2 h_S_) main_v6 main_c_1
  let main_v8 : IVec S_ 1 := andi main_v3 main_v7
  let main_v9 : FVec F S4x64 .f32 := Host.absf main_arg2
  let main_cst_2 : FVec F S_ .f32 := constant S_ .f32 0x7F800000#32
  let main_v10 : FVec F S4x64 .f32 := broadcastInDim S4x64 ![] bcast_S_S4x64 main_cst_2
  let main_v11 : IVec S4x64 1 := cmpf .olt main_v9 main_v10
  let main_c_3 : IVec S_ 1 := constantI S_ 1 1#1
  let main_v12 : IVec S_ 1 := (fun x v => Host.reduce IntOp.andi x v reducesTo_S4x64_S_d0_1 h_S_) main_v11 main_c_3
  let main_v13 : IVec S_ 1 := andi main_v8 main_v12
  let main_v14 : FVec F S192x64 .f32 := Host.absf main_arg3
  let main_cst_4 : FVec F S_ .f32 := constant S_ .f32 0x7F800000#32
  let main_v15 : FVec F S192x64 .f32 := broadcastInDim S192x64 ![] bcast_S_S192x64 main_cst_4
  let main_v16 : IVec S192x64 1 := cmpf .olt main_v14 main_v15
  fn_part1 (F := F) main_arg4 main_arg5 main_arg6 main_arg7 main_arg9 main_v13 main_v16
-- ==== Kernel.lean ====
abbrev S50000x64 : Shape := ⟨2, ![50000, 64]⟩
abbrev S4x64x64 : Shape := ⟨3, ![4, 64, 64]⟩
abbrev S4x64 : Shape := ⟨2, ![4, 64]⟩
abbrev S192x64 : Shape := ⟨2, ![192, 64]⟩
abbrev S192 : Shape := ⟨1, ![192]⟩
abbrev S800000 : Shape := ⟨1, ![800000]⟩
abbrev S256x64 : Shape := ⟨2, ![256, 64]⟩
abbrev S64x256 : Shape := ⟨2, ![64, 256]⟩
abbrev S256 : Shape := ⟨1, ![256]⟩
abbrev S64x192 : Shape := ⟨2, ![64, 192]⟩
abbrev S_ : Shape := ⟨0, ![]⟩
abbrev S50000x256 : Shape := ⟨2, ![50000, 256]⟩
abbrev S5000x64 : Shape := ⟨2, ![5000, 64]⟩
abbrev S5000x256 : Shape := ⟨2, ![5000, 256]⟩
abbrev S1x256 : Shape := ⟨2, ![1, 256]⟩
abbrev S200000x64 : Shape := ⟨2, ![200000, 64]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S5000x192 : Shape := ⟨2, ![5000, 192]⟩
abbrev S1x192 : Shape := ⟨2, ![1, 192]⟩

abbrev nBuf : Space → Nat
  | .hbm => 169
  | .vmem => 80
  | .smem => 0
  | _ => 0

abbrev hbmTy0_0 (i : Nat) : BufTy := match i % 128 with
  | 0 => ⟨S50000x64, .f32⟩
  | 1 => ⟨S4x64x64, .f32⟩
  | 2 => ⟨S4x64, .f32⟩
  | 3 => ⟨S192x64, .f32⟩
  | 4 => ⟨S192x64, .f32⟩
  | 5 => ⟨S192, .f32⟩
  | 6 => ⟨S192, .f32⟩
  | 7 => ⟨S800000, .i32⟩
  | 8 => ⟨S800000, .i32⟩
  | 9 => ⟨S800000, .i32⟩
  | 10 => ⟨S256x64, .f32⟩
  | 11 => ⟨S64x256, .f32⟩
  | 12 => ⟨S256, .f32⟩
  | 13 => ⟨S64x192, .f32⟩
  | 14 => ⟨S64x192, .f32⟩
  | 15 => ⟨S_, .i32⟩
  | 16 => ⟨S800000, .i32⟩
  | 17 => ⟨S800000, .i32⟩
  | 18 => ⟨S800000, .i32⟩
  | 19 => ⟨S50000x256, .f32⟩
  | 20 => ⟨S200000x64, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S1, .i32⟩
  | 30 => ⟨S_, .i32⟩
  | 31 => ⟨S800000x1, .i32⟩
  | 32 => ⟨S800000x1, .i1⟩
  | 33 => ⟨S1x1, .i32⟩
  | 34 => ⟨S800000x1, .i32⟩
  | 35 => ⟨S800000x1, .i1⟩
  | 36 => ⟨S800000x1, .i1⟩
  | 37 => ⟨S_, .i1⟩
  | 38 => ⟨S800000, .i1⟩
  | 39 => ⟨S800000x64, .f32⟩
  | 40 => ⟨S800000x64, .i1⟩
  | 41 => ⟨S_, .f32⟩
  | 42 => ⟨S800000x64, .f32⟩
  | 43 => ⟨S800000x64, .f32⟩
  | 44 => ⟨S_, .f32⟩
  | 45 => ⟨S50000x64, .f32⟩
  | 46 => ⟨S800000x1, .i32⟩
  | 47 => ⟨S50000x64, .f32⟩
  | 48 => ⟨S50000x64, .f32⟩
  | 49 => ⟨S50000x256, .f32⟩
  | 50 => ⟨S200000x64, .f32⟩
  | 51 => ⟨S_, .i32⟩
  | 52 => ⟨S800000, .i32⟩
  | 53 => ⟨S800000, .i1⟩
  | 54 => ⟨S_, .i32⟩
  | 55 => ⟨S800000, .i32⟩
  | 56 => ⟨S800000, .i32⟩
  | 57 => ⟨S800000, .i32⟩
  | 58 => ⟨S800000x1, .i32⟩
  | 59 => ⟨S1, .i32⟩
  | 60 => ⟨S_, .i32⟩
  | 61 => ⟨S800000x1, .i32⟩
  | 62 => ⟨S800000x1, .i1⟩
  | 63 => ⟨S1x1, .i32⟩
  | 64 => ⟨S800000x1, .i32⟩
  | 65 => ⟨S800000x1, .i1⟩
  | 66 => ⟨S800000x1, .i1⟩
  | 67 => ⟨S_, .i1⟩
  | 68 => ⟨S800000, .i1⟩
  | 69 => ⟨S800000x64, .f32⟩
  | 70 => ⟨S800000x64, .i1⟩
  | 71 => ⟨S_, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S50000x64, .f32⟩
  | 79 => ⟨S50000x256, .f32⟩
  | 80 => ⟨S200000x64, .f32⟩
  | 81 => ⟨S_, .i32⟩
  | 82 => ⟨S800000, .i32⟩
  | 83 => ⟨S800000, .i1⟩
  | 84 => ⟨S_, .i32⟩
  | 85 => ⟨S800000, .i32⟩
  | 86 => ⟨S800000, .i32⟩
  | 87 => ⟨S800000, .i32⟩
  | 88 => ⟨S800000x1, .i32⟩
  | 89 => ⟨S1, .i32⟩
  | 90 => ⟨S_, .i32⟩
  | 91 => ⟨S800000x1, .i32⟩
  | 92 => ⟨S800000x1, .i1⟩
  | 93 => ⟨S1x1, .i32⟩
  | 94 => ⟨S800000x1, .i32⟩
  | 95 => ⟨S800000x1, .i1⟩
  | 96 => ⟨S800000x1, .i1⟩
  | 97 => ⟨S_, .i1⟩
  | 98 => ⟨S800000, .i1⟩
  | 99 => ⟨S800000x64, .f32⟩
  | 100 => ⟨S800000x64, .i1⟩
  | 101 => ⟨S_, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000x64, .f32⟩
  | 109 => ⟨S50000x256, .f32⟩
  | 110 => ⟨S200000x64, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S1, .i32⟩
  | 120 => ⟨S_, .i32⟩
  | 121 => ⟨S800000x1, .i32⟩
  | 122 => ⟨S800000x1, .i1⟩
  | 123 => ⟨S1x1, .i32⟩
  | 124 => ⟨S800000x1, .i32⟩
  | 125 => ⟨S800000x1, .i1⟩
  | 126 => ⟨S800000x1, .i1⟩
  | 127 => ⟨S_, .i1⟩
  | _ => ⟨S50000x64, .f32⟩

abbrev hbmTy0_1 (i : Nat) : BufTy := match i % 128 with
  | 0 => ⟨S800000, .i1⟩
  | 1 => ⟨S800000x64, .f32⟩
  | 2 => ⟨S800000x64, .i1⟩
  | 3 => ⟨S_, .f32⟩
  | 4 => ⟨S800000x64, .f32⟩
  | 5 => ⟨S800000x64, .f32⟩
  | 6 => ⟨S_, .f32⟩
  | 7 => ⟨S50000x64, .f32⟩
  | 8 => ⟨S800000x1, .i32⟩
  | 9 => ⟨S50000x64, .f32⟩
  | 10 => ⟨S50000x64, .f32⟩
  | 11 => ⟨S50000x256, .f32⟩
  | 12 => ⟨S200000x64, .f32⟩
  | 13 => ⟨S_, .i32⟩
  | 14 => ⟨S800000, .i32⟩
  | 15 => ⟨S800000, .i1⟩
  | 16 => ⟨S_, .i32⟩
  | 17 => ⟨S800000, .i32⟩
  | 18 => ⟨S800000, .i32⟩
  | 19 => ⟨S800000, .i32⟩
  | 20 => ⟨S800000x1, .i32⟩
  | 21 => ⟨S1, .i32⟩
  | 22 => ⟨S_, .i32⟩
  | 23 => ⟨S800000x1, .i32⟩
  | 24 => ⟨S800000x1, .i1⟩
  | 25 => ⟨S1x1, .i32⟩
  | 26 => ⟨S800000x1, .i32⟩
  | 27 => ⟨S800000x1, .i1⟩
  | 28 => ⟨S800000x1, .i1⟩
  | 29 => ⟨S_, .i1⟩
  | 30 => ⟨S800000, .i1⟩
  | 31 => ⟨S800000x64, .f32⟩
  | 32 => ⟨S800000x64, .i1⟩
  | 33 => ⟨S_, .f32⟩
  | 34 => ⟨S800000x64, .f32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S5000x64, .f32⟩
  | .local _ .vmem, ⟨1, _⟩ => ⟨S5000x64, .f32⟩
  | .local _ .vmem, ⟨2, _⟩ => ⟨S64x256, .f32⟩
  | .local _ .vmem, ⟨3, _⟩ => ⟨S256, .f32⟩
  | .local _ .vmem, ⟨4, _⟩ => ⟨S5000x256, .f32⟩
  | .local _ .vmem, ⟨5, _⟩ => ⟨S5000x256, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S64x192, .f32⟩
  | .local _ .vmem, ⟨11, _⟩ => ⟨S64x192, .f32⟩
  | .local _ .vmem, ⟨12, _⟩ => ⟨S192, .f32⟩
  | .local _ .vmem, ⟨13, _⟩ => ⟨S192, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S5000x64, .f32⟩
  | .local _ .vmem, ⟨18, _⟩ => ⟨S64x256, .f32⟩
  | .local _ .vmem, ⟨19, _⟩ => ⟨S256, .f32⟩
  | .local _ .vmem, ⟨20, _⟩ => ⟨S5000x256, .f32⟩
  | .local _ .vmem, ⟨21, _⟩ => ⟨S5000x256, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S64x192, .f32⟩
  | .local _ .vmem, ⟨27, _⟩ => ⟨S64x192, .f32⟩
  | .local _ .vmem, ⟨28, _⟩ => ⟨S192, .f32⟩
  | .local _ .vmem, ⟨29, _⟩ => ⟨S192, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S64x256, .f32⟩
  | .local _ .vmem, ⟨35, _⟩ => ⟨S256, .f32⟩
  | .local _ .vmem, ⟨36, _⟩ => ⟨S5000x256, .f32⟩
  | .local _ .vmem, ⟨37, _⟩ => ⟨S5000x256, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S64x192, .f32⟩
  | .local _ .vmem, ⟨43, _⟩ => ⟨S64x192, .f32⟩
  | .local _ .vmem, ⟨44, _⟩ => ⟨S192, .f32⟩
  | .local _ .vmem, ⟨45, _⟩ => ⟨S192, .f32⟩
  | .local _ .vmem, ⟨46, _⟩ => ⟨S5000x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S64x256, .f32⟩
  | .local _ .vmem, ⟨51, _⟩ => ⟨S256, .f32⟩
  | .local _ .vmem, ⟨52, _⟩ => ⟨S5000x256, .f32⟩
  | .local _ .vmem, ⟨53, _⟩ => ⟨S5000x256, .f32⟩
  | .local _ .vmem, ⟨54, _⟩ => ⟨S5000x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S64x192, .f32⟩
  | .local _ .vmem, ⟨59, _⟩ => ⟨S64x192, .f32⟩
  | .local _ .vmem, ⟨60, _⟩ => ⟨S192, .f32⟩
  | .local _ .vmem, ⟨61, _⟩ => ⟨S192, .f32⟩
  | .local _ .vmem, ⟨62, _⟩ => ⟨S5000x64, .f32⟩
  | .local _ .vmem, ⟨63, _⟩ => ⟨S5000x64, .f32⟩
  | .local _ .vmem, ⟨64, _⟩ => ⟨S5000x64, .f32⟩
  | .local _ .vmem, ⟨65, _⟩ => ⟨S5000x64, .f32⟩
  | .local _ .vmem, ⟨66, _⟩ => ⟨S64x256, .f32⟩
  | .local _ .vmem, ⟨67, _⟩ => ⟨S256, .f32⟩
  | .local _ .vmem, ⟨68, _⟩ => ⟨S5000x256, .f32⟩
  | .local _ .vmem, ⟨69, _⟩ => ⟨S5000x256, .f32⟩
  | .local _ .vmem, ⟨70, _⟩ => ⟨S5000x64, .f32⟩
  | .local _ .vmem, ⟨71, _⟩ => ⟨S5000x64, .f32⟩
  | .local _ .vmem, ⟨72, _⟩ => ⟨S5000x64, .f32⟩
  | .local _ .vmem, ⟨73, _⟩ => ⟨S5000x64, .f32⟩
  | .local _ .vmem, ⟨74, _⟩ => ⟨S64x192, .f32⟩
  | .local _ .vmem, ⟨75, _⟩ => ⟨S64x192, .f32⟩
  | .local _ .vmem, ⟨76, _⟩ => ⟨S192, .f32⟩
  | .local _ .vmem, ⟨77, _⟩ => ⟨S192, .f32⟩
  | .local _ .vmem, ⟨78, _⟩ => ⟨S5000x64, .f32⟩
  | .local _ .vmem, ⟨79, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_call0_c : Ref sig .tc := ⟨.hbm, 21, rfl⟩
abbrev main_call0_v0 : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_c_1 : Ref sig .tc := ⟨.hbm, 29, rfl⟩
abbrev main_call0_c_2 : Ref sig .tc := ⟨.hbm, 30, rfl⟩
abbrev main_call0_v6 : Ref sig .tc := ⟨.hbm, 31, rfl⟩
abbrev main_call0_v7 : Ref sig .tc := ⟨.hbm, 32, rfl⟩
abbrev main_call0_v8 : Ref sig .tc := ⟨.hbm, 33, rfl⟩
abbrev main_call0_v9 : Ref sig .tc := ⟨.hbm, 34, rfl⟩
abbrev main_call0_v10 : Ref sig .tc := ⟨.hbm, 35, rfl⟩
abbrev main_call0_v11 : Ref sig .tc := ⟨.hbm, 36, rfl⟩
abbrev main_call0_c_3 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_call0_cst : Ref sig .tc := ⟨.hbm, 41, rfl⟩
abbrev main_call0_v15 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_call1_c : Ref sig .tc := ⟨.hbm, 51, rfl⟩
abbrev main_call1_v0 : Ref sig .tc := ⟨.hbm, 52, rfl⟩
abbrev main_call1_v1 : Ref sig .tc := ⟨.hbm, 53, rfl⟩
abbrev main_call1_c_0 : Ref sig .tc := ⟨.hbm, 54, rfl⟩
abbrev main_call1_v2 : Ref sig .tc := ⟨.hbm, 55, rfl⟩
abbrev main_call1_v3 : Ref sig .tc := ⟨.hbm, 56, rfl⟩
abbrev main_call1_v4 : Ref sig .tc := ⟨.hbm, 57, rfl⟩
abbrev main_call1_v5 : Ref sig .tc := ⟨.hbm, 58, rfl⟩
abbrev main_call1_c_1 : Ref sig .tc := ⟨.hbm, 59, rfl⟩
abbrev main_call1_c_2 : Ref sig .tc := ⟨.hbm, 60, rfl⟩
abbrev main_call1_v6 : Ref sig .tc := ⟨.hbm, 61, rfl⟩
abbrev main_call1_v7 : Ref sig .tc := ⟨.hbm, 62, rfl⟩
abbrev main_call1_v8 : Ref sig .tc := ⟨.hbm, 63, rfl⟩
abbrev main_call1_v9 : Ref sig .tc := ⟨.hbm, 64, rfl⟩
abbrev main_call1_v10 : Ref sig .tc := ⟨.hbm, 65, rfl⟩
abbrev main_call1_v11 : Ref sig .tc := ⟨.hbm, 66, rfl⟩
abbrev main_call1_c_3 : Ref sig .tc := ⟨.hbm, 67, rfl⟩
abbrev main_call1_v12 : Ref sig .tc := ⟨.hbm, 68, rfl⟩
abbrev main_call1_v13 : Ref sig .tc := ⟨.hbm, 69, rfl⟩
abbrev main_call1_v14 : Ref sig .tc := ⟨.hbm, 70, rfl⟩
abbrev main_call1_cst : Ref sig .tc := ⟨.hbm, 71, rfl⟩
abbrev main_call1_v15 : Ref sig .tc := ⟨.hbm, 72, rfl⟩
abbrev main_v17 : Ref sig .tc := ⟨.hbm, 73, rfl⟩
abbrev main_cst_0 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_call2_c : Ref sig .tc := ⟨.hbm, 81, rfl⟩
abbrev main_call2_v0 : Ref sig .tc := ⟨.hbm, 82, rfl⟩
abbrev main_call2_v1 : Ref sig .tc := ⟨.hbm, 83, rfl⟩
abbrev main_call2_c_0 : Ref sig .tc := ⟨.hbm, 84, rfl⟩
abbrev main_call2_v2 : Ref sig .tc := ⟨.hbm, 85, rfl⟩
abbrev main_call2_v3 : Ref sig .tc := ⟨.hbm, 86, rfl⟩
abbrev main_call2_v4 : Ref sig .tc := ⟨.hbm, 87, rfl⟩
abbrev main_call2_v5 : Ref sig .tc := ⟨.hbm, 88, rfl⟩
abbrev main_call2_c_1 : Ref sig .tc := ⟨.hbm, 89, rfl⟩
abbrev main_call2_c_2 : Ref sig .tc := ⟨.hbm, 90, rfl⟩
abbrev main_call2_v6 : Ref sig .tc := ⟨.hbm, 91, rfl⟩
abbrev main_call2_v7 : Ref sig .tc := ⟨.hbm, 92, rfl⟩
abbrev main_call2_v8 : Ref sig .tc := ⟨.hbm, 93, rfl⟩
abbrev main_call2_v9 : Ref sig .tc := ⟨.hbm, 94, rfl⟩
abbrev main_call2_v10 : Ref sig .tc := ⟨.hbm, 95, rfl⟩
abbrev main_call2_v11 : Ref sig .tc := ⟨.hbm, 96, rfl⟩
abbrev main_call2_c_3 : Ref sig .tc := ⟨.hbm, 97, rfl⟩
abbrev main_call2_v12 : Ref sig .tc := ⟨.hbm, 98, rfl⟩
abbrev main_call2_v13 : Ref sig .tc := ⟨.hbm, 99, rfl⟩
abbrev main_call2_v14 : Ref sig .tc := ⟨.hbm, 100, rfl⟩
abbrev main_call2_cst : Ref sig .tc := ⟨.hbm, 101, rfl⟩
abbrev main_call2_v15 : Ref sig .tc := ⟨.hbm, 102, rfl⟩
abbrev main_v24 : Ref sig .tc := ⟨.hbm, 103, rfl⟩
abbrev main_cst_1 : Ref sig .tc := ⟨.hbm, 104, rfl⟩
abbrev main_v25 : Ref sig .tc := ⟨.hbm, 105, rfl⟩
abbrev main_v26 : Ref sig .tc := ⟨.hbm, 106, rfl⟩
abbrev main_v27 : Ref sig .tc := ⟨.hbm, 107, rfl⟩
abbrev main_v28 : Ref sig .tc := ⟨.hbm, 108, rfl⟩
abbrev main_v29 : Ref sig .tc := ⟨.hbm, 109, rfl⟩
abbrev main_v30 : Ref sig .tc := ⟨.hbm, 110, rfl⟩
abbrev main_call3_c : Ref sig .tc := ⟨.hbm, 111, rfl⟩
abbrev main_call3_v0 : Ref sig .tc := ⟨.hbm, 112, rfl⟩
abbrev main_call3_v1 : Ref sig .tc := ⟨.hbm, 113, rfl⟩
abbrev main_call3_c_0 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_c_1 : Ref sig .tc := ⟨.hbm, 119, rfl⟩
abbrev main_call3_c_2 : Ref sig .tc := ⟨.hbm, 120, rfl⟩
abbrev main_call3_v6 : Ref sig .tc := ⟨.hbm, 121, rfl⟩
abbrev main_call3_v7 : Ref sig .tc := ⟨.hbm, 122, rfl⟩
abbrev main_call3_v8 : Ref sig .tc := ⟨.hbm, 123, rfl⟩
abbrev main_call3_v9 : Ref sig .tc := ⟨.hbm, 124, rfl⟩
abbrev main_call3_v10 : Ref sig .tc := ⟨.hbm, 125, rfl⟩
abbrev main_call3_v11 : Ref sig .tc := ⟨.hbm, 126, rfl⟩
abbrev main_call3_c_3 : Ref sig .tc := ⟨.hbm, 127, rfl⟩
abbrev main_call3_v12 : Ref sig .tc := ⟨.hbm, 128, rfl⟩
abbrev main_call3_v13 : Ref sig .tc := ⟨.hbm, 129, rfl⟩
abbrev main_call3_v14 : Ref sig .tc := ⟨.hbm, 130, rfl⟩
abbrev main_call3_cst : Ref sig .tc := ⟨.hbm, 131, rfl⟩
abbrev main_call3_v15 : Ref sig .tc := ⟨.hbm, 132, rfl⟩
abbrev main_v31 : Ref sig .tc := ⟨.hbm, 133, rfl⟩
abbrev main_cst_2 : Ref sig .tc := ⟨.hbm, 134, rfl⟩
abbrev main_v32 : Ref sig .tc := ⟨.hbm, 135, rfl⟩
abbrev main_v33 : Ref sig .tc := ⟨.hbm, 136, rfl⟩
abbrev main_v34 : Ref sig .tc := ⟨.hbm, 137, rfl⟩
abbrev main_v35 : Ref sig .tc := ⟨.hbm, 138, rfl⟩
abbrev main_v36 : Ref sig .tc := ⟨.hbm, 139, rfl⟩
abbrev main_v37 : Ref sig .tc := ⟨.hbm, 140, rfl⟩
abbrev main_call4_c : Ref sig .tc := ⟨.hbm, 141, rfl⟩
abbrev main_call4_v0 : Ref sig .tc := ⟨.hbm, 142, rfl⟩
abbrev main_call4_v1 : Ref sig .tc := ⟨.hbm, 143, rfl⟩
abbrev main_call4_c_0 : Ref sig .tc := ⟨.hbm, 144, rfl⟩
abbrev main_call4_v2 : Ref sig .tc := ⟨.hbm, 145, rfl⟩
abbrev main_call4_v3 : Ref sig .tc := ⟨.hbm, 146, rfl⟩
abbrev main_call4_v4 : Ref sig .tc := ⟨.hbm, 147, rfl⟩
abbrev main_call4_v5 : Ref sig .tc := ⟨.hbm, 148, rfl⟩
abbrev main_call4_c_1 : Ref sig .tc := ⟨.hbm, 149, rfl⟩
abbrev main_call4_c_2 : Ref sig .tc := ⟨.hbm, 150, rfl⟩
abbrev main_call4_v6 : Ref sig .tc := ⟨.hbm, 151, rfl⟩
abbrev main_call4_v7 : Ref sig .tc := ⟨.hbm, 152, rfl⟩
abbrev main_call4_v8 : Ref sig .tc := ⟨.hbm, 153, rfl⟩
abbrev main_call4_v9 : Ref sig .tc := ⟨.hbm, 154, rfl⟩
abbrev main_call4_v10 : Ref sig .tc := ⟨.hbm, 155, rfl⟩
abbrev main_call4_v11 : Ref sig .tc := ⟨.hbm, 156, rfl⟩
abbrev main_call4_c_3 : Ref sig .tc := ⟨.hbm, 157, rfl⟩
abbrev main_call4_v12 : Ref sig .tc := ⟨.hbm, 158, rfl⟩
abbrev main_call4_v13 : Ref sig .tc := ⟨.hbm, 159, rfl⟩
abbrev main_call4_v14 : Ref sig .tc := ⟨.hbm, 160, rfl⟩
abbrev main_call4_cst : Ref sig .tc := ⟨.hbm, 161, rfl⟩
abbrev main_call4_v15 : Ref sig .tc := ⟨.hbm, 162, rfl⟩
abbrev main_v38 : Ref sig .tc := ⟨.hbm, 163, rfl⟩
abbrev main_cst_3 : Ref sig .tc := ⟨.hbm, 164, rfl⟩
abbrev main_v39 : Ref sig .tc := ⟨.hbm, 165, rfl⟩
abbrev main_v40 : Ref sig .tc := ⟨.hbm, 166, rfl⟩
abbrev main_v41 : Ref sig .tc := ⟨.hbm, 167, rfl⟩
abbrev main_v42 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg6_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg3_0 : Ref sig .tc := ⟨.vmem, 27, rfl⟩
abbrev cc3_stg4_0 : Ref sig .tc := ⟨.vmem, 28, rfl⟩
abbrev cc3_stg5_0 : Ref sig .tc := ⟨.vmem, 29, rfl⟩
abbrev cc3_stg6_0 : Ref sig .tc := ⟨.vmem, 30, rfl⟩
abbrev cc3_stg6_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg3_0 : Ref sig .tc := ⟨.vmem, 36, rfl⟩
abbrev cc4_stg3_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg3_0 : Ref sig .tc := ⟨.vmem, 43, rfl⟩
abbrev cc5_stg4_0 : Ref sig .tc := ⟨.vmem, 44, rfl⟩
abbrev cc5_stg5_0 : Ref sig .tc := ⟨.vmem, 45, rfl⟩
abbrev cc5_stg6_0 : Ref sig .tc := ⟨.vmem, 46, rfl⟩
abbrev cc5_stg6_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc7_stg0_0 : Ref sig .tc := ⟨.vmem, 54, rfl⟩
abbrev cc7_stg0_1 : Ref sig .tc := ⟨.vmem, 55, rfl⟩
abbrev cc7_stg1_0 : Ref sig .tc := ⟨.vmem, 56, rfl⟩
abbrev cc7_stg1_1 : Ref sig .tc := ⟨.vmem, 57, rfl⟩
abbrev cc7_stg2_0 : Ref sig .tc := ⟨.vmem, 58, rfl⟩
abbrev cc7_stg3_0 : Ref sig .tc := ⟨.vmem, 59, rfl⟩
abbrev cc7_stg4_0 : Ref sig .tc := ⟨.vmem, 60, rfl⟩
abbrev cc7_stg5_0 : Ref sig .tc := ⟨.vmem, 61, rfl⟩
abbrev cc7_stg6_0 : Ref sig .tc := ⟨.vmem, 62, rfl⟩
abbrev cc7_stg6_1 : Ref sig .tc := ⟨.vmem, 63, rfl⟩
abbrev cc8_stg0_0 : Ref sig .tc := ⟨.vmem, 64, rfl⟩
abbrev cc8_stg0_1 : Ref sig .tc := ⟨.vmem, 65, rfl⟩
abbrev cc8_stg1_0 : Ref sig .tc := ⟨.vmem, 66, rfl⟩
abbrev cc8_stg2_0 : Ref sig .tc := ⟨.vmem, 67, rfl⟩
abbrev cc8_stg3_0 : Ref sig .tc := ⟨.vmem, 68, rfl⟩
abbrev cc8_stg3_1 : Ref sig .tc := ⟨.vmem, 69, rfl⟩
abbrev cc9_stg0_0 : Ref sig .tc := ⟨.vmem, 70, rfl⟩
abbrev cc9_stg0_1 : Ref sig .tc := ⟨.vmem, 71, rfl⟩
abbrev cc9_stg1_0 : Ref sig .tc := ⟨.vmem, 72, rfl⟩
abbrev cc9_stg1_1 : Ref sig .tc := ⟨.vmem, 73, rfl⟩
abbrev cc9_stg2_0 : Ref sig .tc := ⟨.vmem, 74, rfl⟩
abbrev cc9_stg3_0 : Ref sig .tc := ⟨.vmem, 75, rfl⟩
abbrev cc9_stg4_0 : Ref sig .tc := ⟨.vmem, 76, rfl⟩
abbrev cc9_stg5_0 : Ref sig .tc := ⟨.vmem, 77, rfl⟩
abbrev cc9_stg6_0 : Ref sig .tc := ⟨.vmem, 78, rfl⟩
abbrev cc9_stg6_1 : Ref sig .tc := ⟨.vmem, 79, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem6_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem3_0 : DmaSem sig := 27
abbrev cc3_sem4_0 : DmaSem sig := 28
abbrev cc3_sem5_0 : DmaSem sig := 29
abbrev cc3_sem6_0 : DmaSem sig := 30
abbrev cc3_sem6_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem3_0 : DmaSem sig := 36
abbrev cc4_sem3_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem3_0 : DmaSem sig := 43
abbrev cc5_sem4_0 : DmaSem sig := 44
abbrev cc5_sem5_0 : DmaSem sig := 45
abbrev cc5_sem6_0 : DmaSem sig := 46
abbrev cc5_sem6_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53
abbrev cc7_sem0_0 : DmaSem sig := 54
abbrev cc7_sem0_1 : DmaSem sig := 55
abbrev cc7_sem1_0 : DmaSem sig := 56
abbrev cc7_sem1_1 : DmaSem sig := 57
abbrev cc7_sem2_0 : DmaSem sig := 58
abbrev cc7_sem3_0 : DmaSem sig := 59
abbrev cc7_sem4_0 : DmaSem sig := 60
abbrev cc7_sem5_0 : DmaSem sig := 61
abbrev cc7_sem6_0 : DmaSem sig := 62
abbrev cc7_sem6_1 : DmaSem sig := 63
abbrev cc8_sem0_0 : DmaSem sig := 64
abbrev cc8_sem0_1 : DmaSem sig := 65
abbrev cc8_sem1_0 : DmaSem sig := 66
abbrev cc8_sem2_0 : DmaSem sig := 67
abbrev cc8_sem3_0 : DmaSem sig := 68
abbrev cc8_sem3_1 : DmaSem sig := 69
abbrev cc9_sem0_0 : DmaSem sig := 70
abbrev cc9_sem0_1 : DmaSem sig := 71
abbrev cc9_sem1_0 : DmaSem sig := 72
abbrev cc9_sem1_1 : DmaSem sig := 73
abbrev cc9_sem2_0 : DmaSem sig := 74
abbrev cc9_sem3_0 : DmaSem sig := 75
abbrev cc9_sem4_0 : DmaSem sig := 76
abbrev cc9_sem5_0 : DmaSem sig := 77
abbrev cc9_sem6_0 : DmaSem sig := 78
abbrev cc9_sem6_1 : DmaSem sig := 79

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x192 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x192 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S192 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S192 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x192 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S64x192 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S192 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S192 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 1 → Nat :=
  let arg0 : BitVec 32 := BitVec.ofNat 32 (i 0).val
  let c0_i32 : BitVec 32 := 0#32
  let c0_i32_0 : BitVec 32 := 0#32
  ![c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S256 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_5 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S64x192 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S64x192 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S192 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S192 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x64 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 1 → Nat :=
  let arg0 : BitVec 32 := BitVec.ofNat 32 (i 0).val
  let c0_i32 : BitVec 32 := 0#32
  let c0_i32_0 : BitVec 32 := 0#32
  ![c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x256 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x256 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_5 (i : grid7.Coords) : Fin 1 → Nat :=
  let arg0 : BitVec 32 := BitVec.ofNat 32 (i 0).val
  let c0_i32 : BitVec 32 := 0#32
  let c0_i32_0 : BitVec 32 := 0#32
  ![c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x192 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S64x192 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S192 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S192 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 2 → Memref sig .tc .vmem S5000x64 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 1 → Nat :=
  let arg0 : BitVec 32 := BitVec.ofNat 32 (i 0).val
  let c0_i32 : BitVec 32 := 0#32
  let c0_i32_0 : BitVec 32 := 0#32
  ![c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S64x256 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S256 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x256 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_5 (i : grid9.Coords) : Fin 1 → Nat :=
  let arg0 : BitVec 32 := BitVec.ofNat 32 (i 0).val
  let c0_i32 : BitVec 32 := 0#32
  let c0_i32_0 : BitVec 32 := 0#32
  ![c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x64 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S64x192 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S64x192 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S192 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 1 → Memref sig .tc .vmem S192 .f32 := fun | 0 => Memref.whole cc9_stg5_0 | ⟨_ + 1, h⟩ => absurd h (Nat.not_lt.2 (Nat.le_add_left _ _))
abbrev sem9_5 : Fin 1 → DmaSem sig := fun | 0 => cc9_sem5_0 | ⟨_ + 1, h⟩ => absurd h (Nat.not_lt.2 (Nat.le_add_left _ _))
abbrev reads9_5 : Fin grid9.rank → Bool := ![false]

abbrev stage9_6 : Fin 2 → Memref sig .tc .vmem S5000x64 .f32 := fun | 0 => Memref.whole cc9_stg6_0 | 1 => Memref.whole cc9_stg6_1 | ⟨_ + 2, h⟩ => absurd h (Nat.not_lt.2 (Nat.le_add_left _ _))
abbrev sem9_6 : Fin 2 → DmaSem sig := fun | 0 => cc9_sem6_0 | 1 => cc9_sem6_1 | ⟨_ + 2, h⟩ => absurd h (Nat.not_lt.2 (Nat.le_add_left _ _))
abbrev reads9_6 : Fin grid9.rank → Bool := ![true]

class Facts₀ : Prop where
  shapeCasts_S4x64x64_S256x64 : S4x64x64.ShapeCasts S256x64
  transposes_S256x64_S64x256_1_0 : S256x64.Transposes [1, 0] S64x256
  shapeCasts_S4x64_S256 : S4x64.ShapeCasts S256
  transposes_S192x64_S64x192_1_0 : S192x64.Transposes [1, 0] S64x192
  bcast_S_S800000 : S_.BroadcastsInDim S800000 (![] : Fin 0 → Fin S800000.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S5000x256 : S1x256.Broadcasts S5000x256
  inb_S5000x256_S5000x256_0_0 : ∀ a, (![0, 0] : Fin 2 → Nat) a + S5000x256.size a ≤ S5000x256.size a
  h_S5000x256 : 0 < S5000x256.numel
  shapeCasts_S50000x256_S200000x64 : S50000x256.ShapeCasts S200000x64
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S_S50000x64 : S_.BroadcastsInDim S50000x64 (![] : Fin 0 → Fin S50000x64.rank)
  shapeCasts_S5000x64_S5000x64 : S5000x64.ShapeCasts S5000x64
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S192_S192_0 : ∀ a, (![0] : Fin 1 → Nat) a + S192.size a ≤ S192.size a
  h_S192 : 0 < S192.numel
  shapeCasts_S192_S1x192 : S192.ShapeCasts S1x192
  broadcasts_S1x192_S5000x192 : S1x192.Broadcasts S5000x192
  slices_S5000x192_o0_0_S5000x64 : S5000x192.Slices ![0, 0] S5000x64
  slices_S5000x192_o0_64_S5000x64 : S5000x192.Slices ![0, 64] S5000x64
  slices_S5000x192_o0_128_S5000x64 : S5000x192.Slices ![0, 128] S5000x64
  dot_S5000x64_S64x256_S5000x256_1_0_0_1_n_n_wf : DotDims.WF S5000x64 S64x256 S5000x256 [1] [0] [0] [1] [] []
  gather_S200000x64_S800000x1_S800000x64_1_0_n_n_0_1_164_wf : GatherDims.WF S200000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x192_S5000x192_1_0_0_1_n_n_wf : DotDims.WF S5000x64 S64x192 S5000x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256.size a ≤ S64x256.size a
  hwx0_1 : ∀ i : grid0.Coords, EltTy.bits .f32 = 32 ∨ (Rect.block (s := S64x256) S64x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x256.size a ≤ S50000x256.size a
  hwx0_3 : ∀ i : grid0.Coords, EltTy.bits .f32 = 32 ∨ (Rect.block (s := S50000x256) S5000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x192.size a ≤ S64x192.size a
  hwx1_2 : ∀ i : grid1.Coords, EltTy.bits .f32 = 32 ∨ (Rect.block (s := S64x192) S64x192.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x192.size a ≤ S64x192.size a
  hwx1_3 : ∀ i : grid1.Coords, EltTy.bits .f32 = 32 ∨ (Rect.block (s := S64x192) S64x192.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S192.size a ≤ S192.size a
  hwx1_4 : ∀ i : grid1.Coords, EltTy.bits .f32 = 32 ∨ (Rect.block (s := S192) S192.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S192.size a ≤ S192.size a
  hwx1_5 : ∀ i : grid1.Coords, EltTy.bits .f32 = 32 ∨ (Rect.block (s := S192) S192.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S50000x64.size a
  hwx1_6 : ∀ i : grid1.Coords, EltTy.bits .f32 = 32 ∨ (Rect.block (s := S50000x64) S5000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x256.size a ≤ S64x256.size a
  hwx2_1 : ∀ i : grid2.Coords, EltTy.bits .f32 = 32 ∨ (Rect.block (s := S64x256) S64x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x256.size a ≤ S50000x256.size a
  hwx2_3 : ∀ i : grid2.Coords, EltTy.bits .f32 = 32 ∨ (Rect.block (s := S50000x256) S5000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x192.size a ≤ S64x192.size a
  hwx3_2 : ∀ i : grid3.Coords, EltTy.bits .f32 = 32 ∨ (Rect.block (s := S64x192) S64x192.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S64x192.size a ≤ S64x192.size a
  hwx3_3 : ∀ i : grid3.Coords, EltTy.bits .f32 = 32 ∨ (Rect.block (s := S64x192) S64x192.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S192.size a ≤ S192.size a
  hwx3_4 : ∀ i : grid3.Coords, EltTy.bits .f32 = 32 ∨ (Rect.block (s := S192) S192.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S192.size a ≤ S192.size a
  hwx3_5 : ∀ i : grid3.Coords, EltTy.bits .f32 = 32 ∨ (Rect.block (s := S192) S192.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x64.size a ≤ S50000x64.size a
  hwx3_6 : ∀ i : grid3.Coords, EltTy.bits .f32 = 32 ∨ (Rect.block (s := S50000x64) S5000x64.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x256.size a ≤ S64x256.size a
  hwx4_1 : ∀ i : grid4.Coords, EltTy.bits .f32 = 32 ∨ (Rect.block (s := S64x256) S64x256.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S256.size a ≤ S256.size a
  hwx4_2 : ∀ i : grid4.Coords, EltTy.bits .f32 = 32 ∨ (Rect.block (s := S256) S256.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x256.size a ≤ S50000x256.size a
  hwx4_3 : ∀ i : grid4.Coords, EltTy.bits .f32 = 32 ∨ (Rect.block (s := S50000x256) S5000x256.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S50000x64.size a
  hwx5_1 : ∀ i : grid5.Coords, EltTy.bits .f32 = 32 ∨ (Rect.block (s := S50000x64) S5000x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x192.size a ≤ S64x192.size a
  hwx5_2 : ∀ i : grid5.Coords, EltTy.bits .f32 = 32 ∨ (Rect.block (s := S64x192) S64x192.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x192.size a ≤ S64x192.size a
  hwx5_3 : ∀ i : grid5.Coords, EltTy.bits .f32 = 32 ∨ (Rect.block (s := S64x192) S64x192.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S192.size a ≤ S192.size a
  hwx5_4 : ∀ i : grid5.Coords, EltTy.bits .f32 = 32 ∨ (Rect.block (s := S192) S192.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S192.size a ≤ S192.size a
  hwx5_5 : ∀ i : grid5.Coords, EltTy.bits .f32 = 32 ∨ (Rect.block (s := S192) S192.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x64.size a ≤ S50000x64.size a
  hwx5_6 : ∀ i : grid5.Coords, EltTy.bits .f32 = 32 ∨ (Rect.block (s := S50000x64) S5000x64.size (cc5_transform_6 i) (hinb5_6 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x256.size a ≤ S64x256.size a
  hwx6_1 : ∀ i : grid6.Coords, EltTy.bits .f32 = 32 ∨ (Rect.block (s := S64x256) S64x256.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256.size a ≤ S256.size a
  hwx6_2 : ∀ i : grid6.Coords, EltTy.bits .f32 = 32 ∨ (Rect.block (s := S256) S256.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x256.size a ≤ S50000x256.size a
  hwx6_3 : ∀ i : grid6.Coords, EltTy.bits .f32 = 32 ∨ (Rect.block (s := S50000x256) S5000x256.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x192.size a ≤ S64x192.size a
  hwx7_2 : ∀ i : grid7.Coords, EltTy.bits .f32 = 32 ∨ (Rect.block (s := S64x192) S64x192.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S64x192.size a ≤ S64x192.size a
  hwx7_3 : ∀ i : grid7.Coords, EltTy.bits .f32 = 32 ∨ (Rect.block (s := S64x192) S64x192.size (cc7_transform_3 i) (hinb7_3 i)).WholeWords (EltTy.packing .f32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S192.size a ≤ S192.size a
  hwx7_4 : ∀ i : grid7.Coords, EltTy.bits .f32 = 32 ∨ (Rect.block (s := S192) S192.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S192.size a ≤ S192.size a
  hwx7_5 : ∀ i : grid7.Coords, EltTy.bits .f32 = 32 ∨ (Rect.block (s := S192) S192.size (cc7_transform_5 i) (hinb7_5 i)).WholeWords (EltTy.packing .f32)
  hstage7_6 : ∀ j, (stage7_6 j).IsWhole
  nbuf7_6 : grid7.bufCount reads7_6 false = 2
  hreads7_6 : ∀ i i' : grid7.Coords, (∀ a, reads7_6 a = true → i a = i' a) → cc7_transform_6 i = cc7_transform_6 i'
  hinb7_6 : ∀ (i : grid7.Coords) a, (cc7_transform_6 i a + 1) * S5000x64.size a ≤ S50000x64.size a
  hwx7_6 : ∀ i : grid7.Coords, EltTy.bits .f32 = 32 ∨ (Rect.block (s := S50000x64) S5000x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S64x256.size a ≤ S64x256.size a
  hwx8_1 : ∀ i : grid8.Coords, EltTy.bits .f32 = 32 ∨ (Rect.block (s := S64x256) S64x256.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S256.size a ≤ S256.size a
  hwx8_2 : ∀ i : grid8.Coords, EltTy.bits .f32 = 32 ∨ (Rect.block (s := S256) S256.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x256.size a ≤ S50000x256.size a
  hwx8_3 : ∀ i : grid8.Coords, EltTy.bits .f32 = 32 ∨ (Rect.block (s := S50000x256) S5000x256.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x64.size a ≤ S50000x64.size a
  hwx9_0 : ∀ i : grid9.Coords, EltTy.bits .f32 = 32 ∨ (Rect.block (s := S50000x64) S5000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x64.size a ≤ S50000x64.size a
  hwx9_1 : ∀ i : grid9.Coords, EltTy.bits .f32 = 32 ∨ (Rect.block (s := S50000x64) S5000x64.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S64x192.size a ≤ S64x192.size a
  hwx9_2 : ∀ i : grid9.Coords, EltTy.bits .f32 = 32 ∨ (Rect.block (s := S64x192) S64x192.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S64x192.size a ≤ S64x192.size a
  hwx9_3 : ∀ i : grid9.Coords, EltTy.bits .f32 = 32 ∨ (Rect.block (s := S64x192) S64x192.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S192.size a ≤ S192.size a
  hwx9_4 : ∀ i : grid9.Coords, EltTy.bits .f32 = 32 ∨ (Rect.block (s := S192) S192.size (cc9_transform_4 i) (hinb9_4 i)).WholeWords (EltTy.packing .f32)
  hstage9_5 : ∀ j, (stage9_5 j).IsWhole
  nbuf9_5 : grid9.bufCount reads9_5 true = 1
  hreads9_5 : ∀ i i' : grid9.Coords, (∀ a, reads9_5 a = true → i a = i' a) → cc9_transform_5 i = cc9_transform_5 i'
  hinb9_5 : ∀ (i : grid9.Coords) a, (cc9_transform_5 i a + 1) * S192.size a ≤ S192.size a
  hwx9_5 : ∀ i : grid9.Coords, EltTy.bits .f32 = 32 ∨ (Rect.block (s := S192) S192.size (cc9_transform_5 i) (hinb9_5 i)).WholeWords (EltTy.packing .f32)
  hstage9_6 : ∀ j, (stage9_6 j).IsWhole
  nbuf9_6 : grid9.bufCount reads9_6 false = 2
  hreads9_6 : ∀ i i' : grid9.Coords, (∀ a, reads9_6 a = true → i a = i' a) → cc9_transform_6 i = cc9_transform_6 i'
  hinb9_6 : ∀ (i : grid9.Coords) a, (cc9_transform_6 i a + 1) * S5000x64.size a ≤ S50000x64.size a
  hwx9_6 : ∀ i : grid9.Coords, EltTy.bits .f32 = 32 ∨ (Rect.block (s := S50000x64) S5000x64.size (cc9_transform_6 i) (hinb9_6 i)).WholeWords (EltTy.packing .f32)

variable [Facts₀]

def dot_S5000x64_S64x256_S5000x256_1_0_0_1_n_n : DotDims S5000x64 S64x256 S5000x256 where
  lhsContracting := [1]
  rhsContracting := [0]
  lhsNonContracting := [0]
  rhsNonContracting := [1]
  lhsBatch := []
  rhsBatch := []
  wf := dot_S5000x64_S64x256_S5000x256_1_0_0_1_n_n_wf
def gather_S200000x64_S800000x1_S800000x64_1_0_n_n_0_1_164 : GatherDims S200000x64 S800000x1 S800000x64 where
  offsetDims := [1]
  collapsedSliceDims := [0]
  operandBatchingDims := []
  startIndicesBatchingDims := []
  startIndexMap := [0]
  indexVectorDim := 1
  sliceSizes := ![1, 64]
  wf := gather_S200000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x192_S5000x192_1_0_0_1_n_n : DotDims S5000x64 S64x192 S5000x192 where
  lhsContracting := [1]
  rhsContracting := [0]
  lhsNonContracting := [0]
  rhsNonContracting := [1]
  lhsBatch := []
  rhsBatch := []
  wf := dot_S5000x64_S64x192_S5000x192_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S5000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3) S64x192.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S64x192.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S192.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg6) S192.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v14) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v14) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S64x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S5000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v20) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v3) S64x192.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v4) S64x192.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg5) S192.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg6) S192.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v21) S5000x64.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v21) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S64x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S256.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v22) S5000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v27) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v21) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v3) S64x192.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v4) S64x192.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_arg5) S192.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_arg6) S192.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v28) S5000x64.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

abbrev win6_0 : Pipeline.Window sig grid6 :=
  Pipeline.Window.ofSpec (Memref.whole main_v28) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S64x256.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S256.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v29) S5000x256.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v34) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v28) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v3) S64x192.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v4) S64x192.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_arg5) S192.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_arg6) S192.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v35) S5000x64.size cc7_transform_6 reads7_6 true false 2 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v35) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v1) S64x256.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v2) S256.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v36) S5000x256.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v41) S5000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v35) S5000x64.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v3) S64x192.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v4) S64x192.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_arg5) S192.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_arg6) S192.size cc9_transform_5 reads9_5 false true 1 stage9_5 sem9_5
    hrank9 hreads9_5 hinb9_5 nbuf9_5 (Memref.isWhole_whole _) hwx9_5 hstage9_5

abbrev win9_6 : Pipeline.Window sig grid9 :=
  Pipeline.Window.ofSpec (Memref.whole main_v42) S5000x64.size cc9_transform_6 reads9_6 true false 2 stage9_6 sem9_6
    hrank9 hreads9_6 hinb9_6 nbuf9_6 (Memref.isWhole_whole _) hwx9_6 hstage9_6

abbrev win9 : Fin 7 → Pipeline.Window sig grid9 := fun | 0 => win9_0 | 1 => win9_1 | 2 => win9_2 | 3 => win9_3 | 4 => win9_4 | 5 => win9_5 | 6 => win9_6 | ⟨_ + 7, h⟩ => absurd h (Nat.not_lt.2 (Nat.le_add_left _ _))
abbrev spec9 : Fin 7 → Pipeline.WinSpec sig grid9.rank := fun w => (win9 w).toWinSpec

class Facts : Prop extends Facts₀ where

variable [Facts]
-- ==== ReferenceIdeal.lean ====
abbrev S50000x64 : Shape := ⟨2, ![50000, 64]⟩
abbrev S4x64x64 : Shape := ⟨3, ![4, 64, 64]⟩
abbrev S4x64 : Shape := ⟨2, ![4, 64]⟩
abbrev S192x64 : Shape := ⟨2, ![192, 64]⟩
abbrev S192 : Shape := ⟨1, ![192]⟩
abbrev S800000 : Shape := ⟨1, ![800000]⟩
abbrev S50000x4x64 : Shape := ⟨3, ![50000, 4, 64]⟩
abbrev S1x4x64 : Shape := ⟨3, ![1, 4, 64]⟩
abbrev S_ : Shape := ⟨0, ![]⟩
abbrev S800000x1 : Shape := ⟨2, ![800000, 1]⟩
abbrev S800000x2 : Shape := ⟨2, ![800000, 2]⟩
abbrev S800000x64 : Shape := ⟨2, ![800000, 64]⟩
abbrev S64x192 : Shape := ⟨2, ![64, 192]⟩
abbrev S50000x192 : Shape := ⟨2, ![50000, 192]⟩
abbrev S1x192 : Shape := ⟨2, ![1, 192]⟩

abbrev nBuf : Space → Nat
  | .hbm => 355
  | .vmem => 0
  | .smem => 0
  | _ => 0

abbrev hbmTy0_0 (i : Nat) : BufTy := match i % 128 with
  | 0 => ⟨S50000x64, .f32⟩
  | 1 => ⟨S4x64x64, .f32⟩
  | 2 => ⟨S4x64, .f32⟩
  | 3 => ⟨S192x64, .f32⟩
  | 4 => ⟨S192x64, .f32⟩
  | 5 => ⟨S192, .f32⟩
  | 6 => ⟨S192, .f32⟩
  | 7 => ⟨S800000, .i32⟩
  | 8 => ⟨S800000, .i32⟩
  | 9 => ⟨S800000, .i32⟩
  | 10 => ⟨S50000x4x64, .f32⟩
  | 11 => ⟨S1x4x64, .f32⟩
  | 12 => ⟨S50000x4x64, .f32⟩
  | 13 => ⟨S50000x4x64, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x1, .i32⟩
  | 30 => ⟨S800000x2, .i32⟩
  | 31 => ⟨S800000x64, .f32⟩
  | 32 => ⟨S_, .f32⟩
  | 33 => ⟨S50000x64, .f32⟩
  | 34 => ⟨S800000x1, .i32⟩
  | 35 => ⟨S50000x64, .f32⟩
  | 36 => ⟨S64x192, .f32⟩
  | 37 => ⟨S50000x192, .f32⟩
  | 38 => ⟨S1x192, .f32⟩
  | 39 => ⟨S50000x192, .f32⟩
  | 40 => ⟨S50000x192, .f32⟩
  | 41 => ⟨S64x192, .f32⟩
  | 42 => ⟨S50000x192, .f32⟩
  | 43 => ⟨S1x192, .f32⟩
  | 44 => ⟨S50000x192, .f32⟩
  | 45 => ⟨S50000x192, .f32⟩
  | 46 => ⟨S50000x64, .f32⟩
  | 47 => ⟨S50000x64, .f32⟩
  | 48 => ⟨S50000x64, .f32⟩
  | 49 => ⟨S50000x64, .f32⟩
  | 50 => ⟨S50000x64, .f32⟩
  | 51 => ⟨S50000x64, .f32⟩
  | 52 => ⟨S50000x64, .f32⟩
  | 53 => ⟨S50000x64, .f32⟩
  | 54 => ⟨S50000x64, .f32⟩
  | 55 => ⟨S_, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S50000x64, .f32⟩
  | 62 => ⟨S50000x64, .f32⟩
  | 63 => ⟨S50000x64, .f32⟩
  | 64 => ⟨S_, .f32⟩
  | 65 => ⟨S50000x64, .f32⟩
  | 66 => ⟨S50000x64, .f32⟩
  | 67 => ⟨S_, .f32⟩
  | 68 => ⟨S50000x64, .f32⟩
  | 69 => ⟨S50000x64, .f32⟩
  | 70 => ⟨S50000x64, .f32⟩
  | 71 => ⟨S50000x64, .f32⟩
  | 72 => ⟨S50000x64, .f32⟩
  | 73 => ⟨S_, .f32⟩
  | 74 => ⟨S50000x64, .f32⟩
  | 75 => ⟨S50000x64, .f32⟩
  | 76 => ⟨S50000x64, .f32⟩
  | 77 => ⟨S50000x64, .f32⟩
  | 78 => ⟨S50000x64, .f32⟩
  | 79 => ⟨S50000x4x64, .f32⟩
  | 80 => ⟨S1x4x64, .f32⟩
  | 81 => ⟨S50000x4x64, .f32⟩
  | 82 => ⟨S50000x4x64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S_, .i32⟩
  | 91 => ⟨S800000, .i32⟩
  | 92 => ⟨S800000, .i1⟩
  | 93 => ⟨S_, .i32⟩
  | 94 => ⟨S800000, .i32⟩
  | 95 => ⟨S800000, .i32⟩
  | 96 => ⟨S800000, .i32⟩
  | 97 => ⟨S800000x1, .i32⟩
  | 98 => ⟨S800000x1, .i32⟩
  | 99 => ⟨S800000x2, .i32⟩
  | 100 => ⟨S800000x64, .f32⟩
  | 101 => ⟨S_, .f32⟩
  | 102 => ⟨S50000x64, .f32⟩
  | 103 => ⟨S800000x1, .i32⟩
  | 104 => ⟨S50000x64, .f32⟩
  | 105 => ⟨S64x192, .f32⟩
  | 106 => ⟨S50000x192, .f32⟩
  | 107 => ⟨S1x192, .f32⟩
  | 108 => ⟨S50000x192, .f32⟩
  | 109 => ⟨S50000x192, .f32⟩
  | 110 => ⟨S64x192, .f32⟩
  | 111 => ⟨S50000x192, .f32⟩
  | 112 => ⟨S1x192, .f32⟩
  | 113 => ⟨S50000x192, .f32⟩
  | 114 => ⟨S50000x192, .f32⟩
  | 115 => ⟨S50000x64, .f32⟩
  | 116 => ⟨S50000x64, .f32⟩
  | 117 => ⟨S50000x64, .f32⟩
  | 118 => ⟨S50000x64, .f32⟩
  | 119 => ⟨S50000x64, .f32⟩
  | 120 => ⟨S50000x64, .f32⟩
  | 121 => ⟨S50000x64, .f32⟩
  | 122 => ⟨S50000x64, .f32⟩
  | 123 => ⟨S50000x64, .f32⟩
  | 124 => ⟨S_, .f32⟩
  | 125 => ⟨S50000x64, .f32⟩
  | 126 => ⟨S50000x64, .f32⟩
  | 127 => ⟨S_, .f32⟩
  | _ => ⟨S50000x64, .f32⟩

abbrev hbmTy0_1 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S50000x64, .f32⟩
  | 5 => ⟨S_, .f32⟩
  | 6 => ⟨S50000x64, .f32⟩
  | 7 => ⟨S50000x64, .f32⟩
  | 8 => ⟨S_, .f32⟩
  | 9 => ⟨S50000x64, .f32⟩
  | 10 => ⟨S50000x64, .f32⟩
  | 11 => ⟨S50000x64, .f32⟩
  | 12 => ⟨S50000x64, .f32⟩
  | 13 => ⟨S50000x64, .f32⟩
  | 14 => ⟨S_, .f32⟩
  | 15 => ⟨S50000x64, .f32⟩
  | 16 => ⟨S50000x64, .f32⟩
  | 17 => ⟨S50000x64, .f32⟩
  | 18 => ⟨S50000x64, .f32⟩
  | 19 => ⟨S50000x64, .f32⟩
  | 20 => ⟨S50000x4x64, .f32⟩
  | 21 => ⟨S1x4x64, .f32⟩
  | 22 => ⟨S50000x4x64, .f32⟩
  | 23 => ⟨S50000x4x64, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x1, .i32⟩
  | 40 => ⟨S800000x2, .i32⟩
  | 41 => ⟨S800000x64, .f32⟩
  | 42 => ⟨S_, .f32⟩
  | 43 => ⟨S50000x64, .f32⟩
  | 44 => ⟨S800000x1, .i32⟩
  | 45 => ⟨S50000x64, .f32⟩
  | 46 => ⟨S64x192, .f32⟩
  | 47 => ⟨S50000x192, .f32⟩
  | 48 => ⟨S1x192, .f32⟩
  | 49 => ⟨S50000x192, .f32⟩
  | 50 => ⟨S50000x192, .f32⟩
  | 51 => ⟨S64x192, .f32⟩
  | 52 => ⟨S50000x192, .f32⟩
  | 53 => ⟨S1x192, .f32⟩
  | 54 => ⟨S50000x192, .f32⟩
  | 55 => ⟨S50000x192, .f32⟩
  | 56 => ⟨S50000x64, .f32⟩
  | 57 => ⟨S50000x64, .f32⟩
  | 58 => ⟨S50000x64, .f32⟩
  | 59 => ⟨S50000x64, .f32⟩
  | 60 => ⟨S50000x64, .f32⟩
  | 61 => ⟨S50000x64, .f32⟩
  | 62 => ⟨S50000x64, .f32⟩
  | 63 => ⟨S50000x64, .f32⟩
  | 64 => ⟨S50000x64, .f32⟩
  | 65 => ⟨S_, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x64, .f32⟩
  | 72 => ⟨S50000x64, .f32⟩
  | 73 => ⟨S50000x64, .f32⟩
  | 74 => ⟨S_, .f32⟩
  | 75 => ⟨S50000x64, .f32⟩
  | 76 => ⟨S50000x64, .f32⟩
  | 77 => ⟨S_, .f32⟩
  | 78 => ⟨S50000x64, .f32⟩
  | 79 => ⟨S50000x64, .f32⟩
  | 80 => ⟨S50000x64, .f32⟩
  | 81 => ⟨S50000x64, .f32⟩
  | 82 => ⟨S50000x64, .f32⟩
  | 83 => ⟨S_, .f32⟩
  | 84 => ⟨S50000x64, .f32⟩
  | 85 => ⟨S50000x64, .f32⟩
  | 86 => ⟨S50000x64, .f32⟩
  | 87 => ⟨S50000x64, .f32⟩
  | 88 => ⟨S50000x64, .f32⟩
  | 89 => ⟨S50000x4x64, .f32⟩
  | 90 => ⟨S1x4x64, .f32⟩
  | 91 => ⟨S50000x4x64, .f32⟩
  | 92 => ⟨S50000x4x64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S_, .i32⟩
  | 101 => ⟨S800000, .i32⟩
  | 102 => ⟨S800000, .i1⟩
  | 103 => ⟨S_, .i32⟩
  | 104 => ⟨S800000, .i32⟩
  | 105 => ⟨S800000, .i32⟩
  | 106 => ⟨S800000, .i32⟩
  | 107 => ⟨S800000x1, .i32⟩
  | 108 => ⟨S800000x1, .i32⟩
  | 109 => ⟨S800000x2, .i32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S64x192, .f32⟩
  | 116 => ⟨S50000x192, .f32⟩
  | 117 => ⟨S1x192, .f32⟩
  | 118 => ⟨S50000x192, .f32⟩
  | 119 => ⟨S50000x192, .f32⟩
  | 120 => ⟨S64x192, .f32⟩
  | 121 => ⟨S50000x192, .f32⟩
  | 122 => ⟨S1x192, .f32⟩
  | 123 => ⟨S50000x192, .f32⟩
  | 124 => ⟨S50000x192, .f32⟩
  | 125 => ⟨S50000x64, .f32⟩
  | 126 => ⟨S50000x64, .f32⟩
  | 127 => ⟨S50000x64, .f32⟩
  | _ => ⟨S50000x64, .f32⟩

abbrev hbmTy0_2 (i : Nat) : BufTy := match i % 128 with
  | 0 => ⟨S50000x64, .f32⟩
  | 1 => ⟨S50000x64, .f32⟩
  | 2 => ⟨S50000x64, .f32⟩
  | 3 => ⟨S50000x64, .f32⟩
  | 4 => ⟨S50000x64, .f32⟩
  | 5 => ⟨S50000x64, .f32⟩
  | 6 => ⟨S_, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S50000x64, .f32⟩
  | 13 => ⟨S50000x64, .f32⟩
  | 14 => ⟨S50000x64, .f32⟩
  | 15 => ⟨S_, .f32⟩
  | 16 => ⟨S50000x64, .f32⟩
  | 17 => ⟨S50000x64, .f32⟩
  | 18 => ⟨S_, .f32⟩
  | 19 => ⟨S50000x64, .f32⟩
  | 20 => ⟨S50000x64, .f32⟩
  | 21 => ⟨S50000x64, .f32⟩
  | 22 => ⟨S50000x64, .f32⟩
  | 23 => ⟨S50000x64, .f32⟩
  | 24 => ⟨S_, .f32⟩
  | 25 => ⟨S50000x64, .f32⟩
  | 26 => ⟨S50000x64, .f32⟩
  | 27 => ⟨S50000x64, .f32⟩
  | 28 => ⟨S50000x64, .f32⟩
  | 29 => ⟨S50000x64, .f32⟩
  | 30 => ⟨S50000x4x64, .f32⟩
  | 31 => ⟨S1x4x64, .f32⟩
  | 32 => ⟨S50000x4x64, .f32⟩
  | 33 => ⟨S50000x4x64, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S_, .i32⟩
  | 42 => ⟨S800000, .i32⟩
  | 43 => ⟨S800000, .i1⟩
  | 44 => ⟨S_, .i32⟩
  | 45 => ⟨S800000, .i32⟩
  | 46 => ⟨S800000, .i32⟩
  | 47 => ⟨S800000, .i32⟩
  | 48 => ⟨S800000x1, .i32⟩
  | 49 => ⟨S800000x1, .i32⟩
  | 50 => ⟨S800000x2, .i32⟩
  | 51 => ⟨S800000x64, .f32⟩
  | 52 => ⟨S_, .f32⟩
  | 53 => ⟨S50000x64, .f32⟩
  | 54 => ⟨S800000x1, .i32⟩
  | 55 => ⟨S50000x64, .f32⟩
  | 56 => ⟨S64x192, .f32⟩
  | 57 => ⟨S50000x192, .f32⟩
  | 58 => ⟨S1x192, .f32⟩
  | 59 => ⟨S50000x192, .f32⟩
  | 60 => ⟨S50000x192, .f32⟩
  | 61 => ⟨S64x192, .f32⟩
  | 62 => ⟨S50000x192, .f32⟩
  | 63 => ⟨S1x192, .f32⟩
  | 64 => ⟨S50000x192, .f32⟩
  | 65 => ⟨S50000x192, .f32⟩
  | 66 => ⟨S50000x64, .f32⟩
  | 67 => ⟨S50000x64, .f32⟩
  | 68 => ⟨S50000x64, .f32⟩
  | 69 => ⟨S50000x64, .f32⟩
  | 70 => ⟨S50000x64, .f32⟩
  | 71 => ⟨S50000x64, .f32⟩
  | 72 => ⟨S50000x64, .f32⟩
  | 73 => ⟨S50000x64, .f32⟩
  | 74 => ⟨S50000x64, .f32⟩
  | 75 => ⟨S_, .f32⟩
  | 76 => ⟨S50000x64, .f32⟩
  | 77 => ⟨S50000x64, .f32⟩
  | 78 => ⟨S_, .f32⟩
  | 79 => ⟨S50000x64, .f32⟩
  | 80 => ⟨S50000x64, .f32⟩
  | 81 => ⟨S50000x64, .f32⟩
  | 82 => ⟨S50000x64, .f32⟩
  | 83 => ⟨S50000x64, .f32⟩
  | 84 => ⟨S_, .f32⟩
  | 85 => ⟨S50000x64, .f32⟩
  | 86 => ⟨S50000x64, .f32⟩
  | 87 => ⟨S_, .f32⟩
  | 88 => ⟨S50000x64, .f32⟩
  | 89 => ⟨S50000x64, .f32⟩
  | 90 => ⟨S50000x64, .f32⟩
  | 91 => ⟨S50000x64, .f32⟩
  | 92 => ⟨S50000x64, .f32⟩
  | 93 => ⟨S_, .f32⟩
  | 94 => ⟨S50000x64, .f32⟩
  | 95 => ⟨S50000x64, .f32⟩
  | 96 => ⟨S50000x64, .f32⟩
  | 97 => ⟨S50000x64, .f32⟩
  | 98 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c_1 : Ref sig .tc := ⟨.hbm, 21, rfl⟩
abbrev main_v9 : Ref sig .tc := ⟨.hbm, 22, rfl⟩
abbrev main_v10 : Ref sig .tc := ⟨.hbm, 23, rfl⟩
abbrev main_c_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_3 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_5 : Ref sig .tc := ⟨.hbm, 64, rfl⟩
abbrev main_v47 : Ref sig .tc := ⟨.hbm, 65, rfl⟩
abbrev main_v48 : Ref sig .tc := ⟨.hbm, 66, rfl⟩
abbrev main_cst_6 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_7 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_c_8 : Ref sig .tc := ⟨.hbm, 83, rfl⟩
abbrev main_v63 : Ref sig .tc := ⟨.hbm, 84, rfl⟩
abbrev main_v64 : Ref sig .tc := ⟨.hbm, 85, rfl⟩
abbrev main_c_9 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_c_10 : Ref sig .tc := ⟨.hbm, 90, rfl⟩
abbrev main_v68 : Ref sig .tc := ⟨.hbm, 91, rfl⟩
abbrev main_v69 : Ref sig .tc := ⟨.hbm, 92, rfl⟩
abbrev main_c_11 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_cst_12 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_13 : Ref sig .tc := ⟨.hbm, 124, rfl⟩
abbrev main_v99 : Ref sig .tc := ⟨.hbm, 125, rfl⟩
abbrev main_v100 : Ref sig .tc := ⟨.hbm, 126, rfl⟩
abbrev main_cst_14 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_cst_15 : Ref sig .tc := ⟨.hbm, 133, rfl⟩
abbrev main_v106 : Ref sig .tc := ⟨.hbm, 134, rfl⟩
abbrev main_v107 : Ref sig .tc := ⟨.hbm, 135, rfl⟩
abbrev main_cst_16 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_cst_17 : Ref sig .tc := ⟨.hbm, 142, rfl⟩
abbrev main_v113 : Ref sig .tc := ⟨.hbm, 143, rfl⟩
abbrev main_v114 : Ref sig .tc := ⟨.hbm, 144, rfl⟩
abbrev main_v115 : Ref sig .tc := ⟨.hbm, 145, rfl⟩
abbrev main_v116 : Ref sig .tc := ⟨.hbm, 146, rfl⟩
abbrev main_v117 : Ref sig .tc := ⟨.hbm, 147, rfl⟩
abbrev main_v118 : Ref sig .tc := ⟨.hbm, 148, rfl⟩
abbrev main_v119 : Ref sig .tc := ⟨.hbm, 149, rfl⟩
abbrev main_v120 : Ref sig .tc := ⟨.hbm, 150, rfl⟩
abbrev main_v121 : Ref sig .tc := ⟨.hbm, 151, rfl⟩
abbrev main_c_18 : Ref sig .tc := ⟨.hbm, 152, rfl⟩
abbrev main_v122 : Ref sig .tc := ⟨.hbm, 153, rfl⟩
abbrev main_v123 : Ref sig .tc := ⟨.hbm, 154, rfl⟩
abbrev main_c_19 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_c_20 : Ref sig .tc := ⟨.hbm, 159, rfl⟩
abbrev main_v127 : Ref sig .tc := ⟨.hbm, 160, rfl⟩
abbrev main_v128 : Ref sig .tc := ⟨.hbm, 161, rfl⟩
abbrev main_c_21 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_cst_22 : Ref sig .tc := ⟨.hbm, 170, rfl⟩
abbrev main_v136 : Ref sig .tc := ⟨.hbm, 171, rfl⟩
abbrev main_v137 : Ref sig .tc := ⟨.hbm, 172, rfl⟩
abbrev main_v138 : Ref sig .tc := ⟨.hbm, 173, rfl⟩
abbrev main_v139 : Ref sig .tc := ⟨.hbm, 174, rfl⟩
abbrev main_v140 : Ref sig .tc := ⟨.hbm, 175, rfl⟩
abbrev main_v141 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_v156 : Ref sig .tc := ⟨.hbm, 191, rfl⟩
abbrev main_v157 : Ref sig .tc := ⟨.hbm, 192, rfl⟩
abbrev main_cst_23 : Ref sig .tc := ⟨.hbm, 193, rfl⟩
abbrev main_v158 : Ref sig .tc := ⟨.hbm, 194, rfl⟩
abbrev main_v159 : Ref sig .tc := ⟨.hbm, 195, rfl⟩
abbrev main_cst_24 : Ref sig .tc := ⟨.hbm, 196, rfl⟩
abbrev main_v160 : Ref sig .tc := ⟨.hbm, 197, rfl⟩
abbrev main_v161 : Ref sig .tc := ⟨.hbm, 198, rfl⟩
abbrev main_v162 : Ref sig .tc := ⟨.hbm, 199, rfl⟩
abbrev main_v163 : Ref sig .tc := ⟨.hbm, 200, rfl⟩
abbrev main_v164 : Ref sig .tc := ⟨.hbm, 201, rfl⟩
abbrev main_cst_25 : Ref sig .tc := ⟨.hbm, 202, rfl⟩
abbrev main_v165 : Ref sig .tc := ⟨.hbm, 203, rfl⟩
abbrev main_v166 : Ref sig .tc := ⟨.hbm, 204, rfl⟩
abbrev main_cst_26 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_cst_27 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_c_28 : Ref sig .tc := ⟨.hbm, 221, rfl⟩
abbrev main_v181 : Ref sig .tc := ⟨.hbm, 222, rfl⟩
abbrev main_v182 : Ref sig .tc := ⟨.hbm, 223, rfl⟩
abbrev main_c_29 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_c_30 : Ref sig .tc := ⟨.hbm, 228, rfl⟩
abbrev main_v186 : Ref sig .tc := ⟨.hbm, 229, rfl⟩
abbrev main_v187 : Ref sig .tc := ⟨.hbm, 230, rfl⟩
abbrev main_c_31 : Ref sig .tc := ⟨.hbm, 231, rfl⟩
abbrev main_v188 : Ref sig .tc := ⟨.hbm, 232, rfl⟩
abbrev main_v189 : Ref sig .tc := ⟨.hbm, 233, rfl⟩
abbrev main_v190 : Ref sig .tc := ⟨.hbm, 234, rfl⟩
abbrev main_v191 : Ref sig .tc := ⟨.hbm, 235, rfl⟩
abbrev main_v192 : Ref sig .tc := ⟨.hbm, 236, rfl⟩
abbrev main_v193 : Ref sig .tc := ⟨.hbm, 237, rfl⟩
abbrev main_v194 : Ref sig .tc := ⟨.hbm, 238, rfl⟩
abbrev main_cst_32 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_v213 : Ref sig .tc := ⟨.hbm, 258, rfl⟩
abbrev main_v214 : Ref sig .tc := ⟨.hbm, 259, rfl⟩
abbrev main_v215 : Ref sig .tc := ⟨.hbm, 260, rfl⟩
abbrev main_v216 : Ref sig .tc := ⟨.hbm, 261, rfl⟩
abbrev main_cst_33 : Ref sig .tc := ⟨.hbm, 262, rfl⟩
abbrev main_v217 : Ref sig .tc := ⟨.hbm, 263, rfl⟩
abbrev main_v218 : Ref sig .tc := ⟨.hbm, 264, rfl⟩
abbrev main_cst_34 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_v223 : Ref sig .tc := ⟨.hbm, 270, rfl⟩
abbrev main_cst_35 : Ref sig .tc := ⟨.hbm, 271, rfl⟩
abbrev main_v224 : Ref sig .tc := ⟨.hbm, 272, rfl⟩
abbrev main_v225 : Ref sig .tc := ⟨.hbm, 273, rfl⟩
abbrev main_cst_36 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_v229 : Ref sig .tc := ⟨.hbm, 278, rfl⟩
abbrev main_v230 : Ref sig .tc := ⟨.hbm, 279, rfl⟩
abbrev main_cst_37 : Ref sig .tc := ⟨.hbm, 280, rfl⟩
abbrev main_v231 : Ref sig .tc := ⟨.hbm, 281, rfl⟩
abbrev main_v232 : Ref sig .tc := ⟨.hbm, 282, rfl⟩
abbrev main_v233 : Ref sig .tc := ⟨.hbm, 283, rfl⟩
abbrev main_v234 : Ref sig .tc := ⟨.hbm, 284, rfl⟩
abbrev main_v235 : Ref sig .tc := ⟨.hbm, 285, rfl⟩
abbrev main_v236 : Ref sig .tc := ⟨.hbm, 286, rfl⟩
abbrev main_v237 : Ref sig .tc := ⟨.hbm, 287, rfl⟩
abbrev main_v238 : Ref sig .tc := ⟨.hbm, 288, rfl⟩
abbrev main_v239 : Ref sig .tc := ⟨.hbm, 289, rfl⟩
abbrev main_c_38 : Ref sig .tc := ⟨.hbm, 290, rfl⟩
abbrev main_v240 : Ref sig .tc := ⟨.hbm, 291, rfl⟩
abbrev main_v241 : Ref sig .tc := ⟨.hbm, 292, rfl⟩
abbrev main_c_39 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_c_40 : Ref sig .tc := ⟨.hbm, 297, rfl⟩
abbrev main_v245 : Ref sig .tc := ⟨.hbm, 298, rfl⟩
abbrev main_v246 : Ref sig .tc := ⟨.hbm, 299, rfl⟩
abbrev main_c_41 : Ref sig .tc := ⟨.hbm, 300, rfl⟩
abbrev main_v247 : Ref sig .tc := ⟨.hbm, 301, rfl⟩
abbrev main_v248 : Ref sig .tc := ⟨.hbm, 302, rfl⟩
abbrev main_v249 : Ref sig .tc := ⟨.hbm, 303, rfl⟩
abbrev main_v250 : Ref sig .tc := ⟨.hbm, 304, rfl⟩
abbrev main_v251 : Ref sig .tc := ⟨.hbm, 305, rfl⟩
abbrev main_v252 : Ref sig .tc := ⟨.hbm, 306, rfl⟩
abbrev main_v253 : Ref sig .tc := ⟨.hbm, 307, rfl⟩
abbrev main_cst_42 : Ref sig .tc := ⟨.hbm, 308, rfl⟩
abbrev main_v254 : Ref sig .tc := ⟨.hbm, 309, rfl⟩
abbrev main_v255 : Ref sig .tc := ⟨.hbm, 310, rfl⟩
abbrev main_v256 : Ref sig .tc := ⟨.hbm, 311, rfl⟩
abbrev main_v257 : Ref sig .tc := ⟨.hbm, 312, rfl⟩
abbrev main_v258 : Ref sig .tc := ⟨.hbm, 313, rfl⟩
abbrev main_v259 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_v263 : Ref sig .tc := ⟨.hbm, 318, rfl⟩
abbrev main_v264 : Ref sig .tc := ⟨.hbm, 319, rfl⟩
abbrev main_v265 : Ref sig .tc := ⟨.hbm, 320, rfl⟩
abbrev main_v266 : Ref sig .tc := ⟨.hbm, 321, rfl⟩
abbrev main_v267 : Ref sig .tc := ⟨.hbm, 322, rfl⟩
abbrev main_v268 : Ref sig .tc := ⟨.hbm, 323, rfl⟩
abbrev main_v269 : Ref sig .tc := ⟨.hbm, 324, rfl⟩
abbrev main_v270 : Ref sig .tc := ⟨.hbm, 325, rfl⟩
abbrev main_v271 : Ref sig .tc := ⟨.hbm, 326, rfl⟩
abbrev main_v272 : Ref sig .tc := ⟨.hbm, 327, rfl⟩
abbrev main_v273 : Ref sig .tc := ⟨.hbm, 328, rfl⟩
abbrev main_v274 : Ref sig .tc := ⟨.hbm, 329, rfl⟩
abbrev main_v275 : Ref sig .tc := ⟨.hbm, 330, rfl⟩
abbrev main_cst_43 : Ref sig .tc := ⟨.hbm, 331, rfl⟩
abbrev main_v276 : Ref sig .tc := ⟨.hbm, 332, rfl⟩
abbrev main_v277 : Ref sig .tc := ⟨.hbm, 333, rfl⟩
abbrev main_cst_44 : Ref sig .tc := ⟨.hbm, 334, rfl⟩
abbrev main_v278 : Ref sig .tc := ⟨.hbm, 335, rfl⟩
abbrev main_v279 : Ref sig .tc := ⟨.hbm, 336, rfl⟩
abbrev main_v280 : Ref sig .tc := ⟨.hbm, 337, rfl⟩
abbrev main_v281 : Ref sig .tc := ⟨.hbm, 338, rfl⟩
abbrev main_v282 : Ref sig .tc := ⟨.hbm, 339, rfl⟩
abbrev main_cst_45 : Ref sig .tc := ⟨.hbm, 340, rfl⟩
abbrev main_v283 : Ref sig .tc := ⟨.hbm, 341, rfl⟩
abbrev main_v284 : Ref sig .tc := ⟨.hbm, 342, rfl⟩
abbrev main_cst_46 : Ref sig .tc := ⟨.hbm, 343, rfl⟩
abbrev main_v285 : Ref sig .tc := ⟨.hbm, 344, rfl⟩
abbrev main_v286 : Ref sig .tc := ⟨.hbm, 345, rfl⟩
abbrev main_v287 : Ref sig .tc := ⟨.hbm, 346, rfl⟩
abbrev main_v288 : Ref sig .tc := ⟨.hbm, 347, rfl⟩
abbrev main_v289 : Ref sig .tc := ⟨.hbm, 348, rfl⟩
abbrev main_cst_47 : Ref sig .tc := ⟨.hbm, 349, rfl⟩
abbrev main_v290 : Ref sig .tc := ⟨.hbm, 350, rfl⟩
abbrev main_v291 : Ref sig .tc := ⟨.hbm, 351, rfl⟩
abbrev main_v292 : Ref sig .tc := ⟨.hbm, 352, rfl⟩
abbrev main_v293 : Ref sig .tc := ⟨.hbm, 353, rfl⟩
abbrev main_v294 : Ref sig .tc := ⟨.hbm, 354, rfl⟩

abbrev nD : Nat := 1
abbrev τ : Topo := Topo.v7x

variable {F : FTy → Type} [FloatOps F]

class Facts₀ : Prop where
  bcast_S4x64_S1x4x64_1_2 : S4x64.BroadcastsInDim S1x4x64 (![1, 2] : Fin 2 → Fin S1x4x64.rank)
  bcast_S1x4x64_S50000x4x64_0_1_2 : S1x4x64.BroadcastsInDim S50000x4x64 (![0, 1, 2] : Fin 3 → Fin S50000x4x64.rank)
  bcast_S_S800000 : S_.BroadcastsInDim S800000 (![] : Fin 0 → Fin S800000.rank)
  bcast_S800000_S800000x1_0 : S800000.BroadcastsInDim S800000x1 (![0] : Fin 1 → Fin S800000x1.rank)
  concatenates_S800000x1_S800000x1_S800000x2_d1 : Shape.Concatenates [S800000x1, S800000x1] S800000x2 1
  bcast_S_S50000x64 : S_.BroadcastsInDim S50000x64 (![] : Fin 0 → Fin S50000x64.rank)
  transposes_S192x64_S64x192_1_0 : S192x64.Transposes [1, 0] S64x192
  bcast_S192_S1x192_1 : S192.BroadcastsInDim S1x192 (![1] : Fin 1 → Fin S1x192.rank)
  bcast_S1x192_S50000x192_0_1 : S1x192.BroadcastsInDim S50000x192 (![0, 1] : Fin 2 → Fin S50000x192.rank)
  slices_S50000x192_S50000x64_0_0 : S50000x192.Slices ![0, 0] S50000x64
  slices_S50000x192_S50000x64_0_64 : S50000x192.Slices ![0, 64] S50000x64
  slices_S50000x192_S50000x64_0_128 : S50000x192.Slices ![0, 128] S50000x64
  dot_S50000x64_S4x64x64_S50000x4x64_1_2_0_01_n_n_wf : DotDims.WF S50000x64 S4x64x64 S50000x4x64 [1] [2] [0] [0, 1] [] []
  gather_S50000x4x64_S800000x2_S800000x64_1_01_n_n_01_1_1164_wf : GatherDims.WF S50000x4x64 S800000x2 S800000x64 [1] [0, 1] [] [0, 1] [] 1 ![1, 1, 64]
  scatter_S50000x64_S800000x1_S800000x64_1_0_0_1_wf : ScatterDims.WF S50000x64 S800000x1 S800000x64 [1] [0] [0] 1
  dot_S50000x64_S64x192_S50000x192_1_0_0_1_n_n_wf : DotDims.WF S50000x64 S64x192 S50000x192 [1] [0] [0] [1] [] []

variable [Facts₀]

def dot_S50000x64_S4x64x64_S50000x4x64_1_2_0_01_n_n : DotDims S50000x64 S4x64x64 S50000x4x64 where
  lhsContracting := [1]
  rhsContracting := [2]
  lhsNonContracting := [0]
  rhsNonContracting := [0, 1]
  lhsBatch := []
  rhsBatch := []
  wf := dot_S50000x64_S4x64x64_S50000x4x64_1_2_0_01_n_n_wf
def gather_S50000x4x64_S800000x2_S800000x64_1_01_n_n_01_1_1164 : GatherDims S50000x4x64 S800000x2 S800000x64 where
  offsetDims := [1]
  collapsedSliceDims := [0, 1]
  operandBatchingDims := []
  startIndicesBatchingDims := []
  startIndexMap := [0, 1]
  indexVectorDim := 1
  sliceSizes := ![1, 1, 64]
  wf := gather_S50000x4x64_S800000x2_S800000x64_1_01_n_n_01_1_1164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x192_S50000x192_1_0_0_1_n_n : DotDims S50000x64 S64x192 S50000x192 where
  lhsContracting := [1]
  rhsContracting := [0]
  lhsNonContracting := [0]
  rhsNonContracting := [1]
  lhsBatch := []
  rhsBatch := []
  wf := dot_S50000x64_S64x192_S50000x192_1_0_0_1_n_n_wf

class Facts : Prop extends Facts₀ where

variable [Facts]
-- ==== Proof.Spec.lean ====
/-
  One step of the gated graph update, as plain functions over the extended reals, index by index.

  A node state is a 50000 × 64 table `h`. For an edge `e` with source node `s e` and edge type `t e`, the message is the
  source's state under that type's linear map:  msg (e, j) = (∑ d, h (s e, d) · W (t e, j, d)) + b (t e, j).
  The messages are summed per destination node by an aggregation `A` that this file leaves abstract (both programs apply the
  same one), and the GRU cell combines the aggregate `a` with `h`:
      gi (n, c) = (∑ k, a (n, k) · w_ih (c, k)) + b_ih c        gh (n, c) = (∑ k, h (n, k) · w_hh (c, k)) + b_hh c
      r = σ (gi j + gh j)     z = σ (gi (64 + j) + gh (64 + j))     n = tanh (gi (128 + j) + r · gh (128 + j))
      h' (n, j) = (1 - z) · n + z · h (n, j)
  with σ the logistic function and tanh read on the extended reals as the library's `Ideal.logistic` and `Ideal.tanh`.
-/
import Idealize.ShloMosaic.PureOps.Ideal
import Idealize.ShloMosaic.Lib.ValueIdx

noncomputable section

namespace Cert.GatedGraph

open Idealize.ShloMosaic Idealize.ShloMosaic.ValueIdx

/-- A table of extended reals with two coordinates. -/
abbrev Mat (a b : Nat) : Type := (⟨2, ![a, b]⟩ : Shape).Idx → EReal
/-- A row of extended reals. -/
abbrev Row (a : Nat) : Type := (⟨1, ![a]⟩ : Shape).Idx → EReal
/-- A table with three coordinates. -/
abbrev Cube (a b c : Nat) : Type := (⟨3, ![a, b, c]⟩ : Shape).Idx → EReal

/-- The float word of 1.0, kept as a word: both programs carry the same one and it is never evaluated. -/
abbrev one : EReal := Ideal.ofBits .f32 0x3F800000#32

/-- The message of edge `e` at feature `j`: the source node's state under the edge type's linear map, plus that type's bias. -/
def msgAt (h : Mat 50000 64) (W : Cube 4 64 64) (b : Mat 4 64) (s : Fin 800000 → Fin 50000) (t : Fin 800000 → Fin 4)
    (e : Fin 800000) (j : Fin 64) : EReal :=
  (∑ d : Fin 64, h (ix2 (s e) d) * W (ix3 (t e) j d)) + b (ix2 (t e) j)

/-- All messages, as one table. -/
def msg (h : Mat 50000 64) (W : Cube 4 64 64) (b : Mat 4 64) (s : Fin 800000 → Fin 50000) (t : Fin 800000 → Fin 4) :
    Mat 800000 64 :=
  fun i => msgAt h W b s t (i 0) (i 1)

/-- A gate's pre-activation: row `n` of `x` against row `c` of the weight table, plus the bias. -/
def gate (x : Mat 50000 64) (w : Mat 192 64) (bias : Row 192) (n : Fin 50000) (c : Fin 192) : EReal :=
  (∑ k : Fin 64, x (ix2 n k) * w (ix2 c k)) + bias (ix1 c)

/-- The three gate columns of feature `j`: reset, update, candidate. -/
def colR (j : Fin 64) : Fin 192 := ⟨j.val, by omega⟩
def colZ (j : Fin 64) : Fin 192 := ⟨64 + j.val, by omega⟩
def colN (j : Fin 64) : Fin 192 := ⟨128 + j.val, by omega⟩

/-- The GRU cell at node `n`, feature `j`. -/
def gruAt (a h : Mat 50000 64) (wih whh : Mat 192 64) (bih bhh : Row 192) (n : Fin 50000) (j : Fin 64) : EReal :=
  let r := Ideal.logistic (gate a wih bih n (colR j) + gate h whh bhh n (colR j))
  let z := Ideal.logistic (gate a wih bih n (colZ j) + gate h whh bhh n (colZ j))
  let c := Ideal.tanh (gate a wih bih n (colN j) + r * gate h whh bhh n (colN j))
  (one - z) * c + z * h (ix2 n j)

/-- The GRU cell over the whole table. -/
def gru (a h : Mat 50000 64) (wih whh : Mat 192 64) (bih bhh : Row 192) : Mat 50000 64 :=
  fun i => gruAt a h wih whh bih bhh (i 0) (i 1)

/-- One step: messages from `h`, aggregated by `A`, then the GRU cell. -/
def step (A : Mat 800000 64 → Mat 50000 64) (W : Cube 4 64 64) (b : Mat 4 64) (wih whh : Mat 192 64) (bih bhh : Row 192)
    (s : Fin 800000 → Fin 50000) (t : Fin 800000 → Fin 4) (h : Mat 50000 64) : Mat 50000 64 :=
  gru (A (msg h W b s t)) h wih whh bih bhh

/-- Five steps from the input features. -/
def fiveSteps (A : Mat 800000 64 → Mat 50000 64) (W : Cube 4 64 64) (b : Mat 4 64) (wih whh : Mat 192 64) (bih bhh : Row 192)
    (s : Fin 800000 → Fin 50000) (t : Fin 800000 → Fin 4) (feat : Mat 50000 64) : Mat 50000 64 :=
  step A W b wih whh bih bhh s t (step A W b wih whh bih bhh s t (step A W b wih whh bih bhh s t
    (step A W b wih whh bih bhh s t (step A W b wih whh bih bhh s t feat))))

/-! ### The same functions over re-laid weight tables

    The kernel's program first re-lays the weights: the four 64 × 64 maps side by side as one 64 × 256 table
    (column `t · 64 + j` of row `d` is `W (t, j, d)`), their biases as one row of 256, and the two GRU weight tables
    transposed. These are the same sums over the re-laid tables. -/

/-- The four linear maps side by side: entry `(d, c)` is `W (c / 64, c % 64, d)`. -/
def winAt (W : Cube 4 64 64) (d : Fin 64) (c : Fin 256) : EReal :=
  W (ix3 (⟨c.val / 64, by omega⟩ : Fin 4) (⟨c.val % 64, by omega⟩ : Fin 64) d)

/-- The re-laid weight table. -/
def winOf (W : Cube 4 64 64) : Mat 64 256 := fun i => winAt W (i 0) (i 1)

/-- The four bias rows end to end: entry `c` is `b (c / 64, c % 64)`. -/
def bcatAt (b : Mat 4 64) (c : Fin 256) : EReal :=
  b (ix2 (⟨c.val / 64, by omega⟩ : Fin 4) (⟨c.val % 64, by omega⟩ : Fin 64))

/-- The re-laid bias row. -/
def bcatOf (b : Mat 4 64) : Row 256 := fun i => bcatAt b (i 0)

/-- A 192 × 64 table transposed. -/
def transp (w : Mat 192 64) : Mat 64 192 := fun i => w (ix2 (i 1) (i 0))

/-- Every node's state under all four maps at once: row `n` of `h` against the 64 × 256 table, plus the bias row. -/
def hallT (h : Mat 50000 64) (win : Mat 64 256) (bcat : Row 256) : Mat 50000 256 :=
  fun i => (∑ k : Fin 64, h (ix2 (i 0) k) * win (ix2 k (i 1))) + bcat (ix1 (i 1))

/-- A gate's pre-activation against a transposed (64 × 192) weight table. -/
def gateT (x : Mat 50000 64) (wT : Mat 64 192) (bias : Row 192) (n : Fin 50000) (c : Fin 192) : EReal :=
  (∑ k : Fin 64, x (ix2 n k) * wT (ix2 k c)) + bias (ix1 c)

/-- The GRU cell against transposed weight tables. -/
def gruT (a h : Mat 50000 64) (wihT whhT : Mat 64 192) (bih bhh : Row 192) : Mat 50000 64 :=
  fun i =>
    let r := Ideal.logistic (gateT a wihT bih (i 0) (colR (i 1)) + gateT h whhT bhh (i 0) (colR (i 1)))
    let z := Ideal.logistic (gateT a wihT bih (i 0) (colZ (i 1)) + gateT h whhT bhh (i 0) (colZ (i 1)))
    let c := Ideal.tanh (gateT a wihT bih (i 0) (colN (i 1)) + r * gateT h whhT bhh (i 0) (colN (i 1)))
    (one - z) * c + z * h (ix2 (i 0) (i 1))

/-- Transposing the table does not change a gate. -/
theorem gateT_transp (x : Mat 50000 64) (w : Mat 192 64) (bias : Row 192) (n : Fin 50000) (c : Fin 192) :
    gateT x (transp w) bias n c = gate x w bias n c := rfl

/-- The GRU cell against the transposed tables is the GRU cell. -/
theorem gruT_transp (a h : Mat 50000 64) (wih whh : Mat 192 64) (bih bhh : Row 192) :
    gruT a h (transp wih) (transp whh) bih bhh = gru a h wih whh bih bhh := by
  funext i
  have hi : i = ix2 (i 0) (i 1) := (eq_ix2 i)
  rw [hi]
  rfl

/-- A vector of 800000 index words. -/
abbrev Words : Type := (⟨1, ![800000]⟩ : Shape).Idx → BitVec 32

/-- Every edge's source word names a node and its type word names an edge type (read as naturals; a word below
    2 ^ 31 is also non-negative as a signed integer). -/
def InRange (src et : Words) : Prop :=
  ∀ e : Fin 800000, (src (ix1 e)).toNat < 50000 ∧ (et (ix1 e)).toNat < 4

/-- The source node of edge `e`, total by reduction modulo the number of nodes (the identity under `InRange`). -/
def srcN (src : Words) (e : Fin 800000) : Fin 50000 := ⟨(src (ix1 e)).toNat % 50000, Nat.mod_lt _ (by norm_num)⟩

/-- The type of edge `e`, total by reduction modulo the number of types (the identity under `InRange`). -/
def etN (et : Words) (e : Fin 800000) : Fin 4 := ⟨(et (ix1 e)).toNat % 4, Nat.mod_lt _ (by norm_num)⟩

theorem srcN_val {src et : Words} (h : InRange src et) (e : Fin 800000) : (srcN src e).val = (src (ix1 e)).toNat :=
  Nat.mod_eq_of_lt (h e).1

theorem etN_val {src et : Words} (h : InRange src et) (e : Fin 800000) : (etN et e).val = (et (ix1 e)).toNat :=
  Nat.mod_eq_of_lt (h e).2

theorem msg_apply (h : Mat 50000 64) (W : Cube 4 64 64) (b : Mat 4 64) (s : Fin 800000 → Fin 50000) (t : Fin 800000 → Fin 4)
    (e : Fin 800000) (j : Fin 64) : msg h W b s t (ix2 e j) = msgAt h W b s t e j := rfl

theorem gru_apply (a h : Mat 50000 64) (wih whh : Mat 192 64) (bih bhh : Row 192) (n : Fin 50000) (j : Fin 64) :
    gru a h wih whh bih bhh (ix2 n j) = gruAt a h wih whh bih bhh n j := rfl

end Cert.GatedGraph

end
-- ==== Proof.SpecLemmas.lean ====
/-
  The re-laid tables give back the per-type maps: column `t · 64 + j` of the 64 × 256 table is row `j` of map `t`, so row `n` of
  `h` against that column, plus entry `t · 64 + j` of the re-laid bias row, is the message sum  (∑ d, h (n, d) · W (t, j, d)) + b (t, j).
-/
import proofs.«410194_j38886633898060_1_alg».proof.Proof.Spec

noncomputable section

namespace Cert.GatedGraph

open Idealize.ShloMosaic Idealize.ShloMosaic.ValueIdx

/-- Column `t · 64 + j` of the 256 side-by-side columns. -/
def col (t : Fin 4) (j : Fin 64) : Fin 256 := ⟨t.val * 64 + j.val, by omega⟩

theorem col_div (t : Fin 4) (j : Fin 64) : (col t j).val / 64 = t.val := by
  unfold col; dsimp only; omega

theorem col_mod (t : Fin 4) (j : Fin 64) : (col t j).val % 64 = j.val := by
  unfold col; dsimp only; omega

theorem winAt_col (W : Cube 4 64 64) (d : Fin 64) (t : Fin 4) (j : Fin 64) : winAt W d (col t j) = W (ix3 t j d) := by
  unfold winAt
  congr 1
  have e1 : (⟨(col t j).val / 64, by have := (col t j).isLt; omega⟩ : Fin 4) = t := Fin.ext (col_div t j)
  have e2 : (⟨(col t j).val % 64, by omega⟩ : Fin 64) = j := Fin.ext (col_mod t j)
  rw [e1, e2]

theorem bcatAt_col (b : Mat 4 64) (t : Fin 4) (j : Fin 64) : bcatAt b (col t j) = b (ix2 t j) := by
  unfold bcatAt
  congr 1
  have e1 : (⟨(col t j).val / 64, by have := (col t j).isLt; omega⟩ : Fin 4) = t := Fin.ext (col_div t j)
  have e2 : (⟨(col t j).val % 64, by omega⟩ : Fin 64) = j := Fin.ext (col_mod t j)
  rw [e1, e2]

/-- Row `n` of `h` against column `t · 64 + j` of the re-laid tables is edge-type `t`'s map at feature `j`. -/
theorem hallT_col (h : Mat 50000 64) (W : Cube 4 64 64) (b : Mat 4 64) (n : Fin 50000) (t : Fin 4) (j : Fin 64) :
    hallT h (winOf W) (bcatOf b) (ix2 n (col t j)) = (∑ d : Fin 64, h (ix2 n d) * W (ix3 t j d)) + b (ix2 t j) := by
  show (∑ k : Fin 64, h (ix2 n k) * winAt W k (col t j)) + bcatAt b (col t j) = _
  simp only [winAt_col, bcatAt_col]

/-- Reading the re-laid per-node table at each edge's (source, type · 64 + feature) gives the messages. -/
theorem hallT_gather (h : Mat 50000 64) (W : Cube 4 64 64) (b : Mat 4 64) (s : Fin 800000 → Fin 50000) (t : Fin 800000 → Fin 4) :
    (fun i : (⟨2, ![800000, 64]⟩ : Shape).Idx => hallT h (winOf W) (bcatOf b) (ix2 (s (i 0)) (col (t (i 0)) (i 1)))) = msg h W b s t := by
  funext i
  exact hallT_col h W b (s (i 0)) (t (i 0)) (i 1)

end Cert.GatedGraph

end
-- ==== Proof.HallRegion0.lean ====
/-
  One pass of "every node's state under all four linear maps at once", read off the region's ten grid points.

  The region's output array is a 50000 × 256 table. Grid point `t` (of ten) loads rows `5000 t … 5000 t + 4999` of the
  50000 × 64 node table `h`, the whole 64 × 256 weight table `win` and the whole bias row `bcat`, and stores, at `(p, q)` of
  its 5000 × 256 block,
      (∑ k, h (5000 t + p, k) · win (k, q)) + bcat q :
  the product of the (rounded, which on the extended reals is the identity) blocks accumulated from zero, plus the bias row
  repeated down the rows. The ten blocks tile the rows of the output, row `r` lying in block `r / 5000`, so after the region
  the output array is `hallT h win bcat` — for any contents `V` of the arrays at the region's entry.
-/
import proofs.«410194_j38886633898060_1_alg».proof.Proof.Gen.KernelIdeal.Frame
import proofs.«410194_j38886633898060_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HallRegion0

open Cert.KernelIdeal Cert.KernelIdeal.Gen Cert.GatedGraph
open Idealize.ShloMosaic Idealize.ShloMosaic.TcCoe Idealize.SL.Sem Idealize.ShloMosaic.ValueIdx
open Idealize.ShloMosaic.Pipeline (Dat)
open scoped BigOperators

/-! ## The contraction's two index maps, axis by axis

The product contracts the second axis of the 5000 × 64 operand with the first axis of the 64 × 256 operand: at the result's
index `(p, q)` and contraction position `k` the left operand is read at `(p, k)` and the right one at `(k, q)`. -/

theorem lhs_axis0 (i : S5000x256.Idx) (r : dot_S5000x64_S64x256_S5000x256_1_0_0_1_n_n.contr.Idx) :
    (dot_S5000x64_S64x256_S5000x256_1_0_0_1_n_n.lhsIdx i r 0).val = (i 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl

theorem lhs_axis1 (i : S5000x256.Idx) (r : dot_S5000x64_S64x256_S5000x256_1_0_0_1_n_n.contr.Idx) :
    (dot_S5000x64_S64x256_S5000x256_1_0_0_1_n_n.lhsIdx i r 1).val = (r ⟨0, by decide⟩).val :=
  dot_S5000x64_S64x256_S5000x256_1_0_0_1_n_n.lhsIdx_val_of_single rfl i r

theorem rhs_axis0 (i : S5000x256.Idx) (r : dot_S5000x64_S64x256_S5000x256_1_0_0_1_n_n.contr.Idx) :
    (dot_S5000x64_S64x256_S5000x256_1_0_0_1_n_n.rhsIdx i r 0).val = (r ⟨0, by decide⟩).val :=
  dot_S5000x64_S64x256_S5000x256_1_0_0_1_n_n.rhsIdx_val_of_single rfl i r

theorem rhs_axis1 (i : S5000x256.Idx) (r : dot_S5000x64_S64x256_S5000x256_1_0_0_1_n_n.contr.Idx) :
    (dot_S5000x64_S64x256_S5000x256_1_0_0_1_n_n.rhsIdx i r 1).val = (i 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The product into the zero accumulator, read at `(p, q)`: row `p` of the left operand against column `q` of the
    right one, summed over the 64 contracted positions. -/
theorem product_apply (a : FVec Ideal S5000x64 .bf16) (b : FVec Ideal S64x256 .bf16) (p : Fin 5000) (q : Fin 256) :
    matmul dot_S5000x64_S64x256_S5000x256_1_0_0_1_n_n none a b (constant (F := Ideal) S5000x256 .f32 0x00000000#32) (ix2 p q)
      = ∑ k : Fin 64, a (ix2 p k) * b (ix2 k q) := by
  refine (Ideal.matmul_constant_zero_apply dot_S5000x64_S64x256_S5000x256_1_0_0_1_n_n none a b (ix2 p q)).trans ?_
  rw [← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have el : dot_S5000x64_S64x256_S5000x256_1_0_0_1_n_n.lhsIdx (ix2 p q)
      ((contrEquiv1 dot_S5000x64_S64x256_S5000x256_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x256_S5000x256_1_0_0_1_n_n.rhsIdx (ix2 p q)
      ((contrEquiv1 dot_S5000x64_S64x256_S5000x256_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## The body's stored value at an index

The body rounds the node block and the weight table to bf16 (the identity on extended reals), multiplies them into a zero
accumulator, and adds the bias row broadcast over the 5000 rows. -/

/-- The stored value at `(p, q)`: row `p` of the node block against column `q` of the weight table, plus the bias at `q`. -/
theorem stored_apply (x0 : Vec Ideal S5000x64 .f32) (x1 : Vec Ideal S64x256 .f32) (x2 : Vec Ideal S256 .f32)
    (p : Fin 5000) (q : Fin 256) :
    (k0_pay1 (F := Ideal) x0 x1 x2) (ix2 p q) = (∑ k : Fin 64, x0 (ix2 p k) * x1 (ix2 k q)) + x2 (ix1 q) := by
  unfold k0_pay1
  simp only [shapeCast_self]
  refine (addf_apply _ _ (ix2 p q)).trans ?_
  refine congrArg₂ (· + ·) ?_ ?_
  · exact product_apply _ _ p q
  · refine (broadcastTo_1b_ab_apply _ _ p q).trans ?_
    exact shapeCast_a_1a_apply x2 _ 0 q

/-- One grid point's output block as rows of the whole result: if the loaded node block is rows `off …` of `h` and the other
    two loaded blocks are the weight table and the bias row, the stored value at `j` is `hallT h win bcat` at row
    `off + j 0`, column `j 1`. -/
theorem stored_block (h : Mat 50000 64) (win : Mat 64 256) (bcat : Row 256)
    (x0 : Vec Ideal S5000x64 .f32) (x1 : Vec Ideal S64x256 .f32) (x2 : Vec Ideal S256 .f32) (off : Nat)
    (hx0 : ∀ (y : S5000x64.Idx) (z : S50000x64.Idx), (z 0).val = off + (y 0).val → (z 1).val = (y 1).val → x0 y = h z)
    (hx1 : ∀ y : S64x256.Idx, x1 y = win y) (hx2 : ∀ y : S256.Idx, x2 y = bcat y)
    (j : S5000x256.Idx) (i : S50000x256.Idx) (hi0 : (i 0).val = off + (j 0).val) (hi1 : (i 1).val = (j 1).val) :
    (k0_pay1 (F := Ideal) x0 x1 x2) j = hallT h win bcat i := by
  obtain ⟨p, q, rfl⟩ : ∃ (p : Fin 5000) (q : Fin 256), j = ix2 p q := ⟨j 0, j 1, eq_ix2 j⟩
  obtain ⟨n, q', rfl⟩ : ∃ (n : Fin 50000) (q' : Fin 256), i = ix2 n q' := ⟨i 0, i 1, eq_ix2 i⟩
  have hq : q = q' := (Fin.ext hi1).symm
  subst hq
  refine (stored_apply x0 x1 x2 p q).trans ?_
  show _ = (∑ k : Fin 64, h (ix2 n k) * win (ix2 k q)) + bcat (ix1 q)
  refine congrArg₂ (· + ·) (Finset.sum_congr rfl fun k _ => ?_) (hx2 _)
  exact congrArg₂ (· * ·) (hx0 (ix2 p k) (ix2 n k) hi0 rfl) (hx1 _)

/-! ## From the blocks to the array

Grid point `t` loads rows `5000 t … 5000 t + 4999` of the node table, the whole weight table and the whole bias row, and
writes rows `5000 t … 5000 t + 4999` of the result; the ten points' blocks cover its 50000 rows. -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's one store covers the output block, and its loads read whole blocks: what it leaves is the stored value
    of the three loaded blocks. -/
theorem left_eq (x0 : Vec Ideal S5000x64 .f32) (x1 : Vec Ideal S64x256 .f32) (x2 : Vec Ideal S256 .f32) :
    out0_3 (F := Ideal) x0 x1 x2 = k0_pay1 (F := Ideal) x0 x1 x2 := by
  unfold out0_3
  rw [View.canon_unit_zero zeros2]
  simp only [View.ld_unit_zero (S := S5000x64) zeros2, View.ld_unit_zero (S := S64x256) zeros2,
    View.ld_unit_zero (S := S256) zeros1]

/-- The block index of each window at each of the ten points: the node window and the output window move down one block
    per point, the weight table and the bias row stay. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- The node window's block at point `t` is rows `5000 t …` of the node table. -/
theorem node_block_apply (c : Dev nD) (t : Fin cfg0.N) (y : S5000x64.Idx) (z : S50000x64.Idx)
    (h0 : (z 0).val = t.val * 5000 + (y 0).val) (h1 : (z 1).val = (y 1).val) :
    (iblk0 V c 0 t : Vec Ideal S5000x64 .f32) y = (V c main_arg0 : S50000x64.Idx → EReal) z := by
  obtain ⟨e0, e1, -⟩ := block_indices t
  unfold iblk0
  rw [View.read_apply]
  show V c main_arg0 _ = V c main_arg0 _
  refine congrArg _ (funext fun a => Fin.ext ?_)
  match a with
  | ⟨0, _⟩ => show win0_0.index t (0 : Fin 2) * 5000 + 1 * (y 0).val = (z 0).val; rw [e0, h0]; omega
  | ⟨1, _⟩ => show win0_0.index t (1 : Fin 2) * 64 + 1 * (y 1).val = (z 1).val; rw [e1, h1]; omega

/-- The weight window's block is the whole weight table at every point. -/
theorem weight_block_apply (c : Dev nD) (t : Fin cfg0.N) (y : S64x256.Idx) :
    (iblk0 V c 1 t : Vec Ideal S64x256 .f32) y = (V c main_v1 : S64x256.Idx → EReal) y := by
  obtain ⟨-, -, e0, e1, -⟩ := block_indices t
  unfold iblk0
  rw [View.read_apply]
  show V c main_v1 _ = V c main_v1 _
  refine congrArg _ (funext fun a => Fin.ext ?_)
  match a with
  | ⟨0, _⟩ => show win0_1.index t (0 : Fin 2) * 64 + 1 * (y 0).val = (y 0).val; rw [e0]; omega
  | ⟨1, _⟩ => show win0_1.index t (1 : Fin 2) * 256 + 1 * (y 1).val = (y 1).val; rw [e1]; omega

/-- The bias window's block is the whole bias row at every point. -/
theorem bias_block_apply (c : Dev nD) (t : Fin cfg0.N) (y : S256.Idx) :
    (iblk0 V c 2 t : Vec Ideal S256 .f32) y = (V c main_v2 : S256.Idx → EReal) y := by
  obtain ⟨-, -, -, -, e0, -⟩ := block_indices t
  unfold iblk0
  rw [View.read_apply]
  show V c main_v2 _ = V c main_v2 _
  refine congrArg _ (funext fun a => Fin.ext ?_)
  match a with
  | ⟨0, _⟩ => show win0_2.index t (0 : Fin 1) * 256 + 1 * (y 0).val = (y 0).val; rw [e0]; omega

/-- What point `t` writes back is block `t` of the whole result `hallT` of the three arrays as the region finds them. -/
theorem written_eq (c : Dev nD) (t : Fin cfg0.N) :
    (dat0 V c).flushed 3 t
      = ((cfg0.win 3).blk t).view.read (Elt Ideal) (hallT (V c main_arg0) (V c main_v1) (V c main_v2)) := by
  show (cfg0.win 3).cut (grid0.coords t) ((dat0 V c).after 3 t) = _
  rw [after0_3, left_eq]
  obtain ⟨-, -, -, -, -, e0, e1⟩ := block_indices t
  funext j
  show (k0_pay1 (F := Ideal) (iblk0 V c 0 t) (iblk0 V c 1 t) (iblk0 V c 2 t)) j
    = hallT (V c main_arg0) (V c main_v1) (V c main_v2) (((cfg0.win 3).blk t).view.emb j)
  exact stored_block (V c main_arg0) (V c main_v1) (V c main_v2) (iblk0 V c 0 t) (iblk0 V c 1 t) (iblk0 V c 2 t)
    (t.val * 5000) (fun y z h0 h1 => node_block_apply V c t y z h0 h1) (fun y => weight_block_apply V c t y)
    (fun y => bias_block_apply V c t y) j (((cfg0.win 3).blk t).view.emb j)
    (by show win0_3.index t (0 : Fin 2) * 5000 + 1 * (j 0).val = t.val * 5000 + (j 0).val; rw [e0]; omega)
    (by show win0_3.index t (1 : Fin 2) * 256 + 1 * (j 1).val = (j 1).val; rw [e1]; omega)

/-- An index of the result array is in point `t`'s block iff each coordinate is in the block's range on its axis. -/
theorem mem_block (t : Fin cfg0.N) (i : S50000x256.Idx) :
    i ∈ ((cfg0.win 3).blk t).view.set
      ↔ ∀ a : Fin 2, win0_3.index t a * S5000x256.size a ≤ (i a).val
          ∧ (i a).val < win0_3.index t a * S5000x256.size a + S5000x256.size a := by
  show i ∈ ((View.whole main_v8).slice (win0_3.rect t)).set ↔ _
  rw [View.set_slice_whole, Rect.mem_set_unit]
  exact Iff.rfl

/-- Row `r` of the result lies in the block of point `r / 5000`. -/
theorem covered (i : S50000x256.Idx) :
    ∃ t : Fin cfg0.N, (cfg0.win 3).flush t = true ∧ i ∈ ((cfg0.win 3).blk t).view.set := by
  have hN : cfg0.N = 10 := N_0
  have hi0 : (i 0).val < 50000 := (i 0).isLt
  have hi1 : (i 1).val < 256 := (i 1).isLt
  refine ⟨⟨(i 0).val / 5000, by rw [hN]; omega⟩, flush0_3 _, ?_⟩
  obtain ⟨-, -, -, -, -, e0, e1⟩ := block_indices ⟨(i 0).val / 5000, by rw [hN]; omega⟩
  rw [mem_block]
  intro a
  match a with
  | ⟨0, _⟩ =>
    show win0_3.index _ (0 : Fin 2) * 5000 ≤ (i 0).val ∧ (i 0).val < win0_3.index _ (0 : Fin 2) * 5000 + 5000
    rw [e0]; show (i 0).val / 5000 * 5000 ≤ (i 0).val ∧ (i 0).val < (i 0).val / 5000 * 5000 + 5000; omega
  | ⟨1, _⟩ =>
    show win0_3.index _ (1 : Fin 2) * 256 ≤ (i 1).val ∧ (i 1).val < win0_3.index _ (1 : Fin 2) * 256 + 256
    rw [e1]; omega

/-- After the region's ten points the output array holds every node's state under all four maps at once. -/
theorem hall_arr0 (V : (c : Dev nD) → (b : Ref sig .tc) → Buf (Elt Ideal) ((c : Thread nD τ).loc b)) (c : Dev nD) :
    (dat0 (F := Ideal) V c).arrAt 3 cfg0.N = hallT (V c main_arg0) (V c main_v1) (V c main_v2) :=
  (dat0 V c).arrAt_eq_of_cover 3 (hallT (V c main_arg0) (V c main_v1) (V c main_v2)) (fun t _ => written_eq V c t) covered

end Cert.KernelIdeal.HallRegion0

end
-- ==== Proof.GruCell.lean ====
/-
  The GRU cell on one block of 5000 rows, read entry by entry.

  Each of the five update steps applies the same arithmetic to a block of 5000 rows of the aggregate table `a` and of the
  state table `h`, against the two transposed 64 × 192 weight tables and the two bias rows of 192:
      gi = a · wihT + b_ih,   gh = h · whhT + b_hh            (5000 × 192 each, the biases laid along every row)
      r = σ (gi[:, 0:64] + gh[:, 0:64]),   z = σ (gi[:, 64:128] + gh[:, 64:128]),
      n = tanh (gi[:, 128:192] + r · gh[:, 128:192]),   h' = (1 - z) · n + z · h.
  On the extended reals a product accumulated into zeros is the plain sum over the 64 contracted positions, the change
  of operand format is the identity, and a column band of width 64 at offset `o` reads column `o + q`. So entry `(p, q)`
  of the block's result depends on row `p` of the two blocks only, and it is the table function `gruT` of the
  specification at `(n, q)` whenever row `p` of each block is row `n` of its table (`cell_ix`).
-/
import proofs.«410194_j38886633898060_1_alg».proof.Proof.Gen.KernelIdeal
import proofs.«410194_j38886633898060_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.GruCell

open Cert.KernelIdeal Cert.KernelIdeal.Gen Cert.GatedGraph
open Idealize.ShloMosaic Idealize.ShloMosaic.ValueIdx

/-- The dimension numbers of both products: rows of the left operand against columns of the right, one contracted axis of extent 64. -/
abbrev D : DotDims S5000x64 S64x192 S5000x192 := dot_S5000x64_S64x192_S5000x192_1_0_0_1_n_n

theorem D_rank : D.contr.rank = 1 := rfl
theorem D_size : D.contr.size ⟨0, by rw [D_rank]; exact Nat.one_pos⟩ = 64 := rfl

theorem lhs_0 (j : S5000x192.Idx) (k : D.contr.Idx) :
    (dot_S5000x64_S64x192_S5000x192_1_0_0_1_n_n.lhsIdx j k 0).val = (j 0).val := by
  unfold DotDims.lhsIdx
  rw [dif_neg (show ¬ (0 : Fin S5000x64.rank) ∈ dot_S5000x64_S64x192_S5000x192_1_0_0_1_n_n.lhsBatch by decide),
    dif_pos (show (0 : Fin S5000x64.rank) ∈ dot_S5000x64_S64x192_S5000x192_1_0_0_1_n_n.lhsNonContracting by decide)]
  rfl

theorem lhs_1 (j : S5000x192.Idx) (k : D.contr.Idx) :
    (dot_S5000x64_S64x192_S5000x192_1_0_0_1_n_n.lhsIdx j k 1).val = (k ⟨0, by rw [D_rank]; exact Nat.one_pos⟩).val :=
  dot_S5000x64_S64x192_S5000x192_1_0_0_1_n_n.lhsIdx_val_of_single rfl j k

theorem rhs_0 (j : S5000x192.Idx) (k : D.contr.Idx) :
    (dot_S5000x64_S64x192_S5000x192_1_0_0_1_n_n.rhsIdx j k 0).val = (k ⟨0, by rw [D_rank]; exact Nat.one_pos⟩).val :=
  dot_S5000x64_S64x192_S5000x192_1_0_0_1_n_n.rhsIdx_val_of_single rfl j k

theorem rhs_1 (j : S5000x192.Idx) (k : D.contr.Idx) :
    (dot_S5000x64_S64x192_S5000x192_1_0_0_1_n_n.rhsIdx j k 1).val = (j 1).val := by
  unfold DotDims.rhsIdx
  rw [dif_neg (show ¬ (1 : Fin S64x192.rank) ∈ dot_S5000x64_S64x192_S5000x192_1_0_0_1_n_n.rhsBatch by decide),
    dif_pos (show (1 : Fin S64x192.rank) ∈ dot_S5000x64_S64x192_S5000x192_1_0_0_1_n_n.rhsNonContracting by decide)]
  rfl

/-- A row block times a 64 × 192 table, accumulated into zeros, read at row `p` and column `c`: the sum over the 64
    contracted positions of the products of the entries. -/
theorem matmul_ix (x : FVec Ideal S5000x64 .bf16) (w : FVec Ideal S64x192 .bf16) (p : Fin 5000) (c : Fin 192) :
    matmul D none x w (constant S5000x192 .f32 0x00000000#32) (ix2 p c) = ∑ k : Fin 64, x (ix2 p k) * w (ix2 k c) := by
  show FloatOps.matmul D none x w (constant S5000x192 .f32 0x00000000#32) (ix2 p c) = _
  rw [Ideal.matmul_constant_zero_apply, ← Equiv.sum_comp (contrEquiv1 D 64 D_rank D_size).symm]
  refine Finset.sum_congr rfl fun k _ => ?_
  have ck := contrEquiv1_symm_val D 64 D_rank D_size k
  have el : D.lhsIdx (ix2 p c) ((contrEquiv1 D 64 D_rank D_size).symm k) = ix2 p k := by
    funext ax; apply Fin.ext
    match ax with
    | ⟨0, _⟩ => exact lhs_0 _ _
    | ⟨1, _⟩ => exact (lhs_1 _ _).trans ck
  have er : D.rhsIdx (ix2 p c) ((contrEquiv1 D 64 D_rank D_size).symm k) = ix2 k c := by
    funext ax; apply Fin.ext
    match ax with
    | ⟨0, _⟩ => exact (rhs_0 _ _).trans ck
    | ⟨1, _⟩ => exact rhs_1 _ _
  rw [el, er]

/-- A bias row laid along every row of the block, read at row `p` and column `c`: the row's entry `c`. -/
theorem bias_ix (b : Vec Ideal S192 .f32) (p : Fin 5000) (c : Fin 192) :
    broadcastTo S5000x192 (shapeCast S1x192 b shapeCasts_S192_S1x192) broadcasts_S1x192_S5000x192 (ix2 p c) = b (ix1 c) := by
  rw [broadcastTo_1b_ab_apply, shapeCast_a_1a_apply]

/-- A gate's pre-activations for one row block: the block (read at the matrix unit's operand format, which on the
    extended reals changes nothing) times the 64 × 192 table, plus the bias row laid along every row. -/
def pre (x : Vec Ideal S5000x64 .f32) (w : Vec Ideal S64x192 .f32) (b : Vec Ideal S192 .f32) : FVec Ideal S5000x192 .f32 :=
  addf (matmul D none (truncf .bf16 x bitsLt_bf16_f32) (truncf .bf16 w bitsLt_bf16_f32) (constant S5000x192 .f32 0x00000000#32))
    (broadcastTo S5000x192 (shapeCast S1x192 b shapeCasts_S192_S1x192) broadcasts_S1x192_S5000x192)

/-- The pre-activation at row `p`, column `c`: row `p` of the block against column `c` of the table, plus the bias. -/
theorem pre_ix (x : Vec Ideal S5000x64 .f32) (w : Vec Ideal S64x192 .f32) (b : Vec Ideal S192 .f32) (p : Fin 5000) (c : Fin 192) :
    pre x w b (ix2 p c) = (∑ k : Fin 64, x (ix2 p k) * w (ix2 k c)) + b (ix1 c) := by
  unfold pre
  rw [addf_apply, matmul_ix, bias_ix]
  rfl

/-- The three column bands of a pre-activation block, read at row `p`, feature `q`: columns `q`, `64 + q`, `128 + q`. -/
theorem bandR_ix (y : FVec Ideal S5000x192 .f32) (p : Fin 5000) (q : Fin 64) :
    extractStridedSlice S5000x64 ![0, 0] y slices_S5000x192_o0_0_S5000x64 (ix2 p q) = y (ix2 p (colR q)) :=
  slice2_axis1_apply 0 y slices_S5000x192_o0_0_S5000x64 p q (colR q) (Nat.zero_add _).symm
theorem bandZ_ix (y : FVec Ideal S5000x192 .f32) (p : Fin 5000) (q : Fin 64) :
    extractStridedSlice S5000x64 ![0, 64] y slices_S5000x192_o0_64_S5000x64 (ix2 p q) = y (ix2 p (colZ q)) :=
  slice2_axis1_apply 64 y slices_S5000x192_o0_64_S5000x64 p q (colZ q) rfl
theorem bandN_ix (y : FVec Ideal S5000x192 .f32) (p : Fin 5000) (q : Fin 64) :
    extractStridedSlice S5000x64 ![0, 128] y slices_S5000x192_o0_128_S5000x64 (ix2 p q) = y (ix2 p (colN q)) :=
  slice2_axis1_apply 128 y slices_S5000x192_o0_128_S5000x64 p q (colN q) rfl

/-- The cell's arithmetic on one row block, from the two pre-activation blocks `gi` (of the aggregate) and `gh` (of
    the state) and the state block `h`: reset and update gates by the logistic function of the summed first and second
    bands, the candidate by the hyperbolic tangent of the third band of `gi` plus the reset gate times the third band
    of `gh`, and the new state `(1 - z) · n + z · h`, the constant 1 as its float word. -/
def cellOf (gi gh : FVec Ideal S5000x192 .f32) (h : Vec Ideal S5000x64 .f32) : FVec Ideal S5000x64 .f32 :=
  addf
    (mulf
      (subf (broadcast S5000x64 (Scalar.ofBits .f32 0x3F800000#32))
        (logistic (addf (extractStridedSlice S5000x64 ![0, 64] gi slices_S5000x192_o0_64_S5000x64)
          (extractStridedSlice S5000x64 ![0, 64] gh slices_S5000x192_o0_64_S5000x64))))
      (tanh (addf (extractStridedSlice S5000x64 ![0, 128] gi slices_S5000x192_o0_128_S5000x64)
        (mulf
          (logistic (addf (extractStridedSlice S5000x64 ![0, 0] gi slices_S5000x192_o0_0_S5000x64)
            (extractStridedSlice S5000x64 ![0, 0] gh slices_S5000x192_o0_0_S5000x64)))
          (extractStridedSlice S5000x64 ![0, 128] gh slices_S5000x192_o0_128_S5000x64)))))
    (mulf
      (logistic (addf (extractStridedSlice S5000x64 ![0, 64] gi slices_S5000x192_o0_64_S5000x64)
        (extractStridedSlice S5000x64 ![0, 64] gh slices_S5000x192_o0_64_S5000x64)))
      h)

/-- The cell on one row block, from the aggregate block `a`, the state block `h`, the two transposed weight tables
    and the two bias rows. -/
def cell (a h : Vec Ideal S5000x64 .f32) (wih whh : Vec Ideal S64x192 .f32) (bih bhh : Vec Ideal S192 .f32) :
    FVec Ideal S5000x64 .f32 :=
  cellOf (pre a wih bih) (pre h whh bhh) h

/-- The cell's block at row `p`, feature `q`, in the two pre-activation blocks' entries. -/
theorem cellOf_ix (gi gh : FVec Ideal S5000x192 .f32) (h : Vec Ideal S5000x64 .f32) (p : Fin 5000) (q : Fin 64) :
    cellOf gi gh h (ix2 p q)
      = (one - Ideal.logistic (gi (ix2 p (colZ q)) + gh (ix2 p (colZ q))))
          * Ideal.tanh (gi (ix2 p (colN q)) + Ideal.logistic (gi (ix2 p (colR q)) + gh (ix2 p (colR q))) * gh (ix2 p (colN q)))
        + Ideal.logistic (gi (ix2 p (colZ q)) + gh (ix2 p (colZ q))) * h (ix2 p q) := by
  unfold cellOf
  simp only [addf_apply, mulf_apply, subf_apply, broadcast_apply, logistic, tanh, bandR_ix, bandZ_ix, bandN_ix,
    Ideal.logistic_def, Ideal.tanh_def]
  rfl

/-- THE CELL ON A ROW BLOCK IS THE CELL ON THE TABLE: if row `p` of the aggregate block is row `n` of the aggregate table
    `A` and row `p` of the state block is row `n` of the state table `H`, the block's entry `(p, q)` is the table
    function's entry `(n, q)`. -/
theorem cell_ix (A H : Mat 50000 64) (a h : Vec Ideal S5000x64 .f32) (wih whh : Vec Ideal S64x192 .f32)
    (bih bhh : Vec Ideal S192 .f32) (n : Fin 50000) (p : Fin 5000) (q : Fin 64)
    (ha : ∀ k : Fin 64, a (ix2 p k) = A (ix2 n k)) (hh : ∀ k : Fin 64, h (ix2 p k) = H (ix2 n k)) :
    cell a h wih whh bih bhh (ix2 p q) = gruT A H wih whh bih bhh (ix2 n q) := by
  unfold cell
  rw [cellOf_ix]
  simp only [pre_ix, ha, hh]
  rfl

end Cert.KernelIdeal.GruCell
end
-- ==== Proof.GruRegion1.lean ====
/-
  The table a GRU region leaves, read off its ten grid points.

  The region runs the cell on ten blocks of 5000 rows: at grid point `t` it stages rows `5000 t … 5000 t + 4999` of the
  aggregate table `main_v13` and of the state table `main_arg0`, the two transposed weight tables `main_v3`, `main_v4` and
  the two bias rows `main_arg5`, `main_arg6` whole, stores the cell of those blocks into the output's staging block, and
  writes that block back to rows `5000 t … 5000 t + 4999` of `main_v14`. Entry `(p, q)` of the cell of a block depends on row
  `p` of the two row blocks only, which is row `5000 t + p` of the tables; so each point writes its rows of ONE table
  function, the specification's `gruT` of the six arrays as the region finds them, and the ten blocks cover the table
  (row `r` lies in the block of point `r / 5000`): the output array ends holding that function.
-/
import proofs.«410194_j38886633898060_1_alg».proof.Proof.Gen.KernelIdeal.Frame
import proofs.«410194_j38886633898060_1_alg».proof.Proof.Spec
import proofs.«410194_j38886633898060_1_alg».proof.Proof.GruCell
import Idealize.ShloMosaic.Lib.ValueIdx
import Idealize.ShloMosaic.Lib.Pipeline.Value

noncomputable section

namespace Cert.KernelIdeal.GruRegion1

open Cert.KernelIdeal Cert.KernelIdeal.Gen Cert.GatedGraph Cert.KernelIdeal.GruCell
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's payload is the cell of its six loaded blocks (the casts to a vector's own shape dropped). -/
theorem pay_eq (a h : Vec Ideal S5000x64 .f32) (wih whh : Vec Ideal S64x192 .f32) (bih bhh : Vec Ideal S192 .f32) :
    k1_pay1 (F := Ideal) a h wih whh bih bhh = cell a h wih whh bih bhh := by
  unfold k1_pay1 cell cellOf pre
  simp only [shapeCast_self]

/-- The index maps over the ten grid points: the two row-blocked inputs and the output sit at row block `t`, column block 0;
    the four tables at block 0 on every axis. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 1) = 0
    ∧ win1_6.index t (0 : Fin 2) = t.val ∧ win1_6.index t (1 : Fin 2) = 0 :=
  (by decide +kernel : ∀ t : Fin grid1.N, _)

/-- Entry `(p, k)` of the aggregate's block at point `t` is entry `(5000 t + p, k)` of the aggregate table. -/
theorem ablk_ix (c : Dev nD) (t : Fin cfg1.N) (p : Fin 5000) (k : Fin 64) (n : Fin 50000) (hn : n.val = t.val * 5000 + p.val) :
    (iblk1 V c 0 t : Vec Ideal S5000x64 .f32) (ix2 p k) = (V c main_v13 : Mat 50000 64) (ix2 n k) := by
  obtain ⟨e0, e1, -⟩ := idx_facts t
  unfold iblk1
  rw [View.read_apply]
  show V c main_v13 _ = V c main_v13 _
  congr 1
  funext a; apply Fin.ext
  match a with
  | ⟨0, _⟩ => show win1_0.index t (0 : Fin 2) * 5000 + 1 * p.val = n.val; rw [e0, hn]; omega
  | ⟨1, _⟩ => show win1_0.index t (1 : Fin 2) * 64 + 1 * k.val = k.val; rw [e1]; omega

/-- Entry `(p, k)` of the state's block at point `t` is entry `(5000 t + p, k)` of the state table. -/
theorem hblk_ix (c : Dev nD) (t : Fin cfg1.N) (p : Fin 5000) (k : Fin 64) (n : Fin 50000) (hn : n.val = t.val * 5000 + p.val) :
    (iblk1 V c 1 t : Vec Ideal S5000x64 .f32) (ix2 p k) = (V c main_arg0 : Mat 50000 64) (ix2 n k) := by
  obtain ⟨-, -, e0, e1, -⟩ := idx_facts t
  unfold iblk1
  rw [View.read_apply]
  show V c main_arg0 _ = V c main_arg0 _
  congr 1
  funext a; apply Fin.ext
  match a with
  | ⟨0, _⟩ => show win1_1.index t (0 : Fin 2) * 5000 + 1 * p.val = n.val; rw [e0, hn]; omega
  | ⟨1, _⟩ => show win1_1.index t (1 : Fin 2) * 64 + 1 * k.val = k.val; rw [e1]; omega

/-- The two weight tables and the two bias rows are staged whole at every point. -/
theorem wih_whole (c : Dev nD) (t : Fin cfg1.N) : (iblk1 V c 2 t : Vec Ideal S64x192 .f32) = V c main_v3 := by
  obtain ⟨-, -, -, -, e0, e1, -⟩ := idx_facts t
  funext j
  unfold iblk1
  rw [View.read_apply]
  show V c main_v3 _ = V c main_v3 j
  congr 1
  funext a; apply Fin.ext
  match a with
  | ⟨0, _⟩ => show win1_2.index t (0 : Fin 2) * 64 + 1 * (j 0).val = (j 0).val; rw [e0]; omega
  | ⟨1, _⟩ => show win1_2.index t (1 : Fin 2) * 192 + 1 * (j 1).val = (j 1).val; rw [e1]; omega
theorem whh_whole (c : Dev nD) (t : Fin cfg1.N) : (iblk1 V c 3 t : Vec Ideal S64x192 .f32) = V c main_v4 := by
  obtain ⟨-, -, -, -, -, -, e0, e1, -⟩ := idx_facts t
  funext j
  unfold iblk1
  rw [View.read_apply]
  show V c main_v4 _ = V c main_v4 j
  congr 1
  funext a; apply Fin.ext
  match a with
  | ⟨0, _⟩ => show win1_3.index t (0 : Fin 2) * 64 + 1 * (j 0).val = (j 0).val; rw [e0]; omega
  | ⟨1, _⟩ => show win1_3.index t (1 : Fin 2) * 192 + 1 * (j 1).val = (j 1).val; rw [e1]; omega
theorem bih_whole (c : Dev nD) (t : Fin cfg1.N) : (iblk1 V c 4 t : Vec Ideal S192 .f32) = V c main_arg5 := by
  obtain ⟨-, -, -, -, -, -, -, -, e0, -⟩ := idx_facts t
  funext j
  unfold iblk1
  rw [View.read_apply]
  show V c main_arg5 _ = V c main_arg5 j
  congr 1
  funext a; apply Fin.ext
  match a with
  | ⟨0, _⟩ => show win1_4.index t (0 : Fin 1) * 192 + 1 * (j 0).val = (j 0).val; rw [e0]; omega
theorem bhh_whole (c : Dev nD) (t : Fin cfg1.N) : (iblk1 V c 5 t : Vec Ideal S192 .f32) = V c main_arg6 := by
  obtain ⟨-, -, -, -, -, -, -, -, -, e0, -⟩ := idx_facts t
  funext j
  unfold iblk1
  rw [View.read_apply]
  show V c main_arg6 _ = V c main_arg6 j
  congr 1
  funext a; apply Fin.ext
  match a with
  | ⟨0, _⟩ => show win1_5.index t (0 : Fin 1) * 192 + 1 * (j 0).val = (j 0).val; rw [e0]; omega

/-- The table function the region leaves: the cell of the specification over the six arrays as the region finds them. -/
abbrev G (c : Dev nD) : Mat 50000 64 :=
  gruT (V c main_v13) (V c main_arg0) (V c main_v3) (V c main_v4) (V c main_arg5) (V c main_arg6)

/-- WHAT POINT `t` WRITES BACK is rows `5000 t … 5000 t + 4999` of `G`. -/
theorem flushed_eq (c : Dev nD) (t : Fin cfg1.N) :
    (dat1 (F := Ideal) V c).flushed 6 t = ((cfg1.win 6).blk t).view.read (Elt Ideal) (G V c) := by
  have ht : t.val < 10 := lt_of_lt_of_eq t.isLt N_1
  obtain ⟨-, -, -, -, -, -, -, -, -, -, e0, e1⟩ := idx_facts t
  show (cfg1.win 6).cut (grid1.coords t) ((dat1 V c).after 6 t) = _
  rw [after1_6]
  unfold out1_6
  rw [View.canon_unit_zero hz2]
  simp only [View.ld_unit_zero (S := S5000x64) hz2, View.ld_unit_zero (S := S64x192) hz2, View.ld_unit_zero (S := S192) hz1]
  rw [pay_eq, wih_whole, whh_whole, bih_whole, bhh_whole]
  funext y
  obtain ⟨p, q, rfl⟩ : ∃ (p : Fin 5000) (q : Fin 64), y = ix2 p q := ⟨y 0, y 1, eq_ix2 y⟩
  have hp : p.val < 5000 := p.isLt
  rw [View.read_apply]
  show cell (iblk1 V c 0 t) (iblk1 V c 1 t) (V c main_v3) (V c main_v4) (V c main_arg5) (V c main_arg6) (ix2 p q) = G V c _
  refine (cell_ix (V c main_v13) (V c main_arg0) (iblk1 V c 0 t) (iblk1 V c 1 t) (V c main_v3) (V c main_v4) (V c main_arg5)
    (V c main_arg6) ⟨t.val * 5000 + p.val, by omega⟩ p q (fun k => ablk_ix V c t p k _ rfl) (fun k => hblk_ix V c t p k _ rfl)).trans ?_
  show G V c _ = G V c _
  congr 1
  funext a; apply Fin.ext
  match a with
  | ⟨0, _⟩ => show t.val * 5000 + p.val = win1_6.index t (0 : Fin 2) * 5000 + 1 * p.val; rw [e0]; omega
  | ⟨1, _⟩ => show q.val = win1_6.index t (1 : Fin 2) * 64 + 1 * q.val; rw [e1]; omega

/-- An index of the table is in point `t`'s block iff each coordinate is in the block's range on its axis. -/
theorem mem_blk (t : Fin cfg1.N) (i : S50000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v14).slice (win1_6.rect t)).set ↔ _
  rw [View.set_slice_whole, Rect.mem_set_unit]
  exact Iff.rfl

/-- Every row of the table is in the block of the point `row / 5000`. -/
theorem cover (i : S50000x64.Idx) : ∃ t : Fin cfg1.N, (cfg1.win 6).flush t = true ∧ i ∈ ((cfg1.win 6).blk t).view.set := by
  have h0 : (i 0).val < 50000 := (i 0).isLt
  have h1 : (i 1).val < 64 := (i 1).isLt
  have hN : cfg1.N = 10 := N_1
  let t : Fin cfg1.N := ⟨(i 0).val / 5000, by rw [hN]; omega⟩
  obtain ⟨-, -, -, -, -, -, -, -, -, -, e0, e1⟩ := idx_facts t
  refine ⟨t, flush1_6 t, ?_⟩
  rw [mem_blk]
  intro a
  match a with
  | ⟨0, _⟩ =>
    show win1_6.index t (0 : Fin 2) * 5000 ≤ (i 0).val ∧ (i 0).val < win1_6.index t (0 : Fin 2) * 5000 + 5000
    rw [e0]; show (i 0).val / 5000 * 5000 ≤ (i 0).val ∧ (i 0).val < (i 0).val / 5000 * 5000 + 5000; omega
  | ⟨1, _⟩ =>
    show win1_6.index t (1 : Fin 2) * 64 ≤ (i 1).val ∧ (i 1).val < win1_6.index t (1 : Fin 2) * 64 + 64
    rw [e1]; omega

/-- THE ARRAY the region leaves in its output window: the cell of the specification over the six arrays it reads, as the
    region finds them. -/
theorem gru_arr1 (c : Dev nD) :
    (dat1 (F := Ideal) V c).arrAt 6 cfg1.N
      = gruT (V c main_v13) (V c main_arg0) (V c main_v3) (V c main_v4) (V c main_arg5) (V c main_arg6) :=
  (dat1 (F := Ideal) V c).arrAt_eq_of_cover 6 (G V c) (fun t _ => flushed_eq V c t) cover
end Cert.KernelIdeal.GruRegion1
end
-- ==== Proof.TakeLemma.lean ====
/-
  The row take between the all-types linear map and the per-destination sum, as pure functions of the tables.

  The program lays the 50000 × 256 table X of every node's state under all four maps out as 200000 rows of 64
  (row n·4 + t is columns t·64 … t·64 + 63 of row n), and takes from it, for each of the 800000 edges, the row named by
  the flat index  src·4 + type  (32-bit words). The take first wraps a negative index by the row count, then tests
  0 ≤ index ≤ 199999, reads the row at the index clamped into the table, and keeps the row where the test holds and a
  fill constant where it fails. When every source word names a node and every type word names a type the flat index
  does not wrap and lies in [0, 200000): the wrap keeps it, the test holds, the clamp is the identity, and row
  src·4 + type of the re-laid table is columns type·64 + j of row src of X, because in row-major order
  (src·4 + type)·64 + j = src·256 + type·64 + j.

  The per-destination sum is kept as the program states it (a scatter-add of the taken rows onto a zero table at the
  destination column) and is never opened: both programs apply the same one.
-/
import proofs.«410194_j38886633898060_1_alg».proof.Proof.Gen.KernelIdeal
import proofs.«410194_j38886633898060_1_alg».proof.Proof.Spec
import Idealize.ShloMosaic.Lib.StableHlo.Predicate
import Idealize.ShloMosaic.Lib.ValueIdx
import Idealize.ShloMosaic.Lib.Pipeline.Value

noncomputable section

namespace Cert.GatedGraph

open Idealize.ShloMosaic Idealize.ShloMosaic.ValueIdx
open Cert.KernelIdeal Cert.KernelIdeal.Gen

/-! ## The functions -/

/-- The flat row index of every edge: source word times four plus type word, in 32-bit arithmetic. -/
def flatOf (src et : Words) : Words :=
  addi (muli src (broadcastInDim S800000 ![] bcast_S_S800000 (constantI S_ 32 4#32))) et

/-- A negative index counts from the end of the table: where the word is below zero (signed) the row count is added. -/
def wrapOf (flat : Words) : Words :=
  select (cmpi .slt flat (broadcastInDim S800000 ![] bcast_S_S800000 (constantI S_ 32 0#32)))
    (addi flat (broadcastInDim S800000 ![] bcast_S_S800000 (constantI S_ 32 200000#32))) flat

/-- The wrapped indices as one column. -/
def colOf (flat : Words) : IVec S800000x1 32 :=
  broadcastInDim S800000x1 ![0] bcast_S800000_S800000x1_0 (wrapOf flat)

/-- Per edge: does the wrapped index lie in the table, 0 ≤ index ≤ 199999 (signed)? The conjunction over the one
    column of the two comparisons. -/
def inTable (flat : Words) : IVec S800000 1 :=
  Host.reduce IntOp.andi
    (andi (cmpi .sge (colOf flat) (broadcastInDim S800000x1 ![] bcast_S_S800000x1 (constantI S_ 32 0#32)))
      (cmpi .sle (colOf flat)
        (broadcastInDim S800000x1 ![0, 1] bcast_S1x1_S800000x1_0_1
          (broadcastInDim S1x1 ![1] bcast_S1_S1x1_1 (constantI S1 32 199999#32)))))
    (constantI S_ 1 1#1) reducesTo_S800000x1_S800000_d1 h_S_

/-- The take over a table already laid out as 200000 rows of 64: the row at the clamped index where the index is in
    the table, the fill constant elsewhere. -/
def takeRows (x9 : FVec Ideal S200000x64 .f32) (flat : Words) : Mat 800000 64 :=
  select (broadcastInDim S800000x64 ![0] bcast_S800000_S800000x64_0 (inTable flat))
    (Host.gather gather_S200000x64_S800000x1_S800000x64_1_0_n_n_0_1_164 x9 (colOf flat))
    (broadcastInDim S800000x64 ![] bcast_S_S800000x64 (constant (F := Ideal) S_ .f32 0x7FC00000#32))

/-- The re-laying of X as 200000 rows of 64, then the take. -/
def takeK (X : Mat 50000 256) (flat : Words) : Mat 800000 64 :=
  takeRows (shapeCast S200000x64 X shapeCasts_S50000x256_S200000x64) flat

/-- The taken rows summed per destination node: the scatter-add onto the zero table at the destination column. -/
def aggK (dst : Words) (u : Mat 800000 64) : Mat 50000 64 :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst) u

/-! ## Typed references

    The take's operations are stated over references that carry their value's type; contents are moved to the
    buffer's own type and back along the equation of the two types. -/

/-- Contents moved to a typed reference's buffer type and back are unchanged. -/
theorem ofBuf_toBuf {sg : RefSig} {Val : EltTy → Type} {T : BufTy} (x : StableHlo.TRef sg T) (v : T.Contents Val) :
    x.ofBuf (x.toBuf v) = v := by
  obtain ⟨r, rfl, _, _⟩ := x
  rfl

/-! ## Words -/

/-- Under the range hypothesis the flat index is the number  source · 4 + type : nothing wraps. -/
theorem flatOf_toNat {src et : Words} (h : InRange src et) (e : Fin 800000) :
    (flatOf src et (ix1 e)).toNat = (src (ix1 e)).toNat * 4 + (et (ix1 e)).toNat := by
  have hs := (h e).1
  have ht := (h e).2
  show (src (ix1 e) * 4#32 + et (ix1 e)).toNat = _
  rw [BitVec.toNat_add, BitVec.toNat_mul]
  show ((src (ix1 e)).toNat * 4 % 2 ^ 32 + (et (ix1 e)).toNat) % 2 ^ 32 = _
  omega

/-- A word below 2³¹ is not negative: the wrap keeps it. -/
theorem wrapOf_apply_of_lt (flat : Words) (e : Fin 800000) (hf : (flat (ix1 e)).toNat < 2 ^ 31) :
    wrapOf flat (ix1 e) = flat (ix1 e) := by
  have hz : IntOp.cmpi .slt (flat (ix1 e)) 0#32 = 0#1 := by
    refine eq_zero_of_ne_one fun h1 => ?_
    have := (StableHlo.Predicate.slt_iff_toNat hf (by decide)).1 h1
    simp at this
  show Scalar.select (IntOp.cmpi .slt (flat (ix1 e)) 0#32) (IntOp.addi (flat (ix1 e)) 200000#32) (flat (ix1 e)) = _
  rw [hz, select_zero]

/-- The column at row e is the wrapped index of edge e. -/
theorem colOf_apply (flat : Words) (i : S800000x1.Idx) : colOf flat i = wrapOf flat (ix1 (i 0)) := by
  unfold colOf
  refine broadcastInDim_apply _ _ _ i (ix1 (i 0)) fun a => ?_
  match a with
  | ⟨0, _⟩ => rfl

/-! ## The conjunction over one column -/

/-- A left fold of "and" from 1 over bits that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_ones f hf l

/-- The and-reduction from 1 of a mask that is 1 everywhere is 1 everywhere. -/
theorem reduce_andi_ones {s t u : Shape} {axes : List (Fin s.rank)} (x : s.Idx → BitVec 1) (hx : ∀ i, x i = 1#1)
    (h : s.ReducesTo axes t) (hu : 0 < u.numel) (j : t.Idx) :
    Host.reduce IntOp.andi x (constantI u 1 1#1) h hu j = 1#1 := by
  rw [Host.reduce_eq_foldl]
  exact foldl_andi_ones x hx _

/-- Where every edge's flat index is a number below 200000 every edge's index is in the table. -/
theorem inTable_apply (flat : Words) (hf : ∀ e : Fin 800000, (flat (ix1 e)).toNat < 200000) (j : S800000.Idx) :
    inTable flat j = 1#1 := by
  unfold inTable
  refine reduce_andi_ones _ (fun i => ?_) _ _ j
  have hlt := hf (i 0)
  have hw : wrapOf flat (ix1 (i 0)) = flat (ix1 (i 0)) := wrapOf_apply_of_lt flat (i 0) (by omega)
  have hge : IntOp.cmpi .sge (flat (ix1 (i 0))) 0#32 = 1#1 :=
    (StableHlo.Predicate.sge_iff_toNat (by omega) (by decide)).2 (Nat.zero_le _)
  have hle : IntOp.cmpi .sle (flat (ix1 (i 0))) 199999#32 = 1#1 :=
    (StableHlo.Predicate.sle_iff_toNat (by omega) (by decide)).2 (by show _ ≤ 199999; omega)
  show IntOp.andi (IntOp.cmpi .sge (colOf flat i) 0#32) (IntOp.cmpi .sle (colOf flat i) 199999#32) = 1#1
  rw [colOf_apply, hw, hge, hle]
  rfl

/-! ## The gather of rows -/

/-- Result entry (e, j) of the row gather is entry j of the table's row at start index e, read signed and clamped into
    the table. -/
theorem gather_row {α : Type} (x : S200000x64.Idx → α) (idx : IVec S800000x1 32) (e : Fin 800000) (j : Fin 64)
    (r : Fin 200000) (hr : r.val = min (idx (ix2 e (0 : Fin 1))).toInt.toNat 199999) :
    Host.gather gather_S200000x64_S800000x1_S800000x64_1_0_n_n_0_1_164 x idx (ix2 e j) = x (ix2 r j) := by
  unfold Host.gather
  refine congrArg x (funext fun a => Fin.ext ?_)
  match a with
  | ⟨0, _⟩ =>
    -- the collapsed axis: the clamped start index, no batching coordinate, no offset coordinate
    show gather_S200000x64_S800000x1_S800000x64_1_0_n_n_0_1_164.start (ix2 e j) idx 0
        + gather_S200000x64_S800000x1_S800000x64_1_0_n_n_0_1_164.batchCoord (ix2 e j) 0
        + gather_S200000x64_S800000x1_S800000x64_1_0_n_n_0_1_164.offCoord (ix2 e j) 0 = r.val
    rw [GatherDims.batchCoord_eq_zero _ _ _ (by decide), GatherDims.offCoord_eq_zero _ _ _ (by decide), Nat.add_zero, hr]
    unfold GatherDims.start
    rw [dif_pos (by decide)]
    have hsi : gather_S200000x64_S800000x1_S800000x64_1_0_n_n_0_1_164.siIdx (ix2 e j)
        ⟨List.idxOf (0 : Fin 2) gather_S200000x64_S800000x1_S800000x64_1_0_n_n_0_1_164.startIndexMap, by decide⟩
        = ix2 e (0 : Fin 1) := by
      funext b
      refine Fin.ext ?_
      match b with
      | ⟨0, _⟩ => rfl
      | ⟨1, _⟩ => rfl
    rw [hsi]
    rfl
  | ⟨1, _⟩ =>
    -- the kept axis: no start index, no batching coordinate, the result's column as offset
    show gather_S200000x64_S800000x1_S800000x64_1_0_n_n_0_1_164.start (ix2 e j) idx 1
        + gather_S200000x64_S800000x1_S800000x64_1_0_n_n_0_1_164.batchCoord (ix2 e j) 1
        + gather_S200000x64_S800000x1_S800000x64_1_0_n_n_0_1_164.offCoord (ix2 e j) 1 = j.val
    rw [GatherDims.batchCoord_eq_zero _ _ _ (by decide), Nat.add_zero]
    unfold GatherDims.start GatherDims.offCoord
    rw [dif_neg (by decide), dif_pos (by decide), Nat.zero_add]
    rfl

/-! ## The take under the range hypothesis -/

theorem takeK_eq {src et : Words} (h : InRange src et) (X : Mat 50000 256) :
    takeK X (flatOf src et) = fun i => X (ix2 (srcN src (i 0))
      (⟨(etN et (i 0)).val * 64 + (i 1).val, by have := (etN et (i 0)).isLt; have := idx2_lt1 i; omega⟩ : Fin 256)) := by
  funext i
  obtain ⟨e, j, rfl⟩ : ∃ (e : Fin 800000) (j : Fin 64), i = ix2 e j := ⟨i 0, i 1, eq_ix2 i⟩
  have hs := (h e).1
  have ht := (h e).2
  have hfl : ∀ e' : Fin 800000, (flatOf src et (ix1 e')).toNat < 200000 := fun e' => by
    rw [flatOf_toNat h e']; have := (h e').1; have := (h e').2; omega
  have hflat := flatOf_toNat h e
  -- the mask is 1 at (e, j): the select takes the gathered row
  have hmask : broadcastInDim S800000x64 ![0] bcast_S800000_S800000x64_0 (inTable (flatOf src et)) (ix2 e j) = 1#1 := by
    rw [broadcastInDim_apply _ _ _ (ix2 e j) (ix1 e) (fun a => by match a with | ⟨0, _⟩ => rfl)]
    exact inTable_apply _ hfl _
  -- the start index at row e is the flat index, a number below 200000
  have hcol : colOf (flatOf src et) (ix2 e (0 : Fin 1)) = flatOf src et (ix1 e) := by
    rw [colOf_apply]
    exact wrapOf_apply_of_lt _ e (by have := hfl e; omega)
  have hrow : ((⟨(src (ix1 e)).toNat * 4 + (et (ix1 e)).toNat, by omega⟩ : Fin 200000)).val
      = min (colOf (flatOf src et) (ix2 e (0 : Fin 1))).toInt.toNat 199999 := by
    show (src (ix1 e)).toNat * 4 + (et (ix1 e)).toNat = min _ 199999
    rw [hcol, StableHlo.Predicate.toInt_eq_toNat_of_lt (by have := hfl e; omega), Int.toNat_natCast, hflat]
    exact (Nat.min_eq_left (by omega)).symm
  unfold takeK takeRows
  rw [select_apply, hmask, select_one, gather_row _ _ e j _ hrow]
  refine shapeCast_apply X _ _ _ ?_
  rw [Shape.rowMajor_val_two, Shape.rowMajor_val_two]
  show (srcN src e).val * 256 + ((etN et e).val * 64 + j.val) = ((src (ix1 e)).toNat * 4 + (et (ix1 e)).toNat) * 64 + j.val
  rw [srcN_val h e, etN_val h e]
  omega

end Cert.GatedGraph

end
-- ==== Proof.TakeStretch0.lean ====
/-
  Step 0, between the region that applies all four linear maps and the GRU region: the program's three host
  stretches as one equation.

  The first stretch re-lays the region's 50000 × 256 result (buffer main_v8) as 200000 rows of 64 (main_v9). The second
  is the row take (23 operations): from the re-laid table and the flat index words (main_v7) it makes the 800000 × 64
  table of taken rows (main_v10). The third makes a zero table, the destination words (main_arg8) as a column, and sums
  the taken rows per destination node (main_v13). Read off in order, from ANY contents of the buffers before the first
  stretch, the last buffer holds  aggK dst (takeK X flat)  with X, flat and dst the contents of main_v8, main_v7 and
  main_arg8 before the first stretch: no operation of the three stretches writes main_v7 or main_arg8, and main_v8 is
  read once, by the re-laying.

  Each stretch is read over a variable valuation and the three are then composed; the take's operations are stated
  over typed references, whose transports of contents cancel (TakeLemma's `ofBuf_toBuf`) or are the identity at the
  two buffers the take reads and the one it returns.
-/
import proofs.«410194_j38886633898060_1_alg».proof.Proof.Gen.KernelIdeal.Launch
import proofs.«410194_j38886633898060_1_alg».proof.Proof.TakeLemma

-- two of the program's 249 references are told apart by evaluation, which recurses past the default depth
set_option maxRecDepth 4096

noncomputable section

namespace Cert.GatedGraph

open Idealize.ShloMosaic Idealize.ShloMosaic.ValueIdx
open Cert.KernelIdeal Cert.KernelIdeal.Gen

/-! ## The transports at the take's two operands and its result are the identity -/

theorem s0_flat_ofBuf (h1 : main_v7.ty = ⟨S800000, .i32⟩) (h2 h3) (v : main_v7.ty.Contents (Elt Ideal)) :
    (StableHlo.TRef.of main_v7 h1 h2 h3).ofBuf v = v := rfl

theorem s0_rows_ofBuf (h1 : main_v9.ty = ⟨S200000x64, .f32⟩) (h2 h3) (v : main_v9.ty.Contents (Elt Ideal)) :
    (StableHlo.TRef.of main_v9 h1 h2 h3).ofBuf v = v := rfl

theorem s0_take_toBuf (h1 : main_v10.ty = ⟨S800000x64, .f32⟩) (h2 h3)
    (v : (⟨S800000x64, .f32⟩ : BufTy).Contents (Elt Ideal)) :
    (StableHlo.TRef.of main_v10 h1 h2 h3).toBuf v = v := rfl

/-! ## Each stretch, from any contents -/

section
variable (V : Valuation τ sig (Elt Ideal))

/-- The re-laying: main_v9 holds main_v8's contents as 200000 rows of 64 … -/
theorem s0_relaid : StableHlo.after (hostOps1 (F := Ideal)) V (Proc.devRef .tc main_v9)
    = shapeCast S200000x64 (V (Proc.devRef .tc main_v8)) shapeCasts_S50000x256_S200000x64 := by
  simp only [hostOps1]; after_results; rfl

/-- … and leaves the flat index words … -/
theorem s0_relaid_flat : StableHlo.after (hostOps1 (F := Ideal)) V (Proc.devRef .tc main_v7) = V (Proc.devRef .tc main_v7) := by
  simp only [hostOps1]; after_results

/-- … and the destination words as they were. -/
theorem s0_relaid_dst : StableHlo.after (hostOps1 (F := Ideal)) V (Proc.devRef .tc main_arg8) = V (Proc.devRef .tc main_arg8) := by
  simp only [hostOps1]; after_results

/-- The take: main_v10 holds the rows of main_v9's table at main_v7's words … -/
theorem s0_taken : StableHlo.after (hostOps1_1 (F := Ideal)) V (Proc.devRef .tc main_v10)
    = takeRows (V (Proc.devRef .tc main_v9)) (V (Proc.devRef .tc main_v7)) := by
  simp only [hostOps1_1]
  after_results_simp
  simp only [ofBuf_toBuf]
  simp only [s0_take_toBuf, s0_rows_ofBuf, s0_flat_ofBuf]
  rfl

/-- … and leaves the destination words as they were. -/
theorem s0_taken_dst : StableHlo.after (hostOps1_1 (F := Ideal)) V (Proc.devRef .tc main_arg8) = V (Proc.devRef .tc main_arg8) := by
  simp only [hostOps1_1]; after_results_simp

/-- The sum per destination: main_v13 holds the scatter-add of main_v10's rows at main_arg8's words onto zero. -/
theorem s0_summed : StableHlo.after (hostOps1_2 (F := Ideal)) V (Proc.devRef .tc main_v13)
    = aggK (V (Proc.devRef .tc main_arg8)) (V (Proc.devRef .tc main_v10)) := by
  simp only [hostOps1_2]; after_results; rfl

end

/-! ## The three in order -/

theorem stretch0 (Wv : Valuation τ sig (Elt Ideal)) :
    StableHlo.after (hostOps1_2 (F := Ideal)) (StableHlo.after (hostOps1_1 (F := Ideal)) (StableHlo.after (hostOps1 (F := Ideal)) Wv))
        (Proc.devRef .tc main_v13)
      = aggK (Wv (Proc.devRef .tc main_arg8)) (takeK (Wv (Proc.devRef .tc main_v8)) (Wv (Proc.devRef .tc main_v7))) := by
  rw [s0_summed, s0_taken, s0_taken_dst, s0_relaid, s0_relaid_flat, s0_relaid_dst]
  rfl

end Cert.GatedGraph

end
-- ==== Proof.Carry.lean ====
/-
  The carry table: a buffer that no operation writes holds at a later boundary of the run what it held at an earlier one.
  The run's boundaries are the generated fold `W0 … W26`. One line is one hop between neighbouring boundaries:
  across a host stretch, no operation of the stretch writes the buffer; across a region, either the buffer is none of the
  region's arrays (a region changes its own arrays only), or it is the array of an input window (only an output's array
  is written back).
-/
import proofs.«410194_j38886633898060_1_alg».proof.Proof.Gen.KernelIdeal.Frame

set_option maxRecDepth 16384

noncomputable section

namespace Cert.KernelIdeal.Carry

open Idealize.ShloMosaic Idealize.ShloMosaic.TcCoe
open Cert.KernelIdeal Cert.KernelIdeal.Gen

variable {F : FTy → Type} [FloatOps F]
variable (m : (ℓ : Loc nD τ sig) → Buf (Elt F) ℓ) (ρ : Dev nD → PrngReg)

/-! ### `main_v1` at every boundary from 2 to 25 is what it was at boundary 1 -/

/-- `main_v1` is input window 1 of region 0, and an input window's array is kept. -/
theorem carry_main_v1_2 (c : Dev nD) : W2 m ρ c (Proc.devRef .tc main_v1) = W1 m ρ c (Proc.devRef .tc main_v1) :=
  (W2_arr m ρ c 1).trans (((dat0 (V1 m ρ) c).arrAt_in 1 rfl _).trans (A_eq0 (V1 m ρ) c 1))

/-- No operation of `hostOps1` writes `main_v1`. -/
theorem carry_main_v1_3 (c : Dev nD) : W3 m ρ c (Proc.devRef .tc main_v1) = W1 m ρ c (Proc.devRef .tc main_v1) :=
  (StableHlo.after_of_forall_not_mem (b := Proc.devRef .tc main_v1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_2 m ρ c)

/-- No operation of `hostOps1_1` writes `main_v1`. -/
theorem carry_main_v1_4 (c : Dev nD) : W4 m ρ c (Proc.devRef .tc main_v1) = W1 m ρ c (Proc.devRef .tc main_v1) :=
  (StableHlo.after_of_forall_not_mem (b := Proc.devRef .tc main_v1) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_3 m ρ c)

/-- No operation of `hostOps1_2` writes `main_v1`. -/
theorem carry_main_v1_5 (c : Dev nD) : W5 m ρ c (Proc.devRef .tc main_v1) = W1 m ρ c (Proc.devRef .tc main_v1) :=
  (StableHlo.after_of_forall_not_mem (b := Proc.devRef .tc main_v1) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_4 m ρ c)

/-- `main_v1` is none of region 1's arrays, and a region changes its own arrays only. -/
theorem carry_main_v1_6 (c : Dev nD) : W6 m ρ c (Proc.devRef .tc main_v1) = W1 m ρ c (Proc.devRef .tc main_v1) :=
  (W6_of_ne m ρ c main_v1 (by decide)).trans (carry_main_v1_5 m ρ c)

/-- `main_v1` is input window 1 of region 2, and an input window's array is kept. -/
theorem carry_main_v1_7 (c : Dev nD) : W7 m ρ c (Proc.devRef .tc main_v1) = W1 m ρ c (Proc.devRef .tc main_v1) :=
  ((W7_arr m ρ c 1).trans (((dat2 (V6 m ρ) c).arrAt_in 1 rfl _).trans (A_eq2 (V6 m ρ) c 1))).trans (carry_main_v1_6 m ρ c)

/-- No operation of `hostOps3` writes `main_v1`. -/
theorem carry_main_v1_8 (c : Dev nD) : W8 m ρ c (Proc.devRef .tc main_v1) = W1 m ρ c (Proc.devRef .tc main_v1) :=
  (StableHlo.after_of_forall_not_mem (b := Proc.devRef .tc main_v1) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_7 m ρ c)

/-- No operation of `hostOps3_1` writes `main_v1`. -/
theorem carry_main_v1_9 (c : Dev nD) : W9 m ρ c (Proc.devRef .tc main_v1) = W1 m ρ c (Proc.devRef .tc main_v1) :=
  (StableHlo.after_of_forall_not_mem (b := Proc.devRef .tc main_v1) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_8 m ρ c)

/-- No operation of `hostOps3_2` writes `main_v1`. -/
theorem carry_main_v1_10 (c : Dev nD) : W10 m ρ c (Proc.devRef .tc main_v1) = W1 m ρ c (Proc.devRef .tc main_v1) :=
  (StableHlo.after_of_forall_not_mem (b := Proc.devRef .tc main_v1) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_9 m ρ c)

/-- `main_v1` is none of region 3's arrays, and a region changes its own arrays only. -/
theorem carry_main_v1_11 (c : Dev nD) : W11 m ρ c (Proc.devRef .tc main_v1) = W1 m ρ c (Proc.devRef .tc main_v1) :=
  (W11_of_ne m ρ c main_v1 (by decide)).trans (carry_main_v1_10 m ρ c)

/-- `main_v1` is input window 1 of region 4, and an input window's array is kept. -/
theorem carry_main_v1_12 (c : Dev nD) : W12 m ρ c (Proc.devRef .tc main_v1) = W1 m ρ c (Proc.devRef .tc main_v1) :=
  ((W12_arr m ρ c 1).trans (((dat4 (V11 m ρ) c).arrAt_in 1 rfl _).trans (A_eq4 (V11 m ρ) c 1))).trans (carry_main_v1_11 m ρ c)

/-- No operation of `hostOps5` writes `main_v1`. -/
theorem carry_main_v1_13 (c : Dev nD) : W13 m ρ c (Proc.devRef .tc main_v1) = W1 m ρ c (Proc.devRef .tc main_v1) :=
  (StableHlo.after_of_forall_not_mem (b := Proc.devRef .tc main_v1) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_12 m ρ c)

/-- No operation of `hostOps5_1` writes `main_v1`. -/
theorem carry_main_v1_14 (c : Dev nD) : W14 m ρ c (Proc.devRef .tc main_v1) = W1 m ρ c (Proc.devRef .tc main_v1) :=
  (StableHlo.after_of_forall_not_mem (b := Proc.devRef .tc main_v1) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_13 m ρ c)

/-- No operation of `hostOps5_2` writes `main_v1`. -/
theorem carry_main_v1_15 (c : Dev nD) : W15 m ρ c (Proc.devRef .tc main_v1) = W1 m ρ c (Proc.devRef .tc main_v1) :=
  (StableHlo.after_of_forall_not_mem (b := Proc.devRef .tc main_v1) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_14 m ρ c)

/-- `main_v1` is none of region 5's arrays, and a region changes its own arrays only. -/
theorem carry_main_v1_16 (c : Dev nD) : W16 m ρ c (Proc.devRef .tc main_v1) = W1 m ρ c (Proc.devRef .tc main_v1) :=
  (W16_of_ne m ρ c main_v1 (by decide)).trans (carry_main_v1_15 m ρ c)

/-- `main_v1` is input window 1 of region 6, and an input window's array is kept. -/
theorem carry_main_v1_17 (c : Dev nD) : W17 m ρ c (Proc.devRef .tc main_v1) = W1 m ρ c (Proc.devRef .tc main_v1) :=
  ((W17_arr m ρ c 1).trans (((dat6 (V16 m ρ) c).arrAt_in 1 rfl _).trans (A_eq6 (V16 m ρ) c 1))).trans (carry_main_v1_16 m ρ c)

/-- No operation of `hostOps7` writes `main_v1`. -/
theorem carry_main_v1_18 (c : Dev nD) : W18 m ρ c (Proc.devRef .tc main_v1) = W1 m ρ c (Proc.devRef .tc main_v1) :=
  (StableHlo.after_of_forall_not_mem (b := Proc.devRef .tc main_v1) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_17 m ρ c)

/-- No operation of `hostOps7_1` writes `main_v1`. -/
theorem carry_main_v1_19 (c : Dev nD) : W19 m ρ c (Proc.devRef .tc main_v1) = W1 m ρ c (Proc.devRef .tc main_v1) :=
  (StableHlo.after_of_forall_not_mem (b := Proc.devRef .tc main_v1) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_18 m ρ c)

/-- No operation of `hostOps7_2` writes `main_v1`. -/
theorem carry_main_v1_20 (c : Dev nD) : W20 m ρ c (Proc.devRef .tc main_v1) = W1 m ρ c (Proc.devRef .tc main_v1) :=
  (StableHlo.after_of_forall_not_mem (b := Proc.devRef .tc main_v1) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_19 m ρ c)

/-- `main_v1` is none of region 7's arrays, and a region changes its own arrays only. -/
theorem carry_main_v1_21 (c : Dev nD) : W21 m ρ c (Proc.devRef .tc main_v1) = W1 m ρ c (Proc.devRef .tc main_v1) :=
  (W21_of_ne m ρ c main_v1 (by decide)).trans (carry_main_v1_20 m ρ c)

/-- `main_v1` is input window 1 of region 8, and an input window's array is kept. -/
theorem carry_main_v1_22 (c : Dev nD) : W22 m ρ c (Proc.devRef .tc main_v1) = W1 m ρ c (Proc.devRef .tc main_v1) :=
  ((W22_arr m ρ c 1).trans (((dat8 (V21 m ρ) c).arrAt_in 1 rfl _).trans (A_eq8 (V21 m ρ) c 1))).trans (carry_main_v1_21 m ρ c)

/-- No operation of `hostOps9` writes `main_v1`. -/
theorem carry_main_v1_23 (c : Dev nD) : W23 m ρ c (Proc.devRef .tc main_v1) = W1 m ρ c (Proc.devRef .tc main_v1) :=
  (StableHlo.after_of_forall_not_mem (b := Proc.devRef .tc main_v1) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_22 m ρ c)

/-- No operation of `hostOps9_1` writes `main_v1`. -/
theorem carry_main_v1_24 (c : Dev nD) : W24 m ρ c (Proc.devRef .tc main_v1) = W1 m ρ c (Proc.devRef .tc main_v1) :=
  (StableHlo.after_of_forall_not_mem (b := Proc.devRef .tc main_v1) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_23 m ρ c)

/-- No operation of `hostOps9_2` writes `main_v1`. -/
theorem carry_main_v1_25 (c : Dev nD) : W25 m ρ c (Proc.devRef .tc main_v1) = W1 m ρ c (Proc.devRef .tc main_v1) :=
  (StableHlo.after_of_forall_not_mem (b := Proc.devRef .tc main_v1) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v1_24 m ρ c)

/-! ### `main_v2` at every boundary from 2 to 25 is what it was at boundary 1 -/

/-- `main_v2` is input window 2 of region 0, and an input window's array is kept. -/
theorem carry_main_v2_2 (c : Dev nD) : W2 m ρ c (Proc.devRef .tc main_v2) = W1 m ρ c (Proc.devRef .tc main_v2) :=
  (W2_arr m ρ c 2).trans (((dat0 (V1 m ρ) c).arrAt_in 2 rfl _).trans (A_eq0 (V1 m ρ) c 2))

/-- No operation of `hostOps1` writes `main_v2`. -/
theorem carry_main_v2_3 (c : Dev nD) : W3 m ρ c (Proc.devRef .tc main_v2) = W1 m ρ c (Proc.devRef .tc main_v2) :=
  (StableHlo.after_of_forall_not_mem (b := Proc.devRef .tc main_v2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_2 m ρ c)

/-- No operation of `hostOps1_1` writes `main_v2`. -/
theorem carry_main_v2_4 (c : Dev nD) : W4 m ρ c (Proc.devRef .tc main_v2) = W1 m ρ c (Proc.devRef .tc main_v2) :=
  (StableHlo.after_of_forall_not_mem (b := Proc.devRef .tc main_v2) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_3 m ρ c)

/-- No operation of `hostOps1_2` writes `main_v2`. -/
theorem carry_main_v2_5 (c : Dev nD) : W5 m ρ c (Proc.devRef .tc main_v2) = W1 m ρ c (Proc.devRef .tc main_v2) :=
  (StableHlo.after_of_forall_not_mem (b := Proc.devRef .tc main_v2) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_4 m ρ c)

/-- `main_v2` is none of region 1's arrays, and a region changes its own arrays only. -/
theorem carry_main_v2_6 (c : Dev nD) : W6 m ρ c (Proc.devRef .tc main_v2) = W1 m ρ c (Proc.devRef .tc main_v2) :=
  (W6_of_ne m ρ c main_v2 (by decide)).trans (carry_main_v2_5 m ρ c)

/-- `main_v2` is input window 2 of region 2, and an input window's array is kept. -/
theorem carry_main_v2_7 (c : Dev nD) : W7 m ρ c (Proc.devRef .tc main_v2) = W1 m ρ c (Proc.devRef .tc main_v2) :=
  ((W7_arr m ρ c 2).trans (((dat2 (V6 m ρ) c).arrAt_in 2 rfl _).trans (A_eq2 (V6 m ρ) c 2))).trans (carry_main_v2_6 m ρ c)

/-- No operation of `hostOps3` writes `main_v2`. -/
theorem carry_main_v2_8 (c : Dev nD) : W8 m ρ c (Proc.devRef .tc main_v2) = W1 m ρ c (Proc.devRef .tc main_v2) :=
  (StableHlo.after_of_forall_not_mem (b := Proc.devRef .tc main_v2) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_7 m ρ c)

/-- No operation of `hostOps3_1` writes `main_v2`. -/
theorem carry_main_v2_9 (c : Dev nD) : W9 m ρ c (Proc.devRef .tc main_v2) = W1 m ρ c (Proc.devRef .tc main_v2) :=
  (StableHlo.after_of_forall_not_mem (b := Proc.devRef .tc main_v2) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_8 m ρ c)

/-- No operation of `hostOps3_2` writes `main_v2`. -/
theorem carry_main_v2_10 (c : Dev nD) : W10 m ρ c (Proc.devRef .tc main_v2) = W1 m ρ c (Proc.devRef .tc main_v2) :=
  (StableHlo.after_of_forall_not_mem (b := Proc.devRef .tc main_v2) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_9 m ρ c)

/-- `main_v2` is none of region 3's arrays, and a region changes its own arrays only. -/
theorem carry_main_v2_11 (c : Dev nD) : W11 m ρ c (Proc.devRef .tc main_v2) = W1 m ρ c (Proc.devRef .tc main_v2) :=
  (W11_of_ne m ρ c main_v2 (by decide)).trans (carry_main_v2_10 m ρ c)

/-- `main_v2` is input window 2 of region 4, and an input window's array is kept. -/
theorem carry_main_v2_12 (c : Dev nD) : W12 m ρ c (Proc.devRef .tc main_v2) = W1 m ρ c (Proc.devRef .tc main_v2) :=
  ((W12_arr m ρ c 2).trans (((dat4 (V11 m ρ) c).arrAt_in 2 rfl _).trans (A_eq4 (V11 m ρ) c 2))).trans (carry_main_v2_11 m ρ c)

/-- No operation of `hostOps5` writes `main_v2`. -/
theorem carry_main_v2_13 (c : Dev nD) : W13 m ρ c (Proc.devRef .tc main_v2) = W1 m ρ c (Proc.devRef .tc main_v2) :=
  (StableHlo.after_of_forall_not_mem (b := Proc.devRef .tc main_v2) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_12 m ρ c)

/-- No operation of `hostOps5_1` writes `main_v2`. -/
theorem carry_main_v2_14 (c : Dev nD) : W14 m ρ c (Proc.devRef .tc main_v2) = W1 m ρ c (Proc.devRef .tc main_v2) :=
  (StableHlo.after_of_forall_not_mem (b := Proc.devRef .tc main_v2) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_13 m ρ c)

/-- No operation of `hostOps5_2` writes `main_v2`. -/
theorem carry_main_v2_15 (c : Dev nD) : W15 m ρ c (Proc.devRef .tc main_v2) = W1 m ρ c (Proc.devRef .tc main_v2) :=
  (StableHlo.after_of_forall_not_mem (b := Proc.devRef .tc main_v2) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_14 m ρ c)

/-- `main_v2` is none of region 5's arrays, and a region changes its own arrays only. -/
theorem carry_main_v2_16 (c : Dev nD) : W16 m ρ c (Proc.devRef .tc main_v2) = W1 m ρ c (Proc.devRef .tc main_v2) :=
  (W16_of_ne m ρ c main_v2 (by decide)).trans (carry_main_v2_15 m ρ c)

/-- `main_v2` is input window 2 of region 6, and an input window's array is kept. -/
theorem carry_main_v2_17 (c : Dev nD) : W17 m ρ c (Proc.devRef .tc main_v2) = W1 m ρ c (Proc.devRef .tc main_v2) :=
  ((W17_arr m ρ c 2).trans (((dat6 (V16 m ρ) c).arrAt_in 2 rfl _).trans (A_eq6 (V16 m ρ) c 2))).trans (carry_main_v2_16 m ρ c)

/-- No operation of `hostOps7` writes `main_v2`. -/
theorem carry_main_v2_18 (c : Dev nD) : W18 m ρ c (Proc.devRef .tc main_v2) = W1 m ρ c (Proc.devRef .tc main_v2) :=
  (StableHlo.after_of_forall_not_mem (b := Proc.devRef .tc main_v2) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_17 m ρ c)

/-- No operation of `hostOps7_1` writes `main_v2`. -/
theorem carry_main_v2_19 (c : Dev nD) : W19 m ρ c (Proc.devRef .tc main_v2) = W1 m ρ c (Proc.devRef .tc main_v2) :=
  (StableHlo.after_of_forall_not_mem (b := Proc.devRef .tc main_v2) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_18 m ρ c)

/-- No operation of `hostOps7_2` writes `main_v2`. -/
theorem carry_main_v2_20 (c : Dev nD) : W20 m ρ c (Proc.devRef .tc main_v2) = W1 m ρ c (Proc.devRef .tc main_v2) :=
  (StableHlo.after_of_forall_not_mem (b := Proc.devRef .tc main_v2) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_19 m ρ c)

/-- `main_v2` is none of region 7's arrays, and a region changes its own arrays only. -/
theorem carry_main_v2_21 (c : Dev nD) : W21 m ρ c (Proc.devRef .tc main_v2) = W1 m ρ c (Proc.devRef .tc main_v2) :=
  (W21_of_ne m ρ c main_v2 (by decide)).trans (carry_main_v2_20 m ρ c)

/-- `main_v2` is input window 2 of region 8, and an input window's array is kept. -/
theorem carry_main_v2_22 (c : Dev nD) : W22 m ρ c (Proc.devRef .tc main_v2) = W1 m ρ c (Proc.devRef .tc main_v2) :=
  ((W22_arr m ρ c 2).trans (((dat8 (V21 m ρ) c).arrAt_in 2 rfl _).trans (A_eq8 (V21 m ρ) c 2))).trans (carry_main_v2_21 m ρ c)

/-- No operation of `hostOps9` writes `main_v2`. -/
theorem carry_main_v2_23 (c : Dev nD) : W23 m ρ c (Proc.devRef .tc main_v2) = W1 m ρ c (Proc.devRef .tc main_v2) :=
  (StableHlo.after_of_forall_not_mem (b := Proc.devRef .tc main_v2) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_22 m ρ c)

/-- No operation of `hostOps9_1` writes `main_v2`. -/
theorem carry_main_v2_24 (c : Dev nD) : W24 m ρ c (Proc.devRef .tc main_v2) = W1 m ρ c (Proc.devRef .tc main_v2) :=
  (StableHlo.after_of_forall_not_mem (b := Proc.devRef .tc main_v2) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_23 m ρ c)

/-- No operation of `hostOps9_2` writes `main_v2`. -/
theorem carry_main_v2_25 (c : Dev nD) : W25 m ρ c (Proc.devRef .tc main_v2) = W1 m ρ c (Proc.devRef .tc main_v2) :=
  (StableHlo.after_of_forall_not_mem (b := Proc.devRef .tc main_v2) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v2_24 m ρ c)

/-! ### `main_v3` at every boundary from 2 to 25 is what it was at boundary 1 -/

/-- `main_v3` is none of region 0's arrays, and a region changes its own arrays only. -/
theorem carry_main_v3_2 (c : Dev nD) : W2 m ρ c (Proc.devRef .tc main_v3) = W1 m ρ c (Proc.devRef .tc main_v3) :=
  W2_of_ne m ρ c main_v3 (by decide)

/-- No operation of `hostOps1` writes `main_v3`. -/
theorem carry_main_v3_3 (c : Dev nD) : W3 m ρ c (Proc.devRef .tc main_v3) = W1 m ρ c (Proc.devRef .tc main_v3) :=
  (StableHlo.after_of_forall_not_mem (b := Proc.devRef .tc main_v3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_2 m ρ c)

/-- No operation of `hostOps1_1` writes `main_v3`. -/
theorem carry_main_v3_4 (c : Dev nD) : W4 m ρ c (Proc.devRef .tc main_v3) = W1 m ρ c (Proc.devRef .tc main_v3) :=
  (StableHlo.after_of_forall_not_mem (b := Proc.devRef .tc main_v3) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_3 m ρ c)

/-- No operation of `hostOps1_2` writes `main_v3`. -/
theorem carry_main_v3_5 (c : Dev nD) : W5 m ρ c (Proc.devRef .tc main_v3) = W1 m ρ c (Proc.devRef .tc main_v3) :=
  (StableHlo.after_of_forall_not_mem (b := Proc.devRef .tc main_v3) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_4 m ρ c)

/-- `main_v3` is input window 2 of region 1, and an input window's array is kept. -/
theorem carry_main_v3_6 (c : Dev nD) : W6 m ρ c (Proc.devRef .tc main_v3) = W1 m ρ c (Proc.devRef .tc main_v3) :=
  ((W6_arr m ρ c 2).trans (((dat1 (V5 m ρ) c).arrAt_in 2 rfl _).trans (A_eq1 (V5 m ρ) c 2))).trans (carry_main_v3_5 m ρ c)

/-- `main_v3` is none of region 2's arrays, and a region changes its own arrays only. -/
theorem carry_main_v3_7 (c : Dev nD) : W7 m ρ c (Proc.devRef .tc main_v3) = W1 m ρ c (Proc.devRef .tc main_v3) :=
  (W7_of_ne m ρ c main_v3 (by decide)).trans (carry_main_v3_6 m ρ c)

/-- No operation of `hostOps3` writes `main_v3`. -/
theorem carry_main_v3_8 (c : Dev nD) : W8 m ρ c (Proc.devRef .tc main_v3) = W1 m ρ c (Proc.devRef .tc main_v3) :=
  (StableHlo.after_of_forall_not_mem (b := Proc.devRef .tc main_v3) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_7 m ρ c)

/-- No operation of `hostOps3_1` writes `main_v3`. -/
theorem carry_main_v3_9 (c : Dev nD) : W9 m ρ c (Proc.devRef .tc main_v3) = W1 m ρ c (Proc.devRef .tc main_v3) :=
  (StableHlo.after_of_forall_not_mem (b := Proc.devRef .tc main_v3) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_8 m ρ c)

/-- No operation of `hostOps3_2` writes `main_v3`. -/
theorem carry_main_v3_10 (c : Dev nD) : W10 m ρ c (Proc.devRef .tc main_v3) = W1 m ρ c (Proc.devRef .tc main_v3) :=
  (StableHlo.after_of_forall_not_mem (b := Proc.devRef .tc main_v3) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_9 m ρ c)

/-- `main_v3` is input window 2 of region 3, and an input window's array is kept. -/
theorem carry_main_v3_11 (c : Dev nD) : W11 m ρ c (Proc.devRef .tc main_v3) = W1 m ρ c (Proc.devRef .tc main_v3) :=
  ((W11_arr m ρ c 2).trans (((dat3 (V10 m ρ) c).arrAt_in 2 rfl _).trans (A_eq3 (V10 m ρ) c 2))).trans (carry_main_v3_10 m ρ c)

/-- `main_v3` is none of region 4's arrays, and a region changes its own arrays only. -/
theorem carry_main_v3_12 (c : Dev nD) : W12 m ρ c (Proc.devRef .tc main_v3) = W1 m ρ c (Proc.devRef .tc main_v3) :=
  (W12_of_ne m ρ c main_v3 (by decide)).trans (carry_main_v3_11 m ρ c)

/-- No operation of `hostOps5` writes `main_v3`. -/
theorem carry_main_v3_13 (c : Dev nD) : W13 m ρ c (Proc.devRef .tc main_v3) = W1 m ρ c (Proc.devRef .tc main_v3) :=
  (StableHlo.after_of_forall_not_mem (b := Proc.devRef .tc main_v3) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_12 m ρ c)

/-- No operation of `hostOps5_1` writes `main_v3`. -/
theorem carry_main_v3_14 (c : Dev nD) : W14 m ρ c (Proc.devRef .tc main_v3) = W1 m ρ c (Proc.devRef .tc main_v3) :=
  (StableHlo.after_of_forall_not_mem (b := Proc.devRef .tc main_v3) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_13 m ρ c)

/-- No operation of `hostOps5_2` writes `main_v3`. -/
theorem carry_main_v3_15 (c : Dev nD) : W15 m ρ c (Proc.devRef .tc main_v3) = W1 m ρ c (Proc.devRef .tc main_v3) :=
  (StableHlo.after_of_forall_not_mem (b := Proc.devRef .tc main_v3) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_14 m ρ c)

/-- `main_v3` is input window 2 of region 5, and an input window's array is kept. -/
theorem carry_main_v3_16 (c : Dev nD) : W16 m ρ c (Proc.devRef .tc main_v3) = W1 m ρ c (Proc.devRef .tc main_v3) :=
  ((W16_arr m ρ c 2).trans (((dat5 (V15 m ρ) c).arrAt_in 2 rfl _).trans (A_eq5 (V15 m ρ) c 2))).trans (carry_main_v3_15 m ρ c)

/-- `main_v3` is none of region 6's arrays, and a region changes its own arrays only. -/
theorem carry_main_v3_17 (c : Dev nD) : W17 m ρ c (Proc.devRef .tc main_v3) = W1 m ρ c (Proc.devRef .tc main_v3) :=
  (W17_of_ne m ρ c main_v3 (by decide)).trans (carry_main_v3_16 m ρ c)

/-- No operation of `hostOps7` writes `main_v3`. -/
theorem carry_main_v3_18 (c : Dev nD) : W18 m ρ c (Proc.devRef .tc main_v3) = W1 m ρ c (Proc.devRef .tc main_v3) :=
  (StableHlo.after_of_forall_not_mem (b := Proc.devRef .tc main_v3) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_17 m ρ c)

/-- No operation of `hostOps7_1` writes `main_v3`. -/
theorem carry_main_v3_19 (c : Dev nD) : W19 m ρ c (Proc.devRef .tc main_v3) = W1 m ρ c (Proc.devRef .tc main_v3) :=
  (StableHlo.after_of_forall_not_mem (b := Proc.devRef .tc main_v3) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_18 m ρ c)

/-- No operation of `hostOps7_2` writes `main_v3`. -/
theorem carry_main_v3_20 (c : Dev nD) : W20 m ρ c (Proc.devRef .tc main_v3) = W1 m ρ c (Proc.devRef .tc main_v3) :=
  (StableHlo.after_of_forall_not_mem (b := Proc.devRef .tc main_v3) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_19 m ρ c)

/-- `main_v3` is input window 2 of region 7, and an input window's array is kept. -/
theorem carry_main_v3_21 (c : Dev nD) : W21 m ρ c (Proc.devRef .tc main_v3) = W1 m ρ c (Proc.devRef .tc main_v3) :=
  ((W21_arr m ρ c 2).trans (((dat7 (V20 m ρ) c).arrAt_in 2 rfl _).trans (A_eq7 (V20 m ρ) c 2))).trans (carry_main_v3_20 m ρ c)

/-- `main_v3` is none of region 8's arrays, and a region changes its own arrays only. -/
theorem carry_main_v3_22 (c : Dev nD) : W22 m ρ c (Proc.devRef .tc main_v3) = W1 m ρ c (Proc.devRef .tc main_v3) :=
  (W22_of_ne m ρ c main_v3 (by decide)).trans (carry_main_v3_21 m ρ c)

/-- No operation of `hostOps9` writes `main_v3`. -/
theorem carry_main_v3_23 (c : Dev nD) : W23 m ρ c (Proc.devRef .tc main_v3) = W1 m ρ c (Proc.devRef .tc main_v3) :=
  (StableHlo.after_of_forall_not_mem (b := Proc.devRef .tc main_v3) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_22 m ρ c)

/-- No operation of `hostOps9_1` writes `main_v3`. -/
theorem carry_main_v3_24 (c : Dev nD) : W24 m ρ c (Proc.devRef .tc main_v3) = W1 m ρ c (Proc.devRef .tc main_v3) :=
  (StableHlo.after_of_forall_not_mem (b := Proc.devRef .tc main_v3) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_23 m ρ c)

/-- No operation of `hostOps9_2` writes `main_v3`. -/
theorem carry_main_v3_25 (c : Dev nD) : W25 m ρ c (Proc.devRef .tc main_v3) = W1 m ρ c (Proc.devRef .tc main_v3) :=
  (StableHlo.after_of_forall_not_mem (b := Proc.devRef .tc main_v3) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v3_24 m ρ c)

/-! ### `main_v4` at every boundary from 2 to 25 is what it was at boundary 1 -/

/-- `main_v4` is none of region 0's arrays, and a region changes its own arrays only. -/
theorem carry_main_v4_2 (c : Dev nD) : W2 m ρ c (Proc.devRef .tc main_v4) = W1 m ρ c (Proc.devRef .tc main_v4) :=
  W2_of_ne m ρ c main_v4 (by decide)

/-- No operation of `hostOps1` writes `main_v4`. -/
theorem carry_main_v4_3 (c : Dev nD) : W3 m ρ c (Proc.devRef .tc main_v4) = W1 m ρ c (Proc.devRef .tc main_v4) :=
  (StableHlo.after_of_forall_not_mem (b := Proc.devRef .tc main_v4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_2 m ρ c)

/-- No operation of `hostOps1_1` writes `main_v4`. -/
theorem carry_main_v4_4 (c : Dev nD) : W4 m ρ c (Proc.devRef .tc main_v4) = W1 m ρ c (Proc.devRef .tc main_v4) :=
  (StableHlo.after_of_forall_not_mem (b := Proc.devRef .tc main_v4) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_3 m ρ c)

/-- No operation of `hostOps1_2` writes `main_v4`. -/
theorem carry_main_v4_5 (c : Dev nD) : W5 m ρ c (Proc.devRef .tc main_v4) = W1 m ρ c (Proc.devRef .tc main_v4) :=
  (StableHlo.after_of_forall_not_mem (b := Proc.devRef .tc main_v4) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_4 m ρ c)

/-- `main_v4` is input window 3 of region 1, and an input window's array is kept. -/
theorem carry_main_v4_6 (c : Dev nD) : W6 m ρ c (Proc.devRef .tc main_v4) = W1 m ρ c (Proc.devRef .tc main_v4) :=
  ((W6_arr m ρ c 3).trans (((dat1 (V5 m ρ) c).arrAt_in 3 rfl _).trans (A_eq1 (V5 m ρ) c 3))).trans (carry_main_v4_5 m ρ c)

/-- `main_v4` is none of region 2's arrays, and a region changes its own arrays only. -/
theorem carry_main_v4_7 (c : Dev nD) : W7 m ρ c (Proc.devRef .tc main_v4) = W1 m ρ c (Proc.devRef .tc main_v4) :=
  (W7_of_ne m ρ c main_v4 (by decide)).trans (carry_main_v4_6 m ρ c)

/-- No operation of `hostOps3` writes `main_v4`. -/
theorem carry_main_v4_8 (c : Dev nD) : W8 m ρ c (Proc.devRef .tc main_v4) = W1 m ρ c (Proc.devRef .tc main_v4) :=
  (StableHlo.after_of_forall_not_mem (b := Proc.devRef .tc main_v4) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_7 m ρ c)

/-- No operation of `hostOps3_1` writes `main_v4`. -/
theorem carry_main_v4_9 (c : Dev nD) : W9 m ρ c (Proc.devRef .tc main_v4) = W1 m ρ c (Proc.devRef .tc main_v4) :=
  (StableHlo.after_of_forall_not_mem (b := Proc.devRef .tc main_v4) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_8 m ρ c)

/-- No operation of `hostOps3_2` writes `main_v4`. -/
theorem carry_main_v4_10 (c : Dev nD) : W10 m ρ c (Proc.devRef .tc main_v4) = W1 m ρ c (Proc.devRef .tc main_v4) :=
  (StableHlo.after_of_forall_not_mem (b := Proc.devRef .tc main_v4) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_9 m ρ c)

/-- `main_v4` is input window 3 of region 3, and an input window's array is kept. -/
theorem carry_main_v4_11 (c : Dev nD) : W11 m ρ c (Proc.devRef .tc main_v4) = W1 m ρ c (Proc.devRef .tc main_v4) :=
  ((W11_arr m ρ c 3).trans (((dat3 (V10 m ρ) c).arrAt_in 3 rfl _).trans (A_eq3 (V10 m ρ) c 3))).trans (carry_main_v4_10 m ρ c)

/-- `main_v4` is none of region 4's arrays, and a region changes its own arrays only. -/
theorem carry_main_v4_12 (c : Dev nD) : W12 m ρ c (Proc.devRef .tc main_v4) = W1 m ρ c (Proc.devRef .tc main_v4) :=
  (W12_of_ne m ρ c main_v4 (by decide)).trans (carry_main_v4_11 m ρ c)

/-- No operation of `hostOps5` writes `main_v4`. -/
theorem carry_main_v4_13 (c : Dev nD) : W13 m ρ c (Proc.devRef .tc main_v4) = W1 m ρ c (Proc.devRef .tc main_v4) :=
  (StableHlo.after_of_forall_not_mem (b := Proc.devRef .tc main_v4) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_12 m ρ c)

/-- No operation of `hostOps5_1` writes `main_v4`. -/
theorem carry_main_v4_14 (c : Dev nD) : W14 m ρ c (Proc.devRef .tc main_v4) = W1 m ρ c (Proc.devRef .tc main_v4) :=
  (StableHlo.after_of_forall_not_mem (b := Proc.devRef .tc main_v4) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_13 m ρ c)

/-- No operation of `hostOps5_2` writes `main_v4`. -/
theorem carry_main_v4_15 (c : Dev nD) : W15 m ρ c (Proc.devRef .tc main_v4) = W1 m ρ c (Proc.devRef .tc main_v4) :=
  (StableHlo.after_of_forall_not_mem (b := Proc.devRef .tc main_v4) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_14 m ρ c)

/-- `main_v4` is input window 3 of region 5, and an input window's array is kept. -/
theorem carry_main_v4_16 (c : Dev nD) : W16 m ρ c (Proc.devRef .tc main_v4) = W1 m ρ c (Proc.devRef .tc main_v4) :=
  ((W16_arr m ρ c 3).trans (((dat5 (V15 m ρ) c).arrAt_in 3 rfl _).trans (A_eq5 (V15 m ρ) c 3))).trans (carry_main_v4_15 m ρ c)

/-- `main_v4` is none of region 6's arrays, and a region changes its own arrays only. -/
theorem carry_main_v4_17 (c : Dev nD) : W17 m ρ c (Proc.devRef .tc main_v4) = W1 m ρ c (Proc.devRef .tc main_v4) :=
  (W17_of_ne m ρ c main_v4 (by decide)).trans (carry_main_v4_16 m ρ c)

/-- No operation of `hostOps7` writes `main_v4`. -/
theorem carry_main_v4_18 (c : Dev nD) : W18 m ρ c (Proc.devRef .tc main_v4) = W1 m ρ c (Proc.devRef .tc main_v4) :=
  (StableHlo.after_of_forall_not_mem (b := Proc.devRef .tc main_v4) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_17 m ρ c)

/-- No operation of `hostOps7_1` writes `main_v4`. -/
theorem carry_main_v4_19 (c : Dev nD) : W19 m ρ c (Proc.devRef .tc main_v4) = W1 m ρ c (Proc.devRef .tc main_v4) :=
  (StableHlo.after_of_forall_not_mem (b := Proc.devRef .tc main_v4) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_18 m ρ c)

/-- No operation of `hostOps7_2` writes `main_v4`. -/
theorem carry_main_v4_20 (c : Dev nD) : W20 m ρ c (Proc.devRef .tc main_v4) = W1 m ρ c (Proc.devRef .tc main_v4) :=
  (StableHlo.after_of_forall_not_mem (b := Proc.devRef .tc main_v4) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_19 m ρ c)

/-- `main_v4` is input window 3 of region 7, and an input window's array is kept. -/
theorem carry_main_v4_21 (c : Dev nD) : W21 m ρ c (Proc.devRef .tc main_v4) = W1 m ρ c (Proc.devRef .tc main_v4) :=
  ((W21_arr m ρ c 3).trans (((dat7 (V20 m ρ) c).arrAt_in 3 rfl _).trans (A_eq7 (V20 m ρ) c 3))).trans (carry_main_v4_20 m ρ c)

/-- `main_v4` is none of region 8's arrays, and a region changes its own arrays only. -/
theorem carry_main_v4_22 (c : Dev nD) : W22 m ρ c (Proc.devRef .tc main_v4) = W1 m ρ c (Proc.devRef .tc main_v4) :=
  (W22_of_ne m ρ c main_v4 (by decide)).trans (carry_main_v4_21 m ρ c)

/-- No operation of `hostOps9` writes `main_v4`. -/
theorem carry_main_v4_23 (c : Dev nD) : W23 m ρ c (Proc.devRef .tc main_v4) = W1 m ρ c (Proc.devRef .tc main_v4) :=
  (StableHlo.after_of_forall_not_mem (b := Proc.devRef .tc main_v4) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_22 m ρ c)

/-- No operation of `hostOps9_1` writes `main_v4`. -/
theorem carry_main_v4_24 (c : Dev nD) : W24 m ρ c (Proc.devRef .tc main_v4) = W1 m ρ c (Proc.devRef .tc main_v4) :=
  (StableHlo.after_of_forall_not_mem (b := Proc.devRef .tc main_v4) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_23 m ρ c)

/-- No operation of `hostOps9_2` writes `main_v4`. -/
theorem carry_main_v4_25 (c : Dev nD) : W25 m ρ c (Proc.devRef .tc main_v4) = W1 m ρ c (Proc.devRef .tc main_v4) :=
  (StableHlo.after_of_forall_not_mem (b := Proc.devRef .tc main_v4) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v4_24 m ρ c)

/-! ### `main_v7` at every boundary from 2 to 25 is what it was at boundary 1 -/

/-- `main_v7` is none of region 0's arrays, and a region changes its own arrays only. -/
theorem carry_main_v7_2 (c : Dev nD) : W2 m ρ c (Proc.devRef .tc main_v7) = W1 m ρ c (Proc.devRef .tc main_v7) :=
  W2_of_ne m ρ c main_v7 (by decide)

/-- No operation of `hostOps1` writes `main_v7`. -/
theorem carry_main_v7_3 (c : Dev nD) : W3 m ρ c (Proc.devRef .tc main_v7) = W1 m ρ c (Proc.devRef .tc main_v7) :=
  (StableHlo.after_of_forall_not_mem (b := Proc.devRef .tc main_v7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_2 m ρ c)

/-- No operation of `hostOps1_1` writes `main_v7`. -/
theorem carry_main_v7_4 (c : Dev nD) : W4 m ρ c (Proc.devRef .tc main_v7) = W1 m ρ c (Proc.devRef .tc main_v7) :=
  (StableHlo.after_of_forall_not_mem (b := Proc.devRef .tc main_v7) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_3 m ρ c)

/-- No operation of `hostOps1_2` writes `main_v7`. -/
theorem carry_main_v7_5 (c : Dev nD) : W5 m ρ c (Proc.devRef .tc main_v7) = W1 m ρ c (Proc.devRef .tc main_v7) :=
  (StableHlo.after_of_forall_not_mem (b := Proc.devRef .tc main_v7) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_4 m ρ c)

/-- `main_v7` is none of region 1's arrays, and a region changes its own arrays only. -/
theorem carry_main_v7_6 (c : Dev nD) : W6 m ρ c (Proc.devRef .tc main_v7) = W1 m ρ c (Proc.devRef .tc main_v7) :=
  (W6_of_ne m ρ c main_v7 (by decide)).trans (carry_main_v7_5 m ρ c)

/-- `main_v7` is none of region 2's arrays, and a region changes its own arrays only. -/
theorem carry_main_v7_7 (c : Dev nD) : W7 m ρ c (Proc.devRef .tc main_v7) = W1 m ρ c (Proc.devRef .tc main_v7) :=
  (W7_of_ne m ρ c main_v7 (by decide)).trans (carry_main_v7_6 m ρ c)

/-- No operation of `hostOps3` writes `main_v7`. -/
theorem carry_main_v7_8 (c : Dev nD) : W8 m ρ c (Proc.devRef .tc main_v7) = W1 m ρ c (Proc.devRef .tc main_v7) :=
  (StableHlo.after_of_forall_not_mem (b := Proc.devRef .tc main_v7) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_7 m ρ c)

/-- No operation of `hostOps3_1` writes `main_v7`. -/
theorem carry_main_v7_9 (c : Dev nD) : W9 m ρ c (Proc.devRef .tc main_v7) = W1 m ρ c (Proc.devRef .tc main_v7) :=
  (StableHlo.after_of_forall_not_mem (b := Proc.devRef .tc main_v7) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_8 m ρ c)

/-- No operation of `hostOps3_2` writes `main_v7`. -/
theorem carry_main_v7_10 (c : Dev nD) : W10 m ρ c (Proc.devRef .tc main_v7) = W1 m ρ c (Proc.devRef .tc main_v7) :=
  (StableHlo.after_of_forall_not_mem (b := Proc.devRef .tc main_v7) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_9 m ρ c)

/-- `main_v7` is none of region 3's arrays, and a region changes its own arrays only. -/
theorem carry_main_v7_11 (c : Dev nD) : W11 m ρ c (Proc.devRef .tc main_v7) = W1 m ρ c (Proc.devRef .tc main_v7) :=
  (W11_of_ne m ρ c main_v7 (by decide)).trans (carry_main_v7_10 m ρ c)

/-- `main_v7` is none of region 4's arrays, and a region changes its own arrays only. -/
theorem carry_main_v7_12 (c : Dev nD) : W12 m ρ c (Proc.devRef .tc main_v7) = W1 m ρ c (Proc.devRef .tc main_v7) :=
  (W12_of_ne m ρ c main_v7 (by decide)).trans (carry_main_v7_11 m ρ c)

/-- No operation of `hostOps5` writes `main_v7`. -/
theorem carry_main_v7_13 (c : Dev nD) : W13 m ρ c (Proc.devRef .tc main_v7) = W1 m ρ c (Proc.devRef .tc main_v7) :=
  (StableHlo.after_of_forall_not_mem (b := Proc.devRef .tc main_v7) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_12 m ρ c)

/-- No operation of `hostOps5_1` writes `main_v7`. -/
theorem carry_main_v7_14 (c : Dev nD) : W14 m ρ c (Proc.devRef .tc main_v7) = W1 m ρ c (Proc.devRef .tc main_v7) :=
  (StableHlo.after_of_forall_not_mem (b := Proc.devRef .tc main_v7) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_13 m ρ c)

/-- No operation of `hostOps5_2` writes `main_v7`. -/
theorem carry_main_v7_15 (c : Dev nD) : W15 m ρ c (Proc.devRef .tc main_v7) = W1 m ρ c (Proc.devRef .tc main_v7) :=
  (StableHlo.after_of_forall_not_mem (b := Proc.devRef .tc main_v7) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_14 m ρ c)

/-- `main_v7` is none of region 5's arrays, and a region changes its own arrays only. -/
theorem carry_main_v7_16 (c : Dev nD) : W16 m ρ c (Proc.devRef .tc main_v7) = W1 m ρ c (Proc.devRef .tc main_v7) :=
  (W16_of_ne m ρ c main_v7 (by decide)).trans (carry_main_v7_15 m ρ c)

/-- `main_v7` is none of region 6's arrays, and a region changes its own arrays only. -/
theorem carry_main_v7_17 (c : Dev nD) : W17 m ρ c (Proc.devRef .tc main_v7) = W1 m ρ c (Proc.devRef .tc main_v7) :=
  (W17_of_ne m ρ c main_v7 (by decide)).trans (carry_main_v7_16 m ρ c)

/-- No operation of `hostOps7` writes `main_v7`. -/
theorem carry_main_v7_18 (c : Dev nD) : W18 m ρ c (Proc.devRef .tc main_v7) = W1 m ρ c (Proc.devRef .tc main_v7) :=
  (StableHlo.after_of_forall_not_mem (b := Proc.devRef .tc main_v7) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_17 m ρ c)

/-- No operation of `hostOps7_1` writes `main_v7`. -/
theorem carry_main_v7_19 (c : Dev nD) : W19 m ρ c (Proc.devRef .tc main_v7) = W1 m ρ c (Proc.devRef .tc main_v7) :=
  (StableHlo.after_of_forall_not_mem (b := Proc.devRef .tc main_v7) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_18 m ρ c)

/-- No operation of `hostOps7_2` writes `main_v7`. -/
theorem carry_main_v7_20 (c : Dev nD) : W20 m ρ c (Proc.devRef .tc main_v7) = W1 m ρ c (Proc.devRef .tc main_v7) :=
  (StableHlo.after_of_forall_not_mem (b := Proc.devRef .tc main_v7) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_19 m ρ c)

/-- `main_v7` is none of region 7's arrays, and a region changes its own arrays only. -/
theorem carry_main_v7_21 (c : Dev nD) : W21 m ρ c (Proc.devRef .tc main_v7) = W1 m ρ c (Proc.devRef .tc main_v7) :=
  (W21_of_ne m ρ c main_v7 (by decide)).trans (carry_main_v7_20 m ρ c)

/-- `main_v7` is none of region 8's arrays, and a region changes its own arrays only. -/
theorem carry_main_v7_22 (c : Dev nD) : W22 m ρ c (Proc.devRef .tc main_v7) = W1 m ρ c (Proc.devRef .tc main_v7) :=
  (W22_of_ne m ρ c main_v7 (by decide)).trans (carry_main_v7_21 m ρ c)

/-- No operation of `hostOps9` writes `main_v7`. -/
theorem carry_main_v7_23 (c : Dev nD) : W23 m ρ c (Proc.devRef .tc main_v7) = W1 m ρ c (Proc.devRef .tc main_v7) :=
  (StableHlo.after_of_forall_not_mem (b := Proc.devRef .tc main_v7) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_22 m ρ c)

/-- No operation of `hostOps9_1` writes `main_v7`. -/
theorem carry_main_v7_24 (c : Dev nD) : W24 m ρ c (Proc.devRef .tc main_v7) = W1 m ρ c (Proc.devRef .tc main_v7) :=
  (StableHlo.after_of_forall_not_mem (b := Proc.devRef .tc main_v7) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_23 m ρ c)

/-- No operation of `hostOps9_2` writes `main_v7`. -/
theorem carry_main_v7_25 (c : Dev nD) : W25 m ρ c (Proc.devRef .tc main_v7) = W1 m ρ c (Proc.devRef .tc main_v7) :=
  (StableHlo.after_of_forall_not_mem (b := Proc.devRef .tc main_v7) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_v7_24 m ρ c)

/-! ### `main_arg5` at every boundary from 2 to 25 is what it was at boundary 1 -/

/-- `main_arg5` is none of region 0's arrays, and a region changes its own arrays only. -/
theorem carry_main_arg5_2 (c : Dev nD) : W2 m ρ c (Proc.devRef .tc main_arg5) = W1 m ρ c (Proc.devRef .tc main_arg5) :=
  W2_of_ne m ρ c main_arg5 (by decide)

/-- No operation of `hostOps1` writes `main_arg5`. -/
theorem carry_main_arg5_3 (c : Dev nD) : W3 m ρ c (Proc.devRef .tc main_arg5) = W1 m ρ c (Proc.devRef .tc main_arg5) :=
  (StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_2 m ρ c)

/-- No operation of `hostOps1_1` writes `main_arg5`. -/
theorem carry_main_arg5_4 (c : Dev nD) : W4 m ρ c (Proc.devRef .tc main_arg5) = W1 m ρ c (Proc.devRef .tc main_arg5) :=
  (StableHlo.after_of_forall_not_mem (b := Proc.devRef .tc main_arg5) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_3 m ρ c)

/-- No operation of `hostOps1_2` writes `main_arg5`. -/
theorem carry_main_arg5_5 (c : Dev nD) : W5 m ρ c (Proc.devRef .tc main_arg5) = W1 m ρ c (Proc.devRef .tc main_arg5) :=
  (StableHlo.after_of_forall_not_mem (b := Proc.devRef .tc main_arg5) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_4 m ρ c)

/-- `main_arg5` is input window 4 of region 1, and an input window's array is kept. -/
theorem carry_main_arg5_6 (c : Dev nD) : W6 m ρ c (Proc.devRef .tc main_arg5) = W1 m ρ c (Proc.devRef .tc main_arg5) :=
  ((W6_arr m ρ c 4).trans (((dat1 (V5 m ρ) c).arrAt_in 4 rfl _).trans (A_eq1 (V5 m ρ) c 4))).trans (carry_main_arg5_5 m ρ c)

/-- `main_arg5` is none of region 2's arrays, and a region changes its own arrays only. -/
theorem carry_main_arg5_7 (c : Dev nD) : W7 m ρ c (Proc.devRef .tc main_arg5) = W1 m ρ c (Proc.devRef .tc main_arg5) :=
  (W7_of_ne m ρ c main_arg5 (by decide)).trans (carry_main_arg5_6 m ρ c)

/-- No operation of `hostOps3` writes `main_arg5`. -/
theorem carry_main_arg5_8 (c : Dev nD) : W8 m ρ c (Proc.devRef .tc main_arg5) = W1 m ρ c (Proc.devRef .tc main_arg5) :=
  (StableHlo.after_of_forall_not_mem (b := Proc.devRef .tc main_arg5) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_7 m ρ c)

/-- No operation of `hostOps3_1` writes `main_arg5`. -/
theorem carry_main_arg5_9 (c : Dev nD) : W9 m ρ c (Proc.devRef .tc main_arg5) = W1 m ρ c (Proc.devRef .tc main_arg5) :=
  (StableHlo.after_of_forall_not_mem (b := Proc.devRef .tc main_arg5) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_8 m ρ c)

/-- No operation of `hostOps3_2` writes `main_arg5`. -/
theorem carry_main_arg5_10 (c : Dev nD) : W10 m ρ c (Proc.devRef .tc main_arg5) = W1 m ρ c (Proc.devRef .tc main_arg5) :=
  (StableHlo.after_of_forall_not_mem (b := Proc.devRef .tc main_arg5) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_9 m ρ c)

/-- `main_arg5` is input window 4 of region 3, and an input window's array is kept. -/
theorem carry_main_arg5_11 (c : Dev nD) : W11 m ρ c (Proc.devRef .tc main_arg5) = W1 m ρ c (Proc.devRef .tc main_arg5) :=
  ((W11_arr m ρ c 4).trans (((dat3 (V10 m ρ) c).arrAt_in 4 rfl _).trans (A_eq3 (V10 m ρ) c 4))).trans (carry_main_arg5_10 m ρ c)

/-- `main_arg5` is none of region 4's arrays, and a region changes its own arrays only. -/
theorem carry_main_arg5_12 (c : Dev nD) : W12 m ρ c (Proc.devRef .tc main_arg5) = W1 m ρ c (Proc.devRef .tc main_arg5) :=
  (W12_of_ne m ρ c main_arg5 (by decide)).trans (carry_main_arg5_11 m ρ c)

/-- No operation of `hostOps5` writes `main_arg5`. -/
theorem carry_main_arg5_13 (c : Dev nD) : W13 m ρ c (Proc.devRef .tc main_arg5) = W1 m ρ c (Proc.devRef .tc main_arg5) :=
  (StableHlo.after_of_forall_not_mem (b := Proc.devRef .tc main_arg5) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_12 m ρ c)

/-- No operation of `hostOps5_1` writes `main_arg5`. -/
theorem carry_main_arg5_14 (c : Dev nD) : W14 m ρ c (Proc.devRef .tc main_arg5) = W1 m ρ c (Proc.devRef .tc main_arg5) :=
  (StableHlo.after_of_forall_not_mem (b := Proc.devRef .tc main_arg5) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_13 m ρ c)

/-- No operation of `hostOps5_2` writes `main_arg5`. -/
theorem carry_main_arg5_15 (c : Dev nD) : W15 m ρ c (Proc.devRef .tc main_arg5) = W1 m ρ c (Proc.devRef .tc main_arg5) :=
  (StableHlo.after_of_forall_not_mem (b := Proc.devRef .tc main_arg5) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_14 m ρ c)

/-- `main_arg5` is input window 4 of region 5, and an input window's array is kept. -/
theorem carry_main_arg5_16 (c : Dev nD) : W16 m ρ c (Proc.devRef .tc main_arg5) = W1 m ρ c (Proc.devRef .tc main_arg5) :=
  ((W16_arr m ρ c 4).trans (((dat5 (V15 m ρ) c).arrAt_in 4 rfl _).trans (A_eq5 (V15 m ρ) c 4))).trans (carry_main_arg5_15 m ρ c)

/-- `main_arg5` is none of region 6's arrays, and a region changes its own arrays only. -/
theorem carry_main_arg5_17 (c : Dev nD) : W17 m ρ c (Proc.devRef .tc main_arg5) = W1 m ρ c (Proc.devRef .tc main_arg5) :=
  (W17_of_ne m ρ c main_arg5 (by decide)).trans (carry_main_arg5_16 m ρ c)

/-- No operation of `hostOps7` writes `main_arg5`. -/
theorem carry_main_arg5_18 (c : Dev nD) : W18 m ρ c (Proc.devRef .tc main_arg5) = W1 m ρ c (Proc.devRef .tc main_arg5) :=
  (StableHlo.after_of_forall_not_mem (b := Proc.devRef .tc main_arg5) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_17 m ρ c)

/-- No operation of `hostOps7_1` writes `main_arg5`. -/
theorem carry_main_arg5_19 (c : Dev nD) : W19 m ρ c (Proc.devRef .tc main_arg5) = W1 m ρ c (Proc.devRef .tc main_arg5) :=
  (StableHlo.after_of_forall_not_mem (b := Proc.devRef .tc main_arg5) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_18 m ρ c)

/-- No operation of `hostOps7_2` writes `main_arg5`. -/
theorem carry_main_arg5_20 (c : Dev nD) : W20 m ρ c (Proc.devRef .tc main_arg5) = W1 m ρ c (Proc.devRef .tc main_arg5) :=
  (StableHlo.after_of_forall_not_mem (b := Proc.devRef .tc main_arg5) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_19 m ρ c)

/-- `main_arg5` is input window 4 of region 7, and an input window's array is kept. -/
theorem carry_main_arg5_21 (c : Dev nD) : W21 m ρ c (Proc.devRef .tc main_arg5) = W1 m ρ c (Proc.devRef .tc main_arg5) :=
  ((W21_arr m ρ c 4).trans (((dat7 (V20 m ρ) c).arrAt_in 4 rfl _).trans (A_eq7 (V20 m ρ) c 4))).trans (carry_main_arg5_20 m ρ c)

/-- `main_arg5` is none of region 8's arrays, and a region changes its own arrays only. -/
theorem carry_main_arg5_22 (c : Dev nD) : W22 m ρ c (Proc.devRef .tc main_arg5) = W1 m ρ c (Proc.devRef .tc main_arg5) :=
  (W22_of_ne m ρ c main_arg5 (by decide)).trans (carry_main_arg5_21 m ρ c)

/-- No operation of `hostOps9` writes `main_arg5`. -/
theorem carry_main_arg5_23 (c : Dev nD) : W23 m ρ c (Proc.devRef .tc main_arg5) = W1 m ρ c (Proc.devRef .tc main_arg5) :=
  (StableHlo.after_of_forall_not_mem (b := Proc.devRef .tc main_arg5) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_22 m ρ c)

/-- No operation of `hostOps9_1` writes `main_arg5`. -/
theorem carry_main_arg5_24 (c : Dev nD) : W24 m ρ c (Proc.devRef .tc main_arg5) = W1 m ρ c (Proc.devRef .tc main_arg5) :=
  (StableHlo.after_of_forall_not_mem (b := Proc.devRef .tc main_arg5) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_23 m ρ c)

/-- No operation of `hostOps9_2` writes `main_arg5`. -/
theorem carry_main_arg5_25 (c : Dev nD) : W25 m ρ c (Proc.devRef .tc main_arg5) = W1 m ρ c (Proc.devRef .tc main_arg5) :=
  (StableHlo.after_of_forall_not_mem (b := Proc.devRef .tc main_arg5) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg5_24 m ρ c)

/-! ### `main_arg6` at every boundary from 2 to 25 is what it was at boundary 1 -/

/-- `main_arg6` is none of region 0's arrays, and a region changes its own arrays only. -/
theorem carry_main_arg6_2 (c : Dev nD) : W2 m ρ c (Proc.devRef .tc main_arg6) = W1 m ρ c (Proc.devRef .tc main_arg6) :=
  W2_of_ne m ρ c main_arg6 (by decide)

/-- No operation of `hostOps1` writes `main_arg6`. -/
theorem carry_main_arg6_3 (c : Dev nD) : W3 m ρ c (Proc.devRef .tc main_arg6) = W1 m ρ c (Proc.devRef .tc main_arg6) :=
  (StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_2 m ρ c)

/-- No operation of `hostOps1_1` writes `main_arg6`. -/
theorem carry_main_arg6_4 (c : Dev nD) : W4 m ρ c (Proc.devRef .tc main_arg6) = W1 m ρ c (Proc.devRef .tc main_arg6) :=
  (StableHlo.after_of_forall_not_mem (b := Proc.devRef .tc main_arg6) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_3 m ρ c)

/-- No operation of `hostOps1_2` writes `main_arg6`. -/
theorem carry_main_arg6_5 (c : Dev nD) : W5 m ρ c (Proc.devRef .tc main_arg6) = W1 m ρ c (Proc.devRef .tc main_arg6) :=
  (StableHlo.after_of_forall_not_mem (b := Proc.devRef .tc main_arg6) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_4 m ρ c)

/-- `main_arg6` is input window 5 of region 1, and an input window's array is kept. -/
theorem carry_main_arg6_6 (c : Dev nD) : W6 m ρ c (Proc.devRef .tc main_arg6) = W1 m ρ c (Proc.devRef .tc main_arg6) :=
  ((W6_arr m ρ c 5).trans (((dat1 (V5 m ρ) c).arrAt_in 5 rfl _).trans (A_eq1 (V5 m ρ) c 5))).trans (carry_main_arg6_5 m ρ c)

/-- `main_arg6` is none of region 2's arrays, and a region changes its own arrays only. -/
theorem carry_main_arg6_7 (c : Dev nD) : W7 m ρ c (Proc.devRef .tc main_arg6) = W1 m ρ c (Proc.devRef .tc main_arg6) :=
  (W7_of_ne m ρ c main_arg6 (by decide)).trans (carry_main_arg6_6 m ρ c)

/-- No operation of `hostOps3` writes `main_arg6`. -/
theorem carry_main_arg6_8 (c : Dev nD) : W8 m ρ c (Proc.devRef .tc main_arg6) = W1 m ρ c (Proc.devRef .tc main_arg6) :=
  (StableHlo.after_of_forall_not_mem (b := Proc.devRef .tc main_arg6) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_7 m ρ c)

/-- No operation of `hostOps3_1` writes `main_arg6`. -/
theorem carry_main_arg6_9 (c : Dev nD) : W9 m ρ c (Proc.devRef .tc main_arg6) = W1 m ρ c (Proc.devRef .tc main_arg6) :=
  (StableHlo.after_of_forall_not_mem (b := Proc.devRef .tc main_arg6) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_8 m ρ c)

/-- No operation of `hostOps3_2` writes `main_arg6`. -/
theorem carry_main_arg6_10 (c : Dev nD) : W10 m ρ c (Proc.devRef .tc main_arg6) = W1 m ρ c (Proc.devRef .tc main_arg6) :=
  (StableHlo.after_of_forall_not_mem (b := Proc.devRef .tc main_arg6) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_9 m ρ c)

/-- `main_arg6` is input window 5 of region 3, and an input window's array is kept. -/
theorem carry_main_arg6_11 (c : Dev nD) : W11 m ρ c (Proc.devRef .tc main_arg6) = W1 m ρ c (Proc.devRef .tc main_arg6) :=
  ((W11_arr m ρ c 5).trans (((dat3 (V10 m ρ) c).arrAt_in 5 rfl _).trans (A_eq3 (V10 m ρ) c 5))).trans (carry_main_arg6_10 m ρ c)

/-- `main_arg6` is none of region 4's arrays, and a region changes its own arrays only. -/
theorem carry_main_arg6_12 (c : Dev nD) : W12 m ρ c (Proc.devRef .tc main_arg6) = W1 m ρ c (Proc.devRef .tc main_arg6) :=
  (W12_of_ne m ρ c main_arg6 (by decide)).trans (carry_main_arg6_11 m ρ c)

/-- No operation of `hostOps5` writes `main_arg6`. -/
theorem carry_main_arg6_13 (c : Dev nD) : W13 m ρ c (Proc.devRef .tc main_arg6) = W1 m ρ c (Proc.devRef .tc main_arg6) :=
  (StableHlo.after_of_forall_not_mem (b := Proc.devRef .tc main_arg6) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_12 m ρ c)

/-- No operation of `hostOps5_1` writes `main_arg6`. -/
theorem carry_main_arg6_14 (c : Dev nD) : W14 m ρ c (Proc.devRef .tc main_arg6) = W1 m ρ c (Proc.devRef .tc main_arg6) :=
  (StableHlo.after_of_forall_not_mem (b := Proc.devRef .tc main_arg6) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_13 m ρ c)

/-- No operation of `hostOps5_2` writes `main_arg6`. -/
theorem carry_main_arg6_15 (c : Dev nD) : W15 m ρ c (Proc.devRef .tc main_arg6) = W1 m ρ c (Proc.devRef .tc main_arg6) :=
  (StableHlo.after_of_forall_not_mem (b := Proc.devRef .tc main_arg6) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_14 m ρ c)

/-- `main_arg6` is input window 5 of region 5, and an input window's array is kept. -/
theorem carry_main_arg6_16 (c : Dev nD) : W16 m ρ c (Proc.devRef .tc main_arg6) = W1 m ρ c (Proc.devRef .tc main_arg6) :=
  ((W16_arr m ρ c 5).trans (((dat5 (V15 m ρ) c).arrAt_in 5 rfl _).trans (A_eq5 (V15 m ρ) c 5))).trans (carry_main_arg6_15 m ρ c)

/-- `main_arg6` is none of region 6's arrays, and a region changes its own arrays only. -/
theorem carry_main_arg6_17 (c : Dev nD) : W17 m ρ c (Proc.devRef .tc main_arg6) = W1 m ρ c (Proc.devRef .tc main_arg6) :=
  (W17_of_ne m ρ c main_arg6 (by decide)).trans (carry_main_arg6_16 m ρ c)

/-- No operation of `hostOps7` writes `main_arg6`. -/
theorem carry_main_arg6_18 (c : Dev nD) : W18 m ρ c (Proc.devRef .tc main_arg6) = W1 m ρ c (Proc.devRef .tc main_arg6) :=
  (StableHlo.after_of_forall_not_mem (b := Proc.devRef .tc main_arg6) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_17 m ρ c)

/-- No operation of `hostOps7_1` writes `main_arg6`. -/
theorem carry_main_arg6_19 (c : Dev nD) : W19 m ρ c (Proc.devRef .tc main_arg6) = W1 m ρ c (Proc.devRef .tc main_arg6) :=
  (StableHlo.after_of_forall_not_mem (b := Proc.devRef .tc main_arg6) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_18 m ρ c)

/-- No operation of `hostOps7_2` writes `main_arg6`. -/
theorem carry_main_arg6_20 (c : Dev nD) : W20 m ρ c (Proc.devRef .tc main_arg6) = W1 m ρ c (Proc.devRef .tc main_arg6) :=
  (StableHlo.after_of_forall_not_mem (b := Proc.devRef .tc main_arg6) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_19 m ρ c)

/-- `main_arg6` is input window 5 of region 7, and an input window's array is kept. -/
theorem carry_main_arg6_21 (c : Dev nD) : W21 m ρ c (Proc.devRef .tc main_arg6) = W1 m ρ c (Proc.devRef .tc main_arg6) :=
  ((W21_arr m ρ c 5).trans (((dat7 (V20 m ρ) c).arrAt_in 5 rfl _).trans (A_eq7 (V20 m ρ) c 5))).trans (carry_main_arg6_20 m ρ c)

/-- `main_arg6` is none of region 8's arrays, and a region changes its own arrays only. -/
theorem carry_main_arg6_22 (c : Dev nD) : W22 m ρ c (Proc.devRef .tc main_arg6) = W1 m ρ c (Proc.devRef .tc main_arg6) :=
  (W22_of_ne m ρ c main_arg6 (by decide)).trans (carry_main_arg6_21 m ρ c)

/-- No operation of `hostOps9` writes `main_arg6`. -/
theorem carry_main_arg6_23 (c : Dev nD) : W23 m ρ c (Proc.devRef .tc main_arg6) = W1 m ρ c (Proc.devRef .tc main_arg6) :=
  (StableHlo.after_of_forall_not_mem (b := Proc.devRef .tc main_arg6) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_22 m ρ c)

/-- No operation of `hostOps9_1` writes `main_arg6`. -/
theorem carry_main_arg6_24 (c : Dev nD) : W24 m ρ c (Proc.devRef .tc main_arg6) = W1 m ρ c (Proc.devRef .tc main_arg6) :=
  (StableHlo.after_of_forall_not_mem (b := Proc.devRef .tc main_arg6) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_23 m ρ c)

/-- No operation of `hostOps9_2` writes `main_arg6`. -/
theorem carry_main_arg6_25 (c : Dev nD) : W25 m ρ c (Proc.devRef .tc main_arg6) = W1 m ρ c (Proc.devRef .tc main_arg6) :=
  (StableHlo.after_of_forall_not_mem (b := Proc.devRef .tc main_arg6) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg6_24 m ρ c)

/-! ### `main_arg8` at every boundary from 2 to 25 is what it was at boundary 1 -/

/-- `main_arg8` is none of region 0's arrays, and a region changes its own arrays only. -/
theorem carry_main_arg8_2 (c : Dev nD) : W2 m ρ c (Proc.devRef .tc main_arg8) = W1 m ρ c (Proc.devRef .tc main_arg8) :=
  W2_of_ne m ρ c main_arg8 (by decide)

/-- No operation of `hostOps1` writes `main_arg8`. -/
theorem carry_main_arg8_3 (c : Dev nD) : W3 m ρ c (Proc.devRef .tc main_arg8) = W1 m ρ c (Proc.devRef .tc main_arg8) :=
  (StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_2 m ρ c)

/-- No operation of `hostOps1_1` writes `main_arg8`. -/
theorem carry_main_arg8_4 (c : Dev nD) : W4 m ρ c (Proc.devRef .tc main_arg8) = W1 m ρ c (Proc.devRef .tc main_arg8) :=
  (StableHlo.after_of_forall_not_mem (b := Proc.devRef .tc main_arg8) _ _ (List.forall_iff_forall_mem.mp (by
      simp only [hostOps1_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_3 m ρ c)

/-- No operation of `hostOps1_2` writes `main_arg8`. -/
theorem carry_main_arg8_5 (c : Dev nD) : W5 m ρ c (Proc.devRef .tc main_arg8) = W1 m ρ c (Proc.devRef .tc main_arg8) :=
  (StableHlo.after_of_forall_not_mem (b := Proc.devRef .tc main_arg8) _ _ (List.forall_iff_forall_mem.mp (by
      simp only [hostOps1_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_4 m ρ c)

/-- `main_arg8` is none of region 1's arrays, and a region changes its own arrays only. -/
theorem carry_main_arg8_6 (c : Dev nD) : W6 m ρ c (Proc.devRef .tc main_arg8) = W1 m ρ c (Proc.devRef .tc main_arg8) :=
  (W6_of_ne m ρ c main_arg8 (by decide)).trans (carry_main_arg8_5 m ρ c)

/-- `main_arg8` is none of region 2's arrays, and a region changes its own arrays only. -/
theorem carry_main_arg8_7 (c : Dev nD) : W7 m ρ c (Proc.devRef .tc main_arg8) = W1 m ρ c (Proc.devRef .tc main_arg8) :=
  (W7_of_ne m ρ c main_arg8 (by decide)).trans (carry_main_arg8_6 m ρ c)

/-- No operation of `hostOps3` writes `main_arg8`. -/
theorem carry_main_arg8_8 (c : Dev nD) : W8 m ρ c (Proc.devRef .tc main_arg8) = W1 m ρ c (Proc.devRef .tc main_arg8) :=
  (StableHlo.after_of_forall_not_mem (b := Proc.devRef .tc main_arg8) _ _ (List.forall_iff_forall_mem.mp (by
      simp only [hostOps3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_7 m ρ c)

/-- No operation of `hostOps3_1` writes `main_arg8`. -/
theorem carry_main_arg8_9 (c : Dev nD) : W9 m ρ c (Proc.devRef .tc main_arg8) = W1 m ρ c (Proc.devRef .tc main_arg8) :=
  (StableHlo.after_of_forall_not_mem (b := Proc.devRef .tc main_arg8) _ _ (List.forall_iff_forall_mem.mp (by
      simp only [hostOps3_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_8 m ρ c)

/-- No operation of `hostOps3_2` writes `main_arg8`. -/
theorem carry_main_arg8_10 (c : Dev nD) : W10 m ρ c (Proc.devRef .tc main_arg8) = W1 m ρ c (Proc.devRef .tc main_arg8) :=
  (StableHlo.after_of_forall_not_mem (b := Proc.devRef .tc main_arg8) _ _ (List.forall_iff_forall_mem.mp (by
      simp only [hostOps3_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_9 m ρ c)

/-- `main_arg8` is none of region 3's arrays, and a region changes its own arrays only. -/
theorem carry_main_arg8_11 (c : Dev nD) : W11 m ρ c (Proc.devRef .tc main_arg8) = W1 m ρ c (Proc.devRef .tc main_arg8) :=
  (W11_of_ne m ρ c main_arg8 (by decide)).trans (carry_main_arg8_10 m ρ c)

/-- `main_arg8` is none of region 4's arrays, and a region changes its own arrays only. -/
theorem carry_main_arg8_12 (c : Dev nD) : W12 m ρ c (Proc.devRef .tc main_arg8) = W1 m ρ c (Proc.devRef .tc main_arg8) :=
  (W12_of_ne m ρ c main_arg8 (by decide)).trans (carry_main_arg8_11 m ρ c)

/-- No operation of `hostOps5` writes `main_arg8`. -/
theorem carry_main_arg8_13 (c : Dev nD) : W13 m ρ c (Proc.devRef .tc main_arg8) = W1 m ρ c (Proc.devRef .tc main_arg8) :=
  (StableHlo.after_of_forall_not_mem (b := Proc.devRef .tc main_arg8) _ _ (List.forall_iff_forall_mem.mp (by
      simp only [hostOps5, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_12 m ρ c)

/-- No operation of `hostOps5_1` writes `main_arg8`. -/
theorem carry_main_arg8_14 (c : Dev nD) : W14 m ρ c (Proc.devRef .tc main_arg8) = W1 m ρ c (Proc.devRef .tc main_arg8) :=
  (StableHlo.after_of_forall_not_mem (b := Proc.devRef .tc main_arg8) _ _ (List.forall_iff_forall_mem.mp (by
      simp only [hostOps5_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_13 m ρ c)

/-- No operation of `hostOps5_2` writes `main_arg8`. -/
theorem carry_main_arg8_15 (c : Dev nD) : W15 m ρ c (Proc.devRef .tc main_arg8) = W1 m ρ c (Proc.devRef .tc main_arg8) :=
  (StableHlo.after_of_forall_not_mem (b := Proc.devRef .tc main_arg8) _ _ (List.forall_iff_forall_mem.mp (by
      simp only [hostOps5_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_14 m ρ c)

/-- `main_arg8` is none of region 5's arrays, and a region changes its own arrays only. -/
theorem carry_main_arg8_16 (c : Dev nD) : W16 m ρ c (Proc.devRef .tc main_arg8) = W1 m ρ c (Proc.devRef .tc main_arg8) :=
  (W16_of_ne m ρ c main_arg8 (by decide)).trans (carry_main_arg8_15 m ρ c)

/-- `main_arg8` is none of region 6's arrays, and a region changes its own arrays only. -/
theorem carry_main_arg8_17 (c : Dev nD) : W17 m ρ c (Proc.devRef .tc main_arg8) = W1 m ρ c (Proc.devRef .tc main_arg8) :=
  (W17_of_ne m ρ c main_arg8 (by decide)).trans (carry_main_arg8_16 m ρ c)

/-- No operation of `hostOps7` writes `main_arg8`. -/
theorem carry_main_arg8_18 (c : Dev nD) : W18 m ρ c (Proc.devRef .tc main_arg8) = W1 m ρ c (Proc.devRef .tc main_arg8) :=
  (StableHlo.after_of_forall_not_mem (b := Proc.devRef .tc main_arg8) _ _ (List.forall_iff_forall_mem.mp (by
      simp only [hostOps7, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_17 m ρ c)

/-- No operation of `hostOps7_1` writes `main_arg8`. -/
theorem carry_main_arg8_19 (c : Dev nD) : W19 m ρ c (Proc.devRef .tc main_arg8) = W1 m ρ c (Proc.devRef .tc main_arg8) :=
  (StableHlo.after_of_forall_not_mem (b := Proc.devRef .tc main_arg8) _ _ (List.forall_iff_forall_mem.mp (by
      simp only [hostOps7_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_18 m ρ c)

/-- No operation of `hostOps7_2` writes `main_arg8`. -/
theorem carry_main_arg8_20 (c : Dev nD) : W20 m ρ c (Proc.devRef .tc main_arg8) = W1 m ρ c (Proc.devRef .tc main_arg8) :=
  (StableHlo.after_of_forall_not_mem (b := Proc.devRef .tc main_arg8) _ _ (List.forall_iff_forall_mem.mp (by
      simp only [hostOps7_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_19 m ρ c)

/-- `main_arg8` is none of region 7's arrays, and a region changes its own arrays only. -/
theorem carry_main_arg8_21 (c : Dev nD) : W21 m ρ c (Proc.devRef .tc main_arg8) = W1 m ρ c (Proc.devRef .tc main_arg8) :=
  (W21_of_ne m ρ c main_arg8 (by decide)).trans (carry_main_arg8_20 m ρ c)

/-- `main_arg8` is none of region 8's arrays, and a region changes its own arrays only. -/
theorem carry_main_arg8_22 (c : Dev nD) : W22 m ρ c (Proc.devRef .tc main_arg8) = W1 m ρ c (Proc.devRef .tc main_arg8) :=
  (W22_of_ne m ρ c main_arg8 (by decide)).trans (carry_main_arg8_21 m ρ c)

/-- No operation of `hostOps9` writes `main_arg8`. -/
theorem carry_main_arg8_23 (c : Dev nD) : W23 m ρ c (Proc.devRef .tc main_arg8) = W1 m ρ c (Proc.devRef .tc main_arg8) :=
  (StableHlo.after_of_forall_not_mem (b := Proc.devRef .tc main_arg8) _ _ (List.forall_iff_forall_mem.mp (by
      simp only [hostOps9, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_22 m ρ c)

/-- No operation of `hostOps9_1` writes `main_arg8`. -/
theorem carry_main_arg8_24 (c : Dev nD) : W24 m ρ c (Proc.devRef .tc main_arg8) = W1 m ρ c (Proc.devRef .tc main_arg8) :=
  (StableHlo.after_of_forall_not_mem (b := Proc.devRef .tc main_arg8) _ _ (List.forall_iff_forall_mem.mp (by
      simp only [hostOps9_1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_23 m ρ c)

/-- No operation of `hostOps9_2` writes `main_arg8`. -/
theorem carry_main_arg8_25 (c : Dev nD) : W25 m ρ c (Proc.devRef .tc main_arg8) = W1 m ρ c (Proc.devRef .tc main_arg8) :=
  (StableHlo.after_of_forall_not_mem (b := Proc.devRef .tc main_arg8) _ _ (List.forall_iff_forall_mem.mp (by
      simp only [hostOps9_2, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).trans (carry_main_arg8_24 m ρ c)

/-! ### A step's state is carried from the step's entry to its gru region's entry: its hall region reads it through
    input window 0, and the three stretches between the two regions do not write it -/

/-- Step 0's state `main_arg0`, from boundary 1 to boundary 5. `main_arg0` is input window 0 of region 0, and an input window's array is kept. -/
theorem carry_h0 (c : Dev nD) : W5 m ρ c (Proc.devRef .tc main_arg0) = W1 m ρ c (Proc.devRef .tc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := StableHlo.after_of_forall_not_mem (b := Proc.devRef .tc main_arg0) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))

/-- Step 1's state `main_v14`, from boundary 6 to boundary 10. `main_v14` is input window 0 of region 2, and an input window's array is kept. -/
theorem carry_h1 (c : Dev nD) : W10 m ρ c (Proc.devRef .tc main_v14) = W6 m ρ c (Proc.devRef .tc main_v14) :=
  calc W10 m ρ c (Proc.devRef .tc main_v14)
    _ = W9 m ρ c (Proc.devRef .tc main_v14) := StableHlo.after_of_forall_not_mem (b := Proc.devRef .tc main_v14) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v14) := StableHlo.after_of_forall_not_mem (b := Proc.devRef .tc main_v14) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v14) := StableHlo.after_of_forall_not_mem (b := Proc.devRef .tc main_v14) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W6 m ρ c (Proc.devRef .tc main_v14) := (W7_arr m ρ c 0).trans (((dat2 (V6 m ρ) c).arrAt_in 0 rfl _).trans (A_eq2 (V6 m ρ) c 0))

/-- Step 2's state `main_v21`, from boundary 11 to boundary 15. `main_v21` is input window 0 of region 4, and an input window's array is kept. -/
theorem carry_h2 (c : Dev nD) : W15 m ρ c (Proc.devRef .tc main_v21) = W11 m ρ c (Proc.devRef .tc main_v21) :=
  calc W15 m ρ c (Proc.devRef .tc main_v21)
    _ = W14 m ρ c (Proc.devRef .tc main_v21) := StableHlo.after_of_forall_not_mem (b := Proc.devRef .tc main_v21) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_v21) := StableHlo.after_of_forall_not_mem (b := Proc.devRef .tc main_v21) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W12 m ρ c (Proc.devRef .tc main_v21) := StableHlo.after_of_forall_not_mem (b := Proc.devRef .tc main_v21) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_v21) := (W12_arr m ρ c 0).trans (((dat4 (V11 m ρ) c).arrAt_in 0 rfl _).trans (A_eq4 (V11 m ρ) c 0))

/-- Step 3's state `main_v28`, from boundary 16 to boundary 20. `main_v28` is input window 0 of region 6, and an input window's array is kept. -/
theorem carry_h3 (c : Dev nD) : W20 m ρ c (Proc.devRef .tc main_v28) = W16 m ρ c (Proc.devRef .tc main_v28) :=
  calc W20 m ρ c (Proc.devRef .tc main_v28)
    _ = W19 m ρ c (Proc.devRef .tc main_v28) := StableHlo.after_of_forall_not_mem (b := Proc.devRef .tc main_v28) _ _ (List.forall_iff_forall_mem.mp (by
          simp only [hostOps7_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W18 m ρ c (Proc.devRef .tc main_v28) := StableHlo.after_of_forall_not_mem (b := Proc.devRef .tc main_v28) _ _ (List.forall_iff_forall_mem.mp (by
          simp only [hostOps7_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W17 m ρ c (Proc.devRef .tc main_v28) := StableHlo.after_of_forall_not_mem (b := Proc.devRef .tc main_v28) _ _ (List.forall_iff_forall_mem.mp (by
          simp only [hostOps7, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W16 m ρ c (Proc.devRef .tc main_v28) := (W17_arr m ρ c 0).trans (((dat6 (V16 m ρ) c).arrAt_in 0 rfl _).trans (A_eq6 (V16 m ρ) c 0))

/-- Step 4's state `main_v35`, from boundary 21 to boundary 25. `main_v35` is input window 0 of region 8, and an input window's array is kept. -/
theorem carry_h4 (c : Dev nD) : W25 m ρ c (Proc.devRef .tc main_v35) = W21 m ρ c (Proc.devRef .tc main_v35) :=
  calc W25 m ρ c (Proc.devRef .tc main_v35)
    _ = W24 m ρ c (Proc.devRef .tc main_v35) := StableHlo.after_of_forall_not_mem (b := Proc.devRef .tc main_v35) _ _ (List.forall_iff_forall_mem.mp (by
          simp only [hostOps9_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W23 m ρ c (Proc.devRef .tc main_v35) := StableHlo.after_of_forall_not_mem (b := Proc.devRef .tc main_v35) _ _ (List.forall_iff_forall_mem.mp (by
          simp only [hostOps9_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W22 m ρ c (Proc.devRef .tc main_v35) := StableHlo.after_of_forall_not_mem (b := Proc.devRef .tc main_v35) _ _ (List.forall_iff_forall_mem.mp (by
          simp only [hostOps9, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W21 m ρ c (Proc.devRef .tc main_v35) := (W22_arr m ρ c 0).trans (((dat8 (V21 m ρ) c).arrAt_in 0 rfl _).trans (A_eq8 (V21 m ρ) c 0))

/-! ### The arguments at boundary 1 are the launch memory: the first stretch writes no argument -/

/-- No operation of `hostOps0` writes `main_arg0`. -/
theorem W1_arg0 (c : Dev nD) : W1 m ρ c (Proc.devRef .tc main_arg0) = m ((c : Thread nD τ).loc main_arg0) :=
  StableHlo.after_of_forall_not_mem (b := Proc.devRef .tc main_arg0) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg1`. -/
theorem W1_arg1 (c : Dev nD) : W1 m ρ c (Proc.devRef .tc main_arg1) = m ((c : Thread nD τ).loc main_arg1) :=
  StableHlo.after_of_forall_not_mem (b := Proc.devRef .tc main_arg1) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg2`. -/
theorem W1_arg2 (c : Dev nD) : W1 m ρ c (Proc.devRef .tc main_arg2) = m ((c : Thread nD τ).loc main_arg2) :=
  StableHlo.after_of_forall_not_mem (b := Proc.devRef .tc main_arg2) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg3`. -/
theorem W1_arg3 (c : Dev nD) : W1 m ρ c (Proc.devRef .tc main_arg3) = m ((c : Thread nD τ).loc main_arg3) :=
  StableHlo.after_of_forall_not_mem (b := Proc.devRef .tc main_arg3) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg4`. -/
theorem W1_arg4 (c : Dev nD) : W1 m ρ c (Proc.devRef .tc main_arg4) = m ((c : Thread nD τ).loc main_arg4) :=
  StableHlo.after_of_forall_not_mem (b := Proc.devRef .tc main_arg4) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg5`. -/
theorem W1_arg5 (c : Dev nD) : W1 m ρ c (Proc.devRef .tc main_arg5) = m ((c : Thread nD τ).loc main_arg5) :=
  StableHlo.after_of_forall_not_mem (b := Proc.devRef .tc main_arg5) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg6`. -/
theorem W1_arg6 (c : Dev nD) : W1 m ρ c (Proc.devRef .tc main_arg6) = m ((c : Thread nD τ).loc main_arg6) :=
  StableHlo.after_of_forall_not_mem (b := Proc.devRef .tc main_arg6) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg7`. -/
theorem W1_arg7 (c : Dev nD) : W1 m ρ c (Proc.devRef .tc main_arg7) = m ((c : Thread nD τ).loc main_arg7) :=
  StableHlo.after_of_forall_not_mem (b := Proc.devRef .tc main_arg7) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg8`. -/
theorem W1_arg8 (c : Dev nD) : W1 m ρ c (Proc.devRef .tc main_arg8) = m ((c : Thread nD τ).loc main_arg8) :=
  StableHlo.after_of_forall_not_mem (b := Proc.devRef .tc main_arg8) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

/-- No operation of `hostOps0` writes `main_arg9`. -/
theorem W1_arg9 (c : Dev nD) : W1 m ρ c (Proc.devRef .tc main_arg9) = m ((c : Thread nD τ).loc main_arg9) :=
  StableHlo.after_of_forall_not_mem (b := Proc.devRef .tc main_arg9) _ _ (List.forall_iff_forall_mem.mp (by
      simp only [hostOps0, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))

end Cert.KernelIdeal.Carry

end
-- ==== Proof.KHost0.lean ====
/-
  What the program's first host stretch leaves in its persistent tables.

  Before the first region the program re-lays its weights once: the four 64 × 64 linear maps W (t, j, d) are flattened to a
  256 × 64 table whose row t · 64 + j is the map t's row j, and that table is transposed, so that entry (d, col) of the result
  is W (col / 64, col % 64, d); the four bias rows are laid end to end, entry col being b (col / 64, col % 64); the two GRU
  weight tables are transposed; and the flat gather index of edge e is the word src e · 4 + etype e. Each of these is read
  here index by index: a flattening keeps the row-major position (t · 4096 + j · 64 + d = (t · 64 + j) · 64 + d), a
  transposition swaps the two coordinates.
-/
import proofs.«410194_j38886633898060_1_alg».proof.Proof.Gen.KernelIdeal.Frame
import proofs.«410194_j38886633898060_1_alg».proof.Proof.Spec
import Idealize.ShloMosaic.Lib.Pipeline.Value
import Idealize.ShloMosaic.Lib.ValueIdx

set_option maxRecDepth 16384

noncomputable section

namespace Cert.KernelIdeal.KHost0

open Cert.KernelIdeal Cert.KernelIdeal.Gen Cert.GatedGraph
open Idealize.ShloMosaic Idealize.ShloMosaic.TcCoe Idealize.ShloMosaic.ValueIdx

/-! ## The layout operations read at an index -/

/-- Row `r` of the 256 × 64 flattening of a 4 × 64 × 64 table is row `r % 64` of map `r / 64`: both sit at row-major
    position `r · 64 + d`. -/
theorem flatten3_apply (W : Cube 4 64 64) (h : S4x64x64.ShapeCasts S256x64) (r : Fin 256) (d : Fin 64) :
    shapeCast S256x64 W h (ix2 r d)
      = W (ix3 (⟨r.val / 64, by omega⟩ : Fin 4) (⟨r.val % 64, by omega⟩ : Fin 64) d) := by
  refine shapeCast_apply W h _ _ ?_
  rw [Shape.rowMajor_val_three, Shape.rowMajor_val_two]
  show (r.val / 64 * 64 + r.val % 64) * 64 + d.val = r.val * 64 + d.val
  omega

/-- Entry `col` of the four bias rows laid end to end is entry `col % 64` of row `col / 64`. -/
theorem flatten2_apply (b : Mat 4 64) (h : S4x64.ShapeCasts S256) (col : Fin 256) :
    shapeCast S256 b h (ix1 col)
      = b (ix2 (⟨col.val / 64, by omega⟩ : Fin 4) (⟨col.val % 64, by omega⟩ : Fin 64)) := by
  refine shapeCast_apply b h _ _ ?_
  rw [Shape.rowMajor_val_two, Shape.rowMajor_val_one]
  show col.val / 64 * 64 + col.val % 64 = col.val
  omega

/-- A transposed table read at `(i, j)` is the table at `(j, i)`. -/
theorem swap_apply {a b : Nat} (x : (⟨2, ![a, b]⟩ : Shape).Idx → EReal)
    (h : (⟨2, ![a, b]⟩ : Shape).Transposes [1, 0] ⟨2, ![b, a]⟩) (i : Fin b) (j : Fin a) :
    transpose ⟨2, ![b, a]⟩ [1, 0] x h (ix2 i j) = x (ix2 j i) := by
  refine transpose_apply [1, 0] x h _ _ ?_
  exact Fin.forall_fin_two.2 ⟨rfl, rfl⟩

/-! ## The tables after the first host stretch -/

variable (m : (ℓ : Loc nD τ sig) → Buf (Elt Ideal) ℓ) (ρ : Dev nD → PrngReg)

/-- The four linear maps side by side: entry `(d, col)` is `W (col / 64, col % 64, d)`. -/
theorem W1_win (c : Dev nD) :
    W1 m ρ c (Proc.devRef .tc main_v1) = winOf (m ((c : Thread nD τ).loc main_arg1)) := by
  show StableHlo.after hostOps0 (W0 m ρ c) (Proc.devRef .tc main_v1) = _
  after_results
  funext i
  obtain ⟨d, col, rfl⟩ : ∃ d col, i = ix2 d col := ⟨_, _, eq_ix2 i⟩
  rw [swap_apply]
  exact flatten3_apply _ _ col d

/-- The four bias rows end to end: entry `col` is `b (col / 64, col % 64)`. -/
theorem W1_bcat (c : Dev nD) :
    W1 m ρ c (Proc.devRef .tc main_v2) = bcatOf (m ((c : Thread nD τ).loc main_arg2)) := by
  show StableHlo.after hostOps0 (W0 m ρ c) (Proc.devRef .tc main_v2) = _
  after_results
  funext i
  obtain ⟨col, rfl⟩ : ∃ col, i = ix1 col := ⟨_, eq_ix1 i⟩
  exact flatten2_apply _ _ col

/-- The input-side GRU weights, transposed. -/
theorem W1_wihT (c : Dev nD) :
    W1 m ρ c (Proc.devRef .tc main_v3) = transp (m ((c : Thread nD τ).loc main_arg3)) := by
  show StableHlo.after hostOps0 (W0 m ρ c) (Proc.devRef .tc main_v3) = _
  after_results
  funext i
  obtain ⟨k, g, rfl⟩ : ∃ k g, i = ix2 k g := ⟨_, _, eq_ix2 i⟩
  rw [swap_apply]
  rfl

/-- The state-side GRU weights, transposed. -/
theorem W1_whhT (c : Dev nD) :
    W1 m ρ c (Proc.devRef .tc main_v4) = transp (m ((c : Thread nD τ).loc main_arg4)) := by
  show StableHlo.after hostOps0 (W0 m ρ c) (Proc.devRef .tc main_v4) = _
  after_results
  funext i
  obtain ⟨k, g, rfl⟩ : ∃ k g, i = ix2 k g := ⟨_, _, eq_ix2 i⟩
  rw [swap_apply]
  rfl

/-- The flat gather index of every edge: its source word times four, plus its type word. -/
theorem W1_flat (c : Dev nD) :
    W1 m ρ c (Proc.devRef .tc main_v7)
      = addi (muli (m ((c : Thread nD τ).loc main_arg7)) (broadcastInDim S800000 ![] bcast_S_S800000 (constantI S_ 32 4#32)))
          (m ((c : Thread nD τ).loc main_arg9)) := by
  show StableHlo.after hostOps0 (W0 m ρ c) (Proc.devRef .tc main_v7) = _
  after_results

end Cert.KernelIdeal.KHost0

end
-- ==== Proof.KStep0.lean ====
/-
  The first step of the kernel's program, read off the run's boundary contents: what the GRU region leaves in its output
  array is one step of the specification applied to what the step's state buffer held when the step began.

  The per-node region leaves the state under the re-laid weight tables; the reshape, the row gather at source · 4 + type and
  the scatter-add turn that into the aggregate of the messages; the GRU region combines the aggregate with the state against
  the transposed GRU tables. The tables, biases and index words are what the first host stretch made of the arguments, carried
  unchanged to where each is read.
-/
import proofs.«410194_j38886633898060_1_alg».proof.Proof.Gen.KernelIdeal.Frame
import proofs.«410194_j38886633898060_1_alg».proof.Proof.Spec
import proofs.«410194_j38886633898060_1_alg».proof.Proof.SpecLemmas
import proofs.«410194_j38886633898060_1_alg».proof.Proof.HallRegion0
import proofs.«410194_j38886633898060_1_alg».proof.Proof.GruRegion1
import proofs.«410194_j38886633898060_1_alg».proof.Proof.TakeLemma
import proofs.«410194_j38886633898060_1_alg».proof.Proof.TakeStretch0
import proofs.«410194_j38886633898060_1_alg».proof.Proof.Carry
import proofs.«410194_j38886633898060_1_alg».proof.Proof.KHost0

set_option maxRecDepth 16384

noncomputable section

namespace Cert.KernelIdeal.KStep

open Cert.KernelIdeal Cert.KernelIdeal.Gen Cert.GatedGraph
open Cert.KernelIdeal.Carry Cert.KernelIdeal.KHost0
open Idealize.ShloMosaic Idealize.ShloMosaic.TcCoe Idealize.ShloMosaic.StableHlo

variable (m : (ℓ : Loc nD τ sig) → Buf (Elt Ideal) ℓ) (ρ : Dev nD → PrngReg)

/-- The first step. -/
theorem kstep0 (c : Dev nD) (hr : InRange (m ((c : Thread nD τ).loc main_arg7)) (m ((c : Thread nD τ).loc main_arg9))) :
    W6 m ρ c (Proc.devRef .tc main_v14)
      = step (aggK (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (srcN (m ((c : Thread nD τ).loc main_arg7))) (etN (m ((c : Thread nD τ).loc main_arg9)))
          (W1 m ρ c (Proc.devRef .tc main_arg0)) := by
  -- the tables, biases and words where they are read
  have h8 : W2 m ρ c (Proc.devRef .tc main_arg8) = (m ((c : Thread nD τ).loc main_arg8)) := (carry_main_arg8_2 m ρ c).trans (W1_arg8 m ρ c)
  have h7 : W2 m ρ c (Proc.devRef .tc main_v7) = flatOf (m ((c : Thread nD τ).loc main_arg7)) (m ((c : Thread nD τ).loc main_arg9)) := (carry_main_v7_2 m ρ c).trans (W1_flat m ρ c)
  have h1 : W1 m ρ c (Proc.devRef .tc main_v1) = winOf (m ((c : Thread nD τ).loc main_arg1)) := W1_win m ρ c
  have h2 : W1 m ρ c (Proc.devRef .tc main_v2) = bcatOf (m ((c : Thread nD τ).loc main_arg2)) := W1_bcat m ρ c
  have h3 : W5 m ρ c (Proc.devRef .tc main_v3) = transp (m ((c : Thread nD τ).loc main_arg3)) := (carry_main_v3_5 m ρ c).trans (W1_wihT m ρ c)
  have h4 : W5 m ρ c (Proc.devRef .tc main_v4) = transp (m ((c : Thread nD τ).loc main_arg4)) := (carry_main_v4_5 m ρ c).trans (W1_whhT m ρ c)
  have h5 : W5 m ρ c (Proc.devRef .tc main_arg5) = (m ((c : Thread nD τ).loc main_arg5)) := (carry_main_arg5_5 m ρ c).trans (W1_arg5 m ρ c)
  have h6 : W5 m ρ c (Proc.devRef .tc main_arg6) = (m ((c : Thread nD τ).loc main_arg6)) := (carry_main_arg6_5 m ρ c).trans (W1_arg6 m ρ c)
  have hh : W5 m ρ c (Proc.devRef .tc main_arg0) = W1 m ρ c (Proc.devRef .tc main_arg0) := carry_h0 m ρ c
  -- the per-node region's output array
  have hX : W2 m ρ c (Proc.devRef .tc main_v8)
      = hallT (W1 m ρ c (Proc.devRef .tc main_arg0)) (winOf (m ((c : Thread nD τ).loc main_arg1))) (bcatOf (m ((c : Thread nD τ).loc main_arg2))) := by
    refine (W2_arr m ρ c 3).trans ((Cert.KernelIdeal.HallRegion0.hall_arr0 (V1 m ρ) c).trans ?_)
    show hallT (W1 m ρ c (Proc.devRef .tc main_arg0)) (W1 m ρ c (Proc.devRef .tc main_v1)) (W1 m ρ c (Proc.devRef .tc main_v2)) = _
    rw [h1, h2]
  -- the aggregate of the messages
  have ha : W5 m ρ c (Proc.devRef .tc main_v13)
      = aggK (m ((c : Thread nD τ).loc main_arg8)) (msg (W1 m ρ c (Proc.devRef .tc main_arg0)) (m ((c : Thread nD τ).loc main_arg1)) (m ((c : Thread nD τ).loc main_arg2)) (srcN (m ((c : Thread nD τ).loc main_arg7))) (etN (m ((c : Thread nD τ).loc main_arg9)))) := by
    refine (Cert.GatedGraph.stretch0 (W2 m ρ c)).trans ?_
    rw [h8, h7, hX, takeK_eq hr]
    exact congrArg (aggK (m ((c : Thread nD τ).loc main_arg8))) (hallT_gather _ _ _ _ _)
  -- the GRU region's output array
  refine (W6_arr m ρ c 6).trans ((Cert.KernelIdeal.GruRegion1.gru_arr1 (V5 m ρ) c).trans ?_)
  show gruT (W5 m ρ c (Proc.devRef .tc main_v13)) (W5 m ρ c (Proc.devRef .tc main_arg0)) (W5 m ρ c (Proc.devRef .tc main_v3)) (W5 m ρ c (Proc.devRef .tc main_v4))
      (W5 m ρ c (Proc.devRef .tc main_arg5)) (W5 m ρ c (Proc.devRef .tc main_arg6)) = _
  rw [ha, hh, h3, h4, h5, h6, gruT_transp]
  rfl

end Cert.KernelIdeal.KStep

end
-- ==== Proof.HallRegion2.lean ====
/-
  One pass of "every node's state under all four linear maps at once", read off the region's ten grid points.

  The region's output array is a 50000 × 256 table. Grid point `t` (of ten) loads rows `5000 t … 5000 t + 4999` of the
  50000 × 64 node table `h`, the whole 64 × 256 weight table `win` and the whole bias row `bcat`, and stores, at `(p, q)` of
  its 5000 × 256 block,
      (∑ k, h (5000 t + p, k) · win (k, q)) + bcat q :
  the product of the (rounded, which on the extended reals is the identity) blocks accumulated from zero, plus the bias row
  repeated down the rows. The ten blocks tile the rows of the output, row `r` lying in block `r / 5000`, so after the region
  the output array is `hallT h win bcat` — for any contents `V` of the arrays at the region's entry.
-/
import proofs.«410194_j38886633898060_1_alg».proof.Proof.Gen.KernelIdeal.Frame
import proofs.«410194_j38886633898060_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HallRegion2

open Cert.KernelIdeal Cert.KernelIdeal.Gen Cert.GatedGraph
open Idealize.ShloMosaic Idealize.ShloMosaic.TcCoe Idealize.SL.Sem Idealize.ShloMosaic.ValueIdx
open Idealize.ShloMosaic.Pipeline (Dat)
open scoped BigOperators

/-! ## The contraction's two index maps, axis by axis

The product contracts the second axis of the 5000 × 64 operand with the first axis of the 64 × 256 operand: at the result's
index `(p, q)` and contraction position `k` the left operand is read at `(p, k)` and the right one at `(k, q)`. -/

theorem lhs_axis0 (i : S5000x256.Idx) (r : dot_S5000x64_S64x256_S5000x256_1_0_0_1_n_n.contr.Idx) :
    (dot_S5000x64_S64x256_S5000x256_1_0_0_1_n_n.lhsIdx i r 0).val = (i 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl

theorem lhs_axis1 (i : S5000x256.Idx) (r : dot_S5000x64_S64x256_S5000x256_1_0_0_1_n_n.contr.Idx) :
    (dot_S5000x64_S64x256_S5000x256_1_0_0_1_n_n.lhsIdx i r 1).val = (r ⟨0, by decide⟩).val :=
  dot_S5000x64_S64x256_S5000x256_1_0_0_1_n_n.lhsIdx_val_of_single rfl i r

theorem rhs_axis0 (i : S5000x256.Idx) (r : dot_S5000x64_S64x256_S5000x256_1_0_0_1_n_n.contr.Idx) :
    (dot_S5000x64_S64x256_S5000x256_1_0_0_1_n_n.rhsIdx i r 0).val = (r ⟨0, by decide⟩).val :=
  dot_S5000x64_S64x256_S5000x256_1_0_0_1_n_n.rhsIdx_val_of_single rfl i r

theorem rhs_axis1 (i : S5000x256.Idx) (r : dot_S5000x64_S64x256_S5000x256_1_0_0_1_n_n.contr.Idx) :
    (dot_S5000x64_S64x256_S5000x256_1_0_0_1_n_n.rhsIdx i r 1).val = (i 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The product into the zero accumulator, read at `(p, q)`: row `p` of the left operand against column `q` of the
    right one, summed over the 64 contracted positions. -/
theorem product_apply (a : FVec Ideal S5000x64 .bf16) (b : FVec Ideal S64x256 .bf16) (p : Fin 5000) (q : Fin 256) :
    matmul dot_S5000x64_S64x256_S5000x256_1_0_0_1_n_n none a b (constant (F := Ideal) S5000x256 .f32 0x00000000#32) (ix2 p q)
      = ∑ k : Fin 64, a (ix2 p k) * b (ix2 k q) := by
  refine (Ideal.matmul_constant_zero_apply dot_S5000x64_S64x256_S5000x256_1_0_0_1_n_n none a b (ix2 p q)).trans ?_
  rw [← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have el : dot_S5000x64_S64x256_S5000x256_1_0_0_1_n_n.lhsIdx (ix2 p q)
      ((contrEquiv1 dot_S5000x64_S64x256_S5000x256_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x256_S5000x256_1_0_0_1_n_n.rhsIdx (ix2 p q)
      ((contrEquiv1 dot_S5000x64_S64x256_S5000x256_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## The body's stored value at an index

The body rounds the node block and the weight table to bf16 (the identity on extended reals), multiplies them into a zero
accumulator, and adds the bias row broadcast over the 5000 rows. -/

/-- The stored value at `(p, q)`: row `p` of the node block against column `q` of the weight table, plus the bias at `q`. -/
theorem stored_apply (x0 : Vec Ideal S5000x64 .f32) (x1 : Vec Ideal S64x256 .f32) (x2 : Vec Ideal S256 .f32)
    (p : Fin 5000) (q : Fin 256) :
    (k2_pay1 (F := Ideal) x0 x1 x2) (ix2 p q) = (∑ k : Fin 64, x0 (ix2 p k) * x1 (ix2 k q)) + x2 (ix1 q) := by
  unfold k2_pay1
  simp only [shapeCast_self]
  refine (addf_apply _ _ (ix2 p q)).trans ?_
  refine congrArg₂ (· + ·) ?_ ?_
  · exact product_apply _ _ p q
  · refine (broadcastTo_1b_ab_apply _ _ p q).trans ?_
    exact shapeCast_a_1a_apply x2 _ 0 q

/-- One grid point's output block as rows of the whole result: if the loaded node block is rows `off …` of `h` and the other
    two loaded blocks are the weight table and the bias row, the stored value at `j` is `hallT h win bcat` at row
    `off + j 0`, column `j 1`. -/
theorem stored_block (h : Mat 50000 64) (win : Mat 64 256) (bcat : Row 256)
    (x0 : Vec Ideal S5000x64 .f32) (x1 : Vec Ideal S64x256 .f32) (x2 : Vec Ideal S256 .f32) (off : Nat)
    (hx0 : ∀ (y : S5000x64.Idx) (z : S50000x64.Idx), (z 0).val = off + (y 0).val → (z 1).val = (y 1).val → x0 y = h z)
    (hx1 : ∀ y : S64x256.Idx, x1 y = win y) (hx2 : ∀ y : S256.Idx, x2 y = bcat y)
    (j : S5000x256.Idx) (i : S50000x256.Idx) (hi0 : (i 0).val = off + (j 0).val) (hi1 : (i 1).val = (j 1).val) :
    (k2_pay1 (F := Ideal) x0 x1 x2) j = hallT h win bcat i := by
  obtain ⟨p, q, rfl⟩ : ∃ (p : Fin 5000) (q : Fin 256), j = ix2 p q := ⟨j 0, j 1, eq_ix2 j⟩
  obtain ⟨n, q', rfl⟩ : ∃ (n : Fin 50000) (q' : Fin 256), i = ix2 n q' := ⟨i 0, i 1, eq_ix2 i⟩
  have hq : q = q' := (Fin.ext hi1).symm
  subst hq
  refine (stored_apply x0 x1 x2 p q).trans ?_
  show _ = (∑ k : Fin 64, h (ix2 n k) * win (ix2 k q)) + bcat (ix1 q)
  refine congrArg₂ (· + ·) (Finset.sum_congr rfl fun k _ => ?_) (hx2 _)
  exact congrArg₂ (· * ·) (hx0 (ix2 p k) (ix2 n k) hi0 rfl) (hx1 _)

/-! ## From the blocks to the array

Grid point `t` loads rows `5000 t … 5000 t + 4999` of the node table, the whole weight table and the whole bias row, and
writes rows `5000 t … 5000 t + 4999` of the result; the ten points' blocks cover its 50000 rows. -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's one store covers the output block, and its loads read whole blocks: what it leaves is the stored value
    of the three loaded blocks. -/
theorem left_eq (x0 : Vec Ideal S5000x64 .f32) (x1 : Vec Ideal S64x256 .f32) (x2 : Vec Ideal S256 .f32) :
    out2_3 (F := Ideal) x0 x1 x2 = k2_pay1 (F := Ideal) x0 x1 x2 := by
  unfold out2_3
  rw [View.canon_unit_zero zeros2]
  simp only [View.ld_unit_zero (S := S5000x64) zeros2, View.ld_unit_zero (S := S64x256) zeros2,
    View.ld_unit_zero (S := S256) zeros1]

/-- The block index of each window at each of the ten points: the node window and the output window move down one block
    per point, the weight table and the bias row stay. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 1) = 0
    ∧ win2_3.index t (0 : Fin 2) = t.val ∧ win2_3.index t (1 : Fin 2) = 0 :=
  (by decide +kernel : ∀ t : Fin grid2.N, _)

/-- The node window's block at point `t` is rows `5000 t …` of the node table. -/
theorem node_block_apply (c : Dev nD) (t : Fin cfg2.N) (y : S5000x64.Idx) (z : S50000x64.Idx)
    (h0 : (z 0).val = t.val * 5000 + (y 0).val) (h1 : (z 1).val = (y 1).val) :
    (iblk2 V c 0 t : Vec Ideal S5000x64 .f32) y = (V c main_v14 : S50000x64.Idx → EReal) z := by
  obtain ⟨e0, e1, -⟩ := block_indices t
  unfold iblk2
  rw [View.read_apply]
  show V c main_v14 _ = V c main_v14 _
  refine congrArg _ (funext fun a => Fin.ext ?_)
  match a with
  | ⟨0, _⟩ => show win2_0.index t (0 : Fin 2) * 5000 + 1 * (y 0).val = (z 0).val; rw [e0, h0]; omega
  | ⟨1, _⟩ => show win2_0.index t (1 : Fin 2) * 64 + 1 * (y 1).val = (z 1).val; rw [e1, h1]; omega

/-- The weight window's block is the whole weight table at every point. -/
theorem weight_block_apply (c : Dev nD) (t : Fin cfg2.N) (y : S64x256.Idx) :
    (iblk2 V c 1 t : Vec Ideal S64x256 .f32) y = (V c main_v1 : S64x256.Idx → EReal) y := by
  obtain ⟨-, -, e0, e1, -⟩ := block_indices t
  unfold iblk2
  rw [View.read_apply]
  show V c main_v1 _ = V c main_v1 _
  refine congrArg _ (funext fun a => Fin.ext ?_)
  match a with
  | ⟨0, _⟩ => show win2_1.index t (0 : Fin 2) * 64 + 1 * (y 0).val = (y 0).val; rw [e0]; omega
  | ⟨1, _⟩ => show win2_1.index t (1 : Fin 2) * 256 + 1 * (y 1).val = (y 1).val; rw [e1]; omega

/-- The bias window's block is the whole bias row at every point. -/
theorem bias_block_apply (c : Dev nD) (t : Fin cfg2.N) (y : S256.Idx) :
    (iblk2 V c 2 t : Vec Ideal S256 .f32) y = (V c main_v2 : S256.Idx → EReal) y := by
  obtain ⟨-, -, -, -, e0, -⟩ := block_indices t
  unfold iblk2
  rw [View.read_apply]
  show V c main_v2 _ = V c main_v2 _
  refine congrArg _ (funext fun a => Fin.ext ?_)
  match a with
  | ⟨0, _⟩ => show win2_2.index t (0 : Fin 1) * 256 + 1 * (y 0).val = (y 0).val; rw [e0]; omega

/-- What point `t` writes back is block `t` of the whole result `hallT` of the three arrays as the region finds them. -/
theorem written_eq (c : Dev nD) (t : Fin cfg2.N) :
    (dat2 V c).flushed 3 t
      = ((cfg2.win 3).blk t).view.read (Elt Ideal) (hallT (V c main_v14) (V c main_v1) (V c main_v2)) := by
  show (cfg2.win 3).cut (grid2.coords t) ((dat2 V c).after 3 t) = _
  rw [after2_3, left_eq]
  obtain ⟨-, -, -, -, -, e0, e1⟩ := block_indices t
  funext j
  show (k2_pay1 (F := Ideal) (iblk2 V c 0 t) (iblk2 V c 1 t) (iblk2 V c 2 t)) j
    = hallT (V c main_v14) (V c main_v1) (V c main_v2) (((cfg2.win 3).blk t).view.emb j)
  exact stored_block (V c main_v14) (V c main_v1) (V c main_v2) (iblk2 V c 0 t) (iblk2 V c 1 t) (iblk2 V c 2 t)
    (t.val * 5000) (fun y z h0 h1 => node_block_apply V c t y z h0 h1) (fun y => weight_block_apply V c t y)
    (fun y => bias_block_apply V c t y) j (((cfg2.win 3).blk t).view.emb j)
    (by show win2_3.index t (0 : Fin 2) * 5000 + 1 * (j 0).val = t.val * 5000 + (j 0).val; rw [e0]; omega)
    (by show win2_3.index t (1 : Fin 2) * 256 + 1 * (j 1).val = (j 1).val; rw [e1]; omega)

/-- An index of the result array is in point `t`'s block iff each coordinate is in the block's range on its axis. -/
theorem mem_block (t : Fin cfg2.N) (i : S50000x256.Idx) :
    i ∈ ((cfg2.win 3).blk t).view.set
      ↔ ∀ a : Fin 2, win2_3.index t a * S5000x256.size a ≤ (i a).val
          ∧ (i a).val < win2_3.index t a * S5000x256.size a + S5000x256.size a := by
  show i ∈ ((View.whole main_v15).slice (win2_3.rect t)).set ↔ _
  rw [View.set_slice_whole, Rect.mem_set_unit]
  exact Iff.rfl

/-- Row `r` of the result lies in the block of point `r / 5000`. -/
theorem covered (i : S50000x256.Idx) :
    ∃ t : Fin cfg2.N, (cfg2.win 3).flush t = true ∧ i ∈ ((cfg2.win 3).blk t).view.set := by
  have hN : cfg2.N = 10 := N_2
  have hi0 : (i 0).val < 50000 := (i 0).isLt
  have hi1 : (i 1).val < 256 := (i 1).isLt
  refine ⟨⟨(i 0).val / 5000, by rw [hN]; omega⟩, flush2_3 _, ?_⟩
  obtain ⟨-, -, -, -, -, e0, e1⟩ := block_indices ⟨(i 0).val / 5000, by rw [hN]; omega⟩
  rw [mem_block]
  intro a
  match a with
  | ⟨0, _⟩ =>
    show win2_3.index _ (0 : Fin 2) * 5000 ≤ (i 0).val ∧ (i 0).val < win2_3.index _ (0 : Fin 2) * 5000 + 5000
    rw [e0]; show (i 0).val / 5000 * 5000 ≤ (i 0).val ∧ (i 0).val < (i 0).val / 5000 * 5000 + 5000; omega
  | ⟨1, _⟩ =>
    show win2_3.index _ (1 : Fin 2) * 256 ≤ (i 1).val ∧ (i 1).val < win2_3.index _ (1 : Fin 2) * 256 + 256
    rw [e1]; omega

/-- After the region's ten points the output array holds every node's state under all four maps at once. -/
theorem hall_arr2 (V : (c : Dev nD) → (b : Ref sig .tc) → Buf (Elt Ideal) ((c : Thread nD τ).loc b)) (c : Dev nD) :
    (dat2 (F := Ideal) V c).arrAt 3 cfg2.N = hallT (V c main_v14) (V c main_v1) (V c main_v2) :=
  (dat2 V c).arrAt_eq_of_cover 3 (hallT (V c main_v14) (V c main_v1) (V c main_v2)) (fun t _ => written_eq V c t) covered

end Cert.KernelIdeal.HallRegion2

end
-- ==== Proof.GruRegion3.lean ====
/-
  The table a GRU region leaves, read off its ten grid points.

  The region runs the cell on ten blocks of 5000 rows: at grid point `t` it stages rows `5000 t … 5000 t + 4999` of the
  aggregate table `main_v20` and of the state table `main_v14`, the two transposed weight tables `main_v3`, `main_v4` and
  the two bias rows `main_arg5`, `main_arg6` whole, stores the cell of those blocks into the output's staging block, and
  writes that block back to rows `5000 t … 5000 t + 4999` of `main_v21`. Entry `(p, q)` of the cell of a block depends on row
  `p` of the two row blocks only, which is row `5000 t + p` of the tables; so each point writes its rows of ONE table
  function, the specification's `gruT` of the six arrays as the region finds them, and the ten blocks cover the table
  (row `r` lies in the block of point `r / 5000`): the output array ends holding that function.
-/
import proofs.«410194_j38886633898060_1_alg».proof.Proof.Gen.KernelIdeal.Frame
import proofs.«410194_j38886633898060_1_alg».proof.Proof.Spec
import proofs.«410194_j38886633898060_1_alg».proof.Proof.GruCell
import Idealize.ShloMosaic.Lib.ValueIdx
import Idealize.ShloMosaic.Lib.Pipeline.Value

noncomputable section

namespace Cert.KernelIdeal.GruRegion3

open Cert.KernelIdeal Cert.KernelIdeal.Gen Cert.GatedGraph Cert.KernelIdeal.GruCell
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's payload is the cell of its six loaded blocks (the casts to a vector's own shape dropped). -/
theorem pay_eq (a h : Vec Ideal S5000x64 .f32) (wih whh : Vec Ideal S64x192 .f32) (bih bhh : Vec Ideal S192 .f32) :
    k3_pay1 (F := Ideal) a h wih whh bih bhh = cell a h wih whh bih bhh := by
  unfold k3_pay1 cell cellOf pre
  simp only [shapeCast_self]

/-- The index maps over the ten grid points: the two row-blocked inputs and the output sit at row block `t`, column block 0;
    the four tables at block 0 on every axis. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 1) = 0
    ∧ win3_5.index t (0 : Fin 1) = 0
    ∧ win3_6.index t (0 : Fin 2) = t.val ∧ win3_6.index t (1 : Fin 2) = 0 :=
  (by decide +kernel : ∀ t : Fin grid3.N, _)

/-- Entry `(p, k)` of the aggregate's block at point `t` is entry `(5000 t + p, k)` of the aggregate table. -/
theorem ablk_ix (c : Dev nD) (t : Fin cfg3.N) (p : Fin 5000) (k : Fin 64) (n : Fin 50000) (hn : n.val = t.val * 5000 + p.val) :
    (iblk3 V c 0 t : Vec Ideal S5000x64 .f32) (ix2 p k) = (V c main_v20 : Mat 50000 64) (ix2 n k) := by
  obtain ⟨e0, e1, -⟩ := idx_facts t
  unfold iblk3
  rw [View.read_apply]
  show V c main_v20 _ = V c main_v20 _
  congr 1
  funext a; apply Fin.ext
  match a with
  | ⟨0, _⟩ => show win3_0.index t (0 : Fin 2) * 5000 + 1 * p.val = n.val; rw [e0, hn]; omega
  | ⟨1, _⟩ => show win3_0.index t (1 : Fin 2) * 64 + 1 * k.val = k.val; rw [e1]; omega

/-- Entry `(p, k)` of the state's block at point `t` is entry `(5000 t + p, k)` of the state table. -/
theorem hblk_ix (c : Dev nD) (t : Fin cfg3.N) (p : Fin 5000) (k : Fin 64) (n : Fin 50000) (hn : n.val = t.val * 5000 + p.val) :
    (iblk3 V c 1 t : Vec Ideal S5000x64 .f32) (ix2 p k) = (V c main_v14 : Mat 50000 64) (ix2 n k) := by
  obtain ⟨-, -, e0, e1, -⟩ := idx_facts t
  unfold iblk3
  rw [View.read_apply]
  show V c main_v14 _ = V c main_v14 _
  congr 1
  funext a; apply Fin.ext
  match a with
  | ⟨0, _⟩ => show win3_1.index t (0 : Fin 2) * 5000 + 1 * p.val = n.val; rw [e0, hn]; omega
  | ⟨1, _⟩ => show win3_1.index t (1 : Fin 2) * 64 + 1 * k.val = k.val; rw [e1]; omega

/-- The two weight tables and the two bias rows are staged whole at every point. -/
theorem wih_whole (c : Dev nD) (t : Fin cfg3.N) : (iblk3 V c 2 t : Vec Ideal S64x192 .f32) = V c main_v3 := by
  obtain ⟨-, -, -, -, e0, e1, -⟩ := idx_facts t
  funext j
  unfold iblk3
  rw [View.read_apply]
  show V c main_v3 _ = V c main_v3 j
  congr 1
  funext a; apply Fin.ext
  match a with
  | ⟨0, _⟩ => show win3_2.index t (0 : Fin 2) * 64 + 1 * (j 0).val = (j 0).val; rw [e0]; omega
  | ⟨1, _⟩ => show win3_2.index t (1 : Fin 2) * 192 + 1 * (j 1).val = (j 1).val; rw [e1]; omega
theorem whh_whole (c : Dev nD) (t : Fin cfg3.N) : (iblk3 V c 3 t : Vec Ideal S64x192 .f32) = V c main_v4 := by
  obtain ⟨-, -, -, -, -, -, e0, e1, -⟩ := idx_facts t
  funext j
  unfold iblk3
  rw [View.read_apply]
  show V c main_v4 _ = V c main_v4 j
  congr 1
  funext a; apply Fin.ext
  match a with
  | ⟨0, _⟩ => show win3_3.index t (0 : Fin 2) * 64 + 1 * (j 0).val = (j 0).val; rw [e0]; omega
  | ⟨1, _⟩ => show win3_3.index t (1 : Fin 2) * 192 + 1 * (j 1).val = (j 1).val; rw [e1]; omega
theorem bih_whole (c : Dev nD) (t : Fin cfg3.N) : (iblk3 V c 4 t : Vec Ideal S192 .f32) = V c main_arg5 := by
  obtain ⟨-, -, -, -, -, -, -, -, e0, -⟩ := idx_facts t
  funext j
  unfold iblk3
  rw [View.read_apply]
  show V c main_arg5 _ = V c main_arg5 j
  congr 1
  funext a; apply Fin.ext
  match a with
  | ⟨0, _⟩ => show win3_4.index t (0 : Fin 1) * 192 + 1 * (j 0).val = (j 0).val; rw [e0]; omega
theorem bhh_whole (c : Dev nD) (t : Fin cfg3.N) : (iblk3 V c 5 t : Vec Ideal S192 .f32) = V c main_arg6 := by
  obtain ⟨-, -, -, -, -, -, -, -, -, e0, -⟩ := idx_facts t
  funext j
  unfold iblk3
  rw [View.read_apply]
  show V c main_arg6 _ = V c main_arg6 j
  congr 1
  funext a; apply Fin.ext
  match a with
  | ⟨0, _⟩ => show win3_5.index t (0 : Fin 1) * 192 + 1 * (j 0).val = (j 0).val; rw [e0]; omega

/-- The table function the region leaves: the cell of the specification over the six arrays as the region finds them. -/
abbrev G (c : Dev nD) : Mat 50000 64 :=
  gruT (V c main_v20) (V c main_v14) (V c main_v3) (V c main_v4) (V c main_arg5) (V c main_arg6)

/-- WHAT POINT `t` WRITES BACK is rows `5000 t … 5000 t + 4999` of `G`. -/
theorem flushed_eq (c : Dev nD) (t : Fin cfg3.N) :
    (dat3 (F := Ideal) V c).flushed 6 t = ((cfg3.win 6).blk t).view.read (Elt Ideal) (G V c) := by
  have ht : t.val < 10 := lt_of_lt_of_eq t.isLt N_3
  obtain ⟨-, -, -, -, -, -, -, -, -, -, e0, e1⟩ := idx_facts t
  show (cfg3.win 6).cut (grid3.coords t) ((dat3 V c).after 6 t) = _
  rw [after3_6]
  unfold out3_6
  rw [View.canon_unit_zero hz2]
  simp only [View.ld_unit_zero (S := S5000x64) hz2, View.ld_unit_zero (S := S64x192) hz2, View.ld_unit_zero (S := S192) hz1]
  rw [pay_eq, wih_whole, whh_whole, bih_whole, bhh_whole]
  funext y
  obtain ⟨p, q, rfl⟩ : ∃ (p : Fin 5000) (q : Fin 64), y = ix2 p q := ⟨y 0, y 1, eq_ix2 y⟩
  have hp : p.val < 5000 := p.isLt
  rw [View.read_apply]
  show cell (iblk3 V c 0 t) (iblk3 V c 1 t) (V c main_v3) (V c main_v4) (V c main_arg5) (V c main_arg6) (ix2 p q) = G V c _
  refine (cell_ix (V c main_v20) (V c main_v14) (iblk3 V c 0 t) (iblk3 V c 1 t) (V c main_v3) (V c main_v4) (V c main_arg5)
    (V c main_arg6) ⟨t.val * 5000 + p.val, by omega⟩ p q (fun k => ablk_ix V c t p k _ rfl) (fun k => hblk_ix V c t p k _ rfl)).trans ?_
  show G V c _ = G V c _
  congr 1
  funext a; apply Fin.ext
  match a with
  | ⟨0, _⟩ => show t.val * 5000 + p.val = win3_6.index t (0 : Fin 2) * 5000 + 1 * p.val; rw [e0]; omega
  | ⟨1, _⟩ => show q.val = win3_6.index t (1 : Fin 2) * 64 + 1 * q.val; rw [e1]; omega

/-- An index of the table is in point `t`'s block iff each coordinate is in the block's range on its axis. -/
theorem mem_blk (t : Fin cfg3.N) (i : S50000x64.Idx) :
    i ∈ ((cfg3.win 6).blk t).view.set ↔ ∀ a : Fin 2, win3_6.index t a * S5000x64.size a ≤ (i a).val ∧ (i a).val < win3_6.index t a * S5000x64.size a + S5000x64.size a := by
  show i ∈ ((View.whole main_v21).slice (win3_6.rect t)).set ↔ _
  rw [View.set_slice_whole, Rect.mem_set_unit]
  exact Iff.rfl

/-- Every row of the table is in the block of the point `row / 5000`. -/
theorem cover (i : S50000x64.Idx) : ∃ t : Fin cfg3.N, (cfg3.win 6).flush t = true ∧ i ∈ ((cfg3.win 6).blk t).view.set := by
  have h0 : (i 0).val < 50000 := (i 0).isLt
  have h1 : (i 1).val < 64 := (i 1).isLt
  have hN : cfg3.N = 10 := N_3
  let t : Fin cfg3.N := ⟨(i 0).val / 5000, by rw [hN]; omega⟩
  obtain ⟨-, -, -, -, -, -, -, -, -, -, e0, e1⟩ := idx_facts t
  refine ⟨t, flush3_6 t, ?_⟩
  rw [mem_blk]
  intro a
  match a with
  | ⟨0, _⟩ =>
    show win3_6.index t (0 : Fin 2) * 5000 ≤ (i 0).val ∧ (i 0).val < win3_6.index t (0 : Fin 2) * 5000 + 5000
    rw [e0]; show (i 0).val / 5000 * 5000 ≤ (i 0).val ∧ (i 0).val < (i 0).val / 5000 * 5000 + 5000; omega
  | ⟨1, _⟩ =>
    show win3_6.index t (1 : Fin 2) * 64 ≤ (i 1).val ∧ (i 1).val < win3_6.index t (1 : Fin 2) * 64 + 64
    rw [e1]; omega

/-- THE ARRAY the region leaves in its output window: the cell of the specification over the six arrays it reads, as the
    region finds them. -/
theorem gru_arr3 (c : Dev nD) :
    (dat3 (F := Ideal) V c).arrAt 6 cfg3.N
      = gruT (V c main_v20) (V c main_v14) (V c main_v3) (V c main_v4) (V c main_arg5) (V c main_arg6) :=
  (dat3 (F := Ideal) V c).arrAt_eq_of_cover 6 (G V c) (fun t _ => flushed_eq V c t) cover
end Cert.KernelIdeal.GruRegion3
end
-- ==== Proof.TakeStretch1.lean ====
/-
  Step 1, between the region that applies all four linear maps and the GRU region: the program's three host
  stretches as one equation.

  The first stretch re-lays the region's 50000 × 256 result (buffer main_v15) as 200000 rows of 64 (main_v16). The second
  is the row take (23 operations): from the re-laid table and the flat index words (main_v7) it makes the 800000 × 64
  table of taken rows (main_v17). The third makes a zero table, the destination words (main_arg8) as a column, and sums
  the taken rows per destination node (main_v20). Read off in order, from ANY contents of the buffers before the first
  stretch, the last buffer holds  aggK dst (takeK X flat)  with X, flat and dst the contents of main_v15, main_v7 and
  main_arg8 before the first stretch: no operation of the three stretches writes main_v7 or main_arg8, and main_v15 is
  read once, by the re-laying.

  Each stretch is read over a variable valuation and the three are then composed; the take's operations are stated
  over typed references, whose transports of contents cancel (TakeLemma's `ofBuf_toBuf`) or are the identity at the
  two buffers the take reads and the one it returns.
-/
import proofs.«410194_j38886633898060_1_alg».proof.Proof.Gen.KernelIdeal.Launch
import proofs.«410194_j38886633898060_1_alg».proof.Proof.TakeLemma

-- two of the program's 249 references are told apart by evaluation, which recurses past the default depth
set_option maxRecDepth 4096

noncomputable section

namespace Cert.GatedGraph

open Idealize.ShloMosaic Idealize.ShloMosaic.ValueIdx
open Cert.KernelIdeal Cert.KernelIdeal.Gen

/-! ## The transports at the take's two operands and its result are the identity -/

theorem s1_flat_ofBuf (h1 : main_v7.ty = ⟨S800000, .i32⟩) (h2 h3) (v : main_v7.ty.Contents (Elt Ideal)) :
    (StableHlo.TRef.of main_v7 h1 h2 h3).ofBuf v = v := rfl

theorem s1_rows_ofBuf (h1 : main_v16.ty = ⟨S200000x64, .f32⟩) (h2 h3) (v : main_v16.ty.Contents (Elt Ideal)) :
    (StableHlo.TRef.of main_v16 h1 h2 h3).ofBuf v = v := rfl

theorem s1_take_toBuf (h1 : main_v17.ty = ⟨S800000x64, .f32⟩) (h2 h3)
    (v : (⟨S800000x64, .f32⟩ : BufTy).Contents (Elt Ideal)) :
    (StableHlo.TRef.of main_v17 h1 h2 h3).toBuf v = v := rfl

/-! ## Each stretch, from any contents -/

section
variable (V : Valuation τ sig (Elt Ideal))

/-- The re-laying: main_v16 holds main_v15's contents as 200000 rows of 64 … -/
theorem s1_relaid : StableHlo.after (hostOps3 (F := Ideal)) V (Proc.devRef .tc main_v16)
    = shapeCast S200000x64 (V (Proc.devRef .tc main_v15)) shapeCasts_S50000x256_S200000x64 := by
  simp only [hostOps3]; after_results; rfl

/-- … and leaves the flat index words … -/
theorem s1_relaid_flat : StableHlo.after (hostOps3 (F := Ideal)) V (Proc.devRef .tc main_v7) = V (Proc.devRef .tc main_v7) := by
  simp only [hostOps3]; after_results

/-- … and the destination words as they were. -/
theorem s1_relaid_dst : StableHlo.after (hostOps3 (F := Ideal)) V (Proc.devRef .tc main_arg8) = V (Proc.devRef .tc main_arg8) := by
  simp only [hostOps3]; after_results

/-- The take: main_v17 holds the rows of main_v16's table at main_v7's words … -/
theorem s1_taken : StableHlo.after (hostOps3_1 (F := Ideal)) V (Proc.devRef .tc main_v17)
    = takeRows (V (Proc.devRef .tc main_v16)) (V (Proc.devRef .tc main_v7)) := by
  simp only [hostOps3_1]
  after_results_simp
  simp only [ofBuf_toBuf]
  simp only [s1_take_toBuf, s1_rows_ofBuf, s1_flat_ofBuf]
  rfl

/-- … and leaves the destination words as they were. -/
theorem s1_taken_dst : StableHlo.after (hostOps3_1 (F := Ideal)) V (Proc.devRef .tc main_arg8) = V (Proc.devRef .tc main_arg8) := by
  simp only [hostOps3_1]; after_results_simp

/-- The sum per destination: main_v20 holds the scatter-add of main_v17's rows at main_arg8's words onto zero. -/
theorem s1_summed : StableHlo.after (hostOps3_2 (F := Ideal)) V (Proc.devRef .tc main_v20)
    = aggK (V (Proc.devRef .tc main_arg8)) (V (Proc.devRef .tc main_v17)) := by
  simp only [hostOps3_2]; after_results; rfl

end

/-! ## The three in order -/

theorem stretch1 (Wv : Valuation τ sig (Elt Ideal)) :
    StableHlo.after (hostOps3_2 (F := Ideal)) (StableHlo.after (hostOps3_1 (F := Ideal)) (StableHlo.after (hostOps3 (F := Ideal)) Wv))
        (Proc.devRef .tc main_v20)
      = aggK (Wv (Proc.devRef .tc main_arg8)) (takeK (Wv (Proc.devRef .tc main_v15)) (Wv (Proc.devRef .tc main_v7))) := by
  rw [s1_summed, s1_taken, s1_taken_dst, s1_relaid, s1_relaid_flat, s1_relaid_dst]
  rfl

end Cert.GatedGraph

end
-- ==== Proof.KStep1.lean ====
/-
  The second step of the kernel's program, read off the run's boundary contents: what the GRU region leaves in its output
  array is one step of the specification applied to what the step's state buffer held when the step began.

  The per-node region leaves the state under the re-laid weight tables; the reshape, the row gather at source · 4 + type and
  the scatter-add turn that into the aggregate of the messages; the GRU region combines the aggregate with the state against
  the transposed GRU tables. The tables, biases and index words are what the first host stretch made of the arguments, carried
  unchanged to where each is read.
-/
import proofs.«410194_j38886633898060_1_alg».proof.Proof.Gen.KernelIdeal.Frame
import proofs.«410194_j38886633898060_1_alg».proof.Proof.Spec
import proofs.«410194_j38886633898060_1_alg».proof.Proof.SpecLemmas
import proofs.«410194_j38886633898060_1_alg».proof.Proof.HallRegion2
import proofs.«410194_j38886633898060_1_alg».proof.Proof.GruRegion3
import proofs.«410194_j38886633898060_1_alg».proof.Proof.TakeLemma
import proofs.«410194_j38886633898060_1_alg».proof.Proof.TakeStretch1
import proofs.«410194_j38886633898060_1_alg».proof.Proof.Carry
import proofs.«410194_j38886633898060_1_alg».proof.Proof.KHost0

set_option maxRecDepth 16384

noncomputable section

namespace Cert.KernelIdeal.KStep

open Cert.KernelIdeal Cert.KernelIdeal.Gen Cert.GatedGraph
open Cert.KernelIdeal.Carry Cert.KernelIdeal.KHost0
open Idealize.ShloMosaic Idealize.ShloMosaic.TcCoe Idealize.ShloMosaic.StableHlo

variable (m : (ℓ : Loc nD τ sig) → Buf (Elt Ideal) ℓ) (ρ : Dev nD → PrngReg)

/-- The second step. -/
theorem kstep1 (c : Dev nD) (hr : InRange (m ((c : Thread nD τ).loc main_arg7)) (m ((c : Thread nD τ).loc main_arg9))) :
    W11 m ρ c (Proc.devRef .tc main_v21)
      = step (aggK (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (srcN (m ((c : Thread nD τ).loc main_arg7))) (etN (m ((c : Thread nD τ).loc main_arg9)))
          (W6 m ρ c (Proc.devRef .tc main_v14)) := by
  -- the tables, biases and words where they are read
  have h8 : W7 m ρ c (Proc.devRef .tc main_arg8) = (m ((c : Thread nD τ).loc main_arg8)) := (carry_main_arg8_7 m ρ c).trans (W1_arg8 m ρ c)
  have h7 : W7 m ρ c (Proc.devRef .tc main_v7) = flatOf (m ((c : Thread nD τ).loc main_arg7)) (m ((c : Thread nD τ).loc main_arg9)) := (carry_main_v7_7 m ρ c).trans (W1_flat m ρ c)
  have h1 : W6 m ρ c (Proc.devRef .tc main_v1) = winOf (m ((c : Thread nD τ).loc main_arg1)) := (carry_main_v1_6 m ρ c).trans (W1_win m ρ c)
  have h2 : W6 m ρ c (Proc.devRef .tc main_v2) = bcatOf (m ((c : Thread nD τ).loc main_arg2)) := (carry_main_v2_6 m ρ c).trans (W1_bcat m ρ c)
  have h3 : W10 m ρ c (Proc.devRef .tc main_v3) = transp (m ((c : Thread nD τ).loc main_arg3)) := (carry_main_v3_10 m ρ c).trans (W1_wihT m ρ c)
  have h4 : W10 m ρ c (Proc.devRef .tc main_v4) = transp (m ((c : Thread nD τ).loc main_arg4)) := (carry_main_v4_10 m ρ c).trans (W1_whhT m ρ c)
  have h5 : W10 m ρ c (Proc.devRef .tc main_arg5) = (m ((c : Thread nD τ).loc main_arg5)) := (carry_main_arg5_10 m ρ c).trans (W1_arg5 m ρ c)
  have h6 : W10 m ρ c (Proc.devRef .tc main_arg6) = (m ((c : Thread nD τ).loc main_arg6)) := (carry_main_arg6_10 m ρ c).trans (W1_arg6 m ρ c)
  have hh : W10 m ρ c (Proc.devRef .tc main_v14) = W6 m ρ c (Proc.devRef .tc main_v14) := carry_h1 m ρ c
  -- the per-node region's output array
  have hX : W7 m ρ c (Proc.devRef .tc main_v15)
      = hallT (W6 m ρ c (Proc.devRef .tc main_v14)) (winOf (m ((c : Thread nD τ).loc main_arg1))) (bcatOf (m ((c : Thread nD τ).loc main_arg2))) := by
    refine (W7_arr m ρ c 3).trans ((Cert.KernelIdeal.HallRegion2.hall_arr2 (V6 m ρ) c).trans ?_)
    show hallT (W6 m ρ c (Proc.devRef .tc main_v14)) (W6 m ρ c (Proc.devRef .tc main_v1)) (W6 m ρ c (Proc.devRef .tc main_v2)) = _
    rw [h1, h2]
  -- the aggregate of the messages
  have ha : W10 m ρ c (Proc.devRef .tc main_v20)
      = aggK (m ((c : Thread nD τ).loc main_arg8)) (msg (W6 m ρ c (Proc.devRef .tc main_v14)) (m ((c : Thread nD τ).loc main_arg1)) (m ((c : Thread nD τ).loc main_arg2)) (srcN (m ((c : Thread nD τ).loc main_arg7))) (etN (m ((c : Thread nD τ).loc main_arg9)))) := by
    refine (Cert.GatedGraph.stretch1 (W7 m ρ c)).trans ?_
    rw [h8, h7, hX, takeK_eq hr]
    exact congrArg (aggK (m ((c : Thread nD τ).loc main_arg8))) (hallT_gather _ _ _ _ _)
  -- the GRU region's output array
  refine (W11_arr m ρ c 6).trans ((Cert.KernelIdeal.GruRegion3.gru_arr3 (V10 m ρ) c).trans ?_)
  show gruT (W10 m ρ c (Proc.devRef .tc main_v20)) (W10 m ρ c (Proc.devRef .tc main_v14)) (W10 m ρ c (Proc.devRef .tc main_v3)) (W10 m ρ c (Proc.devRef .tc main_v4))
      (W10 m ρ c (Proc.devRef .tc main_arg5)) (W10 m ρ c (Proc.devRef .tc main_arg6)) = _
  rw [ha, hh, h3, h4, h5, h6, gruT_transp]
  rfl

end Cert.KernelIdeal.KStep

end
-- ==== Proof.HallRegion4.lean ====
/-
  One pass of "every node's state under all four linear maps at once", read off the region's ten grid points.

  The region's output array is a 50000 × 256 table. Grid point `t` (of ten) loads rows `5000 t … 5000 t + 4999` of the
  50000 × 64 node table `h`, the whole 64 × 256 weight table `win` and the whole bias row `bcat`, and stores, at `(p, q)` of
  its 5000 × 256 block,
      (∑ k, h (5000 t + p, k) · win (k, q)) + bcat q :
  the product of the (rounded, which on the extended reals is the identity) blocks accumulated from zero, plus the bias row
  repeated down the rows. The ten blocks tile the rows of the output, row `r` lying in block `r / 5000`, so after the region
  the output array is `hallT h win bcat` — for any contents `V` of the arrays at the region's entry.
-/
import proofs.«410194_j38886633898060_1_alg».proof.Proof.Gen.KernelIdeal.Frame
import proofs.«410194_j38886633898060_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HallRegion4

open Cert.KernelIdeal Cert.KernelIdeal.Gen Cert.GatedGraph
open Idealize.ShloMosaic Idealize.ShloMosaic.TcCoe Idealize.SL.Sem Idealize.ShloMosaic.ValueIdx
open Idealize.ShloMosaic.Pipeline (Dat)
open scoped BigOperators

/-! ## The contraction's two index maps, axis by axis

The product contracts the second axis of the 5000 × 64 operand with the first axis of the 64 × 256 operand: at the result's
index `(p, q)` and contraction position `k` the left operand is read at `(p, k)` and the right one at `(k, q)`. -/

theorem lhs_axis0 (i : S5000x256.Idx) (r : dot_S5000x64_S64x256_S5000x256_1_0_0_1_n_n.contr.Idx) :
    (dot_S5000x64_S64x256_S5000x256_1_0_0_1_n_n.lhsIdx i r 0).val = (i 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl

theorem lhs_axis1 (i : S5000x256.Idx) (r : dot_S5000x64_S64x256_S5000x256_1_0_0_1_n_n.contr.Idx) :
    (dot_S5000x64_S64x256_S5000x256_1_0_0_1_n_n.lhsIdx i r 1).val = (r ⟨0, by decide⟩).val :=
  dot_S5000x64_S64x256_S5000x256_1_0_0_1_n_n.lhsIdx_val_of_single rfl i r

theorem rhs_axis0 (i : S5000x256.Idx) (r : dot_S5000x64_S64x256_S5000x256_1_0_0_1_n_n.contr.Idx) :
    (dot_S5000x64_S64x256_S5000x256_1_0_0_1_n_n.rhsIdx i r 0).val = (r ⟨0, by decide⟩).val :=
  dot_S5000x64_S64x256_S5000x256_1_0_0_1_n_n.rhsIdx_val_of_single rfl i r

theorem rhs_axis1 (i : S5000x256.Idx) (r : dot_S5000x64_S64x256_S5000x256_1_0_0_1_n_n.contr.Idx) :
    (dot_S5000x64_S64x256_S5000x256_1_0_0_1_n_n.rhsIdx i r 1).val = (i 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The product into the zero accumulator, read at `(p, q)`: row `p` of the left operand against column `q` of the
    right one, summed over the 64 contracted positions. -/
theorem product_apply (a : FVec Ideal S5000x64 .bf16) (b : FVec Ideal S64x256 .bf16) (p : Fin 5000) (q : Fin 256) :
    matmul dot_S5000x64_S64x256_S5000x256_1_0_0_1_n_n none a b (constant (F := Ideal) S5000x256 .f32 0x00000000#32) (ix2 p q)
      = ∑ k : Fin 64, a (ix2 p k) * b (ix2 k q) := by
  refine (Ideal.matmul_constant_zero_apply dot_S5000x64_S64x256_S5000x256_1_0_0_1_n_n none a b (ix2 p q)).trans ?_
  rw [← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have el : dot_S5000x64_S64x256_S5000x256_1_0_0_1_n_n.lhsIdx (ix2 p q)
      ((contrEquiv1 dot_S5000x64_S64x256_S5000x256_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x256_S5000x256_1_0_0_1_n_n.rhsIdx (ix2 p q)
      ((contrEquiv1 dot_S5000x64_S64x256_S5000x256_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## The body's stored value at an index

The body rounds the node block and the weight table to bf16 (the identity on extended reals), multiplies them into a zero
accumulator, and adds the bias row broadcast over the 5000 rows. -/

/-- The stored value at `(p, q)`: row `p` of the node block against column `q` of the weight table, plus the bias at `q`. -/
theorem stored_apply (x0 : Vec Ideal S5000x64 .f32) (x1 : Vec Ideal S64x256 .f32) (x2 : Vec Ideal S256 .f32)
    (p : Fin 5000) (q : Fin 256) :
    (k4_pay1 (F := Ideal) x0 x1 x2) (ix2 p q) = (∑ k : Fin 64, x0 (ix2 p k) * x1 (ix2 k q)) + x2 (ix1 q) := by
  unfold k4_pay1
  simp only [shapeCast_self]
  refine (addf_apply _ _ (ix2 p q)).trans ?_
  refine congrArg₂ (· + ·) ?_ ?_
  · exact product_apply _ _ p q
  · refine (broadcastTo_1b_ab_apply _ _ p q).trans ?_
    exact shapeCast_a_1a_apply x2 _ 0 q

/-- One grid point's output block as rows of the whole result: if the loaded node block is rows `off …` of `h` and the other
    two loaded blocks are the weight table and the bias row, the stored value at `j` is `hallT h win bcat` at row
    `off + j 0`, column `j 1`. -/
theorem stored_block (h : Mat 50000 64) (win : Mat 64 256) (bcat : Row 256)
    (x0 : Vec Ideal S5000x64 .f32) (x1 : Vec Ideal S64x256 .f32) (x2 : Vec Ideal S256 .f32) (off : Nat)
    (hx0 : ∀ (y : S5000x64.Idx) (z : S50000x64.Idx), (z 0).val = off + (y 0).val → (z 1).val = (y 1).val → x0 y = h z)
    (hx1 : ∀ y : S64x256.Idx, x1 y = win y) (hx2 : ∀ y : S256.Idx, x2 y = bcat y)
    (j : S5000x256.Idx) (i : S50000x256.Idx) (hi0 : (i 0).val = off + (j 0).val) (hi1 : (i 1).val = (j 1).val) :
    (k4_pay1 (F := Ideal) x0 x1 x2) j = hallT h win bcat i := by
  obtain ⟨p, q, rfl⟩ : ∃ (p : Fin 5000) (q : Fin 256), j = ix2 p q := ⟨j 0, j 1, eq_ix2 j⟩
  obtain ⟨n, q', rfl⟩ : ∃ (n : Fin 50000) (q' : Fin 256), i = ix2 n q' := ⟨i 0, i 1, eq_ix2 i⟩
  have hq : q = q' := (Fin.ext hi1).symm
  subst hq
  refine (stored_apply x0 x1 x2 p q).trans ?_
  show _ = (∑ k : Fin 64, h (ix2 n k) * win (ix2 k q)) + bcat (ix1 q)
  refine congrArg₂ (· + ·) (Finset.sum_congr rfl fun k _ => ?_) (hx2 _)
  exact congrArg₂ (· * ·) (hx0 (ix2 p k) (ix2 n k) hi0 rfl) (hx1 _)

/-! ## From the blocks to the array

Grid point `t` loads rows `5000 t … 5000 t + 4999` of the node table, the whole weight table and the whole bias row, and
writes rows `5000 t … 5000 t + 4999` of the result; the ten points' blocks cover its 50000 rows. -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's one store covers the output block, and its loads read whole blocks: what it leaves is the stored value
    of the three loaded blocks. -/
theorem left_eq (x0 : Vec Ideal S5000x64 .f32) (x1 : Vec Ideal S64x256 .f32) (x2 : Vec Ideal S256 .f32) :
    out4_3 (F := Ideal) x0 x1 x2 = k4_pay1 (F := Ideal) x0 x1 x2 := by
  unfold out4_3
  rw [View.canon_unit_zero zeros2]
  simp only [View.ld_unit_zero (S := S5000x64) zeros2, View.ld_unit_zero (S := S64x256) zeros2,
    View.ld_unit_zero (S := S256) zeros1]

/-- The block index of each window at each of the ten points: the node window and the output window move down one block
    per point, the weight table and the bias row stay. -/
theorem block_indices : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 1) = 0
    ∧ win4_3.index t (0 : Fin 2) = t.val ∧ win4_3.index t (1 : Fin 2) = 0 :=
  (by decide +kernel : ∀ t : Fin grid4.N, _)

/-- The node window's block at point `t` is rows `5000 t …` of the node table. -/
theorem node_block_apply (c : Dev nD) (t : Fin cfg4.N) (y : S5000x64.Idx) (z : S50000x64.Idx)
    (h0 : (z 0).val = t.val * 5000 + (y 0).val) (h1 : (z 1).val = (y 1).val) :
    (iblk4 V c 0 t : Vec Ideal S5000x64 .f32) y = (V c main_v21 : S50000x64.Idx → EReal) z := by
  obtain ⟨e0, e1, -⟩ := block_indices t
  unfold iblk4
  rw [View.read_apply]
  show V c main_v21 _ = V c main_v21 _
  refine congrArg _ (funext fun a => Fin.ext ?_)
  match a with
  | ⟨0, _⟩ => show win4_0.index t (0 : Fin 2) * 5000 + 1 * (y 0).val = (z 0).val; rw [e0, h0]; omega
  | ⟨1, _⟩ => show win4_0.index t (1 : Fin 2) * 64 + 1 * (y 1).val = (z 1).val; rw [e1, h1]; omega

/-- The weight window's block is the whole weight table at every point. -/
theorem weight_block_apply (c : Dev nD) (t : Fin cfg4.N) (y : S64x256.Idx) :
    (iblk4 V c 1 t : Vec Ideal S64x256 .f32) y = (V c main_v1 : S64x256.Idx → EReal) y := by
  obtain ⟨-, -, e0, e1, -⟩ := block_indices t
  unfold iblk4
  rw [View.read_apply]
  show V c main_v1 _ = V c main_v1 _
  refine congrArg _ (funext fun a => Fin.ext ?_)
  match a with
  | ⟨0, _⟩ => show win4_1.index t (0 : Fin 2) * 64 + 1 * (y 0).val = (y 0).val; rw [e0]; omega
  | ⟨1, _⟩ => show win4_1.index t (1 : Fin 2) * 256 + 1 * (y 1).val = (y 1).val; rw [e1]; omega

/-- The bias window's block is the whole bias row at every point. -/
theorem bias_block_apply (c : Dev nD) (t : Fin cfg4.N) (y : S256.Idx) :
    (iblk4 V c 2 t : Vec Ideal S256 .f32) y = (V c main_v2 : S256.Idx → EReal) y := by
  obtain ⟨-, -, -, -, e0, -⟩ := block_indices t
  unfold iblk4
  rw [View.read_apply]
  show V c main_v2 _ = V c main_v2 _
  refine congrArg _ (funext fun a => Fin.ext ?_)
  match a with
  | ⟨0, _⟩ => show win4_2.index t (0 : Fin 1) * 256 + 1 * (y 0).val = (y 0).val; rw [e0]; omega

/-- What point `t` writes back is block `t` of the whole result `hallT` of the three arrays as the region finds them. -/
theorem written_eq (c : Dev nD) (t : Fin cfg4.N) :
    (dat4 V c).flushed 3 t
      = ((cfg4.win 3).blk t).view.read (Elt Ideal) (hallT (V c main_v21) (V c main_v1) (V c main_v2)) := by
  show (cfg4.win 3).cut (grid4.coords t) ((dat4 V c).after 3 t) = _
  rw [after4_3, left_eq]
  obtain ⟨-, -, -, -, -, e0, e1⟩ := block_indices t
  funext j
  show (k4_pay1 (F := Ideal) (iblk4 V c 0 t) (iblk4 V c 1 t) (iblk4 V c 2 t)) j
    = hallT (V c main_v21) (V c main_v1) (V c main_v2) (((cfg4.win 3).blk t).view.emb j)
  exact stored_block (V c main_v21) (V c main_v1) (V c main_v2) (iblk4 V c 0 t) (iblk4 V c 1 t) (iblk4 V c 2 t)
    (t.val * 5000) (fun y z h0 h1 => node_block_apply V c t y z h0 h1) (fun y => weight_block_apply V c t y)
    (fun y => bias_block_apply V c t y) j (((cfg4.win 3).blk t).view.emb j)
    (by show win4_3.index t (0 : Fin 2) * 5000 + 1 * (j 0).val = t.val * 5000 + (j 0).val; rw [e0]; omega)
    (by show win4_3.index t (1 : Fin 2) * 256 + 1 * (j 1).val = (j 1).val; rw [e1]; omega)

/-- An index of the result array is in point `t`'s block iff each coordinate is in the block's range on its axis. -/
theorem mem_block (t : Fin cfg4.N) (i : S50000x256.Idx) :
    i ∈ ((cfg4.win 3).blk t).view.set
      ↔ ∀ a : Fin 2, win4_3.index t a * S5000x256.size a ≤ (i a).val
          ∧ (i a).val < win4_3.index t a * S5000x256.size a + S5000x256.size a := by
  show i ∈ ((View.whole main_v22).slice (win4_3.rect t)).set ↔ _
  rw [View.set_slice_whole, Rect.mem_set_unit]
  exact Iff.rfl

/-- Row `r` of the result lies in the block of point `r / 5000`. -/
theorem covered (i : S50000x256.Idx) :
    ∃ t : Fin cfg4.N, (cfg4.win 3).flush t = true ∧ i ∈ ((cfg4.win 3).blk t).view.set := by
  have hN : cfg4.N = 10 := N_4
  have hi0 : (i 0).val < 50000 := (i 0).isLt
  have hi1 : (i 1).val < 256 := (i 1).isLt
  refine ⟨⟨(i 0).val / 5000, by rw [hN]; omega⟩, flush4_3 _, ?_⟩
  obtain ⟨-, -, -, -, -, e0, e1⟩ := block_indices ⟨(i 0).val / 5000, by rw [hN]; omega⟩
  rw [mem_block]
  intro a
  match a with
  | ⟨0, _⟩ =>
    show win4_3.index _ (0 : Fin 2) * 5000 ≤ (i 0).val ∧ (i 0).val < win4_3.index _ (0 : Fin 2) * 5000 + 5000
    rw [e0]; show (i 0).val / 5000 * 5000 ≤ (i 0).val ∧ (i 0).val < (i 0).val / 5000 * 5000 + 5000; omega
  | ⟨1, _⟩ =>
    show win4_3.index _ (1 : Fin 2) * 256 ≤ (i 1).val ∧ (i 1).val < win4_3.index _ (1 : Fin 2) * 256 + 256
    rw [e1]; omega

/-- After the region's ten points the output array holds every node's state under all four maps at once. -/
theorem hall_arr4 (V : (c : Dev nD) → (b : Ref sig .tc) → Buf (Elt Ideal) ((c : Thread nD τ).loc b)) (c : Dev nD) :
    (dat4 (F := Ideal) V c).arrAt 3 cfg4.N = hallT (V c main_v21) (V c main_v1) (V c main_v2) :=
  (dat4 V c).arrAt_eq_of_cover 3 (hallT (V c main_v21) (V c main_v1) (V c main_v2)) (fun t _ => written_eq V c t) covered

end Cert.KernelIdeal.HallRegion4

end
-- ==== Proof.GruRegion5.lean ====
/-
  The table a GRU region leaves, read off its ten grid points.

  The region runs the cell on ten blocks of 5000 rows: at grid point `t` it stages rows `5000 t … 5000 t + 4999` of the
  aggregate table `main_v27` and of the state table `main_v21`, the two transposed weight tables `main_v3`, `main_v4` and
  the two bias rows `main_arg5`, `main_arg6` whole, stores the cell of those blocks into the output's staging block, and
  writes that block back to rows `5000 t … 5000 t + 4999` of `main_v28`. Entry `(p, q)` of the cell of a block depends on row
  `p` of the two row blocks only, which is row `5000 t + p` of the tables; so each point writes its rows of ONE table
  function, the specification's `gruT` of the six arrays as the region finds them, and the ten blocks cover the table
  (row `r` lies in the block of point `r / 5000`): the output array ends holding that function.
-/
import proofs.«410194_j38886633898060_1_alg».proof.Proof.Gen.KernelIdeal.Frame
import proofs.«410194_j38886633898060_1_alg».proof.Proof.Spec
import proofs.«410194_j38886633898060_1_alg».proof.Proof.GruCell
import Idealize.ShloMosaic.Lib.ValueIdx
import Idealize.ShloMosaic.Lib.Pipeline.Value

noncomputable section

namespace Cert.KernelIdeal.GruRegion5

open Cert.KernelIdeal Cert.KernelIdeal.Gen Cert.GatedGraph Cert.KernelIdeal.GruCell
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's payload is the cell of its six loaded blocks (the casts to a vector's own shape dropped). -/
theorem pay_eq (a h : Vec Ideal S5000x64 .f32) (wih whh : Vec Ideal S64x192 .f32) (bih bhh : Vec Ideal S192 .f32) :
    k5_pay1 (F := Ideal) a h wih whh bih bhh = cell a h wih whh bih bhh := by
  unfold k5_pay1 cell cellOf pre
  simp only [shapeCast_self]

/-- The index maps over the ten grid points: the two row-blocked inputs and the output sit at row block `t`, column block 0;
    the four tables at block 0 on every axis. -/
theorem idx_facts : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 1) = 0
    ∧ win5_5.index t (0 : Fin 1) = 0
    ∧ win5_6.index t (0 : Fin 2) = t.val ∧ win5_6.index t (1 : Fin 2) = 0 :=
  (by decide +kernel : ∀ t : Fin grid5.N, _)

/-- Entry `(p, k)` of the aggregate's block at point `t` is entry `(5000 t + p, k)` of the aggregate table. -/
theorem ablk_ix (c : Dev nD) (t : Fin cfg5.N) (p : Fin 5000) (k : Fin 64) (n : Fin 50000) (hn : n.val = t.val * 5000 + p.val) :
    (iblk5 V c 0 t : Vec Ideal S5000x64 .f32) (ix2 p k) = (V c main_v27 : Mat 50000 64) (ix2 n k) := by
  obtain ⟨e0, e1, -⟩ := idx_facts t
  unfold iblk5
  rw [View.read_apply]
  show V c main_v27 _ = V c main_v27 _
  congr 1
  funext a; apply Fin.ext
  match a with
  | ⟨0, _⟩ => show win5_0.index t (0 : Fin 2) * 5000 + 1 * p.val = n.val; rw [e0, hn]; omega
  | ⟨1, _⟩ => show win5_0.index t (1 : Fin 2) * 64 + 1 * k.val = k.val; rw [e1]; omega

/-- Entry `(p, k)` of the state's block at point `t` is entry `(5000 t + p, k)` of the state table. -/
theorem hblk_ix (c : Dev nD) (t : Fin cfg5.N) (p : Fin 5000) (k : Fin 64) (n : Fin 50000) (hn : n.val = t.val * 5000 + p.val) :
    (iblk5 V c 1 t : Vec Ideal S5000x64 .f32) (ix2 p k) = (V c main_v21 : Mat 50000 64) (ix2 n k) := by
  obtain ⟨-, -, e0, e1, -⟩ := idx_facts t
  unfold iblk5
  rw [View.read_apply]
  show V c main_v21 _ = V c main_v21 _
  congr 1
  funext a; apply Fin.ext
  match a with
  | ⟨0, _⟩ => show win5_1.index t (0 : Fin 2) * 5000 + 1 * p.val = n.val; rw [e0, hn]; omega
  | ⟨1, _⟩ => show win5_1.index t (1 : Fin 2) * 64 + 1 * k.val = k.val; rw [e1]; omega

/-- The two weight tables and the two bias rows are staged whole at every point. -/
theorem wih_whole (c : Dev nD) (t : Fin cfg5.N) : (iblk5 V c 2 t : Vec Ideal S64x192 .f32) = V c main_v3 := by
  obtain ⟨-, -, -, -, e0, e1, -⟩ := idx_facts t
  funext j
  unfold iblk5
  rw [View.read_apply]
  show V c main_v3 _ = V c main_v3 j
  congr 1
  funext a; apply Fin.ext
  match a with
  | ⟨0, _⟩ => show win5_2.index t (0 : Fin 2) * 64 + 1 * (j 0).val = (j 0).val; rw [e0]; omega
  | ⟨1, _⟩ => show win5_2.index t (1 : Fin 2) * 192 + 1 * (j 1).val = (j 1).val; rw [e1]; omega
theorem whh_whole (c : Dev nD) (t : Fin cfg5.N) : (iblk5 V c 3 t : Vec Ideal S64x192 .f32) = V c main_v4 := by
  obtain ⟨-, -, -, -, -, -, e0, e1, -⟩ := idx_facts t
  funext j
  unfold iblk5
  rw [View.read_apply]
  show V c main_v4 _ = V c main_v4 j
  congr 1
  funext a; apply Fin.ext
  match a with
  | ⟨0, _⟩ => show win5_3.index t (0 : Fin 2) * 64 + 1 * (j 0).val = (j 0).val; rw [e0]; omega
  | ⟨1, _⟩ => show win5_3.index t (1 : Fin 2) * 192 + 1 * (j 1).val = (j 1).val; rw [e1]; omega
theorem bih_whole (c : Dev nD) (t : Fin cfg5.N) : (iblk5 V c 4 t : Vec Ideal S192 .f32) = V c main_arg5 := by
  obtain ⟨-, -, -, -, -, -, -, -, e0, -⟩ := idx_facts t
  funext j
  unfold iblk5
  rw [View.read_apply]
  show V c main_arg5 _ = V c main_arg5 j
  congr 1
  funext a; apply Fin.ext
  match a with
  | ⟨0, _⟩ => show win5_4.index t (0 : Fin 1) * 192 + 1 * (j 0).val = (j 0).val; rw [e0]; omega
theorem bhh_whole (c : Dev nD) (t : Fin cfg5.N) : (iblk5 V c 5 t : Vec Ideal S192 .f32) = V c main_arg6 := by
  obtain ⟨-, -, -, -, -, -, -, -, -, e0, -⟩ := idx_facts t
  funext j
  unfold iblk5
  rw [View.read_apply]
  show V c main_arg6 _ = V c main_arg6 j
  congr 1
  funext a; apply Fin.ext
  match a with
  | ⟨0, _⟩ => show win5_5.index t (0 : Fin 1) * 192 + 1 * (j 0).val = (j 0).val; rw [e0]; omega

/-- The table function the region leaves: the cell of the specification over the six arrays as the region finds them. -/
abbrev G (c : Dev nD) : Mat 50000 64 :=
  gruT (V c main_v27) (V c main_v21) (V c main_v3) (V c main_v4) (V c main_arg5) (V c main_arg6)

/-- WHAT POINT `t` WRITES BACK is rows `5000 t … 5000 t + 4999` of `G`. -/
theorem flushed_eq (c : Dev nD) (t : Fin cfg5.N) :
    (dat5 (F := Ideal) V c).flushed 6 t = ((cfg5.win 6).blk t).view.read (Elt Ideal) (G V c) := by
  have ht : t.val < 10 := lt_of_lt_of_eq t.isLt N_5
  obtain ⟨-, -, -, -, -, -, -, -, -, -, e0, e1⟩ := idx_facts t
  show (cfg5.win 6).cut (grid5.coords t) ((dat5 V c).after 6 t) = _
  rw [after5_6]
  unfold out5_6
  rw [View.canon_unit_zero hz2]
  simp only [View.ld_unit_zero (S := S5000x64) hz2, View.ld_unit_zero (S := S64x192) hz2, View.ld_unit_zero (S := S192) hz1]
  rw [pay_eq, wih_whole, whh_whole, bih_whole, bhh_whole]
  funext y
  obtain ⟨p, q, rfl⟩ : ∃ (p : Fin 5000) (q : Fin 64), y = ix2 p q := ⟨y 0, y 1, eq_ix2 y⟩
  have hp : p.val < 5000 := p.isLt
  rw [View.read_apply]
  show cell (iblk5 V c 0 t) (iblk5 V c 1 t) (V c main_v3) (V c main_v4) (V c main_arg5) (V c main_arg6) (ix2 p q) = G V c _
  refine (cell_ix (V c main_v27) (V c main_v21) (iblk5 V c 0 t) (iblk5 V c 1 t) (V c main_v3) (V c main_v4) (V c main_arg5)
    (V c main_arg6) ⟨t.val * 5000 + p.val, by omega⟩ p q (fun k => ablk_ix V c t p k _ rfl) (fun k => hblk_ix V c t p k _ rfl)).trans ?_
  show G V c _ = G V c _
  congr 1
  funext a; apply Fin.ext
  match a with
  | ⟨0, _⟩ => show t.val * 5000 + p.val = win5_6.index t (0 : Fin 2) * 5000 + 1 * p.val; rw [e0]; omega
  | ⟨1, _⟩ => show q.val = win5_6.index t (1 : Fin 2) * 64 + 1 * q.val; rw [e1]; omega

/-- An index of the table is in point `t`'s block iff each coordinate is in the block's range on its axis. -/
theorem mem_blk (t : Fin cfg5.N) (i : S50000x64.Idx) :
    i ∈ ((cfg5.win 6).blk t).view.set ↔ ∀ a : Fin 2, win5_6.index t a * S5000x64.size a ≤ (i a).val ∧ (i a).val < win5_6.index t a * S5000x64.size a + S5000x64.size a := by
  show i ∈ ((View.whole main_v28).slice (win5_6.rect t)).set ↔ _
  rw [View.set_slice_whole, Rect.mem_set_unit]
  exact Iff.rfl

/-- Every row of the table is in the block of the point `row / 5000`. -/
theorem cover (i : S50000x64.Idx) : ∃ t : Fin cfg5.N, (cfg5.win 6).flush t = true ∧ i ∈ ((cfg5.win 6).blk t).view.set := by
  have h0 : (i 0).val < 50000 := (i 0).isLt
  have h1 : (i 1).val < 64 := (i 1).isLt
  have hN : cfg5.N = 10 := N_5
  let t : Fin cfg5.N := ⟨(i 0).val / 5000, by rw [hN]; omega⟩
  obtain ⟨-, -, -, -, -, -, -, -, -, -, e0, e1⟩ := idx_facts t
  refine ⟨t, flush5_6 t, ?_⟩
  rw [mem_blk]
  intro a
  match a with
  | ⟨0, _⟩ =>
    show win5_6.index t (0 : Fin 2) * 5000 ≤ (i 0).val ∧ (i 0).val < win5_6.index t (0 : Fin 2) * 5000 + 5000
    rw [e0]; show (i 0).val / 5000 * 5000 ≤ (i 0).val ∧ (i 0).val < (i 0).val / 5000 * 5000 + 5000; omega
  | ⟨1, _⟩ =>
    show win5_6.index t (1 : Fin 2) * 64 ≤ (i 1).val ∧ (i 1).val < win5_6.index t (1 : Fin 2) * 64 + 64
    rw [e1]; omega

/-- THE ARRAY the region leaves in its output window: the cell of the specification over the six arrays it reads, as the
    region finds them. -/
theorem gru_arr5 (c : Dev nD) :
    (dat5 (F := Ideal) V c).arrAt 6 cfg5.N
      = gruT (V c main_v27) (V c main_v21) (V c main_v3) (V c main_v4) (V c main_arg5) (V c main_arg6) :=
  (dat5 (F := Ideal) V c).arrAt_eq_of_cover 6 (G V c) (fun t _ => flushed_eq V c t) cover
end Cert.KernelIdeal.GruRegion5
end
-- ==== Proof.TakeStretch2.lean ====
/-
  Step 2, between the region that applies all four linear maps and the GRU region: the program's three host
  stretches as one equation.

  The first stretch re-lays the region's 50000 × 256 result (buffer main_v22) as 200000 rows of 64 (main_v23). The second
  is the row take (23 operations): from the re-laid table and the flat index words (main_v7) it makes the 800000 × 64
  table of taken rows (main_v24). The third makes a zero table, the destination words (main_arg8) as a column, and sums
  the taken rows per destination node (main_v27). Read off in order, from ANY contents of the buffers before the first
  stretch, the last buffer holds  aggK dst (takeK X flat)  with X, flat and dst the contents of main_v22, main_v7 and
  main_arg8 before the first stretch: no operation of the three stretches writes main_v7 or main_arg8, and main_v22 is
  read once, by the re-laying.

  Each stretch is read over a variable valuation and the three are then composed; the take's operations are stated
  over typed references, whose transports of contents cancel (TakeLemma's `ofBuf_toBuf`) or are the identity at the
  two buffers the take reads and the one it returns.
-/
import proofs.«410194_j38886633898060_1_alg».proof.Proof.Gen.KernelIdeal.Launch
import proofs.«410194_j38886633898060_1_alg».proof.Proof.TakeLemma

-- two of the program's 249 references are told apart by evaluation, which recurses past the default depth
set_option maxRecDepth 4096

noncomputable section

namespace Cert.GatedGraph

open Idealize.ShloMosaic Idealize.ShloMosaic.ValueIdx
open Cert.KernelIdeal Cert.KernelIdeal.Gen

/-! ## The transports at the take's two operands and its result are the identity -/

theorem s2_flat_ofBuf (h1 : main_v7.ty = ⟨S800000, .i32⟩) (h2 h3) (v : main_v7.ty.Contents (Elt Ideal)) :
    (StableHlo.TRef.of main_v7 h1 h2 h3).ofBuf v = v := rfl

theorem s2_rows_ofBuf (h1 : main_v23.ty = ⟨S200000x64, .f32⟩) (h2 h3) (v : main_v23.ty.Contents (Elt Ideal)) :
    (StableHlo.TRef.of main_v23 h1 h2 h3).ofBuf v = v := rfl

theorem s2_take_toBuf (h1 : main_v24.ty = ⟨S800000x64, .f32⟩) (h2 h3)
    (v : (⟨S800000x64, .f32⟩ : BufTy).Contents (Elt Ideal)) :
    (StableHlo.TRef.of main_v24 h1 h2 h3).toBuf v = v := rfl

/-! ## Each stretch, from any contents -/

section
variable (V : Valuation τ sig (Elt Ideal))

/-- The re-laying: main_v23 holds main_v22's contents as 200000 rows of 64 … -/
theorem s2_relaid : StableHlo.after (hostOps5 (F := Ideal)) V (Proc.devRef .tc main_v23)
    = shapeCast S200000x64 (V (Proc.devRef .tc main_v22)) shapeCasts_S50000x256_S200000x64 := by
  simp only [hostOps5]; after_results; rfl

/-- … and leaves the flat index words … -/
theorem s2_relaid_flat : StableHlo.after (hostOps5 (F := Ideal)) V (Proc.devRef .tc main_v7) = V (Proc.devRef .tc main_v7) := by
  simp only [hostOps5]; after_results

/-- … and the destination words as they were. -/
theorem s2_relaid_dst : StableHlo.after (hostOps5 (F := Ideal)) V (Proc.devRef .tc main_arg8) = V (Proc.devRef .tc main_arg8) := by
  simp only [hostOps5]; after_results

/-- The take: main_v24 holds the rows of main_v23's table at main_v7's words … -/
theorem s2_taken : StableHlo.after (hostOps5_1 (F := Ideal)) V (Proc.devRef .tc main_v24)
    = takeRows (V (Proc.devRef .tc main_v23)) (V (Proc.devRef .tc main_v7)) := by
  simp only [hostOps5_1]
  after_results_simp
  simp only [ofBuf_toBuf]
  simp only [s2_take_toBuf, s2_rows_ofBuf, s2_flat_ofBuf]
  rfl

/-- … and leaves the destination words as they were. -/
theorem s2_taken_dst : StableHlo.after (hostOps5_1 (F := Ideal)) V (Proc.devRef .tc main_arg8) = V (Proc.devRef .tc main_arg8) := by
  simp only [hostOps5_1]; after_results_simp

/-- The sum per destination: main_v27 holds the scatter-add of main_v24's rows at main_arg8's words onto zero. -/
theorem s2_summed : StableHlo.after (hostOps5_2 (F := Ideal)) V (Proc.devRef .tc main_v27)
    = aggK (V (Proc.devRef .tc main_arg8)) (V (Proc.devRef .tc main_v24)) := by
  simp only [hostOps5_2]; after_results; rfl

end

/-! ## The three in order -/

theorem stretch2 (Wv : Valuation τ sig (Elt Ideal)) :
    StableHlo.after (hostOps5_2 (F := Ideal)) (StableHlo.after (hostOps5_1 (F := Ideal)) (StableHlo.after (hostOps5 (F := Ideal)) Wv))
        (Proc.devRef .tc main_v27)
      = aggK (Wv (Proc.devRef .tc main_arg8)) (takeK (Wv (Proc.devRef .tc main_v22)) (Wv (Proc.devRef .tc main_v7))) := by
  rw [s2_summed, s2_taken, s2_taken_dst, s2_relaid, s2_relaid_flat, s2_relaid_dst]
  rfl

end Cert.GatedGraph

end
-- ==== Proof.KStep2.lean ====
/-
  The third step of the kernel's program, read off the run's boundary contents: what the GRU region leaves in its output
  array is one step of the specification applied to what the step's state buffer held when the step began.

  The per-node region leaves the state under the re-laid weight tables; the reshape, the row gather at source · 4 + type and
  the scatter-add turn that into the aggregate of the messages; the GRU region combines the aggregate with the state against
  the transposed GRU tables. The tables, biases and index words are what the first host stretch made of the arguments, carried
  unchanged to where each is read.
-/
import proofs.«410194_j38886633898060_1_alg».proof.Proof.Gen.KernelIdeal.Frame
import proofs.«410194_j38886633898060_1_alg».proof.Proof.Spec
import proofs.«410194_j38886633898060_1_alg».proof.Proof.SpecLemmas
import proofs.«410194_j38886633898060_1_alg».proof.Proof.HallRegion4
import proofs.«410194_j38886633898060_1_alg».proof.Proof.GruRegion5
import proofs.«410194_j38886633898060_1_alg».proof.Proof.TakeLemma
import proofs.«410194_j38886633898060_1_alg».proof.Proof.TakeStretch2
import proofs.«410194_j38886633898060_1_alg».proof.Proof.Carry
import proofs.«410194_j38886633898060_1_alg».proof.Proof.KHost0

set_option maxRecDepth 16384

noncomputable section

namespace Cert.KernelIdeal.KStep

open Cert.KernelIdeal Cert.KernelIdeal.Gen Cert.GatedGraph
open Cert.KernelIdeal.Carry Cert.KernelIdeal.KHost0
open Idealize.ShloMosaic Idealize.ShloMosaic.TcCoe Idealize.ShloMosaic.StableHlo

variable (m : (ℓ : Loc nD τ sig) → Buf (Elt Ideal) ℓ) (ρ : Dev nD → PrngReg)

/-- The third step. -/
theorem kstep2 (c : Dev nD) (hr : InRange (m ((c : Thread nD τ).loc main_arg7)) (m ((c : Thread nD τ).loc main_arg9))) :
    W16 m ρ c (Proc.devRef .tc main_v28)
      = step (aggK (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (srcN (m ((c : Thread nD τ).loc main_arg7))) (etN (m ((c : Thread nD τ).loc main_arg9)))
          (W11 m ρ c (Proc.devRef .tc main_v21)) := by
  -- the tables, biases and words where they are read
  have h8 : W12 m ρ c (Proc.devRef .tc main_arg8) = (m ((c : Thread nD τ).loc main_arg8)) := (carry_main_arg8_12 m ρ c).trans (W1_arg8 m ρ c)
  have h7 : W12 m ρ c (Proc.devRef .tc main_v7) = flatOf (m ((c : Thread nD τ).loc main_arg7)) (m ((c : Thread nD τ).loc main_arg9)) := (carry_main_v7_12 m ρ c).trans (W1_flat m ρ c)
  have h1 : W11 m ρ c (Proc.devRef .tc main_v1) = winOf (m ((c : Thread nD τ).loc main_arg1)) := (carry_main_v1_11 m ρ c).trans (W1_win m ρ c)
  have h2 : W11 m ρ c (Proc.devRef .tc main_v2) = bcatOf (m ((c : Thread nD τ).loc main_arg2)) := (carry_main_v2_11 m ρ c).trans (W1_bcat m ρ c)
  have h3 : W15 m ρ c (Proc.devRef .tc main_v3) = transp (m ((c : Thread nD τ).loc main_arg3)) := (carry_main_v3_15 m ρ c).trans (W1_wihT m ρ c)
  have h4 : W15 m ρ c (Proc.devRef .tc main_v4) = transp (m ((c : Thread nD τ).loc main_arg4)) := (carry_main_v4_15 m ρ c).trans (W1_whhT m ρ c)
  have h5 : W15 m ρ c (Proc.devRef .tc main_arg5) = (m ((c : Thread nD τ).loc main_arg5)) := (carry_main_arg5_15 m ρ c).trans (W1_arg5 m ρ c)
  have h6 : W15 m ρ c (Proc.devRef .tc main_arg6) = (m ((c : Thread nD τ).loc main_arg6)) := (carry_main_arg6_15 m ρ c).trans (W1_arg6 m ρ c)
  have hh : W15 m ρ c (Proc.devRef .tc main_v21) = W11 m ρ c (Proc.devRef .tc main_v21) := carry_h2 m ρ c
  -- the per-node region's output array
  have hX : W12 m ρ c (Proc.devRef .tc main_v22)
      = hallT (W11 m ρ c (Proc.devRef .tc main_v21)) (winOf (m ((c : Thread nD τ).loc main_arg1))) (bcatOf (m ((c : Thread nD τ).loc main_arg2))) := by
    refine (W12_arr m ρ c 3).trans ((Cert.KernelIdeal.HallRegion4.hall_arr4 (V11 m ρ) c).trans ?_)
    show hallT (W11 m ρ c (Proc.devRef .tc main_v21)) (W11 m ρ c (Proc.devRef .tc main_v1)) (W11 m ρ c (Proc.devRef .tc main_v2)) = _
    rw [h1, h2]
  -- the aggregate of the messages
  have ha : W15 m ρ c (Proc.devRef .tc main_v27)
      = aggK (m ((c : Thread nD τ).loc main_arg8)) (msg (W11 m ρ c (Proc.devRef .tc main_v21)) (m ((c : Thread nD τ).loc main_arg1)) (m ((c : Thread nD τ).loc main_arg2)) (srcN (m ((c : Thread nD τ).loc main_arg7))) (etN (m ((c : Thread nD τ).loc main_arg9)))) := by
    refine (Cert.GatedGraph.stretch2 (W12 m ρ c)).trans ?_
    rw [h8, h7, hX, takeK_eq hr]
    exact congrArg (aggK (m ((c : Thread nD τ).loc main_arg8))) (hallT_gather _ _ _ _ _)
  -- the GRU region's output array
  refine (W16_arr m ρ c 6).trans ((Cert.KernelIdeal.GruRegion5.gru_arr5 (V15 m ρ) c).trans ?_)
  show gruT (W15 m ρ c (Proc.devRef .tc main_v27)) (W15 m ρ c (Proc.devRef .tc main_v21)) (W15 m ρ c (Proc.devRef .tc main_v3)) (W15 m ρ c (Proc.devRef .tc main_v4))
      (W15 m ρ c (Proc.devRef .tc main_arg5)) (W15 m ρ c (Proc.devRef .tc main_arg6)) = _
  rw [ha, hh, h3, h4, h5, h6, gruT_transp]
  rfl

end Cert.KernelIdeal.KStep

end
-- ==== Proof.HallRegion6.lean ====
/-
  One pass of "every node's state under all four linear maps at once", read off the region's ten grid points.

  The region's output array is a 50000 × 256 table. Grid point `t` (of ten) loads rows `5000 t … 5000 t + 4999` of the
  50000 × 64 node table `h`, the whole 64 × 256 weight table `win` and the whole bias row `bcat`, and stores, at `(p, q)` of
  its 5000 × 256 block,
      (∑ k, h (5000 t + p, k) · win (k, q)) + bcat q :
  the product of the (rounded, which on the extended reals is the identity) blocks accumulated from zero, plus the bias row
  repeated down the rows. The ten blocks tile the rows of the output, row `r` lying in block `r / 5000`, so after the region
  the output array is `hallT h win bcat` — for any contents `V` of the arrays at the region's entry.
-/
import proofs.«410194_j38886633898060_1_alg».proof.Proof.Gen.KernelIdeal.Frame
import proofs.«410194_j38886633898060_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HallRegion6

open Cert.KernelIdeal Cert.KernelIdeal.Gen Cert.GatedGraph
open Idealize.ShloMosaic Idealize.ShloMosaic.TcCoe Idealize.SL.Sem Idealize.ShloMosaic.ValueIdx
open Idealize.ShloMosaic.Pipeline (Dat)
open scoped BigOperators

/-! ## The contraction's two index maps, axis by axis

The product contracts the second axis of the 5000 × 64 operand with the first axis of the 64 × 256 operand: at the result's
index `(p, q)` and contraction position `k` the left operand is read at `(p, k)` and the right one at `(k, q)`. -/

theorem lhs_axis0 (i : S5000x256.Idx) (r : dot_S5000x64_S64x256_S5000x256_1_0_0_1_n_n.contr.Idx) :
    (dot_S5000x64_S64x256_S5000x256_1_0_0_1_n_n.lhsIdx i r 0).val = (i 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl

theorem lhs_axis1 (i : S5000x256.Idx) (r : dot_S5000x64_S64x256_S5000x256_1_0_0_1_n_n.contr.Idx) :
    (dot_S5000x64_S64x256_S5000x256_1_0_0_1_n_n.lhsIdx i r 1).val = (r ⟨0, by decide⟩).val :=
  dot_S5000x64_S64x256_S5000x256_1_0_0_1_n_n.lhsIdx_val_of_single rfl i r

theorem rhs_axis0 (i : S5000x256.Idx) (r : dot_S5000x64_S64x256_S5000x256_1_0_0_1_n_n.contr.Idx) :
    (dot_S5000x64_S64x256_S5000x256_1_0_0_1_n_n.rhsIdx i r 0).val = (r ⟨0, by decide⟩).val :=
  dot_S5000x64_S64x256_S5000x256_1_0_0_1_n_n.rhsIdx_val_of_single rfl i r

theorem rhs_axis1 (i : S5000x256.Idx) (r : dot_S5000x64_S64x256_S5000x256_1_0_0_1_n_n.contr.Idx) :
    (dot_S5000x64_S64x256_S5000x256_1_0_0_1_n_n.rhsIdx i r 1).val = (i 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The product into the zero accumulator, read at `(p, q)`: row `p` of the left operand against column `q` of the
    right one, summed over the 64 contracted positions. -/
theorem product_apply (a : FVec Ideal S5000x64 .bf16) (b : FVec Ideal S64x256 .bf16) (p : Fin 5000) (q : Fin 256) :
    matmul dot_S5000x64_S64x256_S5000x256_1_0_0_1_n_n none a b (constant (F := Ideal) S5000x256 .f32 0x00000000#32) (ix2 p q)
      = ∑ k : Fin 64, a (ix2 p k) * b (ix2 k q) := by
  refine (Ideal.matmul_constant_zero_apply dot_S5000x64_S64x256_S5000x256_1_0_0_1_n_n none a b (ix2 p q)).trans ?_
  rw [← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have el : dot_S5000x64_S64x256_S5000x256_1_0_0_1_n_n.lhsIdx (ix2 p q)
      ((contrEquiv1 dot_S5000x64_S64x256_S5000x256_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x256_S5000x256_1_0_0_1_n_n.rhsIdx (ix2 p q)
      ((contrEquiv1 dot_S5000x64_S64x256_S5000x256_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## The body's stored value at an index

The body rounds the node block and the weight table to bf16 (the identity on extended reals), multiplies them into a zero
accumulator, and adds the bias row broadcast over the 5000 rows. -/

/-- The stored value at `(p, q)`: row `p` of the node block against column `q` of the weight table, plus the bias at `q`. -/
theorem stored_apply (x0 : Vec Ideal S5000x64 .f32) (x1 : Vec Ideal S64x256 .f32) (x2 : Vec Ideal S256 .f32)
    (p : Fin 5000) (q : Fin 256) :
    (k6_pay1 (F := Ideal) x0 x1 x2) (ix2 p q) = (∑ k : Fin 64, x0 (ix2 p k) * x1 (ix2 k q)) + x2 (ix1 q) := by
  unfold k6_pay1
  simp only [shapeCast_self]
  refine (addf_apply _ _ (ix2 p q)).trans ?_
  refine congrArg₂ (· + ·) ?_ ?_
  · exact product_apply _ _ p q
  · refine (broadcastTo_1b_ab_apply _ _ p q).trans ?_
    exact shapeCast_a_1a_apply x2 _ 0 q

/-- One grid point's output block as rows of the whole result: if the loaded node block is rows `off …` of `h` and the other
    two loaded blocks are the weight table and the bias row, the stored value at `j` is `hallT h win bcat` at row
    `off + j 0`, column `j 1`. -/
theorem stored_block (h : Mat 50000 64) (win : Mat 64 256) (bcat : Row 256)
    (x0 : Vec Ideal S5000x64 .f32) (x1 : Vec Ideal S64x256 .f32) (x2 : Vec Ideal S256 .f32) (off : Nat)
    (hx0 : ∀ (y : S5000x64.Idx) (z : S50000x64.Idx), (z 0).val = off + (y 0).val → (z 1).val = (y 1).val → x0 y = h z)
    (hx1 : ∀ y : S64x256.Idx, x1 y = win y) (hx2 : ∀ y : S256.Idx, x2 y = bcat y)
    (j : S5000x256.Idx) (i : S50000x256.Idx) (hi0 : (i 0).val = off + (j 0).val) (hi1 : (i 1).val = (j 1).val) :
    (k6_pay1 (F := Ideal) x0 x1 x2) j = hallT h win bcat i := by
  obtain ⟨p, q, rfl⟩ : ∃ (p : Fin 5000) (q : Fin 256), j = ix2 p q := ⟨j 0, j 1, eq_ix2 j⟩
  obtain ⟨n, q', rfl⟩ : ∃ (n : Fin 50000) (q' : Fin 256), i = ix2 n q' := ⟨i 0, i 1, eq_ix2 i⟩
  have hq : q = q' := (Fin.ext hi1).symm
  subst hq
  refine (stored_apply x0 x1 x2 p q).trans ?_
  show _ = (∑ k : Fin 64, h (ix2 n k) * win (ix2 k q)) + bcat (ix1 q)
  refine congrArg₂ (· + ·) (Finset.sum_congr rfl fun k _ => ?_) (hx2 _)
  exact congrArg₂ (· * ·) (hx0 (ix2 p k) (ix2 n k) hi0 rfl) (hx1 _)

/-! ## From the blocks to the array

Grid point `t` loads rows `5000 t … 5000 t + 4999` of the node table, the whole weight table and the whole bias row, and
writes rows `5000 t … 5000 t + 4999` of the result; the ten points' blocks cover its 50000 rows. -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's one store covers the output block, and its loads read whole blocks: what it leaves is the stored value
    of the three loaded blocks. -/
theorem left_eq (x0 : Vec Ideal S5000x64 .f32) (x1 : Vec Ideal S64x256 .f32) (x2 : Vec Ideal S256 .f32) :
    out6_3 (F := Ideal) x0 x1 x2 = k6_pay1 (F := Ideal) x0 x1 x2 := by
  unfold out6_3
  rw [View.canon_unit_zero zeros2]
  simp only [View.ld_unit_zero (S := S5000x64) zeros2, View.ld_unit_zero (S := S64x256) zeros2,
    View.ld_unit_zero (S := S256) zeros1]

/-- The block index of each window at each of the ten points: the node window and the output window move down one block
    per point, the weight table and the bias row stay. -/
theorem block_indices : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 1) = 0
    ∧ win6_3.index t (0 : Fin 2) = t.val ∧ win6_3.index t (1 : Fin 2) = 0 :=
  (by decide +kernel : ∀ t : Fin grid6.N, _)

/-- The node window's block at point `t` is rows `5000 t …` of the node table. -/
theorem node_block_apply (c : Dev nD) (t : Fin cfg6.N) (y : S5000x64.Idx) (z : S50000x64.Idx)
    (h0 : (z 0).val = t.val * 5000 + (y 0).val) (h1 : (z 1).val = (y 1).val) :
    (iblk6 V c 0 t : Vec Ideal S5000x64 .f32) y = (V c main_v28 : S50000x64.Idx → EReal) z := by
  obtain ⟨e0, e1, -⟩ := block_indices t
  unfold iblk6
  rw [View.read_apply]
  show V c main_v28 _ = V c main_v28 _
  refine congrArg _ (funext fun a => Fin.ext ?_)
  match a with
  | ⟨0, _⟩ => show win6_0.index t (0 : Fin 2) * 5000 + 1 * (y 0).val = (z 0).val; rw [e0, h0]; omega
  | ⟨1, _⟩ => show win6_0.index t (1 : Fin 2) * 64 + 1 * (y 1).val = (z 1).val; rw [e1, h1]; omega

/-- The weight window's block is the whole weight table at every point. -/
theorem weight_block_apply (c : Dev nD) (t : Fin cfg6.N) (y : S64x256.Idx) :
    (iblk6 V c 1 t : Vec Ideal S64x256 .f32) y = (V c main_v1 : S64x256.Idx → EReal) y := by
  obtain ⟨-, -, e0, e1, -⟩ := block_indices t
  unfold iblk6
  rw [View.read_apply]
  show V c main_v1 _ = V c main_v1 _
  refine congrArg _ (funext fun a => Fin.ext ?_)
  match a with
  | ⟨0, _⟩ => show win6_1.index t (0 : Fin 2) * 64 + 1 * (y 0).val = (y 0).val; rw [e0]; omega
  | ⟨1, _⟩ => show win6_1.index t (1 : Fin 2) * 256 + 1 * (y 1).val = (y 1).val; rw [e1]; omega

/-- The bias window's block is the whole bias row at every point. -/
theorem bias_block_apply (c : Dev nD) (t : Fin cfg6.N) (y : S256.Idx) :
    (iblk6 V c 2 t : Vec Ideal S256 .f32) y = (V c main_v2 : S256.Idx → EReal) y := by
  obtain ⟨-, -, -, -, e0, -⟩ := block_indices t
  unfold iblk6
  rw [View.read_apply]
  show V c main_v2 _ = V c main_v2 _
  refine congrArg _ (funext fun a => Fin.ext ?_)
  match a with
  | ⟨0, _⟩ => show win6_2.index t (0 : Fin 1) * 256 + 1 * (y 0).val = (y 0).val; rw [e0]; omega

/-- What point `t` writes back is block `t` of the whole result `hallT` of the three arrays as the region finds them. -/
theorem written_eq (c : Dev nD) (t : Fin cfg6.N) :
    (dat6 V c).flushed 3 t
      = ((cfg6.win 3).blk t).view.read (Elt Ideal) (hallT (V c main_v28) (V c main_v1) (V c main_v2)) := by
  show (cfg6.win 3).cut (grid6.coords t) ((dat6 V c).after 3 t) = _
  rw [after6_3, left_eq]
  obtain ⟨-, -, -, -, -, e0, e1⟩ := block_indices t
  funext j
  show (k6_pay1 (F := Ideal) (iblk6 V c 0 t) (iblk6 V c 1 t) (iblk6 V c 2 t)) j
    = hallT (V c main_v28) (V c main_v1) (V c main_v2) (((cfg6.win 3).blk t).view.emb j)
  exact stored_block (V c main_v28) (V c main_v1) (V c main_v2) (iblk6 V c 0 t) (iblk6 V c 1 t) (iblk6 V c 2 t)
    (t.val * 5000) (fun y z h0 h1 => node_block_apply V c t y z h0 h1) (fun y => weight_block_apply V c t y)
    (fun y => bias_block_apply V c t y) j (((cfg6.win 3).blk t).view.emb j)
    (by show win6_3.index t (0 : Fin 2) * 5000 + 1 * (j 0).val = t.val * 5000 + (j 0).val; rw [e0]; omega)
    (by show win6_3.index t (1 : Fin 2) * 256 + 1 * (j 1).val = (j 1).val; rw [e1]; omega)

/-- An index of the result array is in point `t`'s block iff each coordinate is in the block's range on its axis. -/
theorem mem_block (t : Fin cfg6.N) (i : S50000x256.Idx) :
    i ∈ ((cfg6.win 3).blk t).view.set
      ↔ ∀ a : Fin 2, win6_3.index t a * S5000x256.size a ≤ (i a).val
          ∧ (i a).val < win6_3.index t a * S5000x256.size a + S5000x256.size a := by
  show i ∈ ((View.whole main_v29).slice (win6_3.rect t)).set ↔ _
  rw [View.set_slice_whole, Rect.mem_set_unit]
  exact Iff.rfl

/-- Row `r` of the result lies in the block of point `r / 5000`. -/
theorem covered (i : S50000x256.Idx) :
    ∃ t : Fin cfg6.N, (cfg6.win 3).flush t = true ∧ i ∈ ((cfg6.win 3).blk t).view.set := by
  have hN : cfg6.N = 10 := N_6
  have hi0 : (i 0).val < 50000 := (i 0).isLt
  have hi1 : (i 1).val < 256 := (i 1).isLt
  refine ⟨⟨(i 0).val / 5000, by rw [hN]; omega⟩, flush6_3 _, ?_⟩
  obtain ⟨-, -, -, -, -, e0, e1⟩ := block_indices ⟨(i 0).val / 5000, by rw [hN]; omega⟩
  rw [mem_block]
  intro a
  match a with
  | ⟨0, _⟩ =>
    show win6_3.index _ (0 : Fin 2) * 5000 ≤ (i 0).val ∧ (i 0).val < win6_3.index _ (0 : Fin 2) * 5000 + 5000
    rw [e0]; show (i 0).val / 5000 * 5000 ≤ (i 0).val ∧ (i 0).val < (i 0).val / 5000 * 5000 + 5000; omega
  | ⟨1, _⟩ =>
    show win6_3.index _ (1 : Fin 2) * 256 ≤ (i 1).val ∧ (i 1).val < win6_3.index _ (1 : Fin 2) * 256 + 256
    rw [e1]; omega

/-- After the region's ten points the output array holds every node's state under all four maps at once. -/
theorem hall_arr6 (V : (c : Dev nD) → (b : Ref sig .tc) → Buf (Elt Ideal) ((c : Thread nD τ).loc b)) (c : Dev nD) :
    (dat6 (F := Ideal) V c).arrAt 3 cfg6.N = hallT (V c main_v28) (V c main_v1) (V c main_v2) :=
  (dat6 V c).arrAt_eq_of_cover 3 (hallT (V c main_v28) (V c main_v1) (V c main_v2)) (fun t _ => written_eq V c t) covered

end Cert.KernelIdeal.HallRegion6

end
-- ==== Proof.GruRegion7.lean ====
/-
  The table a GRU region leaves, read off its ten grid points.

  The region runs the cell on ten blocks of 5000 rows: at grid point `t` it stages rows `5000 t … 5000 t + 4999` of the
  aggregate table `main_v34` and of the state table `main_v28`, the two transposed weight tables `main_v3`, `main_v4` and
  the two bias rows `main_arg5`, `main_arg6` whole, stores the cell of those blocks into the output's staging block, and
  writes that block back to rows `5000 t … 5000 t + 4999` of `main_v35`. Entry `(p, q)` of the cell of a block depends on row
  `p` of the two row blocks only, which is row `5000 t + p` of the tables; so each point writes its rows of ONE table
  function, the specification's `gruT` of the six arrays as the region finds them, and the ten blocks cover the table
  (row `r` lies in the block of point `r / 5000`): the output array ends holding that function.
-/
import proofs.«410194_j38886633898060_1_alg».proof.Proof.Gen.KernelIdeal.Frame
import proofs.«410194_j38886633898060_1_alg».proof.Proof.Spec
import proofs.«410194_j38886633898060_1_alg».proof.Proof.GruCell
import Idealize.ShloMosaic.Lib.ValueIdx
import Idealize.ShloMosaic.Lib.Pipeline.Value

noncomputable section

namespace Cert.KernelIdeal.GruRegion7

open Cert.KernelIdeal Cert.KernelIdeal.Gen Cert.GatedGraph Cert.KernelIdeal.GruCell
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's payload is the cell of its six loaded blocks (the casts to a vector's own shape dropped). -/
theorem pay_eq (a h : Vec Ideal S5000x64 .f32) (wih whh : Vec Ideal S64x192 .f32) (bih bhh : Vec Ideal S192 .f32) :
    k7_pay1 (F := Ideal) a h wih whh bih bhh = cell a h wih whh bih bhh := by
  unfold k7_pay1 cell cellOf pre
  simp only [shapeCast_self]

/-- The index maps over the ten grid points: the two row-blocked inputs and the output sit at row block `t`, column block 0;
    the four tables at block 0 on every axis. -/
theorem idx_facts : ∀ t : Fin cfg7.N,
    win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 1) = 0
    ∧ win7_5.index t (0 : Fin 1) = 0
    ∧ win7_6.index t (0 : Fin 2) = t.val ∧ win7_6.index t (1 : Fin 2) = 0 :=
  (by decide +kernel : ∀ t : Fin grid7.N, _)

/-- Entry `(p, k)` of the aggregate's block at point `t` is entry `(5000 t + p, k)` of the aggregate table. -/
theorem ablk_ix (c : Dev nD) (t : Fin cfg7.N) (p : Fin 5000) (k : Fin 64) (n : Fin 50000) (hn : n.val = t.val * 5000 + p.val) :
    (iblk7 V c 0 t : Vec Ideal S5000x64 .f32) (ix2 p k) = (V c main_v34 : Mat 50000 64) (ix2 n k) := by
  obtain ⟨e0, e1, -⟩ := idx_facts t
  unfold iblk7
  rw [View.read_apply]
  show V c main_v34 _ = V c main_v34 _
  congr 1
  funext a; apply Fin.ext
  match a with
  | ⟨0, _⟩ => show win7_0.index t (0 : Fin 2) * 5000 + 1 * p.val = n.val; rw [e0, hn]; omega
  | ⟨1, _⟩ => show win7_0.index t (1 : Fin 2) * 64 + 1 * k.val = k.val; rw [e1]; omega

/-- Entry `(p, k)` of the state's block at point `t` is entry `(5000 t + p, k)` of the state table. -/
theorem hblk_ix (c : Dev nD) (t : Fin cfg7.N) (p : Fin 5000) (k : Fin 64) (n : Fin 50000) (hn : n.val = t.val * 5000 + p.val) :
    (iblk7 V c 1 t : Vec Ideal S5000x64 .f32) (ix2 p k) = (V c main_v28 : Mat 50000 64) (ix2 n k) := by
  obtain ⟨-, -, e0, e1, -⟩ := idx_facts t
  unfold iblk7
  rw [View.read_apply]
  show V c main_v28 _ = V c main_v28 _
  congr 1
  funext a; apply Fin.ext
  match a with
  | ⟨0, _⟩ => show win7_1.index t (0 : Fin 2) * 5000 + 1 * p.val = n.val; rw [e0, hn]; omega
  | ⟨1, _⟩ => show win7_1.index t (1 : Fin 2) * 64 + 1 * k.val = k.val; rw [e1]; omega

/-- The two weight tables and the two bias rows are staged whole at every point. -/
theorem wih_whole (c : Dev nD) (t : Fin cfg7.N) : (iblk7 V c 2 t : Vec Ideal S64x192 .f32) = V c main_v3 := by
  obtain ⟨-, -, -, -, e0, e1, -⟩ := idx_facts t
  funext j
  unfold iblk7
  rw [View.read_apply]
  show V c main_v3 _ = V c main_v3 j
  congr 1
  funext a; apply Fin.ext
  match a with
  | ⟨0, _⟩ => show win7_2.index t (0 : Fin 2) * 64 + 1 * (j 0).val = (j 0).val; rw [e0]; omega
  | ⟨1, _⟩ => show win7_2.index t (1 : Fin 2) * 192 + 1 * (j 1).val = (j 1).val; rw [e1]; omega
theorem whh_whole (c : Dev nD) (t : Fin cfg7.N) : (iblk7 V c 3 t : Vec Ideal S64x192 .f32) = V c main_v4 := by
  obtain ⟨-, -, -, -, -, -, e0, e1, -⟩ := idx_facts t
  funext j
  unfold iblk7
  rw [View.read_apply]
  show V c main_v4 _ = V c main_v4 j
  congr 1
  funext a; apply Fin.ext
  match a with
  | ⟨0, _⟩ => show win7_3.index t (0 : Fin 2) * 64 + 1 * (j 0).val = (j 0).val; rw [e0]; omega
  | ⟨1, _⟩ => show win7_3.index t (1 : Fin 2) * 192 + 1 * (j 1).val = (j 1).val; rw [e1]; omega
theorem bih_whole (c : Dev nD) (t : Fin cfg7.N) : (iblk7 V c 4 t : Vec Ideal S192 .f32) = V c main_arg5 := by
  obtain ⟨-, -, -, -, -, -, -, -, e0, -⟩ := idx_facts t
  funext j
  unfold iblk7
  rw [View.read_apply]
  show V c main_arg5 _ = V c main_arg5 j
  congr 1
  funext a; apply Fin.ext
  match a with
  | ⟨0, _⟩ => show win7_4.index t (0 : Fin 1) * 192 + 1 * (j 0).val = (j 0).val; rw [e0]; omega
theorem bhh_whole (c : Dev nD) (t : Fin cfg7.N) : (iblk7 V c 5 t : Vec Ideal S192 .f32) = V c main_arg6 := by
  obtain ⟨-, -, -, -, -, -, -, -, -, e0, -⟩ := idx_facts t
  funext j
  unfold iblk7
  rw [View.read_apply]
  show V c main_arg6 _ = V c main_arg6 j
  congr 1
  funext a; apply Fin.ext
  match a with
  | ⟨0, _⟩ => show win7_5.index t (0 : Fin 1) * 192 + 1 * (j 0).val = (j 0).val; rw [e0]; omega

/-- The table function the region leaves: the cell of the specification over the six arrays as the region finds them. -/
abbrev G (c : Dev nD) : Mat 50000 64 :=
  gruT (V c main_v34) (V c main_v28) (V c main_v3) (V c main_v4) (V c main_arg5) (V c main_arg6)

/-- WHAT POINT `t` WRITES BACK is rows `5000 t … 5000 t + 4999` of `G`. -/
theorem flushed_eq (c : Dev nD) (t : Fin cfg7.N) :
    (dat7 (F := Ideal) V c).flushed 6 t = ((cfg7.win 6).blk t).view.read (Elt Ideal) (G V c) := by
  have ht : t.val < 10 := lt_of_lt_of_eq t.isLt N_7
  obtain ⟨-, -, -, -, -, -, -, -, -, -, e0, e1⟩ := idx_facts t
  show (cfg7.win 6).cut (grid7.coords t) ((dat7 V c).after 6 t) = _
  rw [after7_6]
  unfold out7_6
  rw [View.canon_unit_zero hz2]
  simp only [View.ld_unit_zero (S := S5000x64) hz2, View.ld_unit_zero (S := S64x192) hz2, View.ld_unit_zero (S := S192) hz1]
  rw [pay_eq, wih_whole, whh_whole, bih_whole, bhh_whole]
  funext y
  obtain ⟨p, q, rfl⟩ : ∃ (p : Fin 5000) (q : Fin 64), y = ix2 p q := ⟨y 0, y 1, eq_ix2 y⟩
  have hp : p.val < 5000 := p.isLt
  rw [View.read_apply]
  show cell (iblk7 V c 0 t) (iblk7 V c 1 t) (V c main_v3) (V c main_v4) (V c main_arg5) (V c main_arg6) (ix2 p q) = G V c _
  refine (cell_ix (V c main_v34) (V c main_v28) (iblk7 V c 0 t) (iblk7 V c 1 t) (V c main_v3) (V c main_v4) (V c main_arg5)
    (V c main_arg6) ⟨t.val * 5000 + p.val, by omega⟩ p q (fun k => ablk_ix V c t p k _ rfl) (fun k => hblk_ix V c t p k _ rfl)).trans ?_
  show G V c _ = G V c _
  congr 1
  funext a; apply Fin.ext
  match a with
  | ⟨0, _⟩ => show t.val * 5000 + p.val = win7_6.index t (0 : Fin 2) * 5000 + 1 * p.val; rw [e0]; omega
  | ⟨1, _⟩ => show q.val = win7_6.index t (1 : Fin 2) * 64 + 1 * q.val; rw [e1]; omega

/-- An index of the table is in point `t`'s block iff each coordinate is in the block's range on its axis. -/
theorem mem_blk (t : Fin cfg7.N) (i : S50000x64.Idx) :
    i ∈ ((cfg7.win 6).blk t).view.set ↔ ∀ a : Fin 2, win7_6.index t a * S5000x64.size a ≤ (i a).val ∧ (i a).val < win7_6.index t a * S5000x64.size a + S5000x64.size a := by
  show i ∈ ((View.whole main_v35).slice (win7_6.rect t)).set ↔ _
  rw [View.set_slice_whole, Rect.mem_set_unit]
  exact Iff.rfl

/-- Every row of the table is in the block of the point `row / 5000`. -/
theorem cover (i : S50000x64.Idx) : ∃ t : Fin cfg7.N, (cfg7.win 6).flush t = true ∧ i ∈ ((cfg7.win 6).blk t).view.set := by
  have h0 : (i 0).val < 50000 := (i 0).isLt
  have h1 : (i 1).val < 64 := (i 1).isLt
  have hN : cfg7.N = 10 := N_7
  let t : Fin cfg7.N := ⟨(i 0).val / 5000, by rw [hN]; omega⟩
  obtain ⟨-, -, -, -, -, -, -, -, -, -, e0, e1⟩ := idx_facts t
  refine ⟨t, flush7_6 t, ?_⟩
  rw [mem_blk]
  intro a
  match a with
  | ⟨0, _⟩ =>
    show win7_6.index t (0 : Fin 2) * 5000 ≤ (i 0).val ∧ (i 0).val < win7_6.index t (0 : Fin 2) * 5000 + 5000
    rw [e0]; show (i 0).val / 5000 * 5000 ≤ (i 0).val ∧ (i 0).val < (i 0).val / 5000 * 5000 + 5000; omega
  | ⟨1, _⟩ =>
    show win7_6.index t (1 : Fin 2) * 64 ≤ (i 1).val ∧ (i 1).val < win7_6.index t (1 : Fin 2) * 64 + 64
    rw [e1]; omega

/-- THE ARRAY the region leaves in its output window: the cell of the specification over the six arrays it reads, as the
    region finds them. -/
theorem gru_arr7 (c : Dev nD) :
    (dat7 (F := Ideal) V c).arrAt 6 cfg7.N
      = gruT (V c main_v34) (V c main_v28) (V c main_v3) (V c main_v4) (V c main_arg5) (V c main_arg6) :=
  (dat7 (F := Ideal) V c).arrAt_eq_of_cover 6 (G V c) (fun t _ => flushed_eq V c t) cover
end Cert.KernelIdeal.GruRegion7
end
-- ==== Proof.TakeStretch3.lean ====
/-
  Step 3, between the region that applies all four linear maps and the GRU region: the program's three host
  stretches as one equation.

  The first stretch re-lays the region's 50000 × 256 result (buffer main_v29) as 200000 rows of 64 (main_v30). The second
  is the row take (23 operations): from the re-laid table and the flat index words (main_v7) it makes the 800000 × 64
  table of taken rows (main_v31). The third makes a zero table, the destination words (main_arg8) as a column, and sums
  the taken rows per destination node (main_v34). Read off in order, from ANY contents of the buffers before the first
  stretch, the last buffer holds  aggK dst (takeK X flat)  with X, flat and dst the contents of main_v29, main_v7 and
  main_arg8 before the first stretch: no operation of the three stretches writes main_v7 or main_arg8, and main_v29 is
  read once, by the re-laying.

  Each stretch is read over a variable valuation and the three are then composed; the take's operations are stated
  over typed references, whose transports of contents cancel (TakeLemma's `ofBuf_toBuf`) or are the identity at the
  two buffers the take reads and the one it returns.
-/
import proofs.«410194_j38886633898060_1_alg».proof.Proof.Gen.KernelIdeal.Launch
import proofs.«410194_j38886633898060_1_alg».proof.Proof.TakeLemma

-- two of the program's 249 references are told apart by evaluation, which recurses past the default depth
set_option maxRecDepth 4096

noncomputable section

namespace Cert.GatedGraph

open Idealize.ShloMosaic Idealize.ShloMosaic.ValueIdx
open Cert.KernelIdeal Cert.KernelIdeal.Gen

/-! ## The transports at the take's two operands and its result are the identity -/

theorem s3_flat_ofBuf (h1 : main_v7.ty = ⟨S800000, .i32⟩) (h2 h3) (v : main_v7.ty.Contents (Elt Ideal)) :
    (StableHlo.TRef.of main_v7 h1 h2 h3).ofBuf v = v := rfl

theorem s3_rows_ofBuf (h1 : main_v30.ty = ⟨S200000x64, .f32⟩) (h2 h3) (v : main_v30.ty.Contents (Elt Ideal)) :
    (StableHlo.TRef.of main_v30 h1 h2 h3).ofBuf v = v := rfl

theorem s3_take_toBuf (h1 : main_v31.ty = ⟨S800000x64, .f32⟩) (h2 h3)
    (v : (⟨S800000x64, .f32⟩ : BufTy).Contents (Elt Ideal)) :
    (StableHlo.TRef.of main_v31 h1 h2 h3).toBuf v = v := rfl

/-! ## Each stretch, from any contents -/

section
variable (V : Valuation τ sig (Elt Ideal))

/-- The re-laying: main_v30 holds main_v29's contents as 200000 rows of 64 … -/
theorem s3_relaid : StableHlo.after (hostOps7 (F := Ideal)) V (Proc.devRef .tc main_v30)
    = shapeCast S200000x64 (V (Proc.devRef .tc main_v29)) shapeCasts_S50000x256_S200000x64 := by
  simp only [hostOps7]; after_results; rfl

/-- … and leaves the flat index words … -/
theorem s3_relaid_flat : StableHlo.after (hostOps7 (F := Ideal)) V (Proc.devRef .tc main_v7) = V (Proc.devRef .tc main_v7) := by
  simp only [hostOps7]; after_results

/-- … and the destination words as they were. -/
theorem s3_relaid_dst : StableHlo.after (hostOps7 (F := Ideal)) V (Proc.devRef .tc main_arg8) = V (Proc.devRef .tc main_arg8) := by
  simp only [hostOps7]; after_results

/-- The take: main_v31 holds the rows of main_v30's table at main_v7's words … -/
theorem s3_taken : StableHlo.after (hostOps7_1 (F := Ideal)) V (Proc.devRef .tc main_v31)
    = takeRows (V (Proc.devRef .tc main_v30)) (V (Proc.devRef .tc main_v7)) := by
  simp only [hostOps7_1]
  after_results_simp
  simp only [ofBuf_toBuf]
  simp only [s3_take_toBuf, s3_rows_ofBuf, s3_flat_ofBuf]
  rfl

/-- … and leaves the destination words as they were. -/
theorem s3_taken_dst : StableHlo.after (hostOps7_1 (F := Ideal)) V (Proc.devRef .tc main_arg8) = V (Proc.devRef .tc main_arg8) := by
  simp only [hostOps7_1]; after_results_simp

/-- The sum per destination: main_v34 holds the scatter-add of main_v31's rows at main_arg8's words onto zero. -/
theorem s3_summed : StableHlo.after (hostOps7_2 (F := Ideal)) V (Proc.devRef .tc main_v34)
    = aggK (V (Proc.devRef .tc main_arg8)) (V (Proc.devRef .tc main_v31)) := by
  simp only [hostOps7_2]; after_results; rfl

end

/-! ## The three in order -/

theorem stretch3 (Wv : Valuation τ sig (Elt Ideal)) :
    StableHlo.after (hostOps7_2 (F := Ideal)) (StableHlo.after (hostOps7_1 (F := Ideal)) (StableHlo.after (hostOps7 (F := Ideal)) Wv))
        (Proc.devRef .tc main_v34)
      = aggK (Wv (Proc.devRef .tc main_arg8)) (takeK (Wv (Proc.devRef .tc main_v29)) (Wv (Proc.devRef .tc main_v7))) := by
  rw [s3_summed, s3_taken, s3_taken_dst, s3_relaid, s3_relaid_flat, s3_relaid_dst]
  rfl

end Cert.GatedGraph

end
-- ==== Proof.KStep3.lean ====
/-
  The fourth step of the kernel's program, read off the run's boundary contents: what the GRU region leaves in its output
  array is one step of the specification applied to what the step's state buffer held when the step began.

  The per-node region leaves the state under the re-laid weight tables; the reshape, the row gather at source · 4 + type and
  the scatter-add turn that into the aggregate of the messages; the GRU region combines the aggregate with the state against
  the transposed GRU tables. The tables, biases and index words are what the first host stretch made of the arguments, carried
  unchanged to where each is read.
-/
import proofs.«410194_j38886633898060_1_alg».proof.Proof.Gen.KernelIdeal.Frame
import proofs.«410194_j38886633898060_1_alg».proof.Proof.Spec
import proofs.«410194_j38886633898060_1_alg».proof.Proof.SpecLemmas
import proofs.«410194_j38886633898060_1_alg».proof.Proof.HallRegion6
import proofs.«410194_j38886633898060_1_alg».proof.Proof.GruRegion7
import proofs.«410194_j38886633898060_1_alg».proof.Proof.TakeLemma
import proofs.«410194_j38886633898060_1_alg».proof.Proof.TakeStretch3
import proofs.«410194_j38886633898060_1_alg».proof.Proof.Carry
import proofs.«410194_j38886633898060_1_alg».proof.Proof.KHost0

set_option maxRecDepth 16384

noncomputable section

namespace Cert.KernelIdeal.KStep

open Cert.KernelIdeal Cert.KernelIdeal.Gen Cert.GatedGraph
open Cert.KernelIdeal.Carry Cert.KernelIdeal.KHost0
open Idealize.ShloMosaic Idealize.ShloMosaic.TcCoe Idealize.ShloMosaic.StableHlo

variable (m : (ℓ : Loc nD τ sig) → Buf (Elt Ideal) ℓ) (ρ : Dev nD → PrngReg)

/-- The fourth step. -/
theorem kstep3 (c : Dev nD) (hr : InRange (m ((c : Thread nD τ).loc main_arg7)) (m ((c : Thread nD τ).loc main_arg9))) :
    W21 m ρ c (Proc.devRef .tc main_v35)
      = step (aggK (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (srcN (m ((c : Thread nD τ).loc main_arg7))) (etN (m ((c : Thread nD τ).loc main_arg9)))
          (W16 m ρ c (Proc.devRef .tc main_v28)) := by
  -- the tables, biases and words where they are read
  have h8 : W17 m ρ c (Proc.devRef .tc main_arg8) = (m ((c : Thread nD τ).loc main_arg8)) := (carry_main_arg8_17 m ρ c).trans (W1_arg8 m ρ c)
  have h7 : W17 m ρ c (Proc.devRef .tc main_v7) = flatOf (m ((c : Thread nD τ).loc main_arg7)) (m ((c : Thread nD τ).loc main_arg9)) := (carry_main_v7_17 m ρ c).trans (W1_flat m ρ c)
  have h1 : W16 m ρ c (Proc.devRef .tc main_v1) = winOf (m ((c : Thread nD τ).loc main_arg1)) := (carry_main_v1_16 m ρ c).trans (W1_win m ρ c)
  have h2 : W16 m ρ c (Proc.devRef .tc main_v2) = bcatOf (m ((c : Thread nD τ).loc main_arg2)) := (carry_main_v2_16 m ρ c).trans (W1_bcat m ρ c)
  have h3 : W20 m ρ c (Proc.devRef .tc main_v3) = transp (m ((c : Thread nD τ).loc main_arg3)) := (carry_main_v3_20 m ρ c).trans (W1_wihT m ρ c)
  have h4 : W20 m ρ c (Proc.devRef .tc main_v4) = transp (m ((c : Thread nD τ).loc main_arg4)) := (carry_main_v4_20 m ρ c).trans (W1_whhT m ρ c)
  have h5 : W20 m ρ c (Proc.devRef .tc main_arg5) = (m ((c : Thread nD τ).loc main_arg5)) := (carry_main_arg5_20 m ρ c).trans (W1_arg5 m ρ c)
  have h6 : W20 m ρ c (Proc.devRef .tc main_arg6) = (m ((c : Thread nD τ).loc main_arg6)) := (carry_main_arg6_20 m ρ c).trans (W1_arg6 m ρ c)
  have hh : W20 m ρ c (Proc.devRef .tc main_v28) = W16 m ρ c (Proc.devRef .tc main_v28) := carry_h3 m ρ c
  -- the per-node region's output array
  have hX : W17 m ρ c (Proc.devRef .tc main_v29)
      = hallT (W16 m ρ c (Proc.devRef .tc main_v28)) (winOf (m ((c : Thread nD τ).loc main_arg1))) (bcatOf (m ((c : Thread nD τ).loc main_arg2))) := by
    refine (W17_arr m ρ c 3).trans ((Cert.KernelIdeal.HallRegion6.hall_arr6 (V16 m ρ) c).trans ?_)
    show hallT (W16 m ρ c (Proc.devRef .tc main_v28)) (W16 m ρ c (Proc.devRef .tc main_v1)) (W16 m ρ c (Proc.devRef .tc main_v2)) = _
    rw [h1, h2]
  -- the aggregate of the messages
  have ha : W20 m ρ c (Proc.devRef .tc main_v34)
      = aggK (m ((c : Thread nD τ).loc main_arg8)) (msg (W16 m ρ c (Proc.devRef .tc main_v28)) (m ((c : Thread nD τ).loc main_arg1)) (m ((c : Thread nD τ).loc main_arg2)) (srcN (m ((c : Thread nD τ).loc main_arg7))) (etN (m ((c : Thread nD τ).loc main_arg9)))) := by
    refine (Cert.GatedGraph.stretch3 (W17 m ρ c)).trans ?_
    rw [h8, h7, hX, takeK_eq hr]
    exact congrArg (aggK (m ((c : Thread nD τ).loc main_arg8))) (hallT_gather _ _ _ _ _)
  -- the GRU region's output array
  refine (W21_arr m ρ c 6).trans ((Cert.KernelIdeal.GruRegion7.gru_arr7 (V20 m ρ) c).trans ?_)
  show gruT (W20 m ρ c (Proc.devRef .tc main_v34)) (W20 m ρ c (Proc.devRef .tc main_v28)) (W20 m ρ c (Proc.devRef .tc main_v3)) (W20 m ρ c (Proc.devRef .tc main_v4))
      (W20 m ρ c (Proc.devRef .tc main_arg5)) (W20 m ρ c (Proc.devRef .tc main_arg6)) = _
  rw [ha, hh, h3, h4, h5, h6, gruT_transp]
  rfl

end Cert.KernelIdeal.KStep

end
-- ==== Proof.HallRegion8.lean ====
/-
  One pass of "every node's state under all four linear maps at once", read off the region's ten grid points.

  The region's output array is a 50000 × 256 table. Grid point `t` (of ten) loads rows `5000 t … 5000 t + 4999` of the
  50000 × 64 node table `h`, the whole 64 × 256 weight table `win` and the whole bias row `bcat`, and stores, at `(p, q)` of
  its 5000 × 256 block,
      (∑ k, h (5000 t + p, k) · win (k, q)) + bcat q :
  the product of the (rounded, which on the extended reals is the identity) blocks accumulated from zero, plus the bias row
  repeated down the rows. The ten blocks tile the rows of the output, row `r` lying in block `r / 5000`, so after the region
  the output array is `hallT h win bcat` — for any contents `V` of the arrays at the region's entry.
-/
import proofs.«410194_j38886633898060_1_alg».proof.Proof.Gen.KernelIdeal.Frame
import proofs.«410194_j38886633898060_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HallRegion8

open Cert.KernelIdeal Cert.KernelIdeal.Gen Cert.GatedGraph
open Idealize.ShloMosaic Idealize.ShloMosaic.TcCoe Idealize.SL.Sem Idealize.ShloMosaic.ValueIdx
open Idealize.ShloMosaic.Pipeline (Dat)
open scoped BigOperators

/-! ## The contraction's two index maps, axis by axis

The product contracts the second axis of the 5000 × 64 operand with the first axis of the 64 × 256 operand: at the result's
index `(p, q)` and contraction position `k` the left operand is read at `(p, k)` and the right one at `(k, q)`. -/

theorem lhs_axis0 (i : S5000x256.Idx) (r : dot_S5000x64_S64x256_S5000x256_1_0_0_1_n_n.contr.Idx) :
    (dot_S5000x64_S64x256_S5000x256_1_0_0_1_n_n.lhsIdx i r 0).val = (i 0).val := by
  unfold DotDims.lhsIdx
  rw [dif_neg (show ¬(0 : Fin S5000x64.rank) ∈ dot_S5000x64_S64x256_S5000x256_1_0_0_1_n_n.lhsBatch by decide),
    dif_pos (show (0 : Fin S5000x64.rank) ∈ dot_S5000x64_S64x256_S5000x256_1_0_0_1_n_n.lhsNonContracting by decide)]
  rfl

theorem lhs_axis1 (i : S5000x256.Idx) (r : dot_S5000x64_S64x256_S5000x256_1_0_0_1_n_n.contr.Idx) :
    (dot_S5000x64_S64x256_S5000x256_1_0_0_1_n_n.lhsIdx i r 1).val = (r ⟨0, by decide⟩).val :=
  dot_S5000x64_S64x256_S5000x256_1_0_0_1_n_n.lhsIdx_val_of_single rfl i r

theorem rhs_axis0 (i : S5000x256.Idx) (r : dot_S5000x64_S64x256_S5000x256_1_0_0_1_n_n.contr.Idx) :
    (dot_S5000x64_S64x256_S5000x256_1_0_0_1_n_n.rhsIdx i r 0).val = (r ⟨0, by decide⟩).val :=
  dot_S5000x64_S64x256_S5000x256_1_0_0_1_n_n.rhsIdx_val_of_single rfl i r

theorem rhs_axis1 (i : S5000x256.Idx) (r : dot_S5000x64_S64x256_S5000x256_1_0_0_1_n_n.contr.Idx) :
    (dot_S5000x64_S64x256_S5000x256_1_0_0_1_n_n.rhsIdx i r 1).val = (i 1).val := by
  unfold DotDims.rhsIdx
  rw [dif_neg (show ¬(1 : Fin S64x256.rank) ∈ dot_S5000x64_S64x256_S5000x256_1_0_0_1_n_n.rhsBatch by decide),
    dif_pos (show (1 : Fin S64x256.rank) ∈ dot_S5000x64_S64x256_S5000x256_1_0_0_1_n_n.rhsNonContracting by decide)]
  rfl

/-- The product into the zero accumulator, read at `(p, q)`: row `p` of the left operand against column `q` of the
    right one, summed over the 64 contracted positions. -/
theorem product_apply (a : FVec Ideal S5000x64 .bf16) (b : FVec Ideal S64x256 .bf16) (p : Fin 5000) (q : Fin 256) :
    matmul dot_S5000x64_S64x256_S5000x256_1_0_0_1_n_n none a b (constant (F := Ideal) S5000x256 .f32 0x00000000#32) (ix2 p q)
      = ∑ k : Fin 64, a (ix2 p k) * b (ix2 k q) := by
  refine (Ideal.matmul_constant_zero_apply dot_S5000x64_S64x256_S5000x256_1_0_0_1_n_n none a b (ix2 p q)).trans ?_
  rw [← Equiv.sum_comp (contrEquiv1 dot_S5000x64_S64x256_S5000x256_1_0_0_1_n_n 64 rfl rfl).symm]
  refine Finset.sum_congr rfl fun k _ => ?_
  have hk := contrEquiv1_symm_val dot_S5000x64_S64x256_S5000x256_1_0_0_1_n_n 64 rfl rfl k
  have el : dot_S5000x64_S64x256_S5000x256_1_0_0_1_n_n.lhsIdx (ix2 p q)
      ((contrEquiv1 dot_S5000x64_S64x256_S5000x256_1_0_0_1_n_n 64 rfl rfl).symm k) = ix2 p k := funext fun ax => Fin.ext (by
    match ax with
    | ⟨0, _⟩ => exact lhs_axis0 _ _
    | ⟨1, _⟩ => exact (lhs_axis1 _ _).trans hk)
  have er : dot_S5000x64_S64x256_S5000x256_1_0_0_1_n_n.rhsIdx (ix2 p q)
      ((contrEquiv1 dot_S5000x64_S64x256_S5000x256_1_0_0_1_n_n 64 rfl rfl).symm k) = ix2 k q := funext fun ax => Fin.ext (by
    match ax with
    | ⟨0, _⟩ => exact (rhs_axis0 _ _).trans hk
    | ⟨1, _⟩ => exact rhs_axis1 _ _)
  rw [el, er]

/-! ## The body's stored value at an index

The body rounds the node block and the weight table to bf16 (the identity on extended reals), multiplies them into a zero
accumulator, and adds the bias row broadcast over the 5000 rows. -/

/-- The stored value at `(p, q)`: row `p` of the node block against column `q` of the weight table, plus the bias at `q`. -/
theorem stored_apply (x0 : Vec Ideal S5000x64 .f32) (x1 : Vec Ideal S64x256 .f32) (x2 : Vec Ideal S256 .f32)
    (p : Fin 5000) (q : Fin 256) :
    (k8_pay1 (F := Ideal) x0 x1 x2) (ix2 p q) = (∑ k : Fin 64, x0 (ix2 p k) * x1 (ix2 k q)) + x2 (ix1 q) := by
  unfold k8_pay1
  simp only [shapeCast_self]
  refine (addf_apply _ _ (ix2 p q)).trans ?_
  refine congrArg₂ (· + ·) ?_ ?_
  · exact product_apply _ _ p q
  · refine (broadcastTo_1b_ab_apply _ _ p q).trans ?_
    exact shapeCast_a_1a_apply x2 _ 0 q

/-- One grid point's output block as rows of the whole result: if the loaded node block is rows `off …` of `h` and the other
    two loaded blocks are the weight table and the bias row, the stored value at `j` is `hallT h win bcat` at row
    `off + j 0`, column `j 1`. -/
theorem stored_block (h : Mat 50000 64) (win : Mat 64 256) (bcat : Row 256)
    (x0 : Vec Ideal S5000x64 .f32) (x1 : Vec Ideal S64x256 .f32) (x2 : Vec Ideal S256 .f32) (off : Nat)
    (hx0 : ∀ (y : S5000x64.Idx) (z : S50000x64.Idx), (z 0).val = off + (y 0).val → (z 1).val = (y 1).val → x0 y = h z)
    (hx1 : ∀ y : S64x256.Idx, x1 y = win y) (hx2 : ∀ y : S256.Idx, x2 y = bcat y)
    (j : S5000x256.Idx) (i : S50000x256.Idx) (hi0 : (i 0).val = off + (j 0).val) (hi1 : (i 1).val = (j 1).val) :
    (k8_pay1 (F := Ideal) x0 x1 x2) j = hallT h win bcat i := by
  obtain ⟨p, q, rfl⟩ : ∃ (p : Fin 5000) (q : Fin 256), j = ix2 p q := ⟨j 0, j 1, eq_ix2 j⟩
  obtain ⟨n, q', rfl⟩ : ∃ (n : Fin 50000) (q' : Fin 256), i = ix2 n q' := ⟨i 0, i 1, eq_ix2 i⟩
  have hq : q = q' := (Fin.ext hi1).symm
  subst hq
  refine (stored_apply x0 x1 x2 p q).trans ?_
  show _ = (∑ k : Fin 64, h (ix2 n k) * win (ix2 k q)) + bcat (ix1 q)
  refine congrArg₂ (· + ·) (Finset.sum_congr rfl fun k _ => ?_) (hx2 _)
  exact congrArg₂ (· * ·) (hx0 (ix2 p k) (ix2 n k) hi0 rfl) (hx1 _)

/-! ## From the blocks to the array

Grid point `t` loads rows `5000 t … 5000 t + 4999` of the node table, the whole weight table and the whole bias row, and
writes rows `5000 t … 5000 t + 4999` of the result; the ten points' blocks cover its 50000 rows. -/

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- The body's one store covers the output block, and its loads read whole blocks: what it leaves is the stored value
    of the three loaded blocks. -/
theorem left_eq (x0 : Vec Ideal S5000x64 .f32) (x1 : Vec Ideal S64x256 .f32) (x2 : Vec Ideal S256 .f32) :
    out8_3 (F := Ideal) x0 x1 x2 = k8_pay1 (F := Ideal) x0 x1 x2 := by
  unfold out8_3
  rw [View.canon_unit_zero zeros2]
  simp only [View.ld_unit_zero (S := S5000x64) zeros2, View.ld_unit_zero (S := S64x256) zeros2,
    View.ld_unit_zero (S := S256) zeros1]

/-- The block index of each window at each of the ten points: the node window and the output window move down one block
    per point, the weight table and the bias row stay. -/
theorem block_indices : ∀ t : Fin cfg8.N,
    win8_0.index t (0 : Fin 2) = t.val ∧ win8_0.index t (1 : Fin 2) = 0
    ∧ win8_1.index t (0 : Fin 2) = 0 ∧ win8_1.index t (1 : Fin 2) = 0
    ∧ win8_2.index t (0 : Fin 1) = 0
    ∧ win8_3.index t (0 : Fin 2) = t.val ∧ win8_3.index t (1 : Fin 2) = 0 :=
  (by decide +kernel : ∀ t : Fin grid8.N, _)

/-- The node window's block at point `t` is rows `5000 t …` of the node table. -/
theorem node_block_apply (c : Dev nD) (t : Fin cfg8.N) (y : S5000x64.Idx) (z : S50000x64.Idx)
    (h0 : (z 0).val = t.val * 5000 + (y 0).val) (h1 : (z 1).val = (y 1).val) :
    (iblk8 V c 0 t : Vec Ideal S5000x64 .f32) y = (V c main_v35 : S50000x64.Idx → EReal) z := by
  obtain ⟨e0, e1, -⟩ := block_indices t
  unfold iblk8
  rw [View.read_apply]
  show V c main_v35 _ = V c main_v35 _
  refine congrArg _ (funext fun a => Fin.ext ?_)
  match a with
  | ⟨0, _⟩ => show win8_0.index t (0 : Fin 2) * 5000 + 1 * (y 0).val = (z 0).val; rw [e0, h0]; omega
  | ⟨1, _⟩ => show win8_0.index t (1 : Fin 2) * 64 + 1 * (y 1).val = (z 1).val; rw [e1, h1]; omega

/-- The weight window's block is the whole weight table at every point. -/
theorem weight_block_apply (c : Dev nD) (t : Fin cfg8.N) (y : S64x256.Idx) :
    (iblk8 V c 1 t : Vec Ideal S64x256 .f32) y = (V c main_v1 : S64x256.Idx → EReal) y := by
  obtain ⟨-, -, e0, e1, -⟩ := block_indices t
  unfold iblk8
  rw [View.read_apply]
  show V c main_v1 _ = V c main_v1 _
  refine congrArg _ (funext fun a => Fin.ext ?_)
  match a with
  | ⟨0, _⟩ => show win8_1.index t (0 : Fin 2) * 64 + 1 * (y 0).val = (y 0).val; rw [e0]; omega
  | ⟨1, _⟩ => show win8_1.index t (1 : Fin 2) * 256 + 1 * (y 1).val = (y 1).val; rw [e1]; omega

/-- The bias window's block is the whole bias row at every point. -/
theorem bias_block_apply (c : Dev nD) (t : Fin cfg8.N) (y : S256.Idx) :
    (iblk8 V c 2 t : Vec Ideal S256 .f32) y = (V c main_v2 : S256.Idx → EReal) y := by
  obtain ⟨-, -, -, -, e0, -⟩ := block_indices t
  unfold iblk8
  rw [View.read_apply]
  show V c main_v2 _ = V c main_v2 _
  refine congrArg _ (funext fun a => Fin.ext ?_)
  match a with
  | ⟨0, _⟩ => show win8_2.index t (0 : Fin 1) * 256 + 1 * (y 0).val = (y 0).val; rw [e0]; omega

/-- What point `t` writes back is block `t` of the whole result `hallT` of the three arrays as the region finds them. -/
theorem written_eq (c : Dev nD) (t : Fin cfg8.N) :
    (dat8 V c).flushed 3 t
      = ((cfg8.win 3).blk t).view.read (Elt Ideal) (hallT (V c main_v35) (V c main_v1) (V c main_v2)) := by
  show (cfg8.win 3).cut (grid8.coords t) ((dat8 V c).after 3 t) = _
  rw [after8_3, left_eq]
  obtain ⟨-, -, -, -, -, e0, e1⟩ := block_indices t
  funext j
  show (k8_pay1 (F := Ideal) (iblk8 V c 0 t) (iblk8 V c 1 t) (iblk8 V c 2 t)) j
    = hallT (V c main_v35) (V c main_v1) (V c main_v2) (((cfg8.win 3).blk t).view.emb j)
  exact stored_block (V c main_v35) (V c main_v1) (V c main_v2) (iblk8 V c 0 t) (iblk8 V c 1 t) (iblk8 V c 2 t)
    (t.val * 5000) (fun y z h0 h1 => node_block_apply V c t y z h0 h1) (fun y => weight_block_apply V c t y)
    (fun y => bias_block_apply V c t y) j (((cfg8.win 3).blk t).view.emb j)
    (by show win8_3.index t (0 : Fin 2) * 5000 + 1 * (j 0).val = t.val * 5000 + (j 0).val; rw [e0]; omega)
    (by show win8_3.index t (1 : Fin 2) * 256 + 1 * (j 1).val = (j 1).val; rw [e1]; omega)

/-- An index of the result array is in point `t`'s block iff each coordinate is in the block's range on its axis. -/
theorem mem_block (t : Fin cfg8.N) (i : S50000x256.Idx) :
    i ∈ ((cfg8.win 3).blk t).view.set
      ↔ ∀ a : Fin 2, win8_3.index t a * S5000x256.size a ≤ (i a).val
          ∧ (i a).val < win8_3.index t a * S5000x256.size a + S5000x256.size a := by
  show i ∈ ((View.whole main_v36).slice (win8_3.rect t)).set ↔ _
  rw [View.set_slice_whole, Rect.mem_set_unit]
  exact Iff.rfl

/-- Row `r` of the result lies in the block of point `r / 5000`. -/
theorem covered (i : S50000x256.Idx) :
    ∃ t : Fin cfg8.N, (cfg8.win 3).flush t = true ∧ i ∈ ((cfg8.win 3).blk t).view.set := by
  have hN : cfg8.N = 10 := N_8
  have hi0 : (i 0).val < 50000 := (i 0).isLt
  have hi1 : (i 1).val < 256 := (i 1).isLt
  refine ⟨⟨(i 0).val / 5000, by rw [hN]; omega⟩, flush8_3 _, ?_⟩
  obtain ⟨-, -, -, -, -, e0, e1⟩ := block_indices ⟨(i 0).val / 5000, by rw [hN]; omega⟩
  rw [mem_block]
  intro a
  match a with
  | ⟨0, _⟩ =>
    show win8_3.index _ (0 : Fin 2) * 5000 ≤ (i 0).val ∧ (i 0).val < win8_3.index _ (0 : Fin 2) * 5000 + 5000
    rw [e0]; show (i 0).val / 5000 * 5000 ≤ (i 0).val ∧ (i 0).val < (i 0).val / 5000 * 5000 + 5000; omega
  | ⟨1, _⟩ =>
    show win8_3.index _ (1 : Fin 2) * 256 ≤ (i 1).val ∧ (i 1).val < win8_3.index _ (1 : Fin 2) * 256 + 256
    rw [e1]; omega

/-- After the region's ten points the output array holds every node's state under all four maps at once. -/
theorem hall_arr8 (V : (c : Dev nD) → (b : Ref sig .tc) → Buf (Elt Ideal) ((c : Thread nD τ).loc b)) (c : Dev nD) :
    (dat8 (F := Ideal) V c).arrAt 3 cfg8.N = hallT (V c main_v35) (V c main_v1) (V c main_v2) :=
  (dat8 V c).arrAt_eq_of_cover 3 (hallT (V c main_v35) (V c main_v1) (V c main_v2)) (fun t _ => written_eq V c t) covered

end Cert.KernelIdeal.HallRegion8

end
-- ==== Proof.GruRegion9.lean ====
/-
  The table a GRU region leaves, read off its ten grid points.

  The region runs the cell on ten blocks of 5000 rows: at grid point `t` it stages rows `5000 t … 5000 t + 4999` of the
  aggregate table `main_v41` and of the state table `main_v35`, the two transposed weight tables `main_v3`, `main_v4` and
  the two bias rows `main_arg5`, `main_arg6` whole, stores the cell of those blocks into the output's staging block, and
  writes that block back to rows `5000 t … 5000 t + 4999` of `main_v42`. Entry `(p, q)` of the cell of a block depends on row
  `p` of the two row blocks only, which is row `5000 t + p` of the tables; so each point writes its rows of ONE table
  function, the specification's `gruT` of the six arrays as the region finds them, and the ten blocks cover the table
  (row `r` lies in the block of point `r / 5000`): the output array ends holding that function.
-/
import proofs.«410194_j38886633898060_1_alg».proof.Proof.Gen.KernelIdeal.Frame
import proofs.«410194_j38886633898060_1_alg».proof.Proof.Spec
import proofs.«410194_j38886633898060_1_alg».proof.Proof.GruCell
import Idealize.ShloMosaic.Lib.ValueIdx
import Idealize.ShloMosaic.Lib.Pipeline.Value

noncomputable section

namespace Cert.KernelIdeal.GruRegion9

open Cert.KernelIdeal Cert.KernelIdeal.Gen Cert.GatedGraph Cert.KernelIdeal.GruCell
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The body's payload is the cell of its six loaded blocks (the casts to a vector's own shape dropped). -/
theorem pay_eq (a h : Vec Ideal S5000x64 .f32) (wih whh : Vec Ideal S64x192 .f32) (bih bhh : Vec Ideal S192 .f32) :
    k9_pay1 (F := Ideal) a h wih whh bih bhh = cell a h wih whh bih bhh := by
  unfold k9_pay1 cell cellOf pre
  simp only [shapeCast_self]

/-- The index maps over the ten grid points: the two row-blocked inputs and the output sit at row block `t`, column block 0;
    the four tables at block 0 on every axis. -/
theorem idx_facts : ∀ t : Fin cfg9.N,
    win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 1) = 0
    ∧ win9_5.index t (0 : Fin 1) = 0
    ∧ win9_6.index t (0 : Fin 2) = t.val ∧ win9_6.index t (1 : Fin 2) = 0 :=
  (by decide +kernel : ∀ t : Fin grid9.N, _)

/-- Entry `(p, k)` of the aggregate's block at point `t` is entry `(5000 t + p, k)` of the aggregate table. -/
theorem ablk_ix (c : Dev nD) (t : Fin cfg9.N) (p : Fin 5000) (k : Fin 64) (n : Fin 50000) (hn : n.val = t.val * 5000 + p.val) :
    (iblk9 V c 0 t : Vec Ideal S5000x64 .f32) (ix2 p k) = (V c main_v41 : Mat 50000 64) (ix2 n k) := by
  obtain ⟨e0, e1, -⟩ := idx_facts t
  unfold iblk9
  rw [View.read_apply]
  show V c main_v41 _ = V c main_v41 _
  congr 1
  funext a; apply Fin.ext
  match a with
  | ⟨0, _⟩ => show win9_0.index t (0 : Fin 2) * 5000 + 1 * p.val = n.val; rw [e0, hn]; omega
  | ⟨1, _⟩ => show win9_0.index t (1 : Fin 2) * 64 + 1 * k.val = k.val; rw [e1]; omega

/-- Entry `(p, k)` of the state's block at point `t` is entry `(5000 t + p, k)` of the state table. -/
theorem hblk_ix (c : Dev nD) (t : Fin cfg9.N) (p : Fin 5000) (k : Fin 64) (n : Fin 50000) (hn : n.val = t.val * 5000 + p.val) :
    (iblk9 V c 1 t : Vec Ideal S5000x64 .f32) (ix2 p k) = (V c main_v35 : Mat 50000 64) (ix2 n k) := by
  obtain ⟨-, -, e0, e1, -⟩ := idx_facts t
  unfold iblk9
  rw [View.read_apply]
  show V c main_v35 _ = V c main_v35 _
  congr 1
  funext a; apply Fin.ext
  match a with
  | ⟨0, _⟩ => show win9_1.index t (0 : Fin 2) * 5000 + 1 * p.val = n.val; rw [e0, hn]; omega
  | ⟨1, _⟩ => show win9_1.index t (1 : Fin 2) * 64 + 1 * k.val = k.val; rw [e1]; omega

/-- The two weight tables and the two bias rows are staged whole at every point. -/
theorem wih_whole (c : Dev nD) (t : Fin cfg9.N) : (iblk9 V c 2 t : Vec Ideal S64x192 .f32) = V c main_v3 := by
  obtain ⟨-, -, -, -, e0, e1, -⟩ := idx_facts t
  funext j
  unfold iblk9
  rw [View.read_apply]
  show V c main_v3 _ = V c main_v3 j
  congr 1
  funext a; apply Fin.ext
  match a with
  | ⟨0, _⟩ => show win9_2.index t (0 : Fin 2) * 64 + 1 * (j 0).val = (j 0).val; rw [e0]; omega
  | ⟨1, _⟩ => show win9_2.index t (1 : Fin 2) * 192 + 1 * (j 1).val = (j 1).val; rw [e1]; omega
theorem whh_whole (c : Dev nD) (t : Fin cfg9.N) : (iblk9 V c 3 t : Vec Ideal S64x192 .f32) = V c main_v4 := by
  obtain ⟨-, -, -, -, -, -, e0, e1, -⟩ := idx_facts t
  funext j
  unfold iblk9
  rw [View.read_apply]
  show V c main_v4 _ = V c main_v4 j
  congr 1
  funext a; apply Fin.ext
  match a with
  | ⟨0, _⟩ => show win9_3.index t (0 : Fin 2) * 64 + 1 * (j 0).val = (j 0).val; rw [e0]; omega
  | ⟨1, _⟩ => show win9_3.index t (1 : Fin 2) * 192 + 1 * (j 1).val = (j 1).val; rw [e1]; omega
theorem bih_whole (c : Dev nD) (t : Fin cfg9.N) : (iblk9 V c 4 t : Vec Ideal S192 .f32) = V c main_arg5 := by
  obtain ⟨-, -, -, -, -, -, -, -, e0, -⟩ := idx_facts t
  funext j
  unfold iblk9
  rw [View.read_apply]
  show V c main_arg5 _ = V c main_arg5 j
  congr 1
  funext a; apply Fin.ext
  match a with
  | ⟨0, _⟩ => show win9_4.index t (0 : Fin 1) * 192 + 1 * (j 0).val = (j 0).val; rw [e0]; omega
theorem bhh_whole (c : Dev nD) (t : Fin cfg9.N) : (iblk9 V c 5 t : Vec Ideal S192 .f32) = V c main_arg6 := by
  obtain ⟨-, -, -, -, -, -, -, -, -, e0, -⟩ := idx_facts t
  funext j
  unfold iblk9
  rw [View.read_apply]
  show V c main_arg6 _ = V c main_arg6 j
  congr 1
  funext a; apply Fin.ext
  match a with
  | ⟨0, _⟩ => show win9_5.index t (0 : Fin 1) * 192 + 1 * (j 0).val = (j 0).val; rw [e0]; omega

/-- The table function the region leaves: the cell of the specification over the six arrays as the region finds them. -/
abbrev G (c : Dev nD) : Mat 50000 64 :=
  gruT (V c main_v41) (V c main_v35) (V c main_v3) (V c main_v4) (V c main_arg5) (V c main_arg6)

/-- WHAT POINT `t` WRITES BACK is rows `5000 t … 5000 t + 4999` of `G`. -/
theorem flushed_eq (c : Dev nD) (t : Fin cfg9.N) :
    (dat9 (F := Ideal) V c).flushed 6 t = ((cfg9.win 6).blk t).view.read (Elt Ideal) (G V c) := by
  have ht : t.val < 10 := lt_of_lt_of_eq t.isLt N_9
  obtain ⟨-, -, -, -, -, -, -, -, -, -, e0, e1⟩ := idx_facts t
  show (cfg9.win 6).cut (grid9.coords t) ((dat9 V c).after 6 t) = _
  rw [after9_6]
  unfold out9_6
  rw [View.canon_unit_zero hz2]
  simp only [View.ld_unit_zero (S := S5000x64) hz2, View.ld_unit_zero (S := S64x192) hz2, View.ld_unit_zero (S := S192) hz1]
  rw [pay_eq, wih_whole, whh_whole, bih_whole, bhh_whole]
  funext y
  obtain ⟨p, q, rfl⟩ : ∃ (p : Fin 5000) (q : Fin 64), y = ix2 p q := ⟨y 0, y 1, eq_ix2 y⟩
  have hp : p.val < 5000 := p.isLt
  rw [View.read_apply]
  show cell (iblk9 V c 0 t) (iblk9 V c 1 t) (V c main_v3) (V c main_v4) (V c main_arg5) (V c main_arg6) (ix2 p q) = G V c _
  refine (cell_ix (V c main_v41) (V c main_v35) (iblk9 V c 0 t) (iblk9 V c 1 t) (V c main_v3) (V c main_v4) (V c main_arg5)
    (V c main_arg6) ⟨t.val * 5000 + p.val, by omega⟩ p q (fun k => ablk_ix V c t p k _ rfl) (fun k => hblk_ix V c t p k _ rfl)).trans ?_
  show G V c _ = G V c _
  congr 1
  funext a; apply Fin.ext
  match a with
  | ⟨0, _⟩ => show t.val * 5000 + p.val = win9_6.index t (0 : Fin 2) * 5000 + 1 * p.val; rw [e0]; omega
  | ⟨1, _⟩ => show q.val = win9_6.index t (1 : Fin 2) * 64 + 1 * q.val; rw [e1]; omega

/-- An index of the table is in point `t`'s block iff each coordinate is in the block's range on its axis. -/
theorem mem_blk (t : Fin cfg9.N) (i : S50000x64.Idx) :
    i ∈ ((cfg9.win 6).blk t).view.set ↔ ∀ a : Fin 2, win9_6.index t a * S5000x64.size a ≤ (i a).val ∧ (i a).val < win9_6.index t a * S5000x64.size a + S5000x64.size a := by
  show i ∈ ((View.whole main_v42).slice (win9_6.rect t)).set ↔ _
  rw [View.set_slice_whole, Rect.mem_set_unit]
  exact Iff.rfl

/-- Every row of the table is in the block of the point `row / 5000`. -/
theorem cover (i : S50000x64.Idx) : ∃ t : Fin cfg9.N, (cfg9.win 6).flush t = true ∧ i ∈ ((cfg9.win 6).blk t).view.set := by
  have h0 : (i 0).val < 50000 := (i 0).isLt
  have h1 : (i 1).val < 64 := (i 1).isLt
  have hN : cfg9.N = 10 := N_9
  let t : Fin cfg9.N := ⟨(i 0).val / 5000, by rw [hN]; omega⟩
  obtain ⟨-, -, -, -, -, -, -, -, -, -, e0, e1⟩ := idx_facts t
  refine ⟨t, flush9_6 t, ?_⟩
  rw [mem_blk]
  intro a
  match a with
  | ⟨0, _⟩ =>
    show win9_6.index t (0 : Fin 2) * 5000 ≤ (i 0).val ∧ (i 0).val < win9_6.index t (0 : Fin 2) * 5000 + 5000
    rw [e0]; show (i 0).val / 5000 * 5000 ≤ (i 0).val ∧ (i 0).val < (i 0).val / 5000 * 5000 + 5000; omega
  | ⟨1, _⟩ =>
    show win9_6.index t (1 : Fin 2) * 64 ≤ (i 1).val ∧ (i 1).val < win9_6.index t (1 : Fin 2) * 64 + 64
    rw [e1]; omega

/-- THE ARRAY the region leaves in its output window: the cell of the specification over the six arrays it reads, as the
    region finds them. -/
theorem gru_arr9 (c : Dev nD) :
    (dat9 (F := Ideal) V c).arrAt 6 cfg9.N
      = gruT (V c main_v41) (V c main_v35) (V c main_v3) (V c main_v4) (V c main_arg5) (V c main_arg6) :=
  (dat9 (F := Ideal) V c).arrAt_eq_of_cover 6 (G V c) (fun t _ => flushed_eq V c t) cover
end Cert.KernelIdeal.GruRegion9
end
-- ==== Proof.TakeStretch4.lean ====
/-
  Step 4, between the region that applies all four linear maps and the GRU region: the program's three host
  stretches as one equation.

  The first stretch re-lays the region's 50000 × 256 result (buffer main_v36) as 200000 rows of 64 (main_v37). The second
  is the row take (23 operations): from the re-laid table and the flat index words (main_v7) it makes the 800000 × 64
  table of taken rows (main_v38). The third makes a zero table, the destination words (main_arg8) as a column, and sums
  the taken rows per destination node (main_v41). Read off in order, from ANY contents of the buffers before the first
  stretch, the last buffer holds  aggK dst (takeK X flat)  with X, flat and dst the contents of main_v36, main_v7 and
  main_arg8 before the first stretch: no operation of the three stretches writes main_v7 or main_arg8, and main_v36 is
  read once, by the re-laying.

  Each stretch is read over a variable valuation and the three are then composed; the take's operations are stated
  over typed references, whose transports of contents cancel (TakeLemma's `ofBuf_toBuf`) or are the identity at the
  two buffers the take reads and the one it returns.
-/
import proofs.«410194_j38886633898060_1_alg».proof.Proof.Gen.KernelIdeal.Launch
import proofs.«410194_j38886633898060_1_alg».proof.Proof.TakeLemma

-- two of the program's 249 references are told apart by evaluation, which recurses past the default depth
set_option maxRecDepth 4096

noncomputable section

namespace Cert.GatedGraph

open Idealize.ShloMosaic Idealize.ShloMosaic.ValueIdx
open Cert.KernelIdeal Cert.KernelIdeal.Gen

/-! ## The transports at the take's two operands and its result are the identity -/

theorem s4_flat_ofBuf (h1 : main_v7.ty = ⟨S800000, .i32⟩) (h2 h3) (v : main_v7.ty.Contents (Elt Ideal)) :
    (StableHlo.TRef.of main_v7 h1 h2 h3).ofBuf v = v := rfl

theorem s4_rows_ofBuf (h1 : main_v37.ty = ⟨S200000x64, .f32⟩) (h2 h3) (v : main_v37.ty.Contents (Elt Ideal)) :
    (StableHlo.TRef.of main_v37 h1 h2 h3).ofBuf v = v := rfl

theorem s4_take_toBuf (h1 : main_v38.ty = ⟨S800000x64, .f32⟩) (h2 h3)
    (v : (⟨S800000x64, .f32⟩ : BufTy).Contents (Elt Ideal)) :
    (StableHlo.TRef.of main_v38 h1 h2 h3).toBuf v = v := rfl

/-! ## Each stretch, from any contents -/

section
variable (V : Valuation τ sig (Elt Ideal))

/-- The re-laying: main_v37 holds main_v36's contents as 200000 rows of 64 … -/
theorem s4_relaid : StableHlo.after (hostOps9 (F := Ideal)) V (Proc.devRef .tc main_v37)
    = shapeCast S200000x64 (V (Proc.devRef .tc main_v36)) shapeCasts_S50000x256_S200000x64 := by
  simp only [hostOps9]; after_results; rfl

/-- … and leaves the flat index words … -/
theorem s4_relaid_flat : StableHlo.after (hostOps9 (F := Ideal)) V (Proc.devRef .tc main_v7) = V (Proc.devRef .tc main_v7) := by
  simp only [hostOps9]; after_results

/-- … and the destination words as they were. -/
theorem s4_relaid_dst : StableHlo.after (hostOps9 (F := Ideal)) V (Proc.devRef .tc main_arg8) = V (Proc.devRef .tc main_arg8) := by
  simp only [hostOps9]; after_results

/-- The take: main_v38 holds the rows of main_v37's table at main_v7's words … -/
theorem s4_taken : StableHlo.after (hostOps9_1 (F := Ideal)) V (Proc.devRef .tc main_v38)
    = takeRows (V (Proc.devRef .tc main_v37)) (V (Proc.devRef .tc main_v7)) := by
  simp only [hostOps9_1]
  after_results_simp
  simp only [ofBuf_toBuf]
  simp only [s4_take_toBuf, s4_rows_ofBuf, s4_flat_ofBuf]
  rfl

/-- … and leaves the destination words as they were. -/
theorem s4_taken_dst : StableHlo.after (hostOps9_1 (F := Ideal)) V (Proc.devRef .tc main_arg8) = V (Proc.devRef .tc main_arg8) := by
  simp only [hostOps9_1]; after_results_simp

/-- The sum per destination: main_v41 holds the scatter-add of main_v38's rows at main_arg8's words onto zero. -/
theorem s4_summed : StableHlo.after (hostOps9_2 (F := Ideal)) V (Proc.devRef .tc main_v41)
    = aggK (V (Proc.devRef .tc main_arg8)) (V (Proc.devRef .tc main_v38)) := by
  simp only [hostOps9_2]; after_results; rfl

end

/-! ## The three in order -/

theorem stretch4 (Wv : Valuation τ sig (Elt Ideal)) :
    StableHlo.after (hostOps9_2 (F := Ideal)) (StableHlo.after (hostOps9_1 (F := Ideal)) (StableHlo.after (hostOps9 (F := Ideal)) Wv))
        (Proc.devRef .tc main_v41)
      = aggK (Wv (Proc.devRef .tc main_arg8)) (takeK (Wv (Proc.devRef .tc main_v36)) (Wv (Proc.devRef .tc main_v7))) := by
  rw [s4_summed, s4_taken, s4_taken_dst, s4_relaid, s4_relaid_flat, s4_relaid_dst]
  rfl

end Cert.GatedGraph

end
-- ==== Proof.KStep4.lean ====
/-
  The fifth step of the kernel's program, read off the run's boundary contents: what the GRU region leaves in its output
  array is one step of the specification applied to what the step's state buffer held when the step began.

  The per-node region leaves the state under the re-laid weight tables; the reshape, the row gather at source · 4 + type and
  the scatter-add turn that into the aggregate of the messages; the GRU region combines the aggregate with the state against
  the transposed GRU tables. The tables, biases and index words are what the first host stretch made of the arguments, carried
  unchanged to where each is read.
-/
import proofs.«410194_j38886633898060_1_alg».proof.Proof.Gen.KernelIdeal.Frame
import proofs.«410194_j38886633898060_1_alg».proof.Proof.Spec
import proofs.«410194_j38886633898060_1_alg».proof.Proof.SpecLemmas
import proofs.«410194_j38886633898060_1_alg».proof.Proof.HallRegion8
import proofs.«410194_j38886633898060_1_alg».proof.Proof.GruRegion9
import proofs.«410194_j38886633898060_1_alg».proof.Proof.TakeLemma
import proofs.«410194_j38886633898060_1_alg».proof.Proof.TakeStretch4
import proofs.«410194_j38886633898060_1_alg».proof.Proof.Carry
import proofs.«410194_j38886633898060_1_alg».proof.Proof.KHost0

set_option maxRecDepth 16384

noncomputable section

namespace Cert.KernelIdeal.KStep

open Cert.KernelIdeal Cert.KernelIdeal.Gen Cert.GatedGraph
open Cert.KernelIdeal.Carry Cert.KernelIdeal.KHost0
open Idealize.ShloMosaic Idealize.ShloMosaic.TcCoe Idealize.ShloMosaic.StableHlo

variable (m : (ℓ : Loc nD τ sig) → Buf (Elt Ideal) ℓ) (ρ : Dev nD → PrngReg)

/-- The fifth step. -/
theorem kstep4 (c : Dev nD) (hr : InRange (m ((c : Thread nD τ).loc main_arg7)) (m ((c : Thread nD τ).loc main_arg9))) :
    W26 m ρ c (Proc.devRef .tc main_v42)
      = step (aggK (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (srcN (m ((c : Thread nD τ).loc main_arg7))) (etN (m ((c : Thread nD τ).loc main_arg9)))
          (W21 m ρ c (Proc.devRef .tc main_v35)) := by
  -- the tables, biases and words where they are read
  have h8 : W22 m ρ c (Proc.devRef .tc main_arg8) = (m ((c : Thread nD τ).loc main_arg8)) := (carry_main_arg8_22 m ρ c).trans (W1_arg8 m ρ c)
  have h7 : W22 m ρ c (Proc.devRef .tc main_v7) = flatOf (m ((c : Thread nD τ).loc main_arg7)) (m ((c : Thread nD τ).loc main_arg9)) := (carry_main_v7_22 m ρ c).trans (W1_flat m ρ c)
  have h1 : W21 m ρ c (Proc.devRef .tc main_v1) = winOf (m ((c : Thread nD τ).loc main_arg1)) := (carry_main_v1_21 m ρ c).trans (W1_win m ρ c)
  have h2 : W21 m ρ c (Proc.devRef .tc main_v2) = bcatOf (m ((c : Thread nD τ).loc main_arg2)) := (carry_main_v2_21 m ρ c).trans (W1_bcat m ρ c)
  have h3 : W25 m ρ c (Proc.devRef .tc main_v3) = transp (m ((c : Thread nD τ).loc main_arg3)) := (carry_main_v3_25 m ρ c).trans (W1_wihT m ρ c)
  have h4 : W25 m ρ c (Proc.devRef .tc main_v4) = transp (m ((c : Thread nD τ).loc main_arg4)) := (carry_main_v4_25 m ρ c).trans (W1_whhT m ρ c)
  have h5 : W25 m ρ c (Proc.devRef .tc main_arg5) = (m ((c : Thread nD τ).loc main_arg5)) := (carry_main_arg5_25 m ρ c).trans (W1_arg5 m ρ c)
  have h6 : W25 m ρ c (Proc.devRef .tc main_arg6) = (m ((c : Thread nD τ).loc main_arg6)) := (carry_main_arg6_25 m ρ c).trans (W1_arg6 m ρ c)
  have hh : W25 m ρ c (Proc.devRef .tc main_v35) = W21 m ρ c (Proc.devRef .tc main_v35) := carry_h4 m ρ c
  -- the per-node region's output array
  have hX : W22 m ρ c (Proc.devRef .tc main_v36)
      = hallT (W21 m ρ c (Proc.devRef .tc main_v35)) (winOf (m ((c : Thread nD τ).loc main_arg1))) (bcatOf (m ((c : Thread nD τ).loc main_arg2))) := by
    refine (W22_arr m ρ c 3).trans ((Cert.KernelIdeal.HallRegion8.hall_arr8 (V21 m ρ) c).trans ?_)
    show hallT (W21 m ρ c (Proc.devRef .tc main_v35)) (W21 m ρ c (Proc.devRef .tc main_v1)) (W21 m ρ c (Proc.devRef .tc main_v2)) = _
    rw [h1, h2]
  -- the aggregate of the messages
  have ha : W25 m ρ c (Proc.devRef .tc main_v41)
      = aggK (m ((c : Thread nD τ).loc main_arg8)) (msg (W21 m ρ c (Proc.devRef .tc main_v35)) (m ((c : Thread nD τ).loc main_arg1)) (m ((c : Thread nD τ).loc main_arg2)) (srcN (m ((c : Thread nD τ).loc main_arg7))) (etN (m ((c : Thread nD τ).loc main_arg9)))) := by
    refine (Cert.GatedGraph.stretch4 (W22 m ρ c)).trans ?_
    rw [h8, h7, hX, takeK_eq hr]
    exact congrArg (aggK (m ((c : Thread nD τ).loc main_arg8))) (hallT_gather _ _ _ _ _)
  -- the GRU region's output array
  refine (W26_arr m ρ c 6).trans ((Cert.KernelIdeal.GruRegion9.gru_arr9 (V25 m ρ) c).trans ?_)
  show gruT (W25 m ρ c (Proc.devRef .tc main_v41)) (W25 m ρ c (Proc.devRef .tc main_v35)) (W25 m ρ c (Proc.devRef .tc main_v3)) (W25 m ρ c (Proc.devRef .tc main_v4))
      (W25 m ρ c (Proc.devRef .tc main_arg5)) (W25 m ρ c (Proc.devRef .tc main_arg6)) = _
  rw [ha, hh, h3, h4, h5, h6, gruT_transp]
  rfl

end Cert.KernelIdeal.KStep

end
-- ==== Proof.KFinal.lean ====
/-
  The kernel's result: what its run's last boundary holds in the result buffer is five steps of the specification from the
  launched input features. Each step's output buffer is the next step's state buffer, and the first state buffer is the
  features argument, which the first host stretch does not write.
-/
import proofs.«410194_j38886633898060_1_alg».proof.Proof.KStep0
import proofs.«410194_j38886633898060_1_alg».proof.Proof.KStep1
import proofs.«410194_j38886633898060_1_alg».proof.Proof.KStep2
import proofs.«410194_j38886633898060_1_alg».proof.Proof.KStep3
import proofs.«410194_j38886633898060_1_alg».proof.Proof.KStep4

set_option maxRecDepth 16384

noncomputable section

namespace Cert.KernelIdeal.KFinal

open Cert.KernelIdeal Cert.KernelIdeal.Gen Cert.GatedGraph
open Cert.KernelIdeal.Carry Cert.KernelIdeal.KStep
open Idealize.ShloMosaic Idealize.ShloMosaic.TcCoe Idealize.ShloMosaic.StableHlo

variable (m : (ℓ : Loc nD τ sig) → Buf (Elt Ideal) ℓ) (ρ : Dev nD → PrngReg)

/-- The result buffer at the run's last boundary. -/
theorem kfinal (c : Dev nD) (hr : InRange (m ((c : Thread nD τ).loc main_arg7)) (m ((c : Thread nD τ).loc main_arg9))) :
    W26 m ρ c (Proc.devRef .tc main_v42)
      = fiveSteps (aggK (m ((c : Thread nD τ).loc main_arg8))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (srcN (m ((c : Thread nD τ).loc main_arg7))) (etN (m ((c : Thread nD τ).loc main_arg9))) (m ((c : Thread nD τ).loc main_arg0)) := by
  rw [kstep4 m ρ c hr, kstep3 m ρ c hr, kstep2 m ρ c hr, kstep1 m ρ c hr, kstep0 m ρ c hr, W1_arg0 m ρ c]
  rfl

end Cert.KernelIdeal.KFinal

end
-- ==== Proof.RefTerm.lean ====
/-
  One step of the reference program, as the composed term of its host operations, cut into named pieces:
  the per-type linear maps of every node (`hallR`), the two-column index of (source, type) per edge with negative
  indices wrapped (`idxR`), the gathered messages (`msgR`), their sum per destination node (`aggR`), the two gate
  pre-activations (`giR`, `ghR`), the update gate (`zR`) and the new state (`outR`); `stepR` composes them.
-/
import proofs.«410194_j38886633898060_1_alg».proof.Proof.Gen.ReferenceIdeal

noncomputable section

namespace Cert.ReferenceIdeal.RefTerm

open Cert.ReferenceIdeal Cert.ReferenceIdeal.Gen Idealize.ShloMosaic Idealize.ShloMosaic.TcCoe Idealize.ShloMosaic.StableHlo

variable {F : FTy → Type} [FloatOps F]

/-- Every node's state under each of the four linear maps, plus that map's bias. -/
def hallR (h : (⟨S50000x64, .f32⟩ : BufTy).Contents (Elt F)) (W : (⟨S4x64x64, .f32⟩ : BufTy).Contents (Elt F)) (b : (⟨S4x64, .f32⟩ : BufTy).Contents (Elt F)) : (⟨S50000x4x64, .f32⟩ : BufTy).Contents (Elt F) :=
  addf (Host.dotGeneral dot_S50000x64_S4x64x64_S50000x4x64_1_2_0_01_n_n none h W) (broadcastInDim S50000x4x64 ![0, 1, 2] bcast_S1x4x64_S50000x4x64_0_1_2 (broadcastInDim S1x4x64 ![1, 2] bcast_S4x64_S1x4x64_1_2 b))

/-- Per edge, the pair (source node, edge type), each with a negative word wrapped by its axis length. -/
def idxR (src et : (⟨S800000, .i32⟩ : BufTy).Contents (Elt F)) : (⟨S800000x2, .i32⟩ : BufTy).Contents (Elt F) :=
  concatenate S800000x2 1 [⟨S800000x1, (broadcastInDim S800000x1 ![0] bcast_S800000_S800000x1_0 (select (cmpi .slt src (broadcastInDim S800000 ![] bcast_S_S800000 (constantI S_ 32 0#32))) (addi src (broadcastInDim S800000 ![] bcast_S_S800000 (constantI S_ 32 50000#32))) src))⟩, ⟨S800000x1, (broadcastInDim S800000x1 ![0] bcast_S800000_S800000x1_0 (select (cmpi .slt et (broadcastInDim S800000 ![] bcast_S_S800000 (constantI S_ 32 0#32))) (addi et (broadcastInDim S800000 ![] bcast_S_S800000 (constantI S_ 32 4#32))) et))⟩] concatenates_S800000x1_S800000x1_S800000x2_d1

/-- The gathered messages. -/
def msgR (h : (⟨S50000x64, .f32⟩ : BufTy).Contents (Elt F)) (W : (⟨S4x64x64, .f32⟩ : BufTy).Contents (Elt F)) (b : (⟨S4x64, .f32⟩ : BufTy).Contents (Elt F)) (src et : (⟨S800000, .i32⟩ : BufTy).Contents (Elt F)) : (⟨S800000x64, .f32⟩ : BufTy).Contents (Elt F) :=
  Host.gather gather_S50000x4x64_S800000x2_S800000x64_1_01_n_n_01_1_1164 (hallR h W b) (idxR src et)

/-- The messages summed per destination node. -/
def aggR (dst : (⟨S800000, .i32⟩ : BufTy).Contents (Elt F)) (u : (⟨S800000x64, .f32⟩ : BufTy).Contents (Elt F)) : (⟨S50000x64, .f32⟩ : BufTy).Contents (Elt F) :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 dst) u

/-- The input-side gate pre-activations. -/
def giR (a : (⟨S50000x64, .f32⟩ : BufTy).Contents (Elt F)) (wih : (⟨S192x64, .f32⟩ : BufTy).Contents (Elt F)) (bih : (⟨S192, .f32⟩ : BufTy).Contents (Elt F)) : (⟨S50000x192, .f32⟩ : BufTy).Contents (Elt F) :=
  addf (Host.dotGeneral dot_S50000x64_S64x192_S50000x192_1_0_0_1_n_n none a (transpose S64x192 [1, 0] wih transposes_S192x64_S64x192_1_0)) (broadcastInDim S50000x192 ![0, 1] bcast_S1x192_S50000x192_0_1 (broadcastInDim S1x192 ![1] bcast_S192_S1x192_1 bih))

/-- The state-side gate pre-activations. -/
def ghR (h : (⟨S50000x64, .f32⟩ : BufTy).Contents (Elt F)) (whh : (⟨S192x64, .f32⟩ : BufTy).Contents (Elt F)) (bhh : (⟨S192, .f32⟩ : BufTy).Contents (Elt F)) : (⟨S50000x192, .f32⟩ : BufTy).Contents (Elt F) :=
  addf (Host.dotGeneral dot_S50000x64_S64x192_S50000x192_1_0_0_1_n_n none h (transpose S64x192 [1, 0] whh transposes_S192x64_S64x192_1_0)) (broadcastInDim S50000x192 ![0, 1] bcast_S1x192_S50000x192_0_1 (broadcastInDim S1x192 ![1] bcast_S192_S1x192_1 bhh))

/-- The update gate. -/
def zR (gi gh : (⟨S50000x192, .f32⟩ : BufTy).Contents (Elt F)) : (⟨S50000x64, .f32⟩ : BufTy).Contents (Elt F) :=
  Host.divf (broadcastInDim S50000x64 ![] bcast_S_S50000x64 (constant S_ .f32 0x3F800000#32)) (addf (broadcastInDim S50000x64 ![] bcast_S_S50000x64 (constant S_ .f32 0x3F800000#32)) (Host.exp (Host.negf (addf (extractStridedSlice S50000x64 ![0, 64] gi slices_S50000x192_S50000x64_0_64) (extractStridedSlice S50000x64 ![0, 64] gh slices_S50000x192_S50000x64_0_64)))))

/-- The new state. -/
def outR (gi gh : (⟨S50000x192, .f32⟩ : BufTy).Contents (Elt F)) (z h : (⟨S50000x64, .f32⟩ : BufTy).Contents (Elt F)) : (⟨S50000x64, .f32⟩ : BufTy).Contents (Elt F) :=
  addf (mulf (subf (broadcastInDim S50000x64 ![] bcast_S_S50000x64 (constant S_ .f32 0x3F800000#32)) z) (Host.tanh (addf (extractStridedSlice S50000x64 ![0, 128] gi slices_S50000x192_S50000x64_0_128) (mulf (Host.divf (broadcastInDim S50000x64 ![] bcast_S_S50000x64 (constant S_ .f32 0x3F800000#32)) (addf (broadcastInDim S50000x64 ![] bcast_S_S50000x64 (constant S_ .f32 0x3F800000#32)) (Host.exp (Host.negf (addf (extractStridedSlice S50000x64 ![0, 0] gi slices_S50000x192_S50000x64_0_0) (extractStridedSlice S50000x64 ![0, 0] gh slices_S50000x192_S50000x64_0_0)))))) (extractStridedSlice S50000x64 ![0, 128] gh slices_S50000x192_S50000x64_0_128))))) (mulf z h)

/-- One step of the reference. -/
def stepR (W : (⟨S4x64x64, .f32⟩ : BufTy).Contents (Elt F)) (b : (⟨S4x64, .f32⟩ : BufTy).Contents (Elt F)) (wih whh : (⟨S192x64, .f32⟩ : BufTy).Contents (Elt F)) (bih bhh : (⟨S192, .f32⟩ : BufTy).Contents (Elt F))
    (src dst et : (⟨S800000, .i32⟩ : BufTy).Contents (Elt F)) (h : (⟨S50000x64, .f32⟩ : BufTy).Contents (Elt F)) : (⟨S50000x64, .f32⟩ : BufTy).Contents (Elt F) :=
  outR (giR (aggR dst (msgR h W b src et)) wih bih) (ghR h whh bhh)
    (zR (giR (aggR dst (msgR h W b src et)) wih bih) (ghR h whh bhh)) h

end Cert.ReferenceIdeal.RefTerm

end
-- ==== Proof.RefChain.lean ====
/-
  The reference's run, step by step: each named intermediate state of the generated run is one step of the reference
  applied to the state before it, the first to the input features.
-/
import proofs.«410194_j38886633898060_1_alg».proof.Proof.Gen.ReferenceIdeal.Run
import proofs.«410194_j38886633898060_1_alg».proof.Proof.RefTerm

noncomputable section

namespace Cert.ReferenceIdeal.RefChain

open Cert.ReferenceIdeal Cert.ReferenceIdeal.Gen Cert.ReferenceIdeal.Value Cert.ReferenceIdeal.RefTerm
open Idealize.ShloMosaic Idealize.ShloMosaic.TcCoe Idealize.ShloMosaic.StableHlo

variable {F : FTy → Type} [FloatOps F]

/-- The state after the first step. -/
theorem state1 (V0 : Valuation τ sig (Elt F)) : res_main_v58 V0 = stepR (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (V0 (Proc.devRef .tc main_arg0)) := rfl

/-- The state after the second step. -/
theorem state2 (V0 : Valuation τ sig (Elt F)) : res_main_v117 V0 = stepR (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (res_main_v58 V0) := rfl

/-- The state after the third step. -/
theorem state3 (V0 : Valuation τ sig (Elt F)) : res_main_v176 V0 = stepR (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (res_main_v117 V0) := rfl

/-- The state after the fourth step. -/
theorem state4 (V0 : Valuation τ sig (Elt F)) : res_main_v235 V0 = stepR (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (res_main_v176 V0) := rfl

/-- The result: the fifth step, from the state after the fourth. -/
theorem state5 (V0 : Valuation τ sig (Elt F)) :
    addf (mulf (subf (broadcastInDim S50000x64 ![] bcast_S_S50000x64 (constant S_ .f32 0x3F800000#32)) (res_main_v286 V0)) (Host.tanh (addf (extractStridedSlice S50000x64 ![0, 128] (res_main_v261 V0) slices_S50000x192_S50000x64_0_128) (mulf (Host.divf (broadcastInDim S50000x64 ![] bcast_S_S50000x64 (constant S_ .f32 0x3F800000#32)) (addf (broadcastInDim S50000x64 ![] bcast_S_S50000x64 (constant S_ .f32 0x3F800000#32)) (Host.exp (Host.negf (addf (extractStridedSlice S50000x64 ![0, 0] (res_main_v261 V0) slices_S50000x192_S50000x64_0_0) (extractStridedSlice S50000x64 ![0, 0] (res_main_v266 V0) slices_S50000x192_S50000x64_0_0)))))) (extractStridedSlice S50000x64 ![0, 128] (res_main_v266 V0) slices_S50000x192_S50000x64_0_128))))) (mulf (res_main_v286 V0) (res_main_v235 V0))
      = stepR (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (res_main_v235 V0) := rfl

end Cert.ReferenceIdeal.RefChain

end
-- ==== Proof.RefMsg.lean ====
/-
  The reference's gathered messages, index by index.

  Every node's state is first sent through each of the four linear maps and given that map's bias: at (node n, type t,
  feature j) this is (∑ d, h (n, d) · W (t, j, d)) + b (t, j), the dot_general contracting the state's feature axis with
  the maps' input axis. Per edge the pair (source word, type word) is laid as one row of a two-column table, each word
  first wrapped by its axis length if negative. The gather then reads, for edge e and feature j, the element at
  (column 0 of row e, column 1 of row e, j), each start read as a signed integer and cut to its axis.

  When every source word is below 50000 and every type word below 4, both are non-negative as signed integers, so no
  wrap fires and no start is cut: edge e reads node `src e` under map `et e`, which is the specification's message.
-/
import proofs.«410194_j38886633898060_1_alg».proof.Proof.RefTerm
import proofs.«410194_j38886633898060_1_alg».proof.Proof.Spec
import Idealize.ShloMosaic.Lib.StableHlo.Predicate
import Idealize.ShloMosaic.Lib.ValueIdx
import Idealize.ShloMosaic.PureOps.Ideal.Laws

noncomputable section

open scoped BigOperators

namespace Cert.ReferenceIdeal.RefMsg

open Cert.ReferenceIdeal Cert.ReferenceIdeal.Gen Cert.ReferenceIdeal.RefTerm Cert.GatedGraph
open Idealize.ShloMosaic Idealize.ShloMosaic.ValueIdx Idealize.ShloMosaic.StableHlo

/-! ## Index words: a word below 2 ^ 31 is non-negative as a signed integer -/

/-- The wrap of a negative index adds the axis length; a word below 2 ^ 31 is not negative, so the select keeps it. -/
theorem wrap_keep (x L : BitVec 32) (hx : x.toNat < 2 ^ 31) :
    Scalar.select (IntOp.cmpi .slt x 0#32) (IntOp.addi x L) x = x := by
  have h0 : ¬ IntOp.cmpi .slt x 0#32 = 1#1 := by
    rw [Predicate.slt_iff_toNat hx (by decide)]
    exact Nat.not_lt_zero _
  rw [eq_zero_of_ne_one h0, select_zero]

/-- Read signed and cut at `m`, a word not above `m` (itself below 2 ^ 31) is its own value. -/
theorem clamp_keep (x : BitVec 32) (m : Nat) (hm : m < 2 ^ 31) (hx : x.toNat ≤ m) : min x.toInt.toNat m = x.toNat := by
  rw [Predicate.toInt_eq_toNat_of_lt (by omega), Int.toNat_natCast]
  exact Nat.min_eq_left hx

/-! ## The two-column index table, read at a row -/

/-- Column 0 of two one-column tables laid side by side is the first table. -/
theorem concat_col0 {α : Type} (hc : Shape.Concatenates [S800000x1, S800000x1] S800000x2 1)
    (A B : S800000x1.Idx → α) (e : Fin 800000) :
    concatenate S800000x2 1 [⟨S800000x1, A⟩, ⟨S800000x1, B⟩] hc (ix2 e (0 : Fin 2)) = A (ix2 e (0 : Fin 1)) := by
  change A _ = A _
  congr 1
  funext b
  match b with
  | ⟨0, _⟩ => rfl
  | ⟨1, _⟩ => rfl

/-- Column 1 is the second table. -/
theorem concat_col1 {α : Type} (hc : Shape.Concatenates [S800000x1, S800000x1] S800000x2 1)
    (A B : S800000x1.Idx → α) (e : Fin 800000) :
    concatenate S800000x2 1 [⟨S800000x1, A⟩, ⟨S800000x1, B⟩] hc (ix2 e (1 : Fin 2)) = B (ix2 e (0 : Fin 1)) := by
  change B _ = B _
  congr 1
  funext b
  match b with
  | ⟨0, _⟩ => rfl
  | ⟨1, _⟩ => rfl

/-- A vector kept as a one-column table reads, at row `e`, the vector at `e`. -/
theorem col_of_vec {α : Type} (hb : S800000.BroadcastsInDim S800000x1 (![0] : Fin 1 → Fin S800000x1.rank))
    (v : S800000.Idx → α) (e : Fin 800000) :
    broadcastInDim S800000x1 ![0] hb v (ix2 e (0 : Fin 1)) = v (ix1 e) := by
  simp only [broadcastInDim]
  congr 1
  funext a
  match a with
  | ⟨0, _⟩ =>
    apply Fin.ext
    split
    · next h1 => change 800000 = 1 at h1; omega
    · rfl

/-! ## The gather, read at an edge and a feature

Both leading operand axes are collapsed and start-indexed; the last one is the offset axis. Result index (e, j) reads the operand at
(row e column 0 of the index table, row e column 1, j), each start read signed and cut to its axis. -/

/-- Node axis: the start named by column 0 of row `e`, cut to the axis; no batch or offset part. -/
theorem gather_axis0 (idx : IVec S800000x2 32) (e : Fin 800000) (j : Fin 64) :
    (gather_S50000x4x64_S800000x2_S800000x64_1_01_n_n_01_1_1164.operandIdx (ix2 e j) idx (0 : Fin 3)).val
      = min (idx (ix2 e (0 : Fin 2))).toInt.toNat (50000 - 1) := by
  show gather_S50000x4x64_S800000x2_S800000x64_1_01_n_n_01_1_1164.start (ix2 e j) idx (0 : Fin 3)
      + gather_S50000x4x64_S800000x2_S800000x64_1_01_n_n_01_1_1164.batchCoord (ix2 e j) (0 : Fin 3)
      + gather_S50000x4x64_S800000x2_S800000x64_1_01_n_n_01_1_1164.offCoord (ix2 e j) (0 : Fin 3) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (0 : Fin 3) ∈ gather_S50000x4x64_S800000x2_S800000x64_1_01_n_n_01_1_1164.startIndexMap from by decide)]
  have hsi : gather_S50000x4x64_S800000x2_S800000x64_1_01_n_n_01_1_1164.siIdx (ix2 e j)
      ⟨List.idxOf (0 : Fin 3) gather_S50000x4x64_S800000x2_S800000x64_1_01_n_n_01_1_1164.startIndexMap,
        List.idxOf_lt_length_iff.2 (by decide)⟩ = ix2 e (0 : Fin 2) := by
    funext b; refine Fin.ext ?_
    match b with
    | ⟨0, _⟩ => rfl
    | ⟨1, _⟩ => rfl
  rw [hsi]
  rfl

/-- Type axis: the start named by column 1 of row `e`, cut to the axis. -/
theorem gather_axis1 (idx : IVec S800000x2 32) (e : Fin 800000) (j : Fin 64) :
    (gather_S50000x4x64_S800000x2_S800000x64_1_01_n_n_01_1_1164.operandIdx (ix2 e j) idx (1 : Fin 3)).val
      = min (idx (ix2 e (1 : Fin 2))).toInt.toNat (4 - 1) := by
  show gather_S50000x4x64_S800000x2_S800000x64_1_01_n_n_01_1_1164.start (ix2 e j) idx (1 : Fin 3)
      + gather_S50000x4x64_S800000x2_S800000x64_1_01_n_n_01_1_1164.batchCoord (ix2 e j) (1 : Fin 3)
      + gather_S50000x4x64_S800000x2_S800000x64_1_01_n_n_01_1_1164.offCoord (ix2 e j) (1 : Fin 3) = _
  rw [GatherDims.batchCoord_eq_zero _ _ _ List.not_mem_nil,
    GatherDims.offCoord_eq_zero _ _ _ (fun h => ((GatherDims.mem_sKept _ _).mp h).1 (by decide))]
  simp only [Nat.add_zero]
  unfold GatherDims.start
  rw [dif_pos (show (1 : Fin 3) ∈ gather_S50000x4x64_S800000x2_S800000x64_1_01_n_n_01_1_1164.startIndexMap from by decide)]
  have hsi : gather_S50000x4x64_S800000x2_S800000x64_1_01_n_n_01_1_1164.siIdx (ix2 e j)
      ⟨List.idxOf (1 : Fin 3) gather_S50000x4x64_S800000x2_S800000x64_1_01_n_n_01_1_1164.startIndexMap,
        List.idxOf_lt_length_iff.2 (by decide)⟩ = ix2 e (1 : Fin 2) := by
    funext b; refine Fin.ext ?_
    match b with
    | ⟨0, _⟩ => rfl
    | ⟨1, _⟩ => rfl
  rw [hsi]
  rfl

/-- Feature axis: no start (the start index map does not name it), no batch part; the offset is the result's feature. -/
theorem gather_axis2 (idx : IVec S800000x2 32) (e : Fin 800000) (j : Fin 64) :
    (gather_S50000x4x64_S800000x2_S800000x64_1_01_n_n_01_1_1164.operandIdx (ix2 e j) idx (2 : Fin 3)).val = j.val := by
  show gather_S50000x4x64_S800000x2_S800000x64_1_01_n_n_01_1_1164.start (ix2 e j) idx (2 : Fin 3)
      + gather_S50000x4x64_S800000x2_S800000x64_1_01_n_n_01_1_1164.batchCoord (ix2 e j) (2 : Fin 3)
      + gather_S50000x4x64_S800000x2_S800000x64_1_01_n_n_01_1_1164.offCoord (ix2 e j) (2 : Fin 3) = _
  rw [GatherDims.batchCoord_eq_zero _ _ _ List.not_mem_nil]
  unfold GatherDims.start
  rw [dif_neg (show ¬ (2 : Fin 3) ∈ gather_S50000x4x64_S800000x2_S800000x64_1_01_n_n_01_1_1164.startIndexMap from by decide)]
  simp only [Nat.add_zero, Nat.zero_add]
  unfold GatherDims.offCoord
  rw [dif_pos (show (2 : Fin 3) ∈ gather_S50000x4x64_S800000x2_S800000x64_1_01_n_n_01_1_1164.sKept from by decide)]
  rfl

/-- THE GATHER READ AT (e, j): the operand at (the clamped start of column 0, the clamped start of column 1, j). -/
theorem gather_read {α : Type} (x : S50000x4x64.Idx → α) (idx : IVec S800000x2 32) (e : Fin 800000) (j : Fin 64) :
    Host.gather gather_S50000x4x64_S800000x2_S800000x64_1_01_n_n_01_1_1164 x idx (ix2 e j)
      = x (ix3 (⟨min (idx (ix2 e (0 : Fin 2))).toInt.toNat (50000 - 1), by omega⟩ : Fin 50000)
          (⟨min (idx (ix2 e (1 : Fin 2))).toInt.toNat (4 - 1), by omega⟩ : Fin 4) j) := by
  unfold Host.gather
  congr 1
  funext a
  refine Fin.ext ?_
  match a with
  | ⟨0, _⟩ => exact gather_axis0 idx e j
  | ⟨1, _⟩ => exact gather_axis1 idx e j
  | ⟨2, _⟩ => exact gather_axis2 idx e j

/-! ## Every node under every map: the dot_general and the bias, read at (node, type, feature) -/

/-- Left operand, node axis: the result's node. -/
theorem lhs_axis0 (n : Fin 50000) (t : Fin 4) (j : Fin 64)
    (k : dot_S50000x64_S4x64x64_S50000x4x64_1_2_0_01_n_n.contr.Idx) :
    (dot_S50000x64_S4x64x64_S50000x4x64_1_2_0_01_n_n.lhsIdx (ix3 n t j) k (0 : Fin 2)).val = n.val := rfl

/-- Left operand, input-feature axis: the contraction position. -/
theorem lhs_axis1 (n : Fin 50000) (t : Fin 4) (j : Fin 64)
    (k : dot_S50000x64_S4x64x64_S50000x4x64_1_2_0_01_n_n.contr.Idx) :
    (dot_S50000x64_S4x64x64_S50000x4x64_1_2_0_01_n_n.lhsIdx (ix3 n t j) k (1 : Fin 2)).val = (k ⟨0, by decide⟩).val :=
  dot_S50000x64_S4x64x64_S50000x4x64_1_2_0_01_n_n.lhsIdx_val_of_single rfl (ix3 n t j) k

/-- Right operand, type axis: the result's type. -/
theorem rhs_axis0 (n : Fin 50000) (t : Fin 4) (j : Fin 64)
    (k : dot_S50000x64_S4x64x64_S50000x4x64_1_2_0_01_n_n.contr.Idx) :
    (dot_S50000x64_S4x64x64_S50000x4x64_1_2_0_01_n_n.rhsIdx (ix3 n t j) k (0 : Fin 3)).val = t.val := rfl

/-- Right operand, output-feature axis: the result's feature. -/
theorem rhs_axis1 (n : Fin 50000) (t : Fin 4) (j : Fin 64)
    (k : dot_S50000x64_S4x64x64_S50000x4x64_1_2_0_01_n_n.contr.Idx) :
    (dot_S50000x64_S4x64x64_S50000x4x64_1_2_0_01_n_n.rhsIdx (ix3 n t j) k (1 : Fin 3)).val = j.val := rfl

/-- Right operand, input-feature axis: the contraction position. -/
theorem rhs_axis2 (n : Fin 50000) (t : Fin 4) (j : Fin 64)
    (k : dot_S50000x64_S4x64x64_S50000x4x64_1_2_0_01_n_n.contr.Idx) :
    (dot_S50000x64_S4x64x64_S50000x4x64_1_2_0_01_n_n.rhsIdx (ix3 n t j) k (2 : Fin 3)).val = (k ⟨0, by decide⟩).val :=
  dot_S50000x64_S4x64x64_S50000x4x64_1_2_0_01_n_n.rhsIdx_val_of_single rfl (ix3 n t j) k

/-- The product at (n, t, j): the row of node `n` against row `j` of map `t`. -/
theorem dot_read (h : FVec Ideal S50000x64 .f32) (W : FVec Ideal S4x64x64 .f32) (n : Fin 50000) (t : Fin 4) (j : Fin 64) :
    Host.dotGeneral (F := Ideal) dot_S50000x64_S4x64x64_S50000x4x64_1_2_0_01_n_n none h W (ix3 n t j)
      = ∑ d : Fin 64, h (ix2 n d) * W (ix3 t j d) := by
  show FloatOps.dotGeneral dot_S50000x64_S4x64x64_S50000x4x64_1_2_0_01_n_n none .single h W (ix3 n t j) = _
  rw [Ideal.dotGeneral_apply]
  refine (Equiv.sum_comp (contrEquiv1 dot_S50000x64_S4x64x64_S50000x4x64_1_2_0_01_n_n 64 rfl rfl).symm _).symm.trans ?_
  refine Finset.sum_congr rfl fun d _ => ?_
  have hk := contrEquiv1_symm_val dot_S50000x64_S4x64x64_S50000x4x64_1_2_0_01_n_n 64 rfl rfl d
  have hl : dot_S50000x64_S4x64x64_S50000x4x64_1_2_0_01_n_n.lhsIdx (ix3 n t j)
      ((contrEquiv1 dot_S50000x64_S4x64x64_S50000x4x64_1_2_0_01_n_n 64 rfl rfl).symm d) = ix2 n d := by
    funext a; refine Fin.ext ?_
    match a with
    | ⟨0, _⟩ => exact lhs_axis0 n t j _
    | ⟨1, _⟩ => exact (lhs_axis1 n t j _).trans hk
  have hrr : dot_S50000x64_S4x64x64_S50000x4x64_1_2_0_01_n_n.rhsIdx (ix3 n t j)
      ((contrEquiv1 dot_S50000x64_S4x64x64_S50000x4x64_1_2_0_01_n_n 64 rfl rfl).symm d) = ix3 t j d := by
    funext a; refine Fin.ext ?_
    match a with
    | ⟨0, _⟩ => exact rhs_axis0 n t j _
    | ⟨1, _⟩ => exact rhs_axis1 n t j _
    | ⟨2, _⟩ => exact (rhs_axis2 n t j _).trans hk
  rw [hl, hrr]

/-- The bias table stretched over the nodes reads, at (n, t, j), the bias of map `t` at feature `j`. -/
theorem bias_read {α : Type} (h₁ : S4x64.BroadcastsInDim S1x4x64 (![1, 2] : Fin 2 → Fin S1x4x64.rank))
    (h₂ : S1x4x64.BroadcastsInDim S50000x4x64 (![0, 1, 2] : Fin 3 → Fin S50000x4x64.rank))
    (b : S4x64.Idx → α) (n : Fin 50000) (t : Fin 4) (j : Fin 64) :
    broadcastInDim S50000x4x64 ![0, 1, 2] h₂ (broadcastInDim S1x4x64 ![1, 2] h₁ b) (ix3 n t j) = b (ix2 t j) := by
  simp only [broadcastInDim]
  congr 1
  funext a
  match a with
  | ⟨0, _⟩ =>
    apply Fin.ext
    split
    · next h1 => change 4 = 1 at h1; omega
    · split
      · next h2 => change 4 = 1 at h2; omega
      · rfl
  | ⟨1, _⟩ =>
    apply Fin.ext
    split
    · next h1 => change 64 = 1 at h1; omega
    · split
      · next h2 => change 64 = 1 at h2; omega
      · rfl

/-- Every node's state under each map plus that map's bias, at (n, t, j). -/
theorem hallR_read (h : Mat 50000 64) (W : Cube 4 64 64) (b : Mat 4 64) (n : Fin 50000) (t : Fin 4) (j : Fin 64) :
    hallR (F := Ideal) h W b (ix3 n t j) = (∑ d : Fin 64, h (ix2 n d) * W (ix3 t j d)) + b (ix2 t j) := by
  unfold hallR
  rw [addf_apply, dot_read, bias_read]

/-! ## The index table under the range hypothesis, and the messages -/

/-- Row `e`, column 0 of the index table is the source word when that word is below 2 ^ 31. -/
theorem idxR_col0 (src et : Words) (e : Fin 800000) (hs : (src (ix1 e)).toNat < 2 ^ 31) :
    idxR (F := Ideal) src et (ix2 e (0 : Fin 2)) = src (ix1 e) := by
  unfold idxR
  rw [concat_col0, col_of_vec, select_apply]
  exact wrap_keep _ _ hs

/-- Row `e`, column 1 is the type word when that word is below 2 ^ 31. -/
theorem idxR_col1 (src et : Words) (e : Fin 800000) (ht : (et (ix1 e)).toNat < 2 ^ 31) :
    idxR (F := Ideal) src et (ix2 e (1 : Fin 2)) = et (ix1 e) := by
  unfold idxR
  rw [concat_col1, col_of_vec, select_apply]
  exact wrap_keep _ _ ht

/-- The reference's gathered messages are the specification's messages: with every source word a node and every type
    word a type, no index wraps and no start is cut, so edge `e` reads node `src e` under map `et e`. -/
theorem msgR_eq {src et : Words} (hr : InRange src et) (h : Mat 50000 64) (W : Cube 4 64 64) (b : Mat 4 64) :
    msgR (F := Ideal) h W b src et = msg h W b (srcN src) (etN et) := by
  funext i
  obtain ⟨e, j, rfl⟩ : ∃ (e : Fin 800000) (j : Fin 64), i = ix2 e j := ⟨i 0, i 1, eq_ix2 i⟩
  have hs := (hr e).1
  have ht := (hr e).2
  unfold msgR
  rw [gather_read, hallR_read, msg_apply]
  unfold msgAt
  have e0 : (⟨min (idxR (F := Ideal) src et (ix2 e (0 : Fin 2))).toInt.toNat (50000 - 1), by omega⟩ : Fin 50000) = srcN src e := by
    refine Fin.ext ?_
    show min (idxR (F := Ideal) src et (ix2 e (0 : Fin 2))).toInt.toNat (50000 - 1) = (src (ix1 e)).toNat % 50000
    rw [idxR_col0 src et e (by omega), clamp_keep _ _ (by norm_num) (by omega), Nat.mod_eq_of_lt hs]
  have e1 : (⟨min (idxR (F := Ideal) src et (ix2 e (1 : Fin 2))).toInt.toNat (4 - 1), by omega⟩ : Fin 4) = etN et e := by
    refine Fin.ext ?_
    show min (idxR (F := Ideal) src et (ix2 e (1 : Fin 2))).toInt.toNat (4 - 1) = (et (ix1 e)).toNat % 4
    rw [idxR_col1 src et e (by omega), clamp_keep _ _ (by norm_num) (by omega), Nat.mod_eq_of_lt ht]
  rw [e0, e1]

end Cert.ReferenceIdeal.RefMsg

end
-- ==== Proof.RefGru.lean ====
/-
  The reference's GRU cell is the cell of the specification.

  The reference computes the two gate pre-activations as products with the transposed weight tables plus a bias row laid
  under every node:  gi (n, c) = (∑ k, a (n, k) · w_ih (c, k)) + b_ih c  and the same for the state `h`. The product contracts
  the node table's columns against the transposed table's rows, and the transposed table at (k, c) is the table at (c, k), so
  each is a `gate` of the specification. The three bands of 64 columns, from 0, 64 and 128, are the reset, update and
  candidate columns of a feature. The reference writes the logistic function out as 1 / (1 + e^(-x)) with the constant 1.0;
  read with that constant as the real 1 the expression is the logistic function by definition. The constant in (1 - z)
  stays a word: the specification carries the same one.
-/
import proofs.«410194_j38886633898060_1_alg».proof.Proof.RefTerm
import proofs.«410194_j38886633898060_1_alg».proof.Proof.Spec
import Idealize.ShloMosaic.PureOps.Ideal.Laws
import Idealize.ShloMosaic.Lib.ValueLayout
import Idealize.ShloMosaic.Lib.IdealHost

noncomputable section

namespace Cert.ReferenceIdeal.RefGru

open Cert.ReferenceIdeal Cert.ReferenceIdeal.Gen Cert.ReferenceIdeal.RefTerm Cert.GatedGraph
open Idealize.ShloMosaic Idealize.ShloMosaic.ValueIdx

/-! ### The gates' product: its operand indices

    The product contracts the left table's columns against the right table's rows. -/

/-- At result index `j` the left operand is read in `j`'s row … -/
theorem lhs_row (j : S50000x192.Idx) (k : dot_S50000x64_S64x192_S50000x192_1_0_0_1_n_n.contr.Idx) :
    (dot_S50000x64_S64x192_S50000x192_1_0_0_1_n_n.lhsIdx j k 0).val = (j 0).val := rfl

/-- … at the contraction position's column; -/
theorem lhs_col (j : S50000x192.Idx) (k : dot_S50000x64_S64x192_S50000x192_1_0_0_1_n_n.contr.Idx) :
    (dot_S50000x64_S64x192_S50000x192_1_0_0_1_n_n.lhsIdx j k 1).val = (k ⟨0, by decide⟩).val := rfl

/-- the right operand in the contraction position's row … -/
theorem rhs_row (j : S50000x192.Idx) (k : dot_S50000x64_S64x192_S50000x192_1_0_0_1_n_n.contr.Idx) :
    (dot_S50000x64_S64x192_S50000x192_1_0_0_1_n_n.rhsIdx j k 0).val = (k ⟨0, by decide⟩).val := rfl

/-- … at `j`'s column. -/
theorem rhs_col (j : S50000x192.Idx) (k : dot_S50000x64_S64x192_S50000x192_1_0_0_1_n_n.contr.Idx) :
    (dot_S50000x64_S64x192_S50000x192_1_0_0_1_n_n.rhsIdx j k 1).val = (j 1).val := rfl

/-- The contraction positions are the 64 features. -/
abbrev feat : dot_S50000x64_S64x192_S50000x192_1_0_0_1_n_n.contr.Idx ≃ Fin 64 :=
  contrEquiv1 dot_S50000x64_S64x192_S50000x192_1_0_0_1_n_n 64 rfl rfl

/-- At node `n`, gate column `c` and feature `k` the left operand is read at `(n, k)`. -/
theorem lhs_at (n : Fin 50000) (c : Fin 192) (k : Fin 64) :
    dot_S50000x64_S64x192_S50000x192_1_0_0_1_n_n.lhsIdx (ix2 n c) (feat.symm k) = ix2 n k := by
  funext ax
  refine Fin.ext ?_
  match ax with
  | ⟨0, _⟩ => exact lhs_row _ _
  | ⟨1, _⟩ => exact (lhs_col _ _).trans (contrEquiv1_symm_val _ 64 rfl rfl k)

/-- … and the right operand at `(k, c)`. -/
theorem rhs_at (n : Fin 50000) (c : Fin 192) (k : Fin 64) :
    dot_S50000x64_S64x192_S50000x192_1_0_0_1_n_n.rhsIdx (ix2 n c) (feat.symm k) = ix2 k c := by
  funext ax
  refine Fin.ext ?_
  match ax with
  | ⟨0, _⟩ => exact (rhs_row _ _).trans (contrEquiv1_symm_val _ 64 rfl rfl k)
  | ⟨1, _⟩ => exact rhs_col _ _

/-! ### A gate's pre-activation -/

/-- The bias row, laid under every node, reads the bias of the column. -/
theorem bias_apply (bias : FVec Ideal S192 .f32) (n : Fin 50000) (c : Fin 192) :
    broadcastInDim S50000x192 ![0, 1] bcast_S1x192_S50000x192_0_1 (broadcastInDim S1x192 ![1] bcast_S192_S1x192_1 bias) (ix2 n c)
      = bias (ix1 c) := by
  rw [broadcastInDim_apply ![0, 1] bcast_S1x192_S50000x192_0_1 _ (ix2 n c) (ix2 (0 : Fin 1) c)
    (fun ax => match ax with | ⟨0, _⟩ => rfl | ⟨1, _⟩ => rfl)]
  exact broadcastInDim_apply ![1] bcast_S192_S1x192_1 bias (ix2 (0 : Fin 1) c) (ix1 c) (fun ax => match ax with | ⟨0, _⟩ => rfl)

/-- The product of a node table with a transposed weight table, at `(n, c)`: row `n` against row `c` of the weights. -/
theorem prod_apply (x : FVec Ideal S50000x64 .f32) (w : FVec Ideal S192x64 .f32) (n : Fin 50000) (c : Fin 192) :
    Host.dotGeneral (F := Ideal) dot_S50000x64_S64x192_S50000x192_1_0_0_1_n_n none x
        (transpose S64x192 [1, 0] w transposes_S192x64_S64x192_1_0) (ix2 n c)
      = ∑ k : Fin 64, x (ix2 n k) * w (ix2 c k) := by
  simp only [Host.dotGeneral]
  rw [Ideal.dotGeneral_apply, ← Equiv.sum_comp feat.symm]
  refine Finset.sum_congr rfl fun k _ => ?_
  rw [lhs_at, rhs_at, transpose_ix2_apply]

/-- The reference's input-side pre-activation at `(n, c)` is the gate of the specification. -/
theorem giR_apply (a : Mat 50000 64) (wih : Mat 192 64) (bih : Row 192) (n : Fin 50000) (c : Fin 192) :
    giR (F := Ideal) a wih bih (ix2 n c) = gate a wih bih n c := by
  unfold giR gate
  rw [addf_apply, prod_apply, bias_apply]

/-- The state-side pre-activation is the same function of its own table, weights and bias. -/
theorem ghR_eq_giR (h : Mat 50000 64) (whh : Mat 192 64) (bhh : Row 192) :
    ghR (F := Ideal) h whh bhh = giR (F := Ideal) h whh bhh := rfl

/-- So the state-side pre-activation at `(n, c)` is the gate of the specification too. -/
theorem ghR_apply (h : Mat 50000 64) (whh : Mat 192 64) (bhh : Row 192) (n : Fin 50000) (c : Fin 192) :
    ghR (F := Ideal) h whh bhh (ix2 n c) = gate h whh bhh n c := by
  rw [ghR_eq_giR, giR_apply]

/-! ### The cell at a node and a feature -/

/-- The constant 1.0 laid over the table reads the word of 1.0 everywhere. -/
theorem ones_apply (i : S50000x64.Idx) :
    broadcastInDim S50000x64 ![] bcast_S_S50000x64 (constant (F := Ideal) S_ .f32 0x3F800000#32) i = one := by
  rw [broadcastInDim_scalar_apply, constant_apply]

/-- The three bands of a 192-column table: feature `j` of the first band is the reset column, -/
theorem bandR_apply (g : FVec Ideal S50000x192 .f32) (n : Fin 50000) (j : Fin 64) :
    extractStridedSlice S50000x64 ![0, 0] g slices_S50000x192_S50000x64_0_0 (ix2 n j) = g (ix2 n (colR j)) :=
  slice2_axis1_apply 0 g _ n j (colR j) (Nat.zero_add _).symm

/-- of the second the update column, -/
theorem bandZ_apply (g : FVec Ideal S50000x192 .f32) (n : Fin 50000) (j : Fin 64) :
    extractStridedSlice S50000x64 ![0, 64] g slices_S50000x192_S50000x64_0_64 (ix2 n j) = g (ix2 n (colZ j)) :=
  slice2_axis1_apply 64 g _ n j (colZ j) rfl

/-- of the third the candidate column. -/
theorem bandN_apply (g : FVec Ideal S50000x192 .f32) (n : Fin 50000) (j : Fin 64) :
    extractStridedSlice S50000x64 ![0, 128] g slices_S50000x192_S50000x64_0_128 (ix2 n j) = g (ix2 n (colN j)) :=
  slice2_axis1_apply 128 g _ n j (colN j) rfl

/-- The reference spells the logistic function of a sum out, 1 / (1 + e^(-(u + v))) with the constant 1.0 for both ones:
    that expression is the logistic function by definition, once the word of 1.0 is read as the real 1. -/
theorem sigma_apply (u v : FVec Ideal S50000x64 .f32) (i : S50000x64.Idx) :
    Host.divf (F := Ideal) (broadcastInDim S50000x64 ![] bcast_S_S50000x64 (constant (F := Ideal) S_ .f32 0x3F800000#32))
        (addf (broadcastInDim S50000x64 ![] bcast_S_S50000x64 (constant (F := Ideal) S_ .f32 0x3F800000#32))
          (Host.exp (Host.negf (addf u v)))) i
      = Ideal.logistic (u i + v i) := by
  show Ideal.div (broadcastInDim S50000x64 ![] bcast_S_S50000x64 (constant (F := Ideal) S_ .f32 0x3F800000#32) i)
      (broadcastInDim S50000x64 ![] bcast_S_S50000x64 (constant (F := Ideal) S_ .f32 0x3F800000#32) i + Ideal.exp (-(u i + v i)))
    = Ideal.div 1 (1 + Ideal.exp (-(u i + v i)))
  have h1 : one = 1 := Ideal.ofBits_one_f32
  rw [ones_apply, h1]

/-- The update gate at `(n, j)`. -/
theorem zR_apply (gi gh : FVec Ideal S50000x192 .f32) (n : Fin 50000) (j : Fin 64) :
    zR (F := Ideal) gi gh (ix2 n j) = Ideal.logistic (gi (ix2 n (colZ j)) + gh (ix2 n (colZ j))) := by
  unfold zR
  rw [sigma_apply, bandZ_apply, bandZ_apply]

/-- The new state at `(n, j)`, for any update gate `z`. -/
theorem outR_apply (gi gh : FVec Ideal S50000x192 .f32) (z h : FVec Ideal S50000x64 .f32) (n : Fin 50000) (j : Fin 64) :
    outR (F := Ideal) gi gh z h (ix2 n j)
      = (one - z (ix2 n j))
          * Ideal.tanh (gi (ix2 n (colN j)) + Ideal.logistic (gi (ix2 n (colR j)) + gh (ix2 n (colR j))) * gh (ix2 n (colN j)))
        + z (ix2 n j) * h (ix2 n j) := by
  unfold outR
  show (broadcastInDim S50000x64 ![] bcast_S_S50000x64 (constant (F := Ideal) S_ .f32 0x3F800000#32) (ix2 n j) - z (ix2 n j))
      * Ideal.tanh (extractStridedSlice S50000x64 ![0, 128] gi slices_S50000x192_S50000x64_0_128 (ix2 n j)
          + Host.divf (F := Ideal) (broadcastInDim S50000x64 ![] bcast_S_S50000x64 (constant (F := Ideal) S_ .f32 0x3F800000#32))
              (addf (broadcastInDim S50000x64 ![] bcast_S_S50000x64 (constant (F := Ideal) S_ .f32 0x3F800000#32))
                (Host.exp (Host.negf (addf (extractStridedSlice S50000x64 ![0, 0] gi slices_S50000x192_S50000x64_0_0)
                  (extractStridedSlice S50000x64 ![0, 0] gh slices_S50000x192_S50000x64_0_0))))) (ix2 n j)
            * extractStridedSlice S50000x64 ![0, 128] gh slices_S50000x192_S50000x64_0_128 (ix2 n j))
      + z (ix2 n j) * h (ix2 n j) = _
  rw [ones_apply, sigma_apply, bandN_apply, bandN_apply, bandR_apply, bandR_apply]

/-- The reference's GRU cell is the cell of the specification. -/
theorem gruR_eq (a h : Mat 50000 64) (wih whh : Mat 192 64) (bih bhh : Row 192) :
    outR (F := Ideal) (giR (F := Ideal) a wih bih) (ghR (F := Ideal) h whh bhh)
        (zR (F := Ideal) (giR (F := Ideal) a wih bih) (ghR (F := Ideal) h whh bhh)) h
      = gru a h wih whh bih bhh := by
  funext i
  obtain ⟨n, j, rfl⟩ : ∃ (n : Fin 50000) (j : Fin 64), i = ix2 n j := ⟨i 0, i 1, eq_ix2 i⟩
  rw [gru_apply, outR_apply, zR_apply]
  simp only [giR_apply, ghR_apply]
  rfl

end Cert.ReferenceIdeal.RefGru

end
-- ==== Proof.RefStep.lean ====
/-
  One step of the reference is the specification's step with the reference's own aggregation: its gathered messages are the
  specification's messages when every index word is in range, and its GRU cell is the specification's cell.
-/
import proofs.«410194_j38886633898060_1_alg».proof.Proof.RefTerm
import proofs.«410194_j38886633898060_1_alg».proof.Proof.RefMsg
import proofs.«410194_j38886633898060_1_alg».proof.Proof.RefGru
import proofs.«410194_j38886633898060_1_alg».proof.Proof.Spec

noncomputable section

namespace Cert.ReferenceIdeal.RefStep

open Cert.ReferenceIdeal Cert.ReferenceIdeal.Gen Cert.ReferenceIdeal.RefTerm
open Cert.GatedGraph
open Idealize.ShloMosaic Idealize.ShloMosaic.TcCoe Idealize.ShloMosaic.StableHlo

/-- One step of the reference is one step of the specification, the messages summed by the reference's scatter-add. -/
theorem stepR_eq {src et : Words} (hr : InRange src et) (W : Cube 4 64 64) (b : Mat 4 64) (wih whh : Mat 192 64)
    (bih bhh : Row 192) (dst : Words) (h : Mat 50000 64) :
    stepR (F := Ideal) W b wih whh bih bhh src dst et h
      = step (aggR (F := Ideal) dst) W b wih whh bih bhh (srcN src) (etN et) h := by
  unfold stepR step
  rw [Cert.ReferenceIdeal.RefMsg.msgR_eq hr]
  exact Cert.ReferenceIdeal.RefGru.gruR_eq _ _ _ _ _ _

end Cert.ReferenceIdeal.RefStep

end
-- ==== Proof.RefFinal.lean ====
/-
  The reference's result is five steps of the specification from the input features.

  The generated run names the state after each of the first four steps and ends at one more step from the fourth; each step
  of the reference is the specification's step with the reference's own aggregation.
-/
import proofs.«410194_j38886633898060_1_alg».proof.Proof.RefChain
import proofs.«410194_j38886633898060_1_alg».proof.Proof.RefStep
import proofs.«410194_j38886633898060_1_alg».proof.Proof.Spec

noncomputable section

namespace Cert.ReferenceIdeal.RefFinal

open Cert.ReferenceIdeal Cert.ReferenceIdeal.Gen Cert.ReferenceIdeal.Value Cert.ReferenceIdeal.RefTerm Cert.ReferenceIdeal.RefChain
open Cert.GatedGraph Cert.ReferenceIdeal.RefStep
open Idealize.ShloMosaic Idealize.ShloMosaic.TcCoe Idealize.ShloMosaic.StableHlo

/-- The fifth step from the fourth named state is five steps from the input features. -/
theorem five_eq (V0 : Valuation τ sig (Elt Ideal)) (hr : InRange (V0 (Proc.devRef .tc main_arg7)) (V0 (Proc.devRef .tc main_arg9))) :
    stepR (F := Ideal) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6)) (V0 (Proc.devRef .tc main_arg7)) (V0 (Proc.devRef .tc main_arg8)) (V0 (Proc.devRef .tc main_arg9)) (res_main_v235 V0)
      = fiveSteps (aggR (F := Ideal) (V0 (Proc.devRef .tc main_arg8))) (V0 (Proc.devRef .tc main_arg1)) (V0 (Proc.devRef .tc main_arg2)) (V0 (Proc.devRef .tc main_arg3)) (V0 (Proc.devRef .tc main_arg4)) (V0 (Proc.devRef .tc main_arg5)) (V0 (Proc.devRef .tc main_arg6))
          (srcN (V0 (Proc.devRef .tc main_arg7))) (etN (V0 (Proc.devRef .tc main_arg9))) (V0 (Proc.devRef .tc main_arg0)) := by
  rw [state4, state3, state2, state1]
  simp only [stepR_eq hr]
  rfl

end Cert.ReferenceIdeal.RefFinal

end
-- ==== Proof.PreDecode.lean ====
/-
  The precondition read back as index ranges.

  The precondition is a conjunction, folded from the left, of "every entry is finite" for each of the seven float tables
  and of two range tests on the index words: every source word s has 0 ≤ s < 50000, and every type word t has
  0 ≤ t < 4, each comparison read on signed 32-bit integers, and each "every" a conjunction over all 800000 entries.
  A conjunction that is 1 has every conjunct 1, so both range tests hold at every edge; the float conjuncts are never
  opened.

  A 32-bit word w with 0 ≤ w as a signed integer has its top bit clear: read as a natural number it is below 2 ^ 31, and
  its signed and unsigned readings agree. Against a constant n < 2 ^ 31 the signed test w < n is then the test on
  naturals. So every source word is below 50000 and every type word is below 4 as naturals: this is "InRange".
-/
import proofs.«410194_j38886633898060_1_alg».proof.Defs
import proofs.«410194_j38886633898060_1_alg».proof.Proof.Spec
import Idealize.ShloMosaic.Lib.StableHlo.Predicate
import Idealize.ShloMosaic.Lib.ReduceAll

noncomputable section

namespace Cert.KernelIdeal.PreDecode

open Idealize.ShloMosaic Idealize.SL.Sem Idealize.ShloMosaic.ValueIdx
open Cert.Pre_finite_inputs (S800000 S_ fn fn_part1 fn_part2)

/-- The scalar shape has exactly one index. -/
instance : Subsingleton S_.Idx := ⟨fun _ _ => funext fun d => d.elim0⟩

/-- A word that is non-negative as a signed integer is below 2 ^ 31 as a natural number: were it 2 ^ 31 or more, its signed
    reading would be the natural one less 2 ^ 32, which is negative. -/
theorem toNat_lt_of_sge_zero {w : BitVec 32} (h0 : IntOp.cmpi .sge w 0#32 = 1#1) : w.toNat < 2 ^ 31 := by
  have h := IntOp.cmpi_sge.1 h0
  have hz : (0#32 : BitVec 32).toInt = 0 := by decide
  rw [hz, BitVec.toInt_eq_toNat_cond] at h
  have hlt := w.isLt
  by_cases hc : 2 * w.toNat < 2 ^ 32
  · omega
  · rw [if_neg hc] at h; omega

/-- A word in [0, n) as a signed integer, with n below 2 ^ 31, is below n as a natural number. -/
theorem toNat_lt_of_signed_range {w : BitVec 32} (n : Nat) (hn : n < 2 ^ 31)
    (h0 : IntOp.cmpi .sge w 0#32 = 1#1) (h1 : IntOp.cmpi .slt w (BitVec.ofNat 32 n) = 1#1) : w.toNat < n := by
  have hw : w.toNat < 2 ^ 31 := toNat_lt_of_sge_zero h0
  have hb : (BitVec.ofNat 32 n).toNat = n := by
    rw [BitVec.toNat_ofNat]; exact Nat.mod_eq_of_lt (by omega)
  have hlt := (StableHlo.Predicate.slt_iff_toNat hw (by rw [hb]; exact hn)).1 h1
  rwa [hb] at hlt

/-- One range test. Where "every entry x has 0 ≤ x and x < n, signed" came out 1, every entry is below n as a natural:
    the conjunction over all entries gives the test at each entry, and the two constants read at any entry are 0 and n. -/
theorem all_lt [Cert.Pre_finite_inputs.Facts] (x : IVec S800000 32) (n : Nat) (hn : n < 2 ^ 31) (j : S_.Idx)
    (e : Host.reduce IntOp.andi
          (andi
            (cmpi .sge x (broadcastInDim S800000 ![] Cert.Pre_finite_inputs.Facts.bcast_S_S800000 (constantI S_ 32 0#32)))
            (cmpi .slt x (broadcastInDim S800000 ![] Cert.Pre_finite_inputs.Facts.bcast_S_S800000
              (constantI S_ 32 (BitVec.ofNat 32 n)))))
          (constantI S_ 1 1#1) Cert.Pre_finite_inputs.Facts.reducesTo_S800000_S_d0 Cert.Pre_finite_inputs.Facts.h_S_ j = 1#1)
    (i : S800000.Idx) : (x i).toNat < n := by
  have p := Host.reduce_andi_all _ _ _ _ j e i
  obtain ⟨p0, p1⟩ := IntOp.andi_eq_one.1 p
  have q0 : IntOp.cmpi .sge (x i) 0#32 = 1#1 := p0
  have q1 : IntOp.cmpi .slt (x i) (BitVec.ofNat 32 n) = 1#1 := p1
  exact toNat_lt_of_signed_range n hn q0 q1

/-- The last stretch of the precondition: whatever the conjunction "v" of the earlier tests is, if the whole came out 1
    then the two range tests did, at every entry. -/
theorem words_of_part2 [Cert.Pre_finite_inputs.Facts] {F : FTy → Type} [FloatOps F]
    (a7 a9 : IVec S800000 32) (v : IVec S_ 1) (j : S_.Idx)
    (e : fn_part2 (F := F) a7 a9 v j = 1#1) (i : S800000.Idx) : (a7 i).toNat < 50000 ∧ (a9 i).toNat < 4 := by
  dsimp only [fn_part2] at e
  obtain ⟨e40, e46⟩ := IntOp.andi_eq_one.1 e
  obtain ⟨-, e39⟩ := IntOp.andi_eq_one.1 e40
  exact ⟨all_lt a7 50000 (by norm_num) j e39 i, all_lt a9 4 (by norm_num) j e46 i⟩

/-- THE PRECONDITION DECODED: on every device the source words name nodes and the type words name edge types. -/
theorem inRange_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Cert.GatedGraph.InRange
      (m ((c.tc : Thread Cert.KernelIdeal.nD Cert.KernelIdeal.τ).loc Cert.KernelIdeal.main_arg7))
      (m ((c.tc : Thread Cert.KernelIdeal.nD Cert.KernelIdeal.τ).loc Cert.KernelIdeal.main_arg9)) := by
  unfold Cert.GatedGraph.InRange
  intro e
  have hc := congrFun (h c) ix0
  dsimp only [fn, fn_part1] at hc
  exact words_of_part2 _ _ _ ix0 hc (ix1 e)

end Cert.KernelIdeal.PreDecode

end
-- ==== Proof.lean ====
/-
  The claim: the kernel's program and the reference compute the same five steps of the gated graph update.

  Both programs, run from memories that agree on the arguments, end with the result buffer at five steps of the specification
  from the input features (Proof/Spec.lean): the kernel's by reading its run's boundary contents step by step (the per-node
  region, the row gather at source · 4 + type, the scatter-add, the GRU region), the reference's by reading its composed term
  step by step. The two agree on the messages because every source word names a node and every type word an edge type (the
  precondition), so row source · 4 + type of the flattened per-node table IS entry (source, type) of the reference's table; the
  scatter-add is the same operation on both sides and is never opened. The three frames are the generated ones, and the
  idealization rewrote nothing.
-/
import proofs.«410194_j38886633898060_1_alg».proof.Defs
import proofs.«410194_j38886633898060_1_alg».proof.Proof.Gen.Kernel.Frame
import proofs.«410194_j38886633898060_1_alg».proof.Proof.Gen.KernelIdeal.Frame
import proofs.«410194_j38886633898060_1_alg».proof.Proof.Gen.ReferenceIdeal.Run
import proofs.«410194_j38886633898060_1_alg».proof.Proof.Gen.Pre_finite_inputs
import proofs.«410194_j38886633898060_1_alg».proof.Proof.KRun
import proofs.«410194_j38886633898060_1_alg».proof.Proof.KFinal
import proofs.«410194_j38886633898060_1_alg».proof.Proof.RefFinal
import proofs.«410194_j38886633898060_1_alg».proof.Proof.PreDecode
import Idealize.ShloMosaic.Adequacy
import Idealize.ShloMosaic.Init

noncomputable section

namespace Cert.Proof

open Idealize.ShloMosaic Idealize.SL.Sem Cert.GatedGraph

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- The two scatter-adds are one operation: the same dimension numbers, the same zero table, the same destination column. -/
theorem agg_eq (dst : Words) (u : Mat 800000 64) :
    Cert.ReferenceIdeal.RefTerm.aggR (F := Ideal) dst u = aggK dst u := rfl

theorem algebraic : Cert.algebraic_KernelIdeal_ReferenceIdeal := by
  intro m ρ m' ρ' hpre hagree
  have hr : ∀ c : Dev Cert.KernelIdeal.nD, InRange (m ((c.tc : Thread Cert.KernelIdeal.nD Cert.KernelIdeal.τ).loc Cert.KernelIdeal.main_arg7)) (m ((c.tc : Thread Cert.KernelIdeal.nD Cert.KernelIdeal.τ).loc Cert.KernelIdeal.main_arg9)) := fun c => Cert.KernelIdeal.PreDecode.inRange_of_pre m hpre c
  refine ⟨fun c => fiveSteps (aggK (m ((c.tc : Thread Cert.KernelIdeal.nD Cert.KernelIdeal.τ).loc Cert.KernelIdeal.main_arg8))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))
      (srcN (m ((c.tc : Thread Cert.KernelIdeal.nD Cert.KernelIdeal.τ).loc Cert.KernelIdeal.main_arg7))) (etN (m ((c.tc : Thread Cert.KernelIdeal.nD Cert.KernelIdeal.τ).loc Cert.KernelIdeal.main_arg9))) (m ((c.tc : Thread Cert.KernelIdeal.nD Cert.KernelIdeal.τ).loc Cert.KernelIdeal.main_arg0)), ?_, ?_⟩
  · exact (θ_run Cert.KernelIdeal.defs _ _).mono
      (fun r h c => ⟨(h c).1.trans (Cert.KernelIdeal.KFinal.kfinal m ρ c (hr c)), (h c).2⟩)
      (Cert.KernelIdeal.KRun.run_val (F := Ideal) m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7, e8, e9⟩ := hagree c
    -- the reference's launch contents at each argument are the kernel's
    have a0 : StableHlo.launchContents m' c (Proc.devRef .tc Cert.ReferenceIdeal.main_arg0) = (m ((c.tc : Thread Cert.KernelIdeal.nD Cert.KernelIdeal.τ).loc Cert.KernelIdeal.main_arg0)) := e0
    have a1 : StableHlo.launchContents m' c (Proc.devRef .tc Cert.ReferenceIdeal.main_arg1) = (m ((c.tc : Thread Cert.KernelIdeal.nD Cert.KernelIdeal.τ).loc Cert.KernelIdeal.main_arg1)) := e1
    have a2 : StableHlo.launchContents m' c (Proc.devRef .tc Cert.ReferenceIdeal.main_arg2) = (m ((c.tc : Thread Cert.KernelIdeal.nD Cert.KernelIdeal.τ).loc Cert.KernelIdeal.main_arg2)) := e2
    have a3 : StableHlo.launchContents m' c (Proc.devRef .tc Cert.ReferenceIdeal.main_arg3) = (m ((c.tc : Thread Cert.KernelIdeal.nD Cert.KernelIdeal.τ).loc Cert.KernelIdeal.main_arg3)) := e3
    have a4 : StableHlo.launchContents m' c (Proc.devRef .tc Cert.ReferenceIdeal.main_arg4) = (m ((c.tc : Thread Cert.KernelIdeal.nD Cert.KernelIdeal.τ).loc Cert.KernelIdeal.main_arg4)) := e4
    have a5 : StableHlo.launchContents m' c (Proc.devRef .tc Cert.ReferenceIdeal.main_arg5) = (m ((c.tc : Thread Cert.KernelIdeal.nD Cert.KernelIdeal.τ).loc Cert.KernelIdeal.main_arg5)) := e5
    have a6 : StableHlo.launchContents m' c (Proc.devRef .tc Cert.ReferenceIdeal.main_arg6) = (m ((c.tc : Thread Cert.KernelIdeal.nD Cert.KernelIdeal.τ).loc Cert.KernelIdeal.main_arg6)) := e6
    have a7 : StableHlo.launchContents m' c (Proc.devRef .tc Cert.ReferenceIdeal.main_arg7) = (m ((c.tc : Thread Cert.KernelIdeal.nD Cert.KernelIdeal.τ).loc Cert.KernelIdeal.main_arg7)) := e7
    have a8 : StableHlo.launchContents m' c (Proc.devRef .tc Cert.ReferenceIdeal.main_arg8) = (m ((c.tc : Thread Cert.KernelIdeal.nD Cert.KernelIdeal.τ).loc Cert.KernelIdeal.main_arg8)) := e8
    have a9 : StableHlo.launchContents m' c (Proc.devRef .tc Cert.ReferenceIdeal.main_arg9) = (m ((c.tc : Thread Cert.KernelIdeal.nD Cert.KernelIdeal.τ).loc Cert.KernelIdeal.main_arg9)) := e9
    have hr' : InRange (StableHlo.launchContents m' c (Proc.devRef .tc Cert.ReferenceIdeal.main_arg7)) (StableHlo.launchContents m' c (Proc.devRef .tc Cert.ReferenceIdeal.main_arg9)) := by
      rw [a7, a9]; exact hr c
    refine ((h c).1.trans (Cert.ReferenceIdeal.RefChain.state5 (F := Ideal) (StableHlo.launchContents m' c))).trans
      ((Cert.ReferenceIdeal.RefFinal.five_eq (StableHlo.launchContents m' c) hr').trans ?_)
    rw [a0, a1, a2, a3, a4, a5, a6, a7, a8, a9]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
